-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v73)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v73) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x512x768 : Shape := ⟨3, ![256, 512, 768]⟩
abbrev S256x32 : Shape := ⟨2, ![256, 32]⟩
abbrev S768x3072 : Shape := ⟨2, ![768, 3072]⟩
abbrev S768 : Shape := ⟨1, ![768]⟩
abbrev S1x768 : Shape := ⟨2, ![1, 768]⟩
abbrev S1 : Shape := ⟨1, ![1]⟩
abbrev S_ : Shape := ⟨0, ![]⟩

class Facts : Prop where
  bcast_S_S256x512x768 : S_.BroadcastsInDim S256x512x768 (![] : Fin 0 → Fin S256x512x768.rank)
  reducesTo_S256x512x768_S_d0_1_2 : S256x512x768.ReducesTo [0, 1, 2] S_
  h_S_ : 0 < S_.numel
  bcast_S_S768x3072 : S_.BroadcastsInDim S768x3072 (![] : Fin 0 → Fin S768x3072.rank)
  reducesTo_S768x3072_S_d0_1 : S768x3072.ReducesTo [0, 1] S_
  bcast_S_S768 : S_.BroadcastsInDim S768 (![] : Fin 0 → Fin S768.rank)
  reducesTo_S768_S_d0 : S768.ReducesTo [0] S_
  bcast_S_S1x768 : S_.BroadcastsInDim S1x768 (![] : Fin 0 → Fin S1x768.rank)
  reducesTo_S1x768_S_d0_1 : S1x768.ReducesTo [0, 1] S_
  bcast_S_S1 : S_.BroadcastsInDim S1 (![] : Fin 0 → Fin S1.rank)
  reducesTo_S1_S_d0 : S1.ReducesTo [0] S_
  bcast_S_S256x32 : S_.BroadcastsInDim S256x32 (![] : Fin 0 → Fin S256x32.rank)
  reducesTo_S256x32_S_d0_1 : S256x32.ReducesTo [0, 1] S_

variable [Facts]

def fn_part2 {F : FTy → Type} [FloatOps F] (main_arg2 : IVec S256x32 32) (main_arg8 : FVec F S768 .f32) (main_v33 : IVec S_ 1) : IVec S_ 1 :=
  let main_v34 : FVec F S768 .f32 := Host.absf main_arg8
  let main_cst_12 : FVec F S_ .f32 := constant S_ .f32 0x7F800000#32
  let main_v35 : FVec F S768 .f32 := broadcastInDim S768 ![] bcast_S_S768 main_cst_12
  let main_v36 : IVec S768 1 := cmpf .olt main_v34 main_v35
  let main_c_13 : IVec S_ 1 := constantI S_ 1 1#1
  let main_v37 : IVec S_ 1 := (fun x v => Host.reduce IntOp.andi x v reducesTo_S768_S_d0 h_S_) main_v36 main_c_13
  let main_v38 : IVec S_ 1 := andi main_v33 main_v37
  let main_c_14 : IVec S_ 32 := constantI S_ 32 4294966784#32
  let main_v39 : IVec S256x32 32 := broadcastInDim S256x32 ![] bcast_S_S256x32 main_c_14
  let main_v40 : IVec S256x32 1 := cmpi .sge main_arg2 main_v39
  let main_c_15 : IVec S_ 32 := constantI S_ 32 512#32
  let main_v41 : IVec S256x32 32 := broadcastInDim S256x32 ![] bcast_S_S256x32 main_c_15
  let main_v42 : IVec S256x32 1 := cmpi .slt main_arg2 main_v41
  let main_v43 : IVec S256x32 1 := andi main_v40 main_v42
  let main_c_16 : IVec S_ 1 := constantI S_ 1 1#1
  let main_v44 : IVec S_ 1 := (fun x v => Host.reduce IntOp.andi x v reducesTo_S256x32_S_d0_1 h_S_) main_v43 main_c_16
  let main_v45 : IVec S_ 1 := andi main_v38 main_v44
  main_v45

def fn_part1 {F : FTy → Type} [FloatOps F] (main_arg2 : IVec S256x32 32) (main_arg5 : FVec F S1x768 .f32) (main_arg6 : FVec F S1 .f32) (main_arg7 : FVec F S768 .f32) (main_arg8 : FVec F S768 .f32) (main_v13 : IVec S_ 1) (main_v16 : IVec S768 1) : IVec S_ 1 :=
  let main_c_5 : IVec S_ 1 := constantI S_ 1 1#1
  let main_v17 : IVec S_ 1 := (fun x v => Host.reduce IntOp.andi x v reducesTo_S768_S_d0 h_S_) main_v16 main_c_5
  let main_v18 : IVec S_ 1 := andi main_v13 main_v17
  let main_v19 : FVec F S1x768 .f32 := Host.absf main_arg5
  let main_cst_6 : FVec F S_ .f32 := constant S_ .f32 0x7F800000#32
  let main_v20 : FVec F S1x768 .f32 := broadcastInDim S1x768 ![] bcast_S_S1x768 main_cst_6
  let main_v21 : IVec S1x768 1 := cmpf .olt main_v19 main_v20
  let main_c_7 : IVec S_ 1 := constantI S_ 1 1#1
  let main_v22 : IVec S_ 1 := (fun x v => Host.reduce IntOp.andi x v reducesTo_S1x768_S_d0_1 h_S_) main_v21 main_c_7
  let main_v23 : IVec S_ 1 := andi main_v18 main_v22
  let main_v24 : FVec F S1 .f32 := Host.absf main_arg6
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  let main_v29 : FVec F S768 .f32 := Host.absf main_arg7
  let main_cst_10 : FVec F S_ .f32 := constant S_ .f32 0x7F800000#32
  let main_v30 : FVec F S768 .f32 := broadcastInDim S768 ![] bcast_S_S768 main_cst_10
  let main_v31 : IVec S768 1 := cmpf .olt main_v29 main_v30
  let main_c_11 : IVec S_ 1 := constantI S_ 1 1#1
  let main_v32 : IVec S_ 1 := (fun x v => Host.reduce IntOp.andi x v reducesTo_S768_S_d0 h_S_) main_v31 main_c_11
  let main_v33 : IVec S_ 1 := andi main_v28 main_v32
  fn_part2 (F := F) main_arg2 main_arg8 main_v33

def fn {F : FTy → Type} [FloatOps F] (main_arg0 : FVec F S256x512x768 .f32) (main_arg1 : FVec F S256x512x768 .f32) (main_arg2 : IVec S256x32 32) (main_arg3 : FVec F S768x3072 .f32) (main_arg4 : FVec F S768 .f32) (main_arg5 : FVec F S1x768 .f32) (main_arg6 : FVec F S1 .f32) (main_arg7 : FVec F S768 .f32) (main_arg8 : FVec F S768 .f32) : IVec S_ 1 :=
  let main_v0 : FVec F S256x512x768 .f32 := Host.absf main_arg0
  let main_cst : FVec F S_ .f32 := constant S_ .f32 0x7F800000#32
  let main_v1 : FVec F S256x512x768 .f32 := broadcastInDim S256x512x768 ![] bcast_S_S256x512x768 main_cst
  let main_v2 : IVec S256x512x768 1 := cmpf .olt main_v0 main_v1
  let main_c : IVec S_ 1 := constantI S_ 1 1#1
  let main_v3 : IVec S_ 1 := (fun x v => Host.reduce IntOp.andi x v reducesTo_S256x512x768_S_d0_1_2 h_S_) main_v2 main_c
  let main_v4 : FVec F S256x512x768 .f32 := Host.absf main_arg1
  let main_cst_0 : FVec F S_ .f32 := constant S_ .f32 0x7F800000#32
  let main_v5 : FVec F S256x512x768 .f32 := broadcastInDim S256x512x768 ![] bcast_S_S256x512x768 main_cst_0
  let main_v6 : IVec S256x512x768 1 := cmpf .olt main_v4 main_v5
  let main_c_1 : IVec S_ 1 := constantI S_ 1 1#1
  let main_v7 : IVec S_ 1 := (fun x v => Host.reduce IntOp.andi x v reducesTo_S256x512x768_S_d0_1_2 h_S_) main_v6 main_c_1
  let main_v8 : IVec S_ 1 := andi main_v3 main_v7
  let main_v9 : FVec F S768x3072 .f32 := Host.absf main_arg3
  let main_cst_2 : FVec F S_ .f32 := constant S_ .f32 0x7F800000#32
  let main_v10 : FVec F S768x3072 .f32 := broadcastInDim S768x3072 ![] bcast_S_S768x3072 main_cst_2
  let main_v11 : IVec S768x3072 1 := cmpf .olt main_v9 main_v10
  let main_c_3 : IVec S_ 1 := constantI S_ 1 1#1
  let main_v12 : IVec S_ 1 := (fun x v => Host.reduce IntOp.andi x v reducesTo_S768x3072_S_d0_1 h_S_) main_v11 main_c_3
  let main_v13 : IVec S_ 1 := andi main_v8 main_v12
  let main_v14 : FVec F S768 .f32 := Host.absf main_arg4
  let main_cst_4 : FVec F S_ .f32 := constant S_ .f32 0x7F800000#32
  let main_v15 : FVec F S768 .f32 := broadcastInDim S768 ![] bcast_S_S768 main_cst_4
  let main_v16 : IVec S768 1 := cmpf .olt main_v14 main_v15
  fn_part1 (F := F) main_arg2 main_arg5 main_arg6 main_arg7 main_arg8 main_v13 main_v16
-- ==== Kernel.lean ====
abbrev S256x512x768 : Shape := ⟨3, ![256, 512, 768]⟩
abbrev S256x32 : Shape := ⟨2, ![256, 32]⟩
abbrev S768x3072 : Shape := ⟨2, ![768, 3072]⟩
abbrev S768 : Shape := ⟨1, ![768]⟩
abbrev S1x768 : Shape := ⟨2, ![1, 768]⟩
abbrev S1 : Shape := ⟨1, ![1]⟩
abbrev S_ : Shape := ⟨0, ![]⟩
abbrev S256 : Shape := ⟨1, ![256]⟩
abbrev S256x1 : Shape := ⟨2, ![256, 1]⟩
abbrev S256x512 : Shape := ⟨2, ![256, 512]⟩
abbrev S256x32x1 : Shape := ⟨3, ![256, 32, 1]⟩
abbrev S256x32x2 : Shape := ⟨3, ![256, 32, 2]⟩
abbrev S256x768 : Shape := ⟨2, ![256, 768]⟩
abbrev S16x128 : Shape := ⟨2, ![16, 128]⟩
abbrev S16x128x768 : Shape := ⟨3, ![16, 128, 768]⟩
abbrev S16x768 : Shape := ⟨2, ![16, 768]⟩
abbrev S16x1x768 : Shape := ⟨3, ![16, 1, 768]⟩
abbrev S16x128x1 : Shape := ⟨3, ![16, 128, 1]⟩
abbrev S256x3072 : Shape := ⟨2, ![256, 3072]⟩
abbrev S3072x768 : Shape := ⟨2, ![3072, 768]⟩
abbrev S768x1 : Shape := ⟨2, ![768, 1]⟩
abbrev S1x1 : Shape := ⟨2, ![1, 1]⟩

abbrev nBuf : Space → Nat
  | .hbm => 106
  | .vmem => 14
  | .smem => 0
  | _ => 0

abbrev bufTy : (tb : Table) → Fin (tcTables nBuf tb) → BufTy
  | .hbm, ⟨0, _⟩ => ⟨S256x512x768, .f32⟩
  | .hbm, ⟨1, _⟩ => ⟨S256x512x768, .f32⟩
  | .hbm, ⟨2, _⟩ => ⟨S256x32, .i32⟩
  | .hbm, ⟨3, _⟩ => ⟨S768x3072, .f32⟩
  | .hbm, ⟨4, _⟩ => ⟨S768, .f32⟩
  | .hbm, ⟨5, _⟩ => ⟨S1x768, .f32⟩
  | .hbm, ⟨6, _⟩ => ⟨S1, .f32⟩
  | .hbm, ⟨7, _⟩ => ⟨S768, .f32⟩
  | .hbm, ⟨8, _⟩ => ⟨S768, .f32⟩
  | .hbm, ⟨9, _⟩ => ⟨S_, .i32⟩
  | .hbm, ⟨10, _⟩ => ⟨S256x32, .i32⟩
  | .hbm, ⟨11, _⟩ => ⟨S256x32, .i1⟩
  | .hbm, ⟨12, _⟩ => ⟨S_, .i32⟩
  | .hbm, ⟨13, _⟩ => ⟨S_, .i32⟩
  | .hbm, ⟨14, _⟩ => ⟨S256x32, .i32⟩
  | .hbm, ⟨15, _⟩ => ⟨S256x32, .i32⟩
  | .hbm, ⟨16, _⟩ => ⟨S256x32, .f32⟩
  | .hbm, ⟨17, _⟩ => ⟨S_, .f32⟩
  | .hbm, ⟨18, _⟩ => ⟨S256, .f32⟩
  | .hbm, ⟨19, _⟩ => ⟨S256x1, .f32⟩
  | .hbm, ⟨20, _⟩ => ⟨S_, .f32⟩
  | .hbm, ⟨21, _⟩ => ⟨S256x1, .f32⟩
  | .hbm, ⟨22, _⟩ => ⟨S256x1, .f32⟩
  | .hbm, ⟨23, _⟩ => ⟨S256, .i32⟩
  | .hbm, ⟨24, _⟩ => ⟨S256x1, .i32⟩
  | .hbm, ⟨25, _⟩ => ⟨S256x32, .i32⟩
  | .hbm, ⟨26, _⟩ => ⟨S_, .f32⟩
  | .hbm, ⟨27, _⟩ => ⟨S256x512, .f32⟩
  | .hbm, ⟨28, _⟩ => ⟨S_, .i32⟩
  | .hbm, ⟨29, _⟩ => ⟨S256x32, .i32⟩
  | .hbm, ⟨30, _⟩ => ⟨S256x32, .i1⟩
  | .hbm, ⟨31, _⟩ => ⟨S_, .i32⟩
  | .hbm, ⟨32, _⟩ => ⟨S256x32, .i32⟩
  | .hbm, ⟨33, _⟩ => ⟨S256x32, .i32⟩
  | .hbm, ⟨34, _⟩ => ⟨S256x32, .i32⟩
  | .hbm, ⟨35, _⟩ => ⟨S_, .i32⟩
  | .hbm, ⟨36, _⟩ => ⟨S256x32, .i32⟩
  | .hbm, ⟨37, _⟩ => ⟨S256x32, .i1⟩
  | .hbm, ⟨38, _⟩ => ⟨S_, .i32⟩
  | .hbm, ⟨39, _⟩ => ⟨S256x32, .i32⟩
  | .hbm, ⟨40, _⟩ => ⟨S256x32, .i32⟩
  | .hbm, ⟨41, _⟩ => ⟨S256x32, .i32⟩
  | .hbm, ⟨42, _⟩ => ⟨S256x32x1, .i32⟩
  | .hbm, ⟨43, _⟩ => ⟨S256x32x1, .i32⟩
  | .hbm, ⟨44, _⟩ => ⟨S256x32x2, .i32⟩
  | .hbm, ⟨45, _⟩ => ⟨S256x512, .f32⟩
  | .hbm, ⟨46, _⟩ => ⟨S256x512, .f32⟩
  | .hbm, ⟨47, _⟩ => ⟨S256x512, .f32⟩
  | .hbm, ⟨48, _⟩ => ⟨S256x768, .f32⟩
  | .hbm, ⟨49, _⟩ => ⟨S256x768, .f32⟩
  | .hbm, ⟨50, _⟩ => ⟨S256x768, .f32⟩
  | .hbm, ⟨51, _⟩ => ⟨S256x768, .f32⟩
  | .hbm, ⟨52, _⟩ => ⟨S256x3072, .f32⟩
  | .hbm, ⟨53, _⟩ => ⟨S256x3072, .f32⟩
  | .hbm, ⟨54, _⟩ => ⟨S_, .f32⟩
  | .hbm, ⟨55, _⟩ => ⟨S256, .f32⟩
  | .hbm, ⟨56, _⟩ => ⟨S256x1, .f32⟩
  | .hbm, ⟨57, _⟩ => ⟨S256x1, .f32⟩
  | .hbm, ⟨58, _⟩ => ⟨S_, .f32⟩
  | .hbm, ⟨59, _⟩ => ⟨S256x1, .f32⟩
  | .hbm, ⟨60, _⟩ => ⟨S256x1, .f32⟩
  | .hbm, ⟨61, _⟩ => ⟨S256x3072, .f32⟩
  | .hbm, ⟨62, _⟩ => ⟨S256x3072, .f32⟩
  | .hbm, ⟨63, _⟩ => ⟨S3072x768, .f32⟩
  | .hbm, ⟨64, _⟩ => ⟨S256x768, .f32⟩
  | .hbm, ⟨65, _⟩ => ⟨S1x768, .f32⟩
  | .hbm, ⟨66, _⟩ => ⟨S256x768, .f32⟩
  | .hbm, ⟨67, _⟩ => ⟨S256x768, .f32⟩
  | .hbm, ⟨68, _⟩ => ⟨S_, .f32⟩
  | .hbm, ⟨69, _⟩ => ⟨S768, .f32⟩
  | .hbm, ⟨70, _⟩ => ⟨S_, .f32⟩
  | .hbm, ⟨71, _⟩ => ⟨S768, .f32⟩
  | .hbm, ⟨72, _⟩ => ⟨S768, .f32⟩
  | .hbm, ⟨73, _⟩ => ⟨S1x768, .f32⟩
  | .hbm, ⟨74, _⟩ => ⟨S256x768, .f32⟩
  | .hbm, ⟨75, _⟩ => ⟨S256x768, .f32⟩
  | .hbm, ⟨76, _⟩ => ⟨S256x768, .f32⟩
  | .hbm, ⟨77, _⟩ => ⟨S_, .f32⟩
  | .hbm, ⟨78, _⟩ => ⟨S768, .f32⟩
  | .hbm, ⟨79, _⟩ => ⟨S_, .f32⟩
  | .hbm, ⟨80, _⟩ => ⟨S768, .f32⟩
  | .hbm, ⟨81, _⟩ => ⟨S768, .f32⟩
  | .hbm, ⟨82, _⟩ => ⟨S1x768, .f32⟩
  | .hbm, ⟨83, _⟩ => ⟨S256x768, .f32⟩
  | .hbm, ⟨84, _⟩ => ⟨S256x768, .f32⟩
  | .hbm, ⟨85, _⟩ => ⟨S_, .f32⟩
  | .hbm, ⟨86, _⟩ => ⟨S768, .f32⟩
  | .hbm, ⟨87, _⟩ => ⟨S768, .f32⟩
  | .hbm, ⟨88, _⟩ => ⟨S768, .f32⟩
  | .hbm, ⟨89, _⟩ => ⟨S1x768, .f32⟩
  | .hbm, ⟨90, _⟩ => ⟨S256x768, .f32⟩
  | .hbm, ⟨91, _⟩ => ⟨S256x768, .f32⟩
  | .hbm, ⟨92, _⟩ => ⟨S1x768, .f32⟩
  | .hbm, ⟨93, _⟩ => ⟨S256x768, .f32⟩
  | .hbm, ⟨94, _⟩ => ⟨S256x768, .f32⟩
  | .hbm, ⟨95, _⟩ => ⟨S1x768, .f32⟩
  | .hbm, ⟨96, _⟩ => ⟨S256x768, .f32⟩
  | .hbm, ⟨97, _⟩ => ⟨S256x768, .f32⟩
  | .hbm, ⟨98, _⟩ => ⟨S_, .f32⟩
  | .hbm, ⟨99, _⟩ => ⟨S256x768, .f32⟩
  | .hbm, ⟨100, _⟩ => ⟨S256x768, .f32⟩
  | .hbm, ⟨101, _⟩ => ⟨S768x1, .f32⟩
  | .hbm, ⟨102, _⟩ => ⟨S256x1, .f32⟩
  | .hbm, ⟨103, _⟩ => ⟨S1x1, .f32⟩
  | .hbm, ⟨104, _⟩ => ⟨S256x1, .f32⟩
  | .hbm, ⟨105, _⟩ => ⟨S256x1, .f32⟩
  | .local _ .vmem, ⟨0, _⟩ => ⟨S16x128, .f32⟩
  | .local _ .vmem, ⟨1, _⟩ => ⟨S16x128, .f32⟩
  | .local _ .vmem, ⟨2, _⟩ => ⟨S16x128x768, .f32⟩
  | .local _ .vmem, ⟨3, _⟩ => ⟨S16x128x768, .f32⟩
  | .local _ .vmem, ⟨4, _⟩ => ⟨S16x128x768, .f32⟩
  | .local _ .vmem, ⟨5, _⟩ => ⟨S16x128x768, .f32⟩
  | .local _ .vmem, ⟨6, _⟩ => ⟨S16x768, .f32⟩
  | .local _ .vmem, ⟨7, _⟩ => ⟨S16x768, .f32⟩
  | .local _ .vmem, ⟨8, _⟩ => ⟨S16x768, .f32⟩
  | .local _ .vmem, ⟨9, _⟩ => ⟨S16x768, .f32⟩
  | .local _ .vmem, ⟨10, _⟩ => ⟨S16x768, .f32⟩
  | .local _ .vmem, ⟨11, _⟩ => ⟨S16x768, .f32⟩
  | .local _ .vmem, ⟨12, _⟩ => ⟨S16x768, .f32⟩
  | .local _ .vmem, ⟨13, _⟩ => ⟨S16x768, .f32⟩
  | _, _ => ⟨S256x512x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_call0_v0 : Ref sig .tc := ⟨.hbm, 13, rfl⟩
abbrev main_call0_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_v5 : Ref sig .tc := ⟨.hbm, 19, rfl⟩
abbrev main_cst_1 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_2 : Ref sig .tc := ⟨.hbm, 26, rfl⟩
abbrev main_v11 : Ref sig .tc := ⟨.hbm, 27, rfl⟩
abbrev main_c_3 : Ref sig .tc := ⟨.hbm, 28, rfl⟩
abbrev main_v12 : Ref sig .tc := ⟨.hbm, 29, rfl⟩
abbrev main_v13 : Ref sig .tc := ⟨.hbm, 30, rfl⟩
abbrev main_c_4 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_c_5 : Ref sig .tc := ⟨.hbm, 35, rfl⟩
abbrev main_v17 : Ref sig .tc := ⟨.hbm, 36, rfl⟩
abbrev main_v18 : Ref sig .tc := ⟨.hbm, 37, rfl⟩
abbrev main_c_6 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28_0 : Ref sig .tc := ⟨.hbm, 48, rfl⟩
abbrev main_v28_1 : Ref sig .tc := ⟨.hbm, 49, rfl⟩
abbrev main_v28_2 : Ref sig .tc := ⟨.hbm, 50, rfl⟩
abbrev main_v28_3 : Ref sig .tc := ⟨.hbm, 51, rfl⟩
abbrev main_v29 : Ref sig .tc := ⟨.hbm, 52, rfl⟩
abbrev main_v30 : Ref sig .tc := ⟨.hbm, 53, rfl⟩
abbrev main_cst_7 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_cst_8 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_cst_9 : Ref sig .tc := ⟨.hbm, 68, rfl⟩
abbrev main_v43 : Ref sig .tc := ⟨.hbm, 69, rfl⟩
abbrev main_cst_10 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_cst_11 : Ref sig .tc := ⟨.hbm, 77, rfl⟩
abbrev main_v50 : Ref sig .tc := ⟨.hbm, 78, rfl⟩
abbrev main_cst_12 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_cst_13 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_call2_cst : Ref sig .tc := ⟨.hbm, 98, rfl⟩
abbrev main_call2_v0 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![16, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S16x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x128x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S16x128x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S16x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S16x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S16x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S16x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

class Facts₀ : Prop where
  bcast_S_S256x32 : S_.BroadcastsInDim S256x32 (![] : Fin 0 → Fin S256x32.rank)
  reducesTo_S256x32_S256_d1 : S256x32.ReducesTo [1] S256
  h_S_ : 0 < S_.numel
  bcast_S256_S256x1_0 : S256.BroadcastsInDim S256x1 (![0] : Fin 1 → Fin S256x1.rank)
  bcast_S_S256x1 : S_.BroadcastsInDim S256x1 (![] : Fin 0 → Fin S256x1.rank)
  bcast_S256x1_S256x32_0_1 : S256x1.BroadcastsInDim S256x32 (![0, 1] : Fin 2 → Fin S256x32.rank)
  bcast_S_S256x512 : S_.BroadcastsInDim S256x512 (![] : Fin 0 → Fin S256x512.rank)
  bcast_S256x32_S256x32x1_0_1 : S256x32.BroadcastsInDim S256x32x1 (![0, 1] : Fin 2 → Fin S256x32x1.rank)
  concatenates_S256x32x1_S256x32x1_S256x32x2_d2 : Shape.Concatenates [S256x32x1, S256x32x1] S256x32x2 2
  bcast_S256x1_S256x512_0_1 : S256x1.BroadcastsInDim S256x512 (![0, 1] : Fin 2 → Fin S256x512.rank)
  inb_S16x768_S16x768_0_0 : ∀ a, (![0, 0] : Fin 2 → Nat) a + S16x768.size a ≤ S16x768.size a
  h_S16x768 : 0 < S16x768.numel
  inb_S16x128x768_S16x1x768_0_0_0 : ∀ a, (![0, 0, 0] : Fin 3 → Nat) a + S16x1x768.size a ≤ S16x128x768.size a
  h_S16x1x768 : 0 < S16x1x768.numel
  shapeCasts_S16x1x768_S16x768 : S16x1x768.ShapeCasts S16x768
  inb_S16x128_S16x128_0_0 : ∀ a, (![0, 0] : Fin 2 → Nat) a + S16x128.size a ≤ S16x128.size a
  h_S16x128 : 0 < S16x128.numel
  shapeCasts_S16x128_S16x128 : S16x128.ShapeCasts S16x128
  shapeCasts_S16x128_S16x128x1 : S16x128.ShapeCasts S16x128x1
  shapeCasts_S16x768_S16x768 : S16x768.ShapeCasts S16x768
  inb_S16x128x768_S16x128x768_0_0_0 : ∀ a, (![0, 0, 0] : Fin 3 → Nat) a + S16x128x768.size a ≤ S16x128x768.size a
  h_S16x128x768 : 0 < S16x128x768.numel
  broadcasts_S16x128x1_S16x128x768 : S16x128x1.Broadcasts S16x128x768
  reduces_S16x128x768_S16x768 : S16x128x768.Reduces [1] S16x768
  concatenates_S256x768_S256x768_S256x768_S256x768_S256x3072_d1 : Shape.Concatenates [S256x768, S256x768, S256x768, S256x768] S256x3072 1
  reducesTo_S256x3072_S256_d1 : S256x3072.ReducesTo [1] S256
  bcast_S256x1_S256x3072_0_1 : S256x1.BroadcastsInDim S256x3072 (![0, 1] : Fin 2 → Fin S256x3072.rank)
  transposes_S768x3072_S3072x768_1_0 : S768x3072.Transposes [1, 0] S3072x768
  bcast_S768_S1x768_1 : S768.BroadcastsInDim S1x768 (![1] : Fin 1 → Fin S1x768.rank)
  bcast_S1x768_S256x768_0_1 : S1x768.BroadcastsInDim S256x768 (![0, 1] : Fin 2 → Fin S256x768.rank)
  reducesTo_S256x768_S768_d0 : S256x768.ReducesTo [0] S768
  bcast_S_S768 : S_.BroadcastsInDim S768 (![] : Fin 0 → Fin S768.rank)
  bcast_S_S256x768 : S_.BroadcastsInDim S256x768 (![] : Fin 0 → Fin S256x768.rank)
  transposes_S1x768_S768x1_1_0 : S1x768.Transposes [1, 0] S768x1
  bcast_S1_S1x1_1 : S1.BroadcastsInDim S1x1 (![1] : Fin 1 → Fin S1x1.rank)
  bcast_S1x1_S256x1_0_1 : S1x1.BroadcastsInDim S256x1 (![0, 1] : Fin 2 → Fin S256x1.rank)
  scatter_S256x512_S256x32x2_S256x32_n_01_01_2_wf : ScatterDims.WF S256x512 S256x32x2 S256x32 [] [0, 1] [0, 1] 2
  dot_S256x3072_S3072x768_S256x768_1_0_0_1_n_n_wf : DotDims.WF S256x3072 S3072x768 S256x768 [1] [0] [0] [1] [] []
  dot_S256x768_S768x1_S256x1_1_0_0_1_n_n_wf : DotDims.WF S256x768 S768x1 S256x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x128.size a ≤ S256x512.size a
  hwx0_0 : ∀ i : grid0.Coords, EltTy.bits .f32 = 32 ∨ (Rect.block (s := S256x512) S16x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x128x768.size a ≤ S256x512x768.size a
  hwx0_1 : ∀ i : grid0.Coords, EltTy.bits .f32 = 32 ∨ (Rect.block (s := S256x512x768) S16x128x768.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x128x768.size a ≤ S256x512x768.size a
  hwx0_2 : ∀ i : grid0.Coords, EltTy.bits .f32 = 32 ∨ (Rect.block (s := S256x512x768) S16x128x768.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16x768.size a ≤ S256x768.size a
  hwx0_3 : ∀ i : grid0.Coords, EltTy.bits .f32 = 32 ∨ (Rect.block (s := S256x768) S16x768.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S16x768.size a ≤ S256x768.size a
  hwx0_4 : ∀ i : grid0.Coords, EltTy.bits .f32 = 32 ∨ (Rect.block (s := S256x768) S16x768.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S16x768.size a ≤ S256x768.size a
  hwx0_5 : ∀ i : grid0.Coords, EltTy.bits .f32 = 32 ∨ (Rect.block (s := S256x768) S16x768.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S16x768.size a ≤ S256x768.size a
  hwx0_6 : ∀ i : grid0.Coords, EltTy.bits .f32 = 32 ∨ (Rect.block (s := S256x768) S16x768.size (cc0_transform_6 i) (hinb0_6 i)).WholeWords (EltTy.packing .f32)

variable [Facts₀]

def scatter_S256x512_S256x32x2_S256x32_n_01_01_2 : ScatterDims S256x512 S256x32x2 S256x32 where
  updateWindowDims := []
  insertedWindowDims := [0, 1]
  scatterDimsToOperandDims := [0, 1]
  indexVectorDim := 2
  wf := scatter_S256x512_S256x32x2_S256x32_n_01_01_2_wf
def dot_S256x3072_S3072x768_S256x768_1_0_0_1_n_n : DotDims S256x3072 S3072x768 S256x768 where
  lhsContracting := [1]
  rhsContracting := [0]
  lhsNonContracting := [0]
  rhsNonContracting := [1]
  lhsBatch := []
  rhsBatch := []
  wf := dot_S256x3072_S3072x768_S256x768_1_0_0_1_n_n_wf
def dot_S256x768_S768x1_S256x1_1_0_0_1_n_n : DotDims S256x768 S768x1 S256x1 where
  lhsContracting := [1]
  rhsContracting := [0]
  lhsNonContracting := [0]
  rhsNonContracting := [1]
  lhsBatch := []
  rhsBatch := []
  wf := dot_S256x768_S768x1_S256x1_1_0_0_1_n_n_wf

abbrev win0_0 : Pipeline.Window sig grid0 :=
  Pipeline.Window.ofSpec (Memref.whole main_v27) S16x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S16x128x768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S16x128x768.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v28_0) S16x768.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v28_1) S16x768.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v28_2) S16x768.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v28_3) S16x768.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun i => !(k0_cond1 i == 1#1) | 6 => fun i => !(k0_cond1 i == 1#1) | ⟨_ + 7, h⟩ => absurd h (Nat.not_lt.2 (Nat.le_add_left _ _))

class Facts : Prop extends Facts₀ where

variable [Facts]
-- ==== ReferenceIdeal.lean ====
abbrev S256x512x768 : Shape := ⟨3, ![256, 512, 768]⟩
abbrev S256x32 : Shape := ⟨2, ![256, 32]⟩
abbrev S768x3072 : Shape := ⟨2, ![768, 3072]⟩
abbrev S768 : Shape := ⟨1, ![768]⟩
abbrev S1x768 : Shape := ⟨2, ![1, 768]⟩
abbrev S1 : Shape := ⟨1, ![1]⟩
abbrev S256x1x768 : Shape := ⟨3, ![256, 1, 768]⟩
abbrev S256x768 : Shape := ⟨2, ![256, 768]⟩
abbrev S_ : Shape := ⟨0, ![]⟩
abbrev S256x32x1 : Shape := ⟨3, ![256, 32, 1]⟩
abbrev S1x1x1 : Shape := ⟨3, ![1, 1, 1]⟩
abbrev S256x32x768 : Shape := ⟨3, ![256, 32, 768]⟩
abbrev S256x1 : Shape := ⟨2, ![256, 1]⟩
abbrev S256x3072 : Shape := ⟨2, ![256, 3072]⟩
abbrev S256 : Shape := ⟨1, ![256]⟩
abbrev S3072x768 : Shape := ⟨2, ![3072, 768]⟩
abbrev S768x1 : Shape := ⟨2, ![768, 1]⟩
abbrev S1x1 : Shape := ⟨2, ![1, 1]⟩

abbrev nBuf : Space → Nat
  | .hbm => 153
  | .vmem => 0
  | .smem => 0
  | _ => 0

abbrev hbmTy0_0 (i : Nat) : BufTy := match i % 128 with
  | 0 => ⟨S256x512x768, .f32⟩
  | 1 => ⟨S256x512x768, .f32⟩
  | 2 => ⟨S256x32, .i32⟩
  | 3 => ⟨S768x3072, .f32⟩
  | 4 => ⟨S768, .f32⟩
  | 5 => ⟨S1x768, .f32⟩
  | 6 => ⟨S1, .f32⟩
  | 7 => ⟨S768, .f32⟩
  | 8 => ⟨S768, .f32⟩
  | 9 => ⟨S256x1x768, .f32⟩
  | 10 => ⟨S256x768, .f32⟩
  | 11 => ⟨S256x1x768, .f32⟩
  | 12 => ⟨S256x768, .f32⟩
  | 13 => ⟨S_, .i32⟩
  | 14 => ⟨S256x32, .i32⟩
  | 15 => ⟨S256x32, .i1⟩
  | 16 => ⟨S_, .i32⟩
  | 17 => ⟨S_, .i32⟩
  | 18 => ⟨S256x32, .i32⟩
  | 19 => ⟨S256x32, .i32⟩
  | 20 => ⟨S256x32x1, .i32⟩
  | 21 => ⟨S_, .i32⟩
  | 22 => ⟨S256x32x1, .i32⟩
  | 23 => ⟨S256x32x1, .i1⟩
  | 24 => ⟨S_, .i32⟩
  | 25 => ⟨S256x32x1, .i32⟩
  | 26 => ⟨S256x32x1, .i32⟩
  | 27 => ⟨S256x32x1, .i32⟩
  | 28 => ⟨S1, .i32⟩
  | 29 => ⟨S_, .i32⟩
  | 30 => ⟨S256x32x1, .i32⟩
  | 31 => ⟨S256x32x1, .i1⟩
  | 32 => ⟨S1x1x1, .i32⟩
  | 33 => ⟨S256x32x1, .i32⟩
  | 34 => ⟨S256x32x1, .i1⟩
  | 35 => ⟨S256x32x1, .i1⟩
  | 36 => ⟨S_, .i1⟩
  | 37 => ⟨S256x32, .i1⟩
  | 38 => ⟨S256x32x768, .f32⟩
  | 39 => ⟨S256x32x768, .i1⟩
  | 40 => ⟨S_, .f32⟩
  | 41 => ⟨S256x32x768, .f32⟩
  | 42 => ⟨S256x32x768, .f32⟩
  | 43 => ⟨S256x32, .f32⟩
  | 44 => ⟨S256x32x1, .f32⟩
  | 45 => ⟨S256x32x768, .f32⟩
  | 46 => ⟨S256x32x768, .f32⟩
  | 47 => ⟨S_, .f32⟩
  | 48 => ⟨S256x768, .f32⟩
  | 49 => ⟨S_, .f32⟩
  | 50 => ⟨S256x1, .f32⟩
  | 51 => ⟨S_, .f32⟩
  | 52 => ⟨S256x1, .f32⟩
  | 53 => ⟨S256x1, .f32⟩
  | 54 => ⟨S256x768, .f32⟩
  | 55 => ⟨S256x768, .f32⟩
  | 56 => ⟨S_, .i32⟩
  | 57 => ⟨S256x32, .i32⟩
  | 58 => ⟨S256x32, .i1⟩
  | 59 => ⟨S_, .i32⟩
  | 60 => ⟨S_, .i32⟩
  | 61 => ⟨S256x32, .i32⟩
  | 62 => ⟨S256x32, .i32⟩
  | 63 => ⟨S256x32x1, .i32⟩
  | 64 => ⟨S_, .i32⟩
  | 65 => ⟨S256x32x1, .i32⟩
  | 66 => ⟨S256x32x1, .i1⟩
  | 67 => ⟨S_, .i32⟩
  | 68 => ⟨S256x32x1, .i32⟩
  | 69 => ⟨S256x32x1, .i32⟩
  | 70 => ⟨S256x32x1, .i32⟩
  | 71 => ⟨S1, .i32⟩
  | 72 => ⟨S_, .i32⟩
  | 73 => ⟨S256x32x1, .i32⟩
  | 74 => ⟨S256x32x1, .i1⟩
  | 75 => ⟨S1x1x1, .i32⟩
  | 76 => ⟨S256x32x1, .i32⟩
  | 77 => ⟨S256x32x1, .i1⟩
  | 78 => ⟨S256x32x1, .i1⟩
  | 79 => ⟨S_, .i1⟩
  | 80 => ⟨S256x32, .i1⟩
  | 81 => ⟨S256x32x768, .f32⟩
  | 82 => ⟨S256x32x768, .i1⟩
  | 83 => ⟨S_, .f32⟩
  | 84 => ⟨S256x32x768, .f32⟩
  | 85 => ⟨S256x32x768, .f32⟩
  | 86 => ⟨S256x32, .f32⟩
  | 87 => ⟨S256x32x1, .f32⟩
  | 88 => ⟨S256x32x768, .f32⟩
  | 89 => ⟨S256x32x768, .f32⟩
  | 90 => ⟨S_, .f32⟩
  | 91 => ⟨S256x768, .f32⟩
  | 92 => ⟨S_, .f32⟩
  | 93 => ⟨S256x1, .f32⟩
  | 94 => ⟨S_, .f32⟩
  | 95 => ⟨S256x1, .f32⟩
  | 96 => ⟨S256x1, .f32⟩
  | 97 => ⟨S256x768, .f32⟩
  | 98 => ⟨S256x768, .f32⟩
  | 99 => ⟨S256x3072, .f32⟩
  | 100 => ⟨S256x3072, .f32⟩
  | 101 => ⟨S_, .f32⟩
  | 102 => ⟨S256, .f32⟩
  | 103 => ⟨S256x1, .f32⟩
  | 104 => ⟨S256x1, .f32⟩
  | 105 => ⟨S_, .f32⟩
  | 106 => ⟨S256x1, .f32⟩
  | 107 => ⟨S256x1, .f32⟩
  | 108 => ⟨S256x3072, .f32⟩
  | 109 => ⟨S256x3072, .f32⟩
  | 110 => ⟨S3072x768, .f32⟩
  | 111 => ⟨S256x768, .f32⟩
  | 112 => ⟨S1x768, .f32⟩
  | 113 => ⟨S256x768, .f32⟩
  | 114 => ⟨S256x768, .f32⟩
  | 115 => ⟨S_, .f32⟩
  | 116 => ⟨S768, .f32⟩
  | 117 => ⟨S_, .f32⟩
  | 118 => ⟨S768, .f32⟩
  | 119 => ⟨S768, .f32⟩
  | 120 => ⟨S1x768, .f32⟩
  | 121 => ⟨S256x768, .f32⟩
  | 122 => ⟨S256x768, .f32⟩
  | 123 => ⟨S256x768, .f32⟩
  | 124 => ⟨S_, .f32⟩
  | 125 => ⟨S768, .f32⟩
  | 126 => ⟨S_, .f32⟩
  | 127 => ⟨S768, .f32⟩
  | _ => ⟨S256x512x768, .f32⟩

abbrev hbmTy0_1 (i : Nat) : BufTy := match i % 128 with
  | 0 => ⟨S768, .f32⟩
  | 1 => ⟨S1x768, .f32⟩
  | 2 => ⟨S256x768, .f32⟩
  | 3 => ⟨S256x768, .f32⟩
  | 4 => ⟨S_, .f32⟩
  | 5 => ⟨S768, .f32⟩
  | 6 => ⟨S768, .f32⟩
  | 7 => ⟨S768, .f32⟩
  | 8 => ⟨S1x768, .f32⟩
  | 9 => ⟨S256x768, .f32⟩
  | 10 => ⟨S256x768, .f32⟩
  | 11 => ⟨S1x768, .f32⟩
  | 12 => ⟨S256x768, .f32⟩
  | 13 => ⟨S256x768, .f32⟩
  | 14 => ⟨S1x768, .f32⟩
  | 15 => ⟨S256x768, .f32⟩
  | 16 => ⟨S256x768, .f32⟩
  | 17 => ⟨S_, .f32⟩
  | 18 => ⟨S256x768, .f32⟩
  | 19 => ⟨S256x768, .f32⟩
  | 20 => ⟨S768x1, .f32⟩
  | 21 => ⟨S256x1, .f32⟩
  | 22 => ⟨S1x1, .f32⟩
  | 23 => ⟨S256x1, .f32⟩
  | 24 => ⟨S256x1, .f32⟩
  | _ => ⟨S256x512x768, .f32⟩

abbrev hbmTy (i : Nat) : BufTy := match i / 128 with
  | 0 => hbmTy0_0 i
  | 1 => hbmTy0_1 i
  | _ => ⟨S256x512x768, .f32⟩

abbrev bufTy : (tb : Table) → Fin (tcTables nBuf tb) → BufTy
  | .hbm, ⟨i, _⟩ => hbmTy i
  | _, _ => ⟨S256x512x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_call0_v0 : Ref sig .tc := ⟨.hbm, 17, rfl⟩
abbrev main_call0_v1 : Ref sig .tc := ⟨.hbm, 18, rfl⟩
abbrev main_v6 : Ref sig .tc := ⟨.hbm, 19, rfl⟩
abbrev main_v7 : Ref sig .tc := ⟨.hbm, 20, rfl⟩
abbrev main_call1_c : Ref sig .tc := ⟨.hbm, 21, rfl⟩
abbrev main_call1_v0 : Ref sig .tc := ⟨.hbm, 22, rfl⟩
abbrev main_call1_v1 : Ref sig .tc := ⟨.hbm, 23, rfl⟩
abbrev main_call1_c_0 : Ref sig .tc := ⟨.hbm, 24, rfl⟩
abbrev main_call1_v2 : Ref sig .tc := ⟨.hbm, 25, rfl⟩
abbrev main_call1_v3 : Ref sig .tc := ⟨.hbm, 26, rfl⟩
abbrev main_call1_v4 : Ref sig .tc := ⟨.hbm, 27, rfl⟩
abbrev main_call1_c_1 : Ref sig .tc := ⟨.hbm, 28, rfl⟩
abbrev main_call1_c_2 : Ref sig .tc := ⟨.hbm, 29, rfl⟩
abbrev main_call1_v5 : Ref sig .tc := ⟨.hbm, 30, rfl⟩
abbrev main_call1_v6 : Ref sig .tc := ⟨.hbm, 31, rfl⟩
abbrev main_call1_v7 : Ref sig .tc := ⟨.hbm, 32, rfl⟩
abbrev main_call1_v8 : Ref sig .tc := ⟨.hbm, 33, rfl⟩
abbrev main_call1_v9 : Ref sig .tc := ⟨.hbm, 34, rfl⟩
abbrev main_call1_v10 : Ref sig .tc := ⟨.hbm, 35, rfl⟩
abbrev main_call1_c_3 : Ref sig .tc := ⟨.hbm, 36, rfl⟩
abbrev main_call1_v11 : Ref sig .tc := ⟨.hbm, 37, rfl⟩
abbrev main_call1_v12 : Ref sig .tc := ⟨.hbm, 38, rfl⟩
abbrev main_call1_v13 : Ref sig .tc := ⟨.hbm, 39, rfl⟩
abbrev main_call1_cst : Ref sig .tc := ⟨.hbm, 40, rfl⟩
abbrev main_call1_v14 : Ref sig .tc := ⟨.hbm, 41, rfl⟩
abbrev main_v8 : Ref sig .tc := ⟨.hbm, 42, rfl⟩
abbrev main_v9 : Ref sig .tc := ⟨.hbm, 43, rfl⟩
abbrev main_v10 : Ref sig .tc := ⟨.hbm, 44, rfl⟩
abbrev main_v11 : Ref sig .tc := ⟨.hbm, 45, rfl⟩
abbrev main_v12 : Ref sig .tc := ⟨.hbm, 46, rfl⟩
abbrev main_cst : Ref sig .tc := ⟨.hbm, 47, rfl⟩
abbrev main_v13 : Ref sig .tc := ⟨.hbm, 48, rfl⟩
abbrev main_cst_1 : Ref sig .tc := ⟨.hbm, 49, rfl⟩
abbrev main_v14 : Ref sig .tc := ⟨.hbm, 50, rfl⟩
abbrev main_cst_2 : Ref sig .tc := ⟨.hbm, 51, rfl⟩
abbrev main_v15 : Ref sig .tc := ⟨.hbm, 52, rfl⟩
abbrev main_v16 : Ref sig .tc := ⟨.hbm, 53, rfl⟩
abbrev main_v17 : Ref sig .tc := ⟨.hbm, 54, rfl⟩
abbrev main_v18 : Ref sig .tc := ⟨.hbm, 55, rfl⟩
abbrev main_c_3 : Ref sig .tc := ⟨.hbm, 56, rfl⟩
abbrev main_v19 : Ref sig .tc := ⟨.hbm, 57, rfl⟩
abbrev main_v20 : Ref sig .tc := ⟨.hbm, 58, rfl⟩
abbrev main_c_4 : Ref sig .tc := ⟨.hbm, 59, rfl⟩
abbrev main_call2_v0 : Ref sig .tc := ⟨.hbm, 60, rfl⟩
abbrev main_call2_v1 : Ref sig .tc := ⟨.hbm, 61, rfl⟩
abbrev main_v21 : Ref sig .tc := ⟨.hbm, 62, rfl⟩
abbrev main_v22 : Ref sig .tc := ⟨.hbm, 63, rfl⟩
abbrev main_call3_c : Ref sig .tc := ⟨.hbm, 64, rfl⟩
abbrev main_call3_v0 : Ref sig .tc := ⟨.hbm, 65, rfl⟩
abbrev main_call3_v1 : Ref sig .tc := ⟨.hbm, 66, rfl⟩
abbrev main_call3_c_0 : Ref sig .tc := ⟨.hbm, 67, rfl⟩
abbrev main_call3_v2 : Ref sig .tc := ⟨.hbm, 68, rfl⟩
abbrev main_call3_v3 : Ref sig .tc := ⟨.hbm, 69, rfl⟩
abbrev main_call3_v4 : Ref sig .tc := ⟨.hbm, 70, rfl⟩
abbrev main_call3_c_1 : Ref sig .tc := ⟨.hbm, 71, rfl⟩
abbrev main_call3_c_2 : Ref sig .tc := ⟨.hbm, 72, rfl⟩
abbrev main_call3_v5 : Ref sig .tc := ⟨.hbm, 73, rfl⟩
abbrev main_call3_v6 : Ref sig .tc := ⟨.hbm, 74, rfl⟩
abbrev main_call3_v7 : Ref sig .tc := ⟨.hbm, 75, rfl⟩
abbrev main_call3_v8 : Ref sig .tc := ⟨.hbm, 76, rfl⟩
abbrev main_call3_v9 : Ref sig .tc := ⟨.hbm, 77, rfl⟩
abbrev main_call3_v10 : Ref sig .tc := ⟨.hbm, 78, rfl⟩
abbrev main_call3_c_3 : Ref sig .tc := ⟨.hbm, 79, rfl⟩
abbrev main_call3_v11 : Ref sig .tc := ⟨.hbm, 80, rfl⟩
abbrev main_call3_v12 : Ref sig .tc := ⟨.hbm, 81, rfl⟩
abbrev main_call3_v13 : Ref sig .tc := ⟨.hbm, 82, rfl⟩
abbrev main_call3_cst : Ref sig .tc := ⟨.hbm, 83, rfl⟩
abbrev main_call3_v14 : Ref sig .tc := ⟨.hbm, 84, rfl⟩
abbrev main_v23 : Ref sig .tc := ⟨.hbm, 85, rfl⟩
abbrev main_v24 : Ref sig .tc := ⟨.hbm, 86, rfl⟩
abbrev main_v25 : Ref sig .tc := ⟨.hbm, 87, rfl⟩
abbrev main_v26 : Ref sig .tc := ⟨.hbm, 88, rfl⟩
abbrev main_v27 : Ref sig .tc := ⟨.hbm, 89, rfl⟩
abbrev main_cst_5 : Ref sig .tc := ⟨.hbm, 90, rfl⟩
abbrev main_v28 : Ref sig .tc := ⟨.hbm, 91, rfl⟩
abbrev main_cst_6 : Ref sig .tc := ⟨.hbm, 92, rfl⟩
abbrev main_v29 : Ref sig .tc := ⟨.hbm, 93, rfl⟩
abbrev main_cst_7 : Ref sig .tc := ⟨.hbm, 94, rfl⟩
abbrev main_v30 : Ref sig .tc := ⟨.hbm, 95, rfl⟩
abbrev main_v31 : Ref sig .tc := ⟨.hbm, 96, rfl⟩
abbrev main_v32 : Ref sig .tc := ⟨.hbm, 97, rfl⟩
abbrev main_v33 : Ref sig .tc := ⟨.hbm, 98, rfl⟩
abbrev main_v34 : Ref sig .tc := ⟨.hbm, 99, rfl⟩
abbrev main_v35 : Ref sig .tc := ⟨.hbm, 100, rfl⟩
abbrev main_cst_8 : Ref sig .tc := ⟨.hbm, 101, rfl⟩
abbrev main_v36 : Ref sig .tc := ⟨.hbm, 102, rfl⟩
abbrev main_v37 : Ref sig .tc := ⟨.hbm, 103, rfl⟩
abbrev main_v38 : Ref sig .tc := ⟨.hbm, 104, rfl⟩
abbrev main_cst_9 : Ref sig .tc := ⟨.hbm, 105, rfl⟩
abbrev main_v39 : Ref sig .tc := ⟨.hbm, 106, rfl⟩
abbrev main_v40 : Ref sig .tc := ⟨.hbm, 107, rfl⟩
abbrev main_v41 : Ref sig .tc := ⟨.hbm, 108, rfl⟩
abbrev main_v42 : Ref sig .tc := ⟨.hbm, 109, rfl⟩
abbrev main_v43 : Ref sig .tc := ⟨.hbm, 110, rfl⟩
abbrev main_v44 : Ref sig .tc := ⟨.hbm, 111, rfl⟩
abbrev main_v45 : Ref sig .tc := ⟨.hbm, 112, rfl⟩
abbrev main_v46 : Ref sig .tc := ⟨.hbm, 113, rfl⟩
abbrev main_v47 : Ref sig .tc := ⟨.hbm, 114, rfl⟩
abbrev main_cst_10 : Ref sig .tc := ⟨.hbm, 115, rfl⟩
abbrev main_v48 : Ref sig .tc := ⟨.hbm, 116, rfl⟩
abbrev main_cst_11 : Ref sig .tc := ⟨.hbm, 117, rfl⟩
abbrev main_v49 : Ref sig .tc := ⟨.hbm, 118, rfl⟩
abbrev main_v50 : Ref sig .tc := ⟨.hbm, 119, rfl⟩
abbrev main_v51 : Ref sig .tc := ⟨.hbm, 120, rfl⟩
abbrev main_v52 : Ref sig .tc := ⟨.hbm, 121, rfl⟩
abbrev main_v53 : Ref sig .tc := ⟨.hbm, 122, rfl⟩
abbrev main_v54 : Ref sig .tc := ⟨.hbm, 123, rfl⟩
abbrev main_cst_12 : Ref sig .tc := ⟨.hbm, 124, rfl⟩
abbrev main_v55 : Ref sig .tc := ⟨.hbm, 125, rfl⟩
abbrev main_cst_13 : Ref sig .tc := ⟨.hbm, 126, rfl⟩
abbrev main_v56 : Ref sig .tc := ⟨.hbm, 127, rfl⟩
abbrev main_v57 : Ref sig .tc := ⟨.hbm, 128, rfl⟩
abbrev main_v58 : Ref sig .tc := ⟨.hbm, 129, rfl⟩
abbrev main_v59 : Ref sig .tc := ⟨.hbm, 130, rfl⟩
abbrev main_v60 : Ref sig .tc := ⟨.hbm, 131, rfl⟩
abbrev main_cst_14 : Ref sig .tc := ⟨.hbm, 132, rfl⟩
abbrev main_v61 : Ref sig .tc := ⟨.hbm, 133, rfl⟩
abbrev main_v62 : Ref sig .tc := ⟨.hbm, 134, rfl⟩
abbrev main_v63 : Ref sig .tc := ⟨.hbm, 135, rfl⟩
abbrev main_v64 : Ref sig .tc := ⟨.hbm, 136, rfl⟩
abbrev main_v65 : Ref sig .tc := ⟨.hbm, 137, rfl⟩
abbrev main_v66 : Ref sig .tc := ⟨.hbm, 138, rfl⟩
abbrev main_v67 : Ref sig .tc := ⟨.hbm, 139, rfl⟩
abbrev main_v68 : Ref sig .tc := ⟨.hbm, 140, rfl⟩
abbrev main_v69 : Ref sig .tc := ⟨.hbm, 141, rfl⟩
abbrev main_v70 : Ref sig .tc := ⟨.hbm, 142, rfl⟩
abbrev main_v71 : Ref sig .tc := ⟨.hbm, 143, rfl⟩
abbrev main_v72 : Ref sig .tc := ⟨.hbm, 144, rfl⟩
abbrev main_call4_cst : Ref sig .tc := ⟨.hbm, 145, rfl⟩
abbrev main_call4_v0 : Ref sig .tc := ⟨.hbm, 146, rfl⟩
abbrev main_v73 : Ref sig .tc := ⟨.hbm, 147, rfl⟩
abbrev main_v74 : Ref sig .tc := ⟨.hbm, 148, rfl⟩
abbrev main_v75 : Ref sig .tc := ⟨.hbm, 149, rfl⟩
abbrev main_v76 : Ref sig .tc := ⟨.hbm, 150, rfl⟩
abbrev main_v77 : Ref sig .tc := ⟨.hbm, 151, rfl⟩
abbrev main_v78 : Ref sig .tc := ⟨.hbm, 152, rfl⟩

abbrev nD : Nat := 1
abbrev τ : Topo := Topo.v7x

variable {F : FTy → Type} [FloatOps F]

class Facts₀ : Prop where
  slices_S256x512x768_S256x1x768_0_0_0 : S256x512x768.Slices ![0, 0, 0] S256x1x768
  shapeCasts_S256x1x768_S256x768 : S256x1x768.ShapeCasts S256x768
  bcast_S_S256x32 : S_.BroadcastsInDim S256x32 (![] : Fin 0 → Fin S256x32.rank)
  bcast_S256x32_S256x32x1_0_1 : S256x32.BroadcastsInDim S256x32x1 (![0, 1] : Fin 2 → Fin S256x32x1.rank)
  bcast_S_S256x32x1 : S_.BroadcastsInDim S256x32x1 (![] : Fin 0 → Fin S256x32x1.rank)
  bcast_S1_S1x1x1_2 : S1.BroadcastsInDim S1x1x1 (![2] : Fin 1 → Fin S1x1x1.rank)
  bcast_S1x1x1_S256x32x1_0_1_2 : S1x1x1.BroadcastsInDim S256x32x1 (![0, 1, 2] : Fin 3 → Fin S256x32x1.rank)
  reducesTo_S256x32x1_S256x32_d2 : S256x32x1.ReducesTo [2] S256x32
  h_S_ : 0 < S_.numel
  bcast_S256x32_S256x32x768_0_1 : S256x32.BroadcastsInDim S256x32x768 (![0, 1] : Fin 2 → Fin S256x32x768.rank)
  bcast_S_S256x32x768 : S_.BroadcastsInDim S256x32x768 (![] : Fin 0 → Fin S256x32x768.rank)
  bcast_S256x32x1_S256x32x768_0_1_2 : S256x32x1.BroadcastsInDim S256x32x768 (![0, 1, 2] : Fin 3 → Fin S256x32x768.rank)
  reducesTo_S256x32x768_S256x768_d1 : S256x32x768.ReducesTo [1] S256x768
  reducesTo_S256x32x1_S256x1_d1 : S256x32x1.ReducesTo [1] S256x1
  bcast_S_S256x1 : S_.BroadcastsInDim S256x1 (![] : Fin 0 → Fin S256x1.rank)
  bcast_S256x1_S256x768_0_1 : S256x1.BroadcastsInDim S256x768 (![0, 1] : Fin 2 → Fin S256x768.rank)
  concatenates_S256x768_S256x768_S256x768_S256x768_S256x3072_d1 : Shape.Concatenates [S256x768, S256x768, S256x768, S256x768] S256x3072 1
  reducesTo_S256x3072_S256_d1 : S256x3072.ReducesTo [1] S256
  bcast_S256_S256x1_0 : S256.BroadcastsInDim S256x1 (![0] : Fin 1 → Fin S256x1.rank)
  bcast_S256x1_S256x3072_0_1 : S256x1.BroadcastsInDim S256x3072 (![0, 1] : Fin 2 → Fin S256x3072.rank)
  transposes_S768x3072_S3072x768_1_0 : S768x3072.Transposes [1, 0] S3072x768
  bcast_S768_S1x768_1 : S768.BroadcastsInDim S1x768 (![1] : Fin 1 → Fin S1x768.rank)
  bcast_S1x768_S256x768_0_1 : S1x768.BroadcastsInDim S256x768 (![0, 1] : Fin 2 → Fin S256x768.rank)
  reducesTo_S256x768_S768_d0 : S256x768.ReducesTo [0] S768
  bcast_S_S768 : S_.BroadcastsInDim S768 (![] : Fin 0 → Fin S768.rank)
  bcast_S_S256x768 : S_.BroadcastsInDim S256x768 (![] : Fin 0 → Fin S256x768.rank)
  transposes_S1x768_S768x1_1_0 : S1x768.Transposes [1, 0] S768x1
  bcast_S1_S1x1_1 : S1.BroadcastsInDim S1x1 (![1] : Fin 1 → Fin S1x1.rank)
  bcast_S1x1_S256x1_0_1 : S1x1.BroadcastsInDim S256x1 (![0, 1] : Fin 2 → Fin S256x1.rank)
  gather_S256x512x768_S256x32x1_S256x32x768_2_1_0_0_1_2_11768_wf : GatherDims.WF S256x512x768 S256x32x1 S256x32x768 [2] [1] [0] [1] [0] 2 ![1, 1, 768]
  dot_S256x3072_S3072x768_S256x768_1_0_0_1_n_n_wf : DotDims.WF S256x3072 S3072x768 S256x768 [1] [0] [0] [1] [] []
  dot_S256x768_S768x1_S256x1_1_0_0_1_n_n_wf : DotDims.WF S256x768 S768x1 S256x1 [1] [0] [0] [1] [] []

variable [Facts₀]

def gather_S256x512x768_S256x32x1_S256x32x768_2_1_0_0_1_2_11768 : GatherDims S256x512x768 S256x32x1 S256x32x768 where
  offsetDims := [2]
  collapsedSliceDims := [1]
  operandBatchingDims := [0]
  startIndicesBatchingDims := [0]
  startIndexMap := [1]
  indexVectorDim := 2
  sliceSizes := ![1, 1, 768]
  wf := gather_S256x512x768_S256x32x1_S256x32x768_2_1_0_0_1_2_11768_wf
def dot_S256x3072_S3072x768_S256x768_1_0_0_1_n_n : DotDims S256x3072 S3072x768 S256x768 where
  lhsContracting := [1]
  rhsContracting := [0]
  lhsNonContracting := [0]
  rhsNonContracting := [1]
  lhsBatch := []
  rhsBatch := []
  wf := dot_S256x3072_S3072x768_S256x768_1_0_0_1_n_n_wf
def dot_S256x768_S768x1_S256x1_1_0_0_1_n_n : DotDims S256x768 S768x1 S256x1 where
  lhsContracting := [1]
  rhsContracting := [0]
  lhsNonContracting := [0]
  rhsNonContracting := [1]
  lhsBatch := []
  rhsBatch := []
  wf := dot_S256x768_S768x1_S256x1_1_0_0_1_n_n_wf

class Facts : Prop extends Facts₀ where

variable [Facts]
-- ==== Proof.KernelKit.lean ====
/-
  The frame of the kernel program, first part: everything the runs of the kernel body are stated over.

  @main is 39 host operations, the one Pallas call on a 16 × 4 grid, and 54 host operations.  The call stages seven
  windows: the weight rows [16,128] of the array the host operations compute, the two activations [16,128,768], and four
  outputs [16,768] whose block index is the batch tile alone, so each output block stays in its staging buffer over the
  four steps along the middle axis and is written back after the last of them.

  Here: the buffer contents when the call is entered (the host operations before it applied to the launch memory);
  @main split around the call; the facts the launch theorem asks of the operations after it (they touch no scoped
  buffer, allocate nothing, write no staged array); that no host operation writes an argument; a window's block read off
  its array; that an input's staging buffer holds its block at every grid point; the frame statement read off the launch
  theorem's post; the body's one branch condition (first step along the middle axis) in closed form over the grid;
  where the two first-row outputs are idle and where the outputs are written back.
-/
import proofs.«413436_j65730179498319_1_alg».proof.Proof.Gen.Kernel.Launch
import proofs.«413436_j65730179498319_1_alg».proof.Proof.Gen.Kernel.Skeleton
import proofs.«413436_j65730179498319_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the call -/

/-- Core `c`'s buffer contents when the call is entered: the host operations before it applied to the launch memory. -/
abbrev V0 (c : Dev nD) : Valuation τ sig (Elt F) :=
  StableHlo.after (List.flatten [hostOps0, hostOps0_1, hostOps0_2]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor

set_option maxHeartbeats 8000000 in
/-- @main is the host operations before the call, the call, and the host operations after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1, StableHlo.seq hostOps1_1, StableHlo.seq hostOps1_2]) :=
  Pipeline.hmain_around cfgs 0 defs₀ 𝒱₀ m main [hostOps0, hostOps0_1, hostOps0_2] [hostOps1, hostOps1_1, hostOps1_2]
    (by simp only [List.Forall]; exact ⟨hostOps0_sub, hostOps0_1_sub, hostOps0_2_sub⟩)
    (by simp only [List.Forall]; exact ⟨hostOps0_fresh, hostOps0_1_fresh, hostOps0_2_fresh⟩) main_chain

/-- The operations after the call touch unscoped TensorCore buffers only. -/
theorem sfx_sub : ∀ ops ∈ ([hostOps1, hostOps1_1, hostOps1_2] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
/-- They allocate nothing. -/
theorem sfx_fresh : ∀ ops ∈ ([hostOps1, hostOps1_1, hostOps1_2] : List (List (HloOp τ sig (Elt F)))), ∀ op ∈ ops, op.fresh = ∅ := by
  intro ops hops op hop
  simp only [List.mem_cons, List.mem_nil_iff, or_false] at hops
  rcases hops with rfl | rfl | rfl
  · exact (List.forall_iff_forall_mem.mp hostOps1_fresh) op hop
  · exact (List.forall_iff_forall_mem.mp hostOps1_1_fresh) op hop
  · exact (List.forall_iff_forall_mem.mp hostOps1_2_fresh) op hop
set_option maxHeartbeats 4000000 in
/-- And each writes only its own result buffer, which is none of the seven staged arrays. -/
theorem sfx_keeps : ∀ ops ∈ ([hostOps1, hostOps1_1, hostOps1_2] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl | rfl | rfl
  · simp only [hostOps1, List.mem_cons, List.mem_nil_iff, or_false] at hop
    rcases hop with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)
  · simp only [hostOps1_1, List.mem_cons, List.mem_nil_iff, or_false] at hop
    rcases hop with rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)
  · simp only [hostOps1_2, List.mem_cons, List.mem_nil_iff, or_false] at hop
    rcases hop with rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-! ## No host operation writes an argument -/

set_option maxHeartbeats 1000000 in
/-- The call finds argument 0 as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 1000000 in
/-- The call finds argument 1 as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 1000000 in
/-- The call finds argument 2 as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 1000000 in
/-- The call finds argument 3 as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 1000000 in
/-- The call finds argument 4 as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 1000000 in
/-- The call finds argument 5 as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 1000000 in
/-- The call finds argument 6 as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 1000000 in
/-- The call finds argument 7 as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 1000000 in
/-- The call finds argument 8 as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, hostOps0_1, hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 1000000 in
/-- Argument 2, which no window stages, ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, hostOps1_1, hostOps1_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

set_option maxHeartbeats 1000000 in
/-- Argument 3, which no window stages, ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, hostOps1_1, hostOps1_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

set_option maxHeartbeats 1000000 in
/-- Argument 4, which no window stages, ends as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, hostOps1_1, hostOps1_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c

set_option maxHeartbeats 1000000 in
/-- Argument 5, which no window stages, ends as launched. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, hostOps1_1, hostOps1_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c

set_option maxHeartbeats 1000000 in
/-- Argument 6, which no window stages, ends as launched. -/
theorem W_main_arg6 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, hostOps1_1, hostOps1_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c

set_option maxHeartbeats 1000000 in
/-- Argument 7, which no window stages, ends as launched. -/
theorem W_main_arg7 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2] c main_arg7 = m ((c : Thread nD τ).loc main_arg7) := by
  unfold Pipeline.afterTail₀
  rw [StableHlo.after_of_forall_not_mem (b := Proc.devRef .tc main_arg7) _ _ (List.forall_iff_forall_mem.mp (by
      simp only [hostOps1, hostOps1_1, hostOps1_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg7 (by exact (by decide : ∀ w, Pipeline.arrRef spec0 w ≠ main_arg7))]
  exact V_main_arg7 m c

set_option maxHeartbeats 1000000 in
/-- Argument 8, which no window stages, ends as launched. -/
theorem W_main_arg8 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2] c main_arg8 = m ((c : Thread nD τ).loc main_arg8) := by
  unfold Pipeline.afterTail₀
  rw [StableHlo.after_of_forall_not_mem (b := Proc.devRef .tc main_arg8) _ _ (List.forall_iff_forall_mem.mp (by
      simp only [hostOps1, hostOps1_1, hostOps1_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg8 (by exact (by decide : ∀ w, Pipeline.arrRef spec0 w ≠ main_arg8))]
  exact V_main_arg8 m c

/-! ## The windows' blocks -/

/-- Window `w`'s block at point `t`, read off its array as the call finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's staging buffer holds its block at every point, fetched there or not. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's staging buffer holds its block at every point, fetched there or not. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame statement from the launch theorem's post -/

/-- The two staged activations end at their entry contents (an input array is never written), the other arguments by
    the post's clause on the buffers no window stages. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1, hostOps1_1, hostOps1_2]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨((h c).1 1).trans (((dats 0 c).arrAt_in 1 rfl _).trans ((hA c 1).trans (V_main_arg0 m c))),
    ((h c).1 2).trans (((dats 0 c).arrAt_in 2 rfl _).trans ((hA c 2).trans (V_main_arg1 m c))),
    ((h c).2 main_arg2 (Pipeline.mem_restRefs_of main_arg2 (by decide) (by decide))).trans (W_main_arg2 m dats c),
    ((h c).2 main_arg3 (Pipeline.mem_restRefs_of main_arg3 (by decide) (by decide))).trans (W_main_arg3 m dats c),
    ((h c).2 main_arg4 (Pipeline.mem_restRefs_of main_arg4 (by decide) (by decide))).trans (W_main_arg4 m dats c),
    ((h c).2 main_arg5 (Pipeline.mem_restRefs_of main_arg5 (by decide) (by decide))).trans (W_main_arg5 m dats c),
    ((h c).2 main_arg6 (Pipeline.mem_restRefs_of main_arg6 (by decide) (by decide))).trans (W_main_arg6 m dats c),
    ((h c).2 main_arg7 (Pipeline.mem_restRefs_of main_arg7 (by decide) (by decide))).trans (W_main_arg7 m dats c),
    ((h c).2 main_arg8 (Pipeline.mem_restRefs_of main_arg8 (by decide) (by decide))).trans (W_main_arg8 m dats c)⟩) h

/-! ## The body's branch condition -/

/-- The body's one condition: the step along the middle axis is the first. -/
abbrev cond0_0 (i : grid0.Coords) : Prop := k0_cond1 i = 1#1
/-- It holds at the points ≡ 0 (mod 4). -/
theorem hcond0_0 : ∀ t : Fin cfg0.N, cond0_0 (grid0.coords t) ↔ t.val % 4 = 0 :=
  (by decide +kernel : ∀ t : Fin grid0.N, cond0_0 (grid0.coords t) ↔ t.val % 4 = 0)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel

/-- Where the branch is taken the body stores window 5's block whole. -/
theorem liveAt0_5_A : ∀ t : Fin cfg0.N, cond0_0 (grid0.coords t) → cfg0.idle 5 (grid0.coords t) = false := by decide +kernel
/-- Elsewhere it stores nothing into it. -/
theorem idleAt0_5_B : ∀ t : Fin cfg0.N, ¬cond0_0 (grid0.coords t) → cfg0.idle 5 (grid0.coords t) = true := by decide +kernel
/-- Where the branch is taken the body stores window 6's block whole. -/
theorem liveAt0_6_A : ∀ t : Fin cfg0.N, cond0_0 (grid0.coords t) → cfg0.idle 6 (grid0.coords t) = false := by decide +kernel
/-- Elsewhere it stores nothing into it. -/
theorem idleAt0_6_B : ∀ t : Fin cfg0.N, ¬cond0_0 (grid0.coords t) → cfg0.idle 6 (grid0.coords t) = true := by decide +kernel

/-! ## The staging memrefs -/

/-- One staging buffer of output window 3, through which its contents are stated. -/
abbrev VO0_3 : View sig .tc .vmem S16x768 .f32 := (Memref.whole cc0_stg3_0 : Memref sig .tc .vmem S16x768 .f32).view
/-- One staging buffer of output window 4, through which its contents are stated. -/
abbrev VO0_4 : View sig .tc .vmem S16x768 .f32 := (Memref.whole cc0_stg4_0 : Memref sig .tc .vmem S16x768 .f32).view
/-- One staging buffer of output window 5, through which its contents are stated. -/
abbrev VO0_5 : View sig .tc .vmem S16x768 .f32 := (Memref.whole cc0_stg5_0 : Memref sig .tc .vmem S16x768 .f32).view
/-- One staging buffer of output window 6, through which its contents are stated. -/
abbrev VO0_6 : View sig .tc .vmem S16x768 .f32 := (Memref.whole cc0_stg6_0 : Memref sig .tc .vmem S16x768 .f32).view

abbrev ms0_0 (t : Fin cfg0.N) : Memref sig .tc .vmem S16x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S16x128x768 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S16x128x768 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S16x768 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S16x768 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S16x768 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S16x768 .f32 := win0_6.stage (cfg0.slots t 6)
abbrev hs0_6 (t : Fin cfg0.N) : (ms0_6 t).IsWhole := hstage0_6 ((cfg0.slots t 6).cast nbuf0_6)

end Cert.Kernel.Frame

end
-- ==== Proof.KernelRunA.lean ====
/-
  The kernel body at a point where the step along the middle axis is the first.
  There it zeroes the two pooled outputs, stores row 0 of each activation block into the two first-row outputs, and
  then adds the weighted sum over the block's 128 rows to each pooled output.  From the three input buffers at their
  contents and the four output buffers at anything, the body runs to the inputs as they were and each output buffer
  with the pieces its stores wrote (found by running the body).
-/
import proofs.«413436_j65730179498319_1_alg».proof.Proof.KernelKit

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_A (c : Dev nD) (i : grid0.Coords) (arg2 : Memref sig .tc .vmem S16x128 .f32) (harg2 : arg2.IsWhole) (arg3 : Memref sig .tc .vmem S16x128x768 .f32) (harg3 : arg3.IsWhole) (arg4 : Memref sig .tc .vmem S16x128x768 .f32) (harg4 : arg4.IsWhole) (arg5 : Memref sig .tc .vmem S16x768 .f32) (harg5 : arg5.IsWhole) (arg6 : Memref sig .tc .vmem S16x768 .f32) (harg6 : arg6.IsWhole) (arg7 : Memref sig .tc .vmem S16x768 .f32) (harg7 : arg7.IsWhole) (arg8 : Memref sig .tc .vmem S16x768 .f32) (harg8 : arg8.IsWhole) (hc0 : cond0_0 i)
    (x0 : Vec F S16x128 .f32) (x1 : Vec F S16x128x768 .f32) (x2 : Vec F S16x128x768 .f32) :
    Σ' (L3 : List (View.Piece (Elt F) S16x768 .f32)) (L4 : List (View.Piece (Elt F) S16x768 .f32)) (L5 : List (View.Piece (Elt F) S16x768 .f32)), { L6 : List (View.Piece (Elt F) S16x768 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6)) -∗ K ⟨⟩))
          ⊢ wp frame (wpE (defs₀ (F := F)) Variants.none c none) E (cc0__gather_pool_kernel i arg2 harg2 arg3 harg3 arg4 harg4 arg5 harg5 arg6 harg6 arg7 harg7 arg8 harg8) K } := by
  refine ⟨?_, ?_, ?_, ?_, fun E K => ?run⟩
  case run =>
    simp only [cc0__gather_pool_kernel_eq_skeleton]; unfold cc0__gather_pool_kernel_skel
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, Hk⟩
    obtain rfl := harg2.eq_unread hf0; obtain rfl := harg3.eq_unread hf1; obtain rfl := harg4.eq_unread hf2
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    isplitl [H5]; · iexists _; iexact H5
    iexists _; iexact H6

end Cert.Kernel.Frame

end
-- ==== Proof.KernelRunB.lean ====
/-
  The kernel body at a point where the step along the middle axis is not the first.
  There it only adds the weighted sum over the block's 128 rows to each pooled output, reading what the step before
  left in their buffers, and touches neither first-row output.  From the three input buffers at their contents and the
  two pooled buffers at their running contents the body runs to the inputs as they were and the two pooled buffers with
  the pieces its stores wrote.
-/
import proofs.«413436_j65730179498319_1_alg».proof.Proof.KernelRunA

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_B (c : Dev nD) (i : grid0.Coords) (arg2 : Memref sig .tc .vmem S16x128 .f32) (harg2 : arg2.IsWhole) (arg3 : Memref sig .tc .vmem S16x128x768 .f32) (harg3 : arg3.IsWhole) (arg4 : Memref sig .tc .vmem S16x128x768 .f32) (harg4 : arg4.IsWhole) (arg5 : Memref sig .tc .vmem S16x768 .f32) (harg5 : arg5.IsWhole) (arg6 : Memref sig .tc .vmem S16x768 .f32) (harg6 : arg6.IsWhole) (arg7 : Memref sig .tc .vmem S16x768 .f32) (harg7 : arg7.IsWhole) (arg8 : Memref sig .tc .vmem S16x768 .f32) (harg8 : arg8.IsWhole) (hc0 : ¬cond0_0 i)
    (x0 : Vec F S16x128 .f32) (x1 : Vec F S16x128x768 .f32) (x2 : Vec F S16x128x768 .f32) (xo3 : Vec F S16x768 .f32) (xo4 : Vec F S16x768 .f32) :
    Σ' (L3 : List (View.Piece (Elt F) S16x768 .f32)), { L4 : List (View.Piece (Elt F) S16x768 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare xo3 ∗ owns (c : Thread nD τ) arg6 fullShare xo4
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4)) -∗ K ⟨⟩))
          ⊢ wp frame (wpE (defs₀ (F := F)) Variants.none c none) E (cc0__gather_pool_kernel i arg2 harg2 arg3 harg3 arg4 harg4 arg5 harg5 arg6 harg6 arg7 harg7 arg8 harg8) K } := by
  refine ⟨?_, ?_, fun E K => ?run⟩
  case run =>
    simp only [cc0__gather_pool_kernel_eq_skeleton]; unfold cc0__gather_pool_kernel_skel
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := harg2.eq_unread hf0; obtain rfl := harg3.eq_unread hf1; obtain rfl := harg4.eq_unread hf2
    obtain rfl := harg5.eq_unread hf3; obtain rfl := harg6.eq_unread hf4
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact H4

end Cert.Kernel.Frame

end
-- ==== Proof.KernelFrame.lean ====
/-
  The frame of the kernel program, last part.

  What each output's staging buffer holds after the body, case by case (the pieces the body's stores wrote cover the
  block, so the buffer holds exactly what they say) and point by point: at a first step along the middle axis all four
  outputs are stored afresh; at a later step the two pooled outputs are rewritten from what the step before left and the
  two first-row outputs keep what the first step stored.  With that as the proof data: an output's buffer holds at a
  later step what the step before left (it is not written back in between; through the idle steps for the first-row
  outputs); the body does what the proof data say at every point; the whole program runs to the end with every staged
  array at what the write-backs made of it and every other buffer as the host operations leave it; and the arguments end
  unchanged.
-/
import proofs.«413436_j65730179498319_1_alg».proof.Proof.KernelRunB

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves in the outputs -/

theorem cover0_A_3 (c : Dev nD) (i : grid0.Coords) (arg2 : Memref sig .tc .vmem S16x128 .f32) (harg2 : arg2.IsWhole) (arg3 : Memref sig .tc .vmem S16x128x768 .f32) (harg3 : arg3.IsWhole) (arg4 : Memref sig .tc .vmem S16x128x768 .f32) (harg4 : arg4.IsWhole) (arg5 : Memref sig .tc .vmem S16x768 .f32) (harg5 : arg5.IsWhole) (arg6 : Memref sig .tc .vmem S16x768 .f32) (harg6 : arg6.IsWhole) (arg7 : Memref sig .tc .vmem S16x768 .f32) (harg7 : arg7.IsWhole) (arg8 : Memref sig .tc .vmem S16x768 .f32) (harg8 : arg8.IsWhole) (hc0 : cond0_0 i) (x0 : Vec F S16x128 .f32) (x1 : Vec F S16x128x768 .f32) (x2 : Vec F S16x128x768 .f32) (y : S16x768.Idx) :
    ∃ pc ∈ (kernelRun0_A c i arg2 harg2 arg3 harg3 arg4 harg4 arg5 harg5 arg6 harg6 arg7 harg7 arg8 harg8 hc0 x0 x1 x2).1, y ∈ pc.1.set :=
  View.cover_of_tiledL (kernelRun0_A c i arg2 harg2 arg3 harg3 arg4 harg4 arg5 harg5 arg6 harg6 arg7 harg7 arg8 harg8 hc0 x0 x1 x2).1 S16x768.size (by sl_kernel_rfl) y

/-- What a first step leaves in output window 3's buffer. -/
def out0_A_3 (c : Dev nD) (i : grid0.Coords) (arg2 : Memref sig .tc .vmem S16x128 .f32) (harg2 : arg2.IsWhole) (arg3 : Memref sig .tc .vmem S16x128x768 .f32) (harg3 : arg3.IsWhole) (arg4 : Memref sig .tc .vmem S16x128x768 .f32) (harg4 : arg4.IsWhole) (arg5 : Memref sig .tc .vmem S16x768 .f32) (harg5 : arg5.IsWhole) (arg6 : Memref sig .tc .vmem S16x768 .f32) (harg6 : arg6.IsWhole) (arg7 : Memref sig .tc .vmem S16x768 .f32) (harg7 : arg7.IsWhole) (arg8 : Memref sig .tc .vmem S16x768 .f32) (harg8 : arg8.IsWhole) (hc0 : cond0_0 i) (x0 : Vec F S16x128 .f32) (x1 : Vec F S16x128x768 .f32) (x2 : Vec F S16x128x768 .f32) : Vec F S16x768 .f32 :=
  VO0_3.read (Elt F) (VO0_3.writes (Elt F) VO0_3.junk (kernelRun0_A c i arg2 harg2 arg3 harg3 arg4 harg4 arg5 harg5 arg6 harg6 arg7 harg7 arg8 harg8 hc0 x0 x1 x2).1)

theorem cover0_A_4 (c : Dev nD) (i : grid0.Coords) (arg2 : Memref sig .tc .vmem S16x128 .f32) (harg2 : arg2.IsWhole) (arg3 : Memref sig .tc .vmem S16x128x768 .f32) (harg3 : arg3.IsWhole) (arg4 : Memref sig .tc .vmem S16x128x768 .f32) (harg4 : arg4.IsWhole) (arg5 : Memref sig .tc .vmem S16x768 .f32) (harg5 : arg5.IsWhole) (arg6 : Memref sig .tc .vmem S16x768 .f32) (harg6 : arg6.IsWhole) (arg7 : Memref sig .tc .vmem S16x768 .f32) (harg7 : arg7.IsWhole) (arg8 : Memref sig .tc .vmem S16x768 .f32) (harg8 : arg8.IsWhole) (hc0 : cond0_0 i) (x0 : Vec F S16x128 .f32) (x1 : Vec F S16x128x768 .f32) (x2 : Vec F S16x128x768 .f32) (y : S16x768.Idx) :
    ∃ pc ∈ (kernelRun0_A c i arg2 harg2 arg3 harg3 arg4 harg4 arg5 harg5 arg6 harg6 arg7 harg7 arg8 harg8 hc0 x0 x1 x2).2.1, y ∈ pc.1.set :=
  View.cover_of_tiledL (kernelRun0_A c i arg2 harg2 arg3 harg3 arg4 harg4 arg5 harg5 arg6 harg6 arg7 harg7 arg8 harg8 hc0 x0 x1 x2).2.1 S16x768.size (by sl_kernel_rfl) y

/-- What a first step leaves in output window 4's buffer. -/
def out0_A_4 (c : Dev nD) (i : grid0.Coords) (arg2 : Memref sig .tc .vmem S16x128 .f32) (harg2 : arg2.IsWhole) (arg3 : Memref sig .tc .vmem S16x128x768 .f32) (harg3 : arg3.IsWhole) (arg4 : Memref sig .tc .vmem S16x128x768 .f32) (harg4 : arg4.IsWhole) (arg5 : Memref sig .tc .vmem S16x768 .f32) (harg5 : arg5.IsWhole) (arg6 : Memref sig .tc .vmem S16x768 .f32) (harg6 : arg6.IsWhole) (arg7 : Memref sig .tc .vmem S16x768 .f32) (harg7 : arg7.IsWhole) (arg8 : Memref sig .tc .vmem S16x768 .f32) (harg8 : arg8.IsWhole) (hc0 : cond0_0 i) (x0 : Vec F S16x128 .f32) (x1 : Vec F S16x128x768 .f32) (x2 : Vec F S16x128x768 .f32) : Vec F S16x768 .f32 :=
  VO0_4.read (Elt F) (VO0_4.writes (Elt F) VO0_4.junk (kernelRun0_A c i arg2 harg2 arg3 harg3 arg4 harg4 arg5 harg5 arg6 harg6 arg7 harg7 arg8 harg8 hc0 x0 x1 x2).2.1)

theorem cover0_A_5 (c : Dev nD) (i : grid0.Coords) (arg2 : Memref sig .tc .vmem S16x128 .f32) (harg2 : arg2.IsWhole) (arg3 : Memref sig .tc .vmem S16x128x768 .f32) (harg3 : arg3.IsWhole) (arg4 : Memref sig .tc .vmem S16x128x768 .f32) (harg4 : arg4.IsWhole) (arg5 : Memref sig .tc .vmem S16x768 .f32) (harg5 : arg5.IsWhole) (arg6 : Memref sig .tc .vmem S16x768 .f32) (harg6 : arg6.IsWhole) (arg7 : Memref sig .tc .vmem S16x768 .f32) (harg7 : arg7.IsWhole) (arg8 : Memref sig .tc .vmem S16x768 .f32) (harg8 : arg8.IsWhole) (hc0 : cond0_0 i) (x0 : Vec F S16x128 .f32) (x1 : Vec F S16x128x768 .f32) (x2 : Vec F S16x128x768 .f32) (y : S16x768.Idx) :
    ∃ pc ∈ (kernelRun0_A c i arg2 harg2 arg3 harg3 arg4 harg4 arg5 harg5 arg6 harg6 arg7 harg7 arg8 harg8 hc0 x0 x1 x2).2.2.1, y ∈ pc.1.set :=
  View.cover_of_tiledL (kernelRun0_A c i arg2 harg2 arg3 harg3 arg4 harg4 arg5 harg5 arg6 harg6 arg7 harg7 arg8 harg8 hc0 x0 x1 x2).2.2.1 S16x768.size (by sl_kernel_rfl) y

/-- What a first step leaves in output window 5's buffer. -/
def out0_A_5 (c : Dev nD) (i : grid0.Coords) (arg2 : Memref sig .tc .vmem S16x128 .f32) (harg2 : arg2.IsWhole) (arg3 : Memref sig .tc .vmem S16x128x768 .f32) (harg3 : arg3.IsWhole) (arg4 : Memref sig .tc .vmem S16x128x768 .f32) (harg4 : arg4.IsWhole) (arg5 : Memref sig .tc .vmem S16x768 .f32) (harg5 : arg5.IsWhole) (arg6 : Memref sig .tc .vmem S16x768 .f32) (harg6 : arg6.IsWhole) (arg7 : Memref sig .tc .vmem S16x768 .f32) (harg7 : arg7.IsWhole) (arg8 : Memref sig .tc .vmem S16x768 .f32) (harg8 : arg8.IsWhole) (hc0 : cond0_0 i) (x0 : Vec F S16x128 .f32) (x1 : Vec F S16x128x768 .f32) (x2 : Vec F S16x128x768 .f32) : Vec F S16x768 .f32 :=
  VO0_5.read (Elt F) (VO0_5.writes (Elt F) VO0_5.junk (kernelRun0_A c i arg2 harg2 arg3 harg3 arg4 harg4 arg5 harg5 arg6 harg6 arg7 harg7 arg8 harg8 hc0 x0 x1 x2).2.2.1)

theorem cover0_A_6 (c : Dev nD) (i : grid0.Coords) (arg2 : Memref sig .tc .vmem S16x128 .f32) (harg2 : arg2.IsWhole) (arg3 : Memref sig .tc .vmem S16x128x768 .f32) (harg3 : arg3.IsWhole) (arg4 : Memref sig .tc .vmem S16x128x768 .f32) (harg4 : arg4.IsWhole) (arg5 : Memref sig .tc .vmem S16x768 .f32) (harg5 : arg5.IsWhole) (arg6 : Memref sig .tc .vmem S16x768 .f32) (harg6 : arg6.IsWhole) (arg7 : Memref sig .tc .vmem S16x768 .f32) (harg7 : arg7.IsWhole) (arg8 : Memref sig .tc .vmem S16x768 .f32) (harg8 : arg8.IsWhole) (hc0 : cond0_0 i) (x0 : Vec F S16x128 .f32) (x1 : Vec F S16x128x768 .f32) (x2 : Vec F S16x128x768 .f32) (y : S16x768.Idx) :
    ∃ pc ∈ (kernelRun0_A c i arg2 harg2 arg3 harg3 arg4 harg4 arg5 harg5 arg6 harg6 arg7 harg7 arg8 harg8 hc0 x0 x1 x2).2.2.2.1, y ∈ pc.1.set :=
  View.cover_of_tiledL (kernelRun0_A c i arg2 harg2 arg3 harg3 arg4 harg4 arg5 harg5 arg6 harg6 arg7 harg7 arg8 harg8 hc0 x0 x1 x2).2.2.2.1 S16x768.size (by sl_kernel_rfl) y

/-- What a first step leaves in output window 6's buffer. -/
def out0_A_6 (c : Dev nD) (i : grid0.Coords) (arg2 : Memref sig .tc .vmem S16x128 .f32) (harg2 : arg2.IsWhole) (arg3 : Memref sig .tc .vmem S16x128x768 .f32) (harg3 : arg3.IsWhole) (arg4 : Memref sig .tc .vmem S16x128x768 .f32) (harg4 : arg4.IsWhole) (arg5 : Memref sig .tc .vmem S16x768 .f32) (harg5 : arg5.IsWhole) (arg6 : Memref sig .tc .vmem S16x768 .f32) (harg6 : arg6.IsWhole) (arg7 : Memref sig .tc .vmem S16x768 .f32) (harg7 : arg7.IsWhole) (arg8 : Memref sig .tc .vmem S16x768 .f32) (harg8 : arg8.IsWhole) (hc0 : cond0_0 i) (x0 : Vec F S16x128 .f32) (x1 : Vec F S16x128x768 .f32) (x2 : Vec F S16x128x768 .f32) : Vec F S16x768 .f32 :=
  VO0_6.read (Elt F) (VO0_6.writes (Elt F) VO0_6.junk (kernelRun0_A c i arg2 harg2 arg3 harg3 arg4 harg4 arg5 harg5 arg6 harg6 arg7 harg7 arg8 harg8 hc0 x0 x1 x2).2.2.2.1)

theorem cover0_B_3 (c : Dev nD) (i : grid0.Coords) (arg2 : Memref sig .tc .vmem S16x128 .f32) (harg2 : arg2.IsWhole) (arg3 : Memref sig .tc .vmem S16x128x768 .f32) (harg3 : arg3.IsWhole) (arg4 : Memref sig .tc .vmem S16x128x768 .f32) (harg4 : arg4.IsWhole) (arg5 : Memref sig .tc .vmem S16x768 .f32) (harg5 : arg5.IsWhole) (arg6 : Memref sig .tc .vmem S16x768 .f32) (harg6 : arg6.IsWhole) (arg7 : Memref sig .tc .vmem S16x768 .f32) (harg7 : arg7.IsWhole) (arg8 : Memref sig .tc .vmem S16x768 .f32) (harg8 : arg8.IsWhole) (hc0 : ¬cond0_0 i) (x0 : Vec F S16x128 .f32) (x1 : Vec F S16x128x768 .f32) (x2 : Vec F S16x128x768 .f32) (xo3 : Vec F S16x768 .f32) (xo4 : Vec F S16x768 .f32) (y : S16x768.Idx) :
    ∃ pc ∈ (kernelRun0_B c i arg2 harg2 arg3 harg3 arg4 harg4 arg5 harg5 arg6 harg6 arg7 harg7 arg8 harg8 hc0 x0 x1 x2 xo3 xo4).1, y ∈ pc.1.set :=
  View.cover_of_tiledL (kernelRun0_B c i arg2 harg2 arg3 harg3 arg4 harg4 arg5 harg5 arg6 harg6 arg7 harg7 arg8 harg8 hc0 x0 x1 x2 xo3 xo4).1 S16x768.size (by sl_kernel_rfl) y

/-- What a later step leaves in pooled output window 3's buffer, from what the step before left in the two. -/
def out0_B_3 (c : Dev nD) (i : grid0.Coords) (arg2 : Memref sig .tc .vmem S16x128 .f32) (harg2 : arg2.IsWhole) (arg3 : Memref sig .tc .vmem S16x128x768 .f32) (harg3 : arg3.IsWhole) (arg4 : Memref sig .tc .vmem S16x128x768 .f32) (harg4 : arg4.IsWhole) (arg5 : Memref sig .tc .vmem S16x768 .f32) (harg5 : arg5.IsWhole) (arg6 : Memref sig .tc .vmem S16x768 .f32) (harg6 : arg6.IsWhole) (arg7 : Memref sig .tc .vmem S16x768 .f32) (harg7 : arg7.IsWhole) (arg8 : Memref sig .tc .vmem S16x768 .f32) (harg8 : arg8.IsWhole) (hc0 : ¬cond0_0 i) (x0 : Vec F S16x128 .f32) (x1 : Vec F S16x128x768 .f32) (x2 : Vec F S16x128x768 .f32) (xo3 : Vec F S16x768 .f32) (xo4 : Vec F S16x768 .f32) : Vec F S16x768 .f32 :=
  VO0_3.read (Elt F) (VO0_3.writes (Elt F) VO0_3.junk (kernelRun0_B c i arg2 harg2 arg3 harg3 arg4 harg4 arg5 harg5 arg6 harg6 arg7 harg7 arg8 harg8 hc0 x0 x1 x2 xo3 xo4).1)

theorem cover0_B_4 (c : Dev nD) (i : grid0.Coords) (arg2 : Memref sig .tc .vmem S16x128 .f32) (harg2 : arg2.IsWhole) (arg3 : Memref sig .tc .vmem S16x128x768 .f32) (harg3 : arg3.IsWhole) (arg4 : Memref sig .tc .vmem S16x128x768 .f32) (harg4 : arg4.IsWhole) (arg5 : Memref sig .tc .vmem S16x768 .f32) (harg5 : arg5.IsWhole) (arg6 : Memref sig .tc .vmem S16x768 .f32) (harg6 : arg6.IsWhole) (arg7 : Memref sig .tc .vmem S16x768 .f32) (harg7 : arg7.IsWhole) (arg8 : Memref sig .tc .vmem S16x768 .f32) (harg8 : arg8.IsWhole) (hc0 : ¬cond0_0 i) (x0 : Vec F S16x128 .f32) (x1 : Vec F S16x128x768 .f32) (x2 : Vec F S16x128x768 .f32) (xo3 : Vec F S16x768 .f32) (xo4 : Vec F S16x768 .f32) (y : S16x768.Idx) :
    ∃ pc ∈ (kernelRun0_B c i arg2 harg2 arg3 harg3 arg4 harg4 arg5 harg5 arg6 harg6 arg7 harg7 arg8 harg8 hc0 x0 x1 x2 xo3 xo4).2.1, y ∈ pc.1.set :=
  View.cover_of_tiledL (kernelRun0_B c i arg2 harg2 arg3 harg3 arg4 harg4 arg5 harg5 arg6 harg6 arg7 harg7 arg8 harg8 hc0 x0 x1 x2 xo3 xo4).2.1 S16x768.size (by sl_kernel_rfl) y

/-- What a later step leaves in pooled output window 4's buffer, from what the step before left in the two. -/
def out0_B_4 (c : Dev nD) (i : grid0.Coords) (arg2 : Memref sig .tc .vmem S16x128 .f32) (harg2 : arg2.IsWhole) (arg3 : Memref sig .tc .vmem S16x128x768 .f32) (harg3 : arg3.IsWhole) (arg4 : Memref sig .tc .vmem S16x128x768 .f32) (harg4 : arg4.IsWhole) (arg5 : Memref sig .tc .vmem S16x768 .f32) (harg5 : arg5.IsWhole) (arg6 : Memref sig .tc .vmem S16x768 .f32) (harg6 : arg6.IsWhole) (arg7 : Memref sig .tc .vmem S16x768 .f32) (harg7 : arg7.IsWhole) (arg8 : Memref sig .tc .vmem S16x768 .f32) (harg8 : arg8.IsWhole) (hc0 : ¬cond0_0 i) (x0 : Vec F S16x128 .f32) (x1 : Vec F S16x128x768 .f32) (x2 : Vec F S16x128x768 .f32) (xo3 : Vec F S16x768 .f32) (xo4 : Vec F S16x768 .f32) : Vec F S16x768 .f32 :=
  VO0_4.read (Elt F) (VO0_4.writes (Elt F) VO0_4.junk (kernelRun0_B c i arg2 harg2 arg3 harg3 arg4 harg4 arg5 harg5 arg6 harg6 arg7 harg7 arg8 harg8 hc0 x0 x1 x2 xo3 xo4).2.1)

/-! ## What the outputs hold after each point -/

/-- The four outputs' buffers after the body at position `n` (pooled 1, pooled 2, first-row 1, first-row 2). -/
def outsAt0 (c : Dev nD) : (n : ℕ) → n < cfg0.N → Vec F S16x768 .f32 × Vec F S16x768 .f32 × Vec F S16x768 .f32 × Vec F S16x768 .f32
  | 0, hn => (out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) ((hcond0_0 ⟨0, hn⟩).mpr (Nat.zero_mod _)) (iblk m c 0 ⟨0, hn⟩) (iblk m c 1 ⟨0, hn⟩) (iblk m c 2 ⟨0, hn⟩),
      out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) ((hcond0_0 ⟨0, hn⟩).mpr (Nat.zero_mod _)) (iblk m c 0 ⟨0, hn⟩) (iblk m c 1 ⟨0, hn⟩) (iblk m c 2 ⟨0, hn⟩),
      out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) ((hcond0_0 ⟨0, hn⟩).mpr (Nat.zero_mod _)) (iblk m c 0 ⟨0, hn⟩) (iblk m c 1 ⟨0, hn⟩) (iblk m c 2 ⟨0, hn⟩),
      out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) ((hcond0_0 ⟨0, hn⟩).mpr (Nat.zero_mod _)) (iblk m c 0 ⟨0, hn⟩) (iblk m c 1 ⟨0, hn⟩) (iblk m c 2 ⟨0, hn⟩))
  | n + 1, hn =>
    if h0 : (n + 1) % 4 = 0 then
      (out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) ((hcond0_0 ⟨n + 1, hn⟩).mpr h0) (iblk m c 0 ⟨n + 1, hn⟩) (iblk m c 1 ⟨n + 1, hn⟩) (iblk m c 2 ⟨n + 1, hn⟩),
      out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) ((hcond0_0 ⟨n + 1, hn⟩).mpr h0) (iblk m c 0 ⟨n + 1, hn⟩) (iblk m c 1 ⟨n + 1, hn⟩) (iblk m c 2 ⟨n + 1, hn⟩),
      out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) ((hcond0_0 ⟨n + 1, hn⟩).mpr h0) (iblk m c 0 ⟨n + 1, hn⟩) (iblk m c 1 ⟨n + 1, hn⟩) (iblk m c 2 ⟨n + 1, hn⟩),
      out0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) ((hcond0_0 ⟨n + 1, hn⟩).mpr h0) (iblk m c 0 ⟨n + 1, hn⟩) (iblk m c 1 ⟨n + 1, hn⟩) (iblk m c 2 ⟨n + 1, hn⟩))
    else
      (out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (outsAt0 c n (Nat.lt_of_succ_lt hn)).1 (outsAt0 c n (Nat.lt_of_succ_lt hn)).2.1,
      out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (outsAt0 c n (Nat.lt_of_succ_lt hn)).1 (outsAt0 c n (Nat.lt_of_succ_lt hn)).2.1,
      (outsAt0 c n (Nat.lt_of_succ_lt hn)).2.2.1, (outsAt0 c n (Nat.lt_of_succ_lt hn)).2.2.2)

theorem outsAt0_A (c : Dev nD) (t : Fin cfg0.N) (h0 : t.val % 4 = 0) :
    outsAt0 m c t.val t.isLt = (out0_A_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (iblk m c 0 t) (iblk m c 1 t) (iblk m c 2 t),
      out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (iblk m c 0 t) (iblk m c 1 t) (iblk m c 2 t),
      out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (iblk m c 0 t) (iblk m c 1 t) (iblk m c 2 t),
      out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (iblk m c 0 t) (iblk m c 1 t) (iblk m c 2 t)) := by
  obtain ⟨n, hn⟩ := t
  cases n with
  | zero => exact rfl
  | succ n => exact (dif_pos h0).trans rfl

theorem outsAt0_B (c : Dev nD) (t : Fin cfg0.N) (h0 : ¬t.val % 4 = 0) :
    outsAt0 m c t.val t.isLt = (out0_B_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) (iblk m c 0 t) (iblk m c 1 t) (iblk m c 2 t) (outsAt0 m c (t.val - 1) (Nat.lt_of_le_of_lt (Nat.sub_le _ _) t.isLt)).1 (outsAt0 m c (t.val - 1) (Nat.lt_of_le_of_lt (Nat.sub_le _ _) t.isLt)).2.1,
      out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) (iblk m c 0 t) (iblk m c 1 t) (iblk m c 2 t) (outsAt0 m c (t.val - 1) (Nat.lt_of_le_of_lt (Nat.sub_le _ _) t.isLt)).1 (outsAt0 m c (t.val - 1) (Nat.lt_of_le_of_lt (Nat.sub_le _ _) t.isLt)).2.1,
      (outsAt0 m c (t.val - 1) (Nat.lt_of_le_of_lt (Nat.sub_le _ _) t.isLt)).2.2.1, (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans rfl

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt0 m c t.val t.isLt).1
    | ⟨4, _⟩ => (outsAt0 m c t.val t.isLt).2.1
    | ⟨5, _⟩ => (outsAt0 m c t.val t.isLt).2.2.1
    | ⟨6, _⟩ => (outsAt0 m c t.val t.isLt).2.2.2
  Φ _ := Pipeline.ΦA spec0 c
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (outsAt0 m c t.val t.isLt).1 := by dsimp only [dats]
theorem after0_4 (c : Dev nD) (t : Fin cfg0.N) : (dats m 0 c).after 4 t = (outsAt0 m c t.val t.isLt).2.1 := by dsimp only [dats]
theorem after0_5 (c : Dev nD) (t : Fin cfg0.N) : (dats m 0 c).after 5 t = (outsAt0 m c t.val t.isLt).2.2.1 := by dsimp only [dats]
theorem after0_6 (c : Dev nD) (t : Fin cfg0.N) : (dats m 0 c).after 6 t = (outsAt0 m c t.val t.isLt).2.2.2 := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- At a later step pooled output 3's buffer holds what the step before left: not written back in between. -/
theorem before0_3_B (c : Dev nD) (t : Fin cfg0.N) (h0 : ¬t.val % 4 = 0) (d) :
    (dats m 0 c).before 3 t d = (outsAt0 m c (t.val - 1) (Nat.lt_of_le_of_lt (Nat.sub_le _ _) t.isLt)).1 := by
  have hN : t.val < 64 := lt_of_lt_of_eq t.isLt (show cfg0.N = 64 from N_0)
  rw [Dat.before_out_kept _ 3 rfl t (by omega) (Bool.eq_false_iff.mpr fun h => by have := (flush0_3 _).mp h; dsimp only at this; omega)
    (fun _ => rfl) (fun _ _ => rfl)]
  dsimp only [dats]

/-- At a later step pooled output 4's buffer holds what the step before left: not written back in between. -/
theorem before0_4_B (c : Dev nD) (t : Fin cfg0.N) (h0 : ¬t.val % 4 = 0) (d) :
    (dats m 0 c).before 4 t d = (outsAt0 m c (t.val - 1) (Nat.lt_of_le_of_lt (Nat.sub_le _ _) t.isLt)).2.1 := by
  have hN : t.val < 64 := lt_of_lt_of_eq t.isLt (show cfg0.N = 64 from N_0)
  rw [Dat.before_out_kept _ 4 rfl t (by omega) (Bool.eq_false_iff.mpr fun h => by have := (flush0_4 _).mp h; dsimp only at this; omega)
    (fun _ => rfl) (fun _ _ => rfl)]
  dsimp only [dats]

/-- One step back for first-row output 5: at a later step its buffer holds what the point before left in it. -/
theorem before0_5_step (c : Dev nD) (t t' : Fin cfg0.N) (htt : t.val = t'.val + 1) (h0 : ¬t.val % 4 = 0) (d) :
    (dats m 0 c).before 5 t d = (dats m 0 c).left 5 t' d := by
  have e : (⟨t.val - 1, Nat.lt_of_le_of_lt (Nat.sub_le _ _) t.isLt⟩ : Fin cfg0.N) = t' := Fin.ext (by dsimp only; omega)
  rw [Dat.before_of_pos _ 5 t (by omega) ((cfg0.win 5).fetch_out rfl t), e,
    if_neg (fun h => by have := (flush0_5 t').mp h; omega)]

/-- What a first step leaves in first-row output 5 is what the next point finds. -/
theorem left0_5_A (c : Dev nD) (t' : Fin cfg0.N) (h0 : t'.val % 4 = 0) (d) :
    (dats m 0 c).left 5 t' d = (outsAt0 m c t'.val t'.isLt).2.2.1 := by
  unfold Dat.left
  rw [liveAt0_5_A t' ((hcond0_0 t').mpr h0)]
  dsimp only
  unfold Dat.kept
  rw [Pipeline.fill_of_clip_none 5 _ (fun _ => rfl) d ((dats m 0 c).after 5 t'), Pipeline.Window.fill_cut]
  dsimp only [dats]

/-- Through the idle steps first-row output 5's buffer keeps what the first step stored. -/
theorem before0_5_succ (c : Dev nD) : ∀ (k : ℕ) (hn : k + 1 < cfg0.N) (h0 : ¬(k + 1) % 4 = 0) (d),
    (dats m 0 c).before 5 ⟨k + 1, hn⟩ d = (outsAt0 m c k (Nat.lt_of_succ_lt hn)).2.2.1 := by
  intro k
  induction k with
  | zero =>
    intro hn h0 d
    rw [before0_5_step m c ⟨1, hn⟩ ⟨0, Nat.lt_of_succ_lt hn⟩ rfl h0 d, left0_5_A m c ⟨0, Nat.lt_of_succ_lt hn⟩ (Nat.zero_mod _) d]
  | succ k ih =>
    intro hn h0 d
    rw [before0_5_step m c ⟨k + 1 + 1, hn⟩ ⟨k + 1, Nat.lt_of_succ_lt hn⟩ rfl h0 d]
    by_cases hk : (k + 1) % 4 = 0
    · exact left0_5_A m c ⟨k + 1, Nat.lt_of_succ_lt hn⟩ hk d
    · unfold Dat.left
      rw [idleAt0_5_B ⟨k + 1, Nat.lt_of_succ_lt hn⟩ (fun h => hk ((hcond0_0 _).mp h))]
      dsimp only
      rw [ih (Nat.lt_of_succ_lt hn) hk d, outsAt0_B m c ⟨k + 1, Nat.lt_of_succ_lt hn⟩ hk]
      rfl

theorem before0_5_B (c : Dev nD) (t : Fin cfg0.N) (h0 : ¬t.val % 4 = 0) (d) :
    (dats m 0 c).before 5 t d = (outsAt0 m c (t.val - 1) (Nat.lt_of_le_of_lt (Nat.sub_le _ _) t.isLt)).2.2.1 := by
  obtain ⟨n, hn⟩ := t
  cases n with
  | zero => exact absurd (Nat.zero_mod _) h0
  | succ k => exact before0_5_succ m c k hn h0 d

/-- One step back for first-row output 6: at a later step its buffer holds what the point before left in it. -/
theorem before0_6_step (c : Dev nD) (t t' : Fin cfg0.N) (htt : t.val = t'.val + 1) (h0 : ¬t.val % 4 = 0) (d) :
    (dats m 0 c).before 6 t d = (dats m 0 c).left 6 t' d := by
  have e : (⟨t.val - 1, Nat.lt_of_le_of_lt (Nat.sub_le _ _) t.isLt⟩ : Fin cfg0.N) = t' := Fin.ext (by dsimp only; omega)
  rw [Dat.before_of_pos _ 6 t (by omega) ((cfg0.win 6).fetch_out rfl t), e,
    if_neg (fun h => by have := (flush0_6 t').mp h; omega)]

/-- What a first step leaves in first-row output 6 is what the next point finds. -/
theorem left0_6_A (c : Dev nD) (t' : Fin cfg0.N) (h0 : t'.val % 4 = 0) (d) :
    (dats m 0 c).left 6 t' d = (outsAt0 m c t'.val t'.isLt).2.2.2 := by
  unfold Dat.left
  rw [liveAt0_6_A t' ((hcond0_0 t').mpr h0)]
  dsimp only
  unfold Dat.kept
  rw [Pipeline.fill_of_clip_none 6 _ (fun _ => rfl) d ((dats m 0 c).after 6 t'), Pipeline.Window.fill_cut]
  dsimp only [dats]

/-- Through the idle steps first-row output 6's buffer keeps what the first step stored. -/
theorem before0_6_succ (c : Dev nD) : ∀ (k : ℕ) (hn : k + 1 < cfg0.N) (h0 : ¬(k + 1) % 4 = 0) (d),
    (dats m 0 c).before 6 ⟨k + 1, hn⟩ d = (outsAt0 m c k (Nat.lt_of_succ_lt hn)).2.2.2 := by
  intro k
  induction k with
  | zero =>
    intro hn h0 d
    rw [before0_6_step m c ⟨1, hn⟩ ⟨0, Nat.lt_of_succ_lt hn⟩ rfl h0 d, left0_6_A m c ⟨0, Nat.lt_of_succ_lt hn⟩ (Nat.zero_mod _) d]
  | succ k ih =>
    intro hn h0 d
    rw [before0_6_step m c ⟨k + 1 + 1, hn⟩ ⟨k + 1, Nat.lt_of_succ_lt hn⟩ rfl h0 d]
    by_cases hk : (k + 1) % 4 = 0
    · exact left0_6_A m c ⟨k + 1, Nat.lt_of_succ_lt hn⟩ hk d
    · unfold Dat.left
      rw [idleAt0_6_B ⟨k + 1, Nat.lt_of_succ_lt hn⟩ (fun h => hk ((hcond0_0 _).mp h))]
      dsimp only
      rw [ih (Nat.lt_of_succ_lt hn) hk d, outsAt0_B m c ⟨k + 1, Nat.lt_of_succ_lt hn⟩ hk]
      rfl

theorem before0_6_B (c : Dev nD) (t : Fin cfg0.N) (h0 : ¬t.val % 4 = 0) (d) :
    (dats m 0 c).before 6 t d = (outsAt0 m c (t.val - 1) (Nat.lt_of_le_of_lt (Nat.sub_le _ _) t.isLt)).2.2.2 := by
  obtain ⟨n, hn⟩ := t
  cases n with
  | zero => exact absurd (Nat.zero_mod _) h0
  | succ k => exact before0_6_succ m c k hn h0 d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ (dats m 0 c).leavesExact 5 t
    ∗ (dats m 0 c).leavesExact 6 t)

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3, after0_4]
  have hN : t.val < 64 := lt_of_lt_of_eq t.isLt (show cfg0.N = 64 from N_0)
  by_cases h0 : t.val % 4 = 0
  · rw [show (dats m 0 c).leavesExact 5 t = owns (c : Thread nD τ) (ms0_5 t) fullShare ((dats m 0 c).after 5 t) from by
        unfold Dat.leavesExact; rw [liveAt0_5_A t ((hcond0_0 t).mpr h0)],
      show (dats m 0 c).leavesExact 6 t = owns (c : Thread nD τ) (ms0_6 t) fullShare ((dats m 0 c).after 6 t) from by
        unfold Dat.leavesExact; rw [liveAt0_6_A t ((hcond0_0 t).mpr h0)],
      after0_5, after0_6, outsAt0_A m c t h0]
    dsimp only
    unfold out0_A_3 out0_A_4 out0_A_5 out0_A_6
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((kernelRun0_A c (grid0.coords t) _ _ _ _ _ _ _ _ _ _ _ _ _ _ ((hcond0_0 t).mpr h0) (iblk m c 0 t) (iblk m c 1 t) (iblk m c 2 t)).2.2.2.2 Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    isplitl [H6]; · iexists _; iexact H6
    iintro ⟨H0, H1, H2, ⟨%e3, H3⟩, ⟨%e4, H4⟩, ⟨%e5, H5⟩, ⟨%e6, H6⟩⟩
    isplitl [HΦ]; · iexact HΦ
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover0_A_3 c _ _ _ _ _ _ _ _ _ _ _ _ _ _ _ _ _ _ _)
    isplitl [H4]
    · unfold owns; iexists _; isplitr
      swap; · iexact H4
      ipureintro; exact View.read_writes_of_cover _ _ _ _ _ (cover0_A_4 c _ _ _ _ _ _ _ _ _ _ _ _ _ _ _ _ _ _ _)
    isplitl [H5]
    · unfold owns; iexists _; isplitr
      swap; · iexact H5
      ipureintro; exact View.read_writes_of_cover _ _ _ _ _ (cover0_A_5 c _ _ _ _ _ _ _ _ _ _ _ _ _ _ _ _ _ _ _)
    unfold owns; iexists _; isplitr
    swap; · iexact H6
    ipureintro; exact View.read_writes_of_cover _ _ _ _ _ (cover0_A_6 c _ _ _ _ _ _ _ _ _ _ _ _ _ _ _ _ _ _ _)
  · have hnc : ¬cond0_0 (grid0.coords t) := fun h => h0 ((hcond0_0 t).mp h)
    simp only [before0_3_B m c t h0, before0_4_B m c t h0]
    rw [outsAt0_B m c t h0]
    dsimp only
    unfold out0_B_3 out0_B_4
    by_cases h3 : t.val % 4 = 3
    · rw [show (dats m 0 c).leavesExact 5 t = owns (c : Thread nD τ) (ms0_5 t) fullShare ((dats m 0 c).after 5 t) from by
          unfold Dat.leavesExact; rw [idleAt0_5_B t hnc, (flush0_5 t).mpr h3],
        show (dats m 0 c).leavesExact 6 t = owns (c : Thread nD τ) (ms0_6 t) fullShare ((dats m 0 c).after 6 t) from by
          unfold Dat.leavesExact; rw [idleAt0_6_B t hnc, (flush0_6 t).mpr h3],
        after0_5, after0_6, outsAt0_B m c t h0]
      dsimp only
      simp only [before0_5_B m c t h0, before0_6_B m c t h0]
      iintro ⟨HΦ, Ho, ⟨%d0, H0⟩, ⟨%d1, H1⟩, ⟨%d2, H2⟩, ⟨%d3, H3⟩, ⟨%d4, H4⟩, ⟨%d5, H5⟩, ⟨%d6, H6⟩⟩
      iapply ((kernelRun0_B c (grid0.coords t) _ _ _ _ _ _ _ _ _ _ (ms0_5 t) (hs0_5 t) (ms0_6 t) (hs0_6 t) hnc (iblk m c 0 t) (iblk m c 1 t) (iblk m c 2 t) _ _).2.2 Set.univ _)
      isplitl [H0]; · iexact H0
      isplitl [H1]; · iexact H1
      isplitl [H2]; · iexact H2
      isplitl [H3]; · iexact H3
      isplitl [H4]; · iexact H4
      iintro ⟨H0, H1, H2, ⟨%e3, H3⟩, ⟨%e4, H4⟩⟩
      isplitl [HΦ]; · iexact HΦ
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cover0_B_3 c _ _ _ _ _ _ _ _ _ _ _ _ _ _ _ _ _ _ _ _ _)
      isplitl [H4]
      · unfold owns; iexists _; isplitr
        swap; · iexact H4
        ipureintro; exact View.read_writes_of_cover _ _ _ _ _ (cover0_B_4 c _ _ _ _ _ _ _ _ _ _ _ _ _ _ _ _ _ _ _ _ _)
      isplitl [H5]; · iexact H5
      iexact H6
    · have hf5 : (cfg0.win 5).flush t = false := Bool.eq_false_iff.mpr fun h => h3 ((flush0_5 t).mp h)
      have hf6 : (cfg0.win 6).flush t = false := Bool.eq_false_iff.mpr fun h => h3 ((flush0_6 t).mp h)
      rw [Dat.leavesExact_idle (dats m 0 c) 5 t (idleAt0_5_B t hnc) hf5, Dat.leavesExact_idle (dats m 0 c) 6 t (idleAt0_6_B t hnc) hf6]
      iintro ⟨HΦ, Ho, ⟨%d0, H0⟩, ⟨%d1, H1⟩, ⟨%d2, H2⟩, ⟨%d3, H3⟩, ⟨%d4, H4⟩, ⟨%d5, H5⟩, ⟨%d6, H6⟩⟩
      iapply ((kernelRun0_B c (grid0.coords t) _ _ _ _ _ _ _ _ _ _ (ms0_5 t) (hs0_5 t) (ms0_6 t) (hs0_6 t) hnc (iblk m c 0 t) (iblk m c 1 t) (iblk m c 2 t) _ _).2.2 Set.univ _)
      isplitl [H0]; · iexact H0
      isplitl [H1]; · iexact H1
      isplitl [H2]; · iexact H2
      isplitl [H3]; · iexact H3
      isplitl [H4]; · iexact H4
      iintro ⟨H0, H1, H2, ⟨%e3, H3⟩, ⟨%e4, H4⟩⟩
      isplitl [HΦ]; · iexact HΦ
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cover0_B_3 c _ _ _ _ _ _ _ _ _ _ _ _ _ _ _ _ _ _ _ _ _)
      isplitl [H4]
      · unfold owns; iexists _; isplitr
        swap; · iexact H4
        ipureintro; exact View.read_writes_of_cover _ _ _ _ _ (cover0_B_4 c _ _ _ _ _ _ _ _ _ _ _ _ _ _ _ _ _ _ _ _ _)
      isplitl [H5]; · iexists _; iexact H5
      iexists _; iexact H6

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
set_option maxHeartbeats 8000000 in
/-- Every weakly fair execution of @main terminates, faulting nowhere, with every staged array at what the write-backs
    made of it and every other unscoped buffer as the host operations after the call leave it. -/
theorem run_main : θ_run defs (onTc (τ := τ) (main (F := F))) (s₀ m ρ)
    (Pipeline.FramePost cfgs (dats m) 0 (Pipeline.afterTail₀ cfgs (dats m) 0 (V0 m) [hostOps1, hostOps1_1, hostOps1_2])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1, hostOps1_1, hostOps1_2]) (hsub := sfx_sub) (hfresh := sfx_fresh) (hkeep := sfx_keeps)
    (hmain := hmain m Variants.none) (hA := A_eq m) (hΦ := fun _ _ => rfl)

/-- The arguments end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ (dats m) (A_eq m) (run_main m ρ)

end Cert.Kernel.Frame

end
-- ==== Proof.KernelIdealKit.lean ====
/-
  The frame of the kernel program, first part: everything the runs of the kernel body are stated over.

  @main is 39 host operations, the one Pallas call on a 16 × 4 grid, and 54 host operations.  The call stages seven
  windows: the weight rows [16,128] of the array the host operations compute, the two activations [16,128,768], and four
  outputs [16,768] whose block index is the batch tile alone, so each output block stays in its staging buffer over the
  four steps along the middle axis and is written back after the last of them.

  Here: the buffer contents when the call is entered (the host operations before it applied to the launch memory);
  @main split around the call; the facts the launch theorem asks of the operations after it (they touch no scoped
  buffer, allocate nothing, write no staged array); that no host operation writes an argument; a window's block read off
  its array; that an input's staging buffer holds its block at every grid point; the frame statement read off the launch
  theorem's post; the body's one branch condition (first step along the middle axis) in closed form over the grid;
  where the two first-row outputs are idle and where the outputs are written back.
-/
import proofs.«413436_j65730179498319_1_alg».proof.Proof.Gen.KernelIdeal.Launch
import proofs.«413436_j65730179498319_1_alg».proof.Proof.Gen.KernelIdeal.Skeleton
import proofs.«413436_j65730179498319_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the call -/

/-- Core `c`'s buffer contents when the call is entered: the host operations before it applied to the launch memory. -/
abbrev V0 (c : Dev nD) : Valuation τ sig (Elt F) :=
  StableHlo.after (List.flatten [hostOps0, hostOps0_1, hostOps0_2]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor

set_option maxHeartbeats 8000000 in
/-- @main is the host operations before the call, the call, and the host operations after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1, StableHlo.seq hostOps1_1, StableHlo.seq hostOps1_2]) :=
  Pipeline.hmain_around cfgs 0 defs₀ 𝒱₀ m main [hostOps0, hostOps0_1, hostOps0_2] [hostOps1, hostOps1_1, hostOps1_2]
    (by simp only [List.Forall]; exact ⟨hostOps0_sub, hostOps0_1_sub, hostOps0_2_sub⟩)
    (by simp only [List.Forall]; exact ⟨hostOps0_fresh, hostOps0_1_fresh, hostOps0_2_fresh⟩) main_chain

/-- The operations after the call touch unscoped TensorCore buffers only. -/
theorem sfx_sub : ∀ ops ∈ ([hostOps1, hostOps1_1, hostOps1_2] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
/-- They allocate nothing. -/
theorem sfx_fresh : ∀ ops ∈ ([hostOps1, hostOps1_1, hostOps1_2] : List (List (HloOp τ sig (Elt F)))), ∀ op ∈ ops, op.fresh = ∅ := by
  intro ops hops op hop
  simp only [List.mem_cons, List.mem_nil_iff, or_false] at hops
  rcases hops with rfl | rfl | rfl
  · exact (List.forall_iff_forall_mem.mp hostOps1_fresh) op hop
  · exact (List.forall_iff_forall_mem.mp hostOps1_1_fresh) op hop
  · exact (List.forall_iff_forall_mem.mp hostOps1_2_fresh) op hop
set_option maxHeartbeats 4000000 in
/-- And each writes only its own result buffer, which is none of the seven staged arrays. -/
theorem sfx_keeps : ∀ ops ∈ ([hostOps1, hostOps1_1, hostOps1_2] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl | rfl | rfl
  · simp only [hostOps1, List.mem_cons, List.mem_nil_iff, or_false] at hop
    rcases hop with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)
  · simp only [hostOps1_1, List.mem_cons, List.mem_nil_iff, or_false] at hop
    rcases hop with rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)
  · simp only [hostOps1_2, List.mem_cons, List.mem_nil_iff, or_false] at hop
    rcases hop with rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-! ## No host operation writes an argument -/

set_option maxHeartbeats 1000000 in
/-- The call finds argument 0 as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 1000000 in
/-- The call finds argument 1 as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 1000000 in
/-- The call finds argument 2 as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 1000000 in
/-- The call finds argument 3 as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 1000000 in
/-- The call finds argument 4 as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 1000000 in
/-- The call finds argument 5 as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 1000000 in
/-- The call finds argument 6 as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 1000000 in
/-- The call finds argument 7 as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 1000000 in
/-- The call finds argument 8 as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, hostOps0_1, hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 1000000 in
/-- Argument 2, which no window stages, ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, hostOps1_1, hostOps1_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

set_option maxHeartbeats 1000000 in
/-- Argument 3, which no window stages, ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, hostOps1_1, hostOps1_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

set_option maxHeartbeats 1000000 in
/-- Argument 4, which no window stages, ends as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, hostOps1_1, hostOps1_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c

set_option maxHeartbeats 1000000 in
/-- Argument 5, which no window stages, ends as launched. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, hostOps1_1, hostOps1_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c

set_option maxHeartbeats 1000000 in
/-- Argument 6, which no window stages, ends as launched. -/
theorem W_main_arg6 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, hostOps1_1, hostOps1_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c

set_option maxHeartbeats 1000000 in
/-- Argument 7, which no window stages, ends as launched. -/
theorem W_main_arg7 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2] c main_arg7 = m ((c : Thread nD τ).loc main_arg7) := by
  unfold Pipeline.afterTail₀
  rw [StableHlo.after_of_forall_not_mem (b := Proc.devRef .tc main_arg7) _ _ (List.forall_iff_forall_mem.mp (by
      simp only [hostOps1, hostOps1_1, hostOps1_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg7 (by exact (by decide : ∀ w, Pipeline.arrRef spec0 w ≠ main_arg7))]
  exact V_main_arg7 m c

set_option maxHeartbeats 1000000 in
/-- Argument 8, which no window stages, ends as launched. -/
theorem W_main_arg8 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2] c main_arg8 = m ((c : Thread nD τ).loc main_arg8) := by
  unfold Pipeline.afterTail₀
  rw [StableHlo.after_of_forall_not_mem (b := Proc.devRef .tc main_arg8) _ _ (List.forall_iff_forall_mem.mp (by
      simp only [hostOps1, hostOps1_1, hostOps1_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg8 (by exact (by decide : ∀ w, Pipeline.arrRef spec0 w ≠ main_arg8))]
  exact V_main_arg8 m c

/-! ## The windows' blocks -/

/-- Window `w`'s block at point `t`, read off its array as the call finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's staging buffer holds its block at every point, fetched there or not. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's staging buffer holds its block at every point, fetched there or not. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame statement from the launch theorem's post -/

/-- The two staged activations end at their entry contents (an input array is never written), the other arguments by
    the post's clause on the buffers no window stages. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1, hostOps1_1, hostOps1_2]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨((h c).1 1).trans (((dats 0 c).arrAt_in 1 rfl _).trans ((hA c 1).trans (V_main_arg0 m c))),
    ((h c).1 2).trans (((dats 0 c).arrAt_in 2 rfl _).trans ((hA c 2).trans (V_main_arg1 m c))),
    ((h c).2 main_arg2 (Pipeline.mem_restRefs_of main_arg2 (by decide) (by decide))).trans (W_main_arg2 m dats c),
    ((h c).2 main_arg3 (Pipeline.mem_restRefs_of main_arg3 (by decide) (by decide))).trans (W_main_arg3 m dats c),
    ((h c).2 main_arg4 (Pipeline.mem_restRefs_of main_arg4 (by decide) (by decide))).trans (W_main_arg4 m dats c),
    ((h c).2 main_arg5 (Pipeline.mem_restRefs_of main_arg5 (by decide) (by decide))).trans (W_main_arg5 m dats c),
    ((h c).2 main_arg6 (Pipeline.mem_restRefs_of main_arg6 (by decide) (by decide))).trans (W_main_arg6 m dats c),
    ((h c).2 main_arg7 (Pipeline.mem_restRefs_of main_arg7 (by decide) (by decide))).trans (W_main_arg7 m dats c),
    ((h c).2 main_arg8 (Pipeline.mem_restRefs_of main_arg8 (by decide) (by decide))).trans (W_main_arg8 m dats c)⟩) h

/-! ## The body's branch condition -/

/-- The body's one condition: the step along the middle axis is the first. -/
abbrev cond0_0 (i : grid0.Coords) : Prop := k0_cond1 i = 1#1
/-- It holds at the points ≡ 0 (mod 4). -/
theorem hcond0_0 : ∀ t : Fin cfg0.N, cond0_0 (grid0.coords t) ↔ t.val % 4 = 0 :=
  (by decide +kernel : ∀ t : Fin grid0.N, cond0_0 (grid0.coords t) ↔ t.val % 4 = 0)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel

/-- Where the branch is taken the body stores window 5's block whole. -/
theorem liveAt0_5_A : ∀ t : Fin cfg0.N, cond0_0 (grid0.coords t) → cfg0.idle 5 (grid0.coords t) = false := by decide +kernel
/-- Elsewhere it stores nothing into it. -/
theorem idleAt0_5_B : ∀ t : Fin cfg0.N, ¬cond0_0 (grid0.coords t) → cfg0.idle 5 (grid0.coords t) = true := by decide +kernel
/-- Where the branch is taken the body stores window 6's block whole. -/
theorem liveAt0_6_A : ∀ t : Fin cfg0.N, cond0_0 (grid0.coords t) → cfg0.idle 6 (grid0.coords t) = false := by decide +kernel
/-- Elsewhere it stores nothing into it. -/
theorem idleAt0_6_B : ∀ t : Fin cfg0.N, ¬cond0_0 (grid0.coords t) → cfg0.idle 6 (grid0.coords t) = true := by decide +kernel

/-! ## The staging memrefs -/

/-- One staging buffer of output window 3, through which its contents are stated. -/
abbrev VO0_3 : View sig .tc .vmem S16x768 .f32 := (Memref.whole cc0_stg3_0 : Memref sig .tc .vmem S16x768 .f32).view
/-- One staging buffer of output window 4, through which its contents are stated. -/
abbrev VO0_4 : View sig .tc .vmem S16x768 .f32 := (Memref.whole cc0_stg4_0 : Memref sig .tc .vmem S16x768 .f32).view
/-- One staging buffer of output window 5, through which its contents are stated. -/
abbrev VO0_5 : View sig .tc .vmem S16x768 .f32 := (Memref.whole cc0_stg5_0 : Memref sig .tc .vmem S16x768 .f32).view
/-- One staging buffer of output window 6, through which its contents are stated. -/
abbrev VO0_6 : View sig .tc .vmem S16x768 .f32 := (Memref.whole cc0_stg6_0 : Memref sig .tc .vmem S16x768 .f32).view

abbrev ms0_0 (t : Fin cfg0.N) : Memref sig .tc .vmem S16x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S16x128x768 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S16x128x768 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S16x768 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S16x768 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S16x768 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S16x768 .f32 := win0_6.stage (cfg0.slots t 6)
abbrev hs0_6 (t : Fin cfg0.N) : (ms0_6 t).IsWhole := hstage0_6 ((cfg0.slots t 6).cast nbuf0_6)

end Cert.KernelIdeal.Frame

end
-- ==== Proof.KernelIdealRunA.lean ====
/-
  The kernel body at a point where the step along the middle axis is the first.
  There it zeroes the two pooled outputs, stores row 0 of each activation block into the two first-row outputs, and
  then adds the weighted sum over the block's 128 rows to each pooled output.  From the three input buffers at their
  contents and the four output buffers at anything, the body runs to the inputs as they were and each output buffer
  with the pieces its stores wrote (found by running the body).
-/
import proofs.«413436_j65730179498319_1_alg».proof.Proof.KernelIdealKit

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_A (c : Dev nD) (i : grid0.Coords) (arg2 : Memref sig .tc .vmem S16x128 .f32) (harg2 : arg2.IsWhole) (arg3 : Memref sig .tc .vmem S16x128x768 .f32) (harg3 : arg3.IsWhole) (arg4 : Memref sig .tc .vmem S16x128x768 .f32) (harg4 : arg4.IsWhole) (arg5 : Memref sig .tc .vmem S16x768 .f32) (harg5 : arg5.IsWhole) (arg6 : Memref sig .tc .vmem S16x768 .f32) (harg6 : arg6.IsWhole) (arg7 : Memref sig .tc .vmem S16x768 .f32) (harg7 : arg7.IsWhole) (arg8 : Memref sig .tc .vmem S16x768 .f32) (harg8 : arg8.IsWhole) (hc0 : cond0_0 i)
    (x0 : Vec F S16x128 .f32) (x1 : Vec F S16x128x768 .f32) (x2 : Vec F S16x128x768 .f32) :
    Σ' (L3 : List (View.Piece (Elt F) S16x768 .f32)) (L4 : List (View.Piece (Elt F) S16x768 .f32)) (L5 : List (View.Piece (Elt F) S16x768 .f32)), { L6 : List (View.Piece (Elt F) S16x768 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6)) -∗ K ⟨⟩))
          ⊢ wp frame (wpE (defs₀ (F := F)) Variants.none c none) E (cc0__gather_pool_kernel i arg2 harg2 arg3 harg3 arg4 harg4 arg5 harg5 arg6 harg6 arg7 harg7 arg8 harg8) K } := by
  refine ⟨?_, ?_, ?_, ?_, fun E K => ?run⟩
  case run =>
    simp only [cc0__gather_pool_kernel_eq_skeleton]; unfold cc0__gather_pool_kernel_skel
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, Hk⟩
    obtain rfl := harg2.eq_unread hf0; obtain rfl := harg3.eq_unread hf1; obtain rfl := harg4.eq_unread hf2
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    isplitl [H5]; · iexists _; iexact H5
    iexists _; iexact H6

end Cert.KernelIdeal.Frame

end
-- ==== Proof.KernelIdealRunB.lean ====
/-
  The kernel body at a point where the step along the middle axis is not the first.
  There it only adds the weighted sum over the block's 128 rows to each pooled output, reading what the step before
  left in their buffers, and touches neither first-row output.  From the three input buffers at their contents and the
  two pooled buffers at their running contents the body runs to the inputs as they were and the two pooled buffers with
  the pieces its stores wrote.
-/
import proofs.«413436_j65730179498319_1_alg».proof.Proof.KernelIdealRunA

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_B (c : Dev nD) (i : grid0.Coords) (arg2 : Memref sig .tc .vmem S16x128 .f32) (harg2 : arg2.IsWhole) (arg3 : Memref sig .tc .vmem S16x128x768 .f32) (harg3 : arg3.IsWhole) (arg4 : Memref sig .tc .vmem S16x128x768 .f32) (harg4 : arg4.IsWhole) (arg5 : Memref sig .tc .vmem S16x768 .f32) (harg5 : arg5.IsWhole) (arg6 : Memref sig .tc .vmem S16x768 .f32) (harg6 : arg6.IsWhole) (arg7 : Memref sig .tc .vmem S16x768 .f32) (harg7 : arg7.IsWhole) (arg8 : Memref sig .tc .vmem S16x768 .f32) (harg8 : arg8.IsWhole) (hc0 : ¬cond0_0 i)
    (x0 : Vec F S16x128 .f32) (x1 : Vec F S16x128x768 .f32) (x2 : Vec F S16x128x768 .f32) (xo3 : Vec F S16x768 .f32) (xo4 : Vec F S16x768 .f32) :
    Σ' (L3 : List (View.Piece (Elt F) S16x768 .f32)), { L4 : List (View.Piece (Elt F) S16x768 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare xo3 ∗ owns (c : Thread nD τ) arg6 fullShare xo4
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4)) -∗ K ⟨⟩))
          ⊢ wp frame (wpE (defs₀ (F := F)) Variants.none c none) E (cc0__gather_pool_kernel i arg2 harg2 arg3 harg3 arg4 harg4 arg5 harg5 arg6 harg6 arg7 harg7 arg8 harg8) K } := by
  refine ⟨?_, ?_, fun E K => ?run⟩
  case run =>
    simp only [cc0__gather_pool_kernel_eq_skeleton]; unfold cc0__gather_pool_kernel_skel
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := harg2.eq_unread hf0; obtain rfl := harg3.eq_unread hf1; obtain rfl := harg4.eq_unread hf2
    obtain rfl := harg5.eq_unread hf3; obtain rfl := harg6.eq_unread hf4
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact H4

end Cert.KernelIdeal.Frame

end
-- ==== Proof.KernelIdealFrame.lean ====
/-
  The frame of the kernel program, last part.

  What each output's staging buffer holds after the body, case by case (the pieces the body's stores wrote cover the
  block, so the buffer holds exactly what they say) and point by point: at a first step along the middle axis all four
  outputs are stored afresh; at a later step the two pooled outputs are rewritten from what the step before left and the
  two first-row outputs keep what the first step stored.  With that as the proof data: an output's buffer holds at a
  later step what the step before left (it is not written back in between; through the idle steps for the first-row
  outputs); the body does what the proof data say at every point; the whole program runs to the end with every staged
  array at what the write-backs made of it and every other buffer as the host operations leave it; and the arguments end
  unchanged.
-/
import proofs.«413436_j65730179498319_1_alg».proof.Proof.KernelIdealRunB

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves in the outputs -/

theorem cover0_A_3 (c : Dev nD) (i : grid0.Coords) (arg2 : Memref sig .tc .vmem S16x128 .f32) (harg2 : arg2.IsWhole) (arg3 : Memref sig .tc .vmem S16x128x768 .f32) (harg3 : arg3.IsWhole) (arg4 : Memref sig .tc .vmem S16x128x768 .f32) (harg4 : arg4.IsWhole) (arg5 : Memref sig .tc .vmem S16x768 .f32) (harg5 : arg5.IsWhole) (arg6 : Memref sig .tc .vmem S16x768 .f32) (harg6 : arg6.IsWhole) (arg7 : Memref sig .tc .vmem S16x768 .f32) (harg7 : arg7.IsWhole) (arg8 : Memref sig .tc .vmem S16x768 .f32) (harg8 : arg8.IsWhole) (hc0 : cond0_0 i) (x0 : Vec F S16x128 .f32) (x1 : Vec F S16x128x768 .f32) (x2 : Vec F S16x128x768 .f32) (y : S16x768.Idx) :
    ∃ pc ∈ (kernelRun0_A c i arg2 harg2 arg3 harg3 arg4 harg4 arg5 harg5 arg6 harg6 arg7 harg7 arg8 harg8 hc0 x0 x1 x2).1, y ∈ pc.1.set :=
  View.cover_of_tiledL (kernelRun0_A c i arg2 harg2 arg3 harg3 arg4 harg4 arg5 harg5 arg6 harg6 arg7 harg7 arg8 harg8 hc0 x0 x1 x2).1 S16x768.size (by sl_kernel_rfl) y

/-- What a first step leaves in output window 3's buffer. -/
def out0_A_3 (c : Dev nD) (i : grid0.Coords) (arg2 : Memref sig .tc .vmem S16x128 .f32) (harg2 : arg2.IsWhole) (arg3 : Memref sig .tc .vmem S16x128x768 .f32) (harg3 : arg3.IsWhole) (arg4 : Memref sig .tc .vmem S16x128x768 .f32) (harg4 : arg4.IsWhole) (arg5 : Memref sig .tc .vmem S16x768 .f32) (harg5 : arg5.IsWhole) (arg6 : Memref sig .tc .vmem S16x768 .f32) (harg6 : arg6.IsWhole) (arg7 : Memref sig .tc .vmem S16x768 .f32) (harg7 : arg7.IsWhole) (arg8 : Memref sig .tc .vmem S16x768 .f32) (harg8 : arg8.IsWhole) (hc0 : cond0_0 i) (x0 : Vec F S16x128 .f32) (x1 : Vec F S16x128x768 .f32) (x2 : Vec F S16x128x768 .f32) : Vec F S16x768 .f32 :=
  VO0_3.read (Elt F) (VO0_3.writes (Elt F) VO0_3.junk (kernelRun0_A c i arg2 harg2 arg3 harg3 arg4 harg4 arg5 harg5 arg6 harg6 arg7 harg7 arg8 harg8 hc0 x0 x1 x2).1)

theorem cover0_A_4 (c : Dev nD) (i : grid0.Coords) (arg2 : Memref sig .tc .vmem S16x128 .f32) (harg2 : arg2.IsWhole) (arg3 : Memref sig .tc .vmem S16x128x768 .f32) (harg3 : arg3.IsWhole) (arg4 : Memref sig .tc .vmem S16x128x768 .f32) (harg4 : arg4.IsWhole) (arg5 : Memref sig .tc .vmem S16x768 .f32) (harg5 : arg5.IsWhole) (arg6 : Memref sig .tc .vmem S16x768 .f32) (harg6 : arg6.IsWhole) (arg7 : Memref sig .tc .vmem S16x768 .f32) (harg7 : arg7.IsWhole) (arg8 : Memref sig .tc .vmem S16x768 .f32) (harg8 : arg8.IsWhole) (hc0 : cond0_0 i) (x0 : Vec F S16x128 .f32) (x1 : Vec F S16x128x768 .f32) (x2 : Vec F S16x128x768 .f32) (y : S16x768.Idx) :
    ∃ pc ∈ (kernelRun0_A c i arg2 harg2 arg3 harg3 arg4 harg4 arg5 harg5 arg6 harg6 arg7 harg7 arg8 harg8 hc0 x0 x1 x2).2.1, y ∈ pc.1.set :=
  View.cover_of_tiledL (kernelRun0_A c i arg2 harg2 arg3 harg3 arg4 harg4 arg5 harg5 arg6 harg6 arg7 harg7 arg8 harg8 hc0 x0 x1 x2).2.1 S16x768.size (by sl_kernel_rfl) y

/-- What a first step leaves in output window 4's buffer. -/
def out0_A_4 (c : Dev nD) (i : grid0.Coords) (arg2 : Memref sig .tc .vmem S16x128 .f32) (harg2 : arg2.IsWhole) (arg3 : Memref sig .tc .vmem S16x128x768 .f32) (harg3 : arg3.IsWhole) (arg4 : Memref sig .tc .vmem S16x128x768 .f32) (harg4 : arg4.IsWhole) (arg5 : Memref sig .tc .vmem S16x768 .f32) (harg5 : arg5.IsWhole) (arg6 : Memref sig .tc .vmem S16x768 .f32) (harg6 : arg6.IsWhole) (arg7 : Memref sig .tc .vmem S16x768 .f32) (harg7 : arg7.IsWhole) (arg8 : Memref sig .tc .vmem S16x768 .f32) (harg8 : arg8.IsWhole) (hc0 : cond0_0 i) (x0 : Vec F S16x128 .f32) (x1 : Vec F S16x128x768 .f32) (x2 : Vec F S16x128x768 .f32) : Vec F S16x768 .f32 :=
  VO0_4.read (Elt F) (VO0_4.writes (Elt F) VO0_4.junk (kernelRun0_A c i arg2 harg2 arg3 harg3 arg4 harg4 arg5 harg5 arg6 harg6 arg7 harg7 arg8 harg8 hc0 x0 x1 x2).2.1)

theorem cover0_A_5 (c : Dev nD) (i : grid0.Coords) (arg2 : Memref sig .tc .vmem S16x128 .f32) (harg2 : arg2.IsWhole) (arg3 : Memref sig .tc .vmem S16x128x768 .f32) (harg3 : arg3.IsWhole) (arg4 : Memref sig .tc .vmem S16x128x768 .f32) (harg4 : arg4.IsWhole) (arg5 : Memref sig .tc .vmem S16x768 .f32) (harg5 : arg5.IsWhole) (arg6 : Memref sig .tc .vmem S16x768 .f32) (harg6 : arg6.IsWhole) (arg7 : Memref sig .tc .vmem S16x768 .f32) (harg7 : arg7.IsWhole) (arg8 : Memref sig .tc .vmem S16x768 .f32) (harg8 : arg8.IsWhole) (hc0 : cond0_0 i) (x0 : Vec F S16x128 .f32) (x1 : Vec F S16x128x768 .f32) (x2 : Vec F S16x128x768 .f32) (y : S16x768.Idx) :
    ∃ pc ∈ (kernelRun0_A c i arg2 harg2 arg3 harg3 arg4 harg4 arg5 harg5 arg6 harg6 arg7 harg7 arg8 harg8 hc0 x0 x1 x2).2.2.1, y ∈ pc.1.set :=
  View.cover_of_tiledL (kernelRun0_A c i arg2 harg2 arg3 harg3 arg4 harg4 arg5 harg5 arg6 harg6 arg7 harg7 arg8 harg8 hc0 x0 x1 x2).2.2.1 S16x768.size (by sl_kernel_rfl) y

/-- What a first step leaves in output window 5's buffer. -/
def out0_A_5 (c : Dev nD) (i : grid0.Coords) (arg2 : Memref sig .tc .vmem S16x128 .f32) (harg2 : arg2.IsWhole) (arg3 : Memref sig .tc .vmem S16x128x768 .f32) (harg3 : arg3.IsWhole) (arg4 : Memref sig .tc .vmem S16x128x768 .f32) (harg4 : arg4.IsWhole) (arg5 : Memref sig .tc .vmem S16x768 .f32) (harg5 : arg5.IsWhole) (arg6 : Memref sig .tc .vmem S16x768 .f32) (harg6 : arg6.IsWhole) (arg7 : Memref sig .tc .vmem S16x768 .f32) (harg7 : arg7.IsWhole) (arg8 : Memref sig .tc .vmem S16x768 .f32) (harg8 : arg8.IsWhole) (hc0 : cond0_0 i) (x0 : Vec F S16x128 .f32) (x1 : Vec F S16x128x768 .f32) (x2 : Vec F S16x128x768 .f32) : Vec F S16x768 .f32 :=
  VO0_5.read (Elt F) (VO0_5.writes (Elt F) VO0_5.junk (kernelRun0_A c i arg2 harg2 arg3 harg3 arg4 harg4 arg5 harg5 arg6 harg6 arg7 harg7 arg8 harg8 hc0 x0 x1 x2).2.2.1)

theorem cover0_A_6 (c : Dev nD) (i : grid0.Coords) (arg2 : Memref sig .tc .vmem S16x128 .f32) (harg2 : arg2.IsWhole) (arg3 : Memref sig .tc .vmem S16x128x768 .f32) (harg3 : arg3.IsWhole) (arg4 : Memref sig .tc .vmem S16x128x768 .f32) (harg4 : arg4.IsWhole) (arg5 : Memref sig .tc .vmem S16x768 .f32) (harg5 : arg5.IsWhole) (arg6 : Memref sig .tc .vmem S16x768 .f32) (harg6 : arg6.IsWhole) (arg7 : Memref sig .tc .vmem S16x768 .f32) (harg7 : arg7.IsWhole) (arg8 : Memref sig .tc .vmem S16x768 .f32) (harg8 : arg8.IsWhole) (hc0 : cond0_0 i) (x0 : Vec F S16x128 .f32) (x1 : Vec F S16x128x768 .f32) (x2 : Vec F S16x128x768 .f32) (y : S16x768.Idx) :
    ∃ pc ∈ (kernelRun0_A c i arg2 harg2 arg3 harg3 arg4 harg4 arg5 harg5 arg6 harg6 arg7 harg7 arg8 harg8 hc0 x0 x1 x2).2.2.2.1, y ∈ pc.1.set :=
  View.cover_of_tiledL (kernelRun0_A c i arg2 harg2 arg3 harg3 arg4 harg4 arg5 harg5 arg6 harg6 arg7 harg7 arg8 harg8 hc0 x0 x1 x2).2.2.2.1 S16x768.size (by sl_kernel_rfl) y

/-- What a first step leaves in output window 6's buffer. -/
def out0_A_6 (c : Dev nD) (i : grid0.Coords) (arg2 : Memref sig .tc .vmem S16x128 .f32) (harg2 : arg2.IsWhole) (arg3 : Memref sig .tc .vmem S16x128x768 .f32) (harg3 : arg3.IsWhole) (arg4 : Memref sig .tc .vmem S16x128x768 .f32) (harg4 : arg4.IsWhole) (arg5 : Memref sig .tc .vmem S16x768 .f32) (harg5 : arg5.IsWhole) (arg6 : Memref sig .tc .vmem S16x768 .f32) (harg6 : arg6.IsWhole) (arg7 : Memref sig .tc .vmem S16x768 .f32) (harg7 : arg7.IsWhole) (arg8 : Memref sig .tc .vmem S16x768 .f32) (harg8 : arg8.IsWhole) (hc0 : cond0_0 i) (x0 : Vec F S16x128 .f32) (x1 : Vec F S16x128x768 .f32) (x2 : Vec F S16x128x768 .f32) : Vec F S16x768 .f32 :=
  VO0_6.read (Elt F) (VO0_6.writes (Elt F) VO0_6.junk (kernelRun0_A c i arg2 harg2 arg3 harg3 arg4 harg4 arg5 harg5 arg6 harg6 arg7 harg7 arg8 harg8 hc0 x0 x1 x2).2.2.2.1)

theorem cover0_B_3 (c : Dev nD) (i : grid0.Coords) (arg2 : Memref sig .tc .vmem S16x128 .f32) (harg2 : arg2.IsWhole) (arg3 : Memref sig .tc .vmem S16x128x768 .f32) (harg3 : arg3.IsWhole) (arg4 : Memref sig .tc .vmem S16x128x768 .f32) (harg4 : arg4.IsWhole) (arg5 : Memref sig .tc .vmem S16x768 .f32) (harg5 : arg5.IsWhole) (arg6 : Memref sig .tc .vmem S16x768 .f32) (harg6 : arg6.IsWhole) (arg7 : Memref sig .tc .vmem S16x768 .f32) (harg7 : arg7.IsWhole) (arg8 : Memref sig .tc .vmem S16x768 .f32) (harg8 : arg8.IsWhole) (hc0 : ¬cond0_0 i) (x0 : Vec F S16x128 .f32) (x1 : Vec F S16x128x768 .f32) (x2 : Vec F S16x128x768 .f32) (xo3 : Vec F S16x768 .f32) (xo4 : Vec F S16x768 .f32) (y : S16x768.Idx) :
    ∃ pc ∈ (kernelRun0_B c i arg2 harg2 arg3 harg3 arg4 harg4 arg5 harg5 arg6 harg6 arg7 harg7 arg8 harg8 hc0 x0 x1 x2 xo3 xo4).1, y ∈ pc.1.set :=
  View.cover_of_tiledL (kernelRun0_B c i arg2 harg2 arg3 harg3 arg4 harg4 arg5 harg5 arg6 harg6 arg7 harg7 arg8 harg8 hc0 x0 x1 x2 xo3 xo4).1 S16x768.size (by sl_kernel_rfl) y

/-- What a later step leaves in pooled output window 3's buffer, from what the step before left in the two. -/
def out0_B_3 (c : Dev nD) (i : grid0.Coords) (arg2 : Memref sig .tc .vmem S16x128 .f32) (harg2 : arg2.IsWhole) (arg3 : Memref sig .tc .vmem S16x128x768 .f32) (harg3 : arg3.IsWhole) (arg4 : Memref sig .tc .vmem S16x128x768 .f32) (harg4 : arg4.IsWhole) (arg5 : Memref sig .tc .vmem S16x768 .f32) (harg5 : arg5.IsWhole) (arg6 : Memref sig .tc .vmem S16x768 .f32) (harg6 : arg6.IsWhole) (arg7 : Memref sig .tc .vmem S16x768 .f32) (harg7 : arg7.IsWhole) (arg8 : Memref sig .tc .vmem S16x768 .f32) (harg8 : arg8.IsWhole) (hc0 : ¬cond0_0 i) (x0 : Vec F S16x128 .f32) (x1 : Vec F S16x128x768 .f32) (x2 : Vec F S16x128x768 .f32) (xo3 : Vec F S16x768 .f32) (xo4 : Vec F S16x768 .f32) : Vec F S16x768 .f32 :=
  VO0_3.read (Elt F) (VO0_3.writes (Elt F) VO0_3.junk (kernelRun0_B c i arg2 harg2 arg3 harg3 arg4 harg4 arg5 harg5 arg6 harg6 arg7 harg7 arg8 harg8 hc0 x0 x1 x2 xo3 xo4).1)

theorem cover0_B_4 (c : Dev nD) (i : grid0.Coords) (arg2 : Memref sig .tc .vmem S16x128 .f32) (harg2 : arg2.IsWhole) (arg3 : Memref sig .tc .vmem S16x128x768 .f32) (harg3 : arg3.IsWhole) (arg4 : Memref sig .tc .vmem S16x128x768 .f32) (harg4 : arg4.IsWhole) (arg5 : Memref sig .tc .vmem S16x768 .f32) (harg5 : arg5.IsWhole) (arg6 : Memref sig .tc .vmem S16x768 .f32) (harg6 : arg6.IsWhole) (arg7 : Memref sig .tc .vmem S16x768 .f32) (harg7 : arg7.IsWhole) (arg8 : Memref sig .tc .vmem S16x768 .f32) (harg8 : arg8.IsWhole) (hc0 : ¬cond0_0 i) (x0 : Vec F S16x128 .f32) (x1 : Vec F S16x128x768 .f32) (x2 : Vec F S16x128x768 .f32) (xo3 : Vec F S16x768 .f32) (xo4 : Vec F S16x768 .f32) (y : S16x768.Idx) :
    ∃ pc ∈ (kernelRun0_B c i arg2 harg2 arg3 harg3 arg4 harg4 arg5 harg5 arg6 harg6 arg7 harg7 arg8 harg8 hc0 x0 x1 x2 xo3 xo4).2.1, y ∈ pc.1.set :=
  View.cover_of_tiledL (kernelRun0_B c i arg2 harg2 arg3 harg3 arg4 harg4 arg5 harg5 arg6 harg6 arg7 harg7 arg8 harg8 hc0 x0 x1 x2 xo3 xo4).2.1 S16x768.size (by sl_kernel_rfl) y

/-- What a later step leaves in pooled output window 4's buffer, from what the step before left in the two. -/
def out0_B_4 (c : Dev nD) (i : grid0.Coords) (arg2 : Memref sig .tc .vmem S16x128 .f32) (harg2 : arg2.IsWhole) (arg3 : Memref sig .tc .vmem S16x128x768 .f32) (harg3 : arg3.IsWhole) (arg4 : Memref sig .tc .vmem S16x128x768 .f32) (harg4 : arg4.IsWhole) (arg5 : Memref sig .tc .vmem S16x768 .f32) (harg5 : arg5.IsWhole) (arg6 : Memref sig .tc .vmem S16x768 .f32) (harg6 : arg6.IsWhole) (arg7 : Memref sig .tc .vmem S16x768 .f32) (harg7 : arg7.IsWhole) (arg8 : Memref sig .tc .vmem S16x768 .f32) (harg8 : arg8.IsWhole) (hc0 : ¬cond0_0 i) (x0 : Vec F S16x128 .f32) (x1 : Vec F S16x128x768 .f32) (x2 : Vec F S16x128x768 .f32) (xo3 : Vec F S16x768 .f32) (xo4 : Vec F S16x768 .f32) : Vec F S16x768 .f32 :=
  VO0_4.read (Elt F) (VO0_4.writes (Elt F) VO0_4.junk (kernelRun0_B c i arg2 harg2 arg3 harg3 arg4 harg4 arg5 harg5 arg6 harg6 arg7 harg7 arg8 harg8 hc0 x0 x1 x2 xo3 xo4).2.1)

/-! ## What the outputs hold after each point -/

/-- The four outputs' buffers after the body at position `n` (pooled 1, pooled 2, first-row 1, first-row 2). -/
def outsAt0 (c : Dev nD) : (n : ℕ) → n < cfg0.N → Vec F S16x768 .f32 × Vec F S16x768 .f32 × Vec F S16x768 .f32 × Vec F S16x768 .f32
  | 0, hn => (out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) ((hcond0_0 ⟨0, hn⟩).mpr (Nat.zero_mod _)) (iblk m c 0 ⟨0, hn⟩) (iblk m c 1 ⟨0, hn⟩) (iblk m c 2 ⟨0, hn⟩),
      out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) ((hcond0_0 ⟨0, hn⟩).mpr (Nat.zero_mod _)) (iblk m c 0 ⟨0, hn⟩) (iblk m c 1 ⟨0, hn⟩) (iblk m c 2 ⟨0, hn⟩),
      out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) ((hcond0_0 ⟨0, hn⟩).mpr (Nat.zero_mod _)) (iblk m c 0 ⟨0, hn⟩) (iblk m c 1 ⟨0, hn⟩) (iblk m c 2 ⟨0, hn⟩),
      out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) ((hcond0_0 ⟨0, hn⟩).mpr (Nat.zero_mod _)) (iblk m c 0 ⟨0, hn⟩) (iblk m c 1 ⟨0, hn⟩) (iblk m c 2 ⟨0, hn⟩))
  | n + 1, hn =>
    if h0 : (n + 1) % 4 = 0 then
      (out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) ((hcond0_0 ⟨n + 1, hn⟩).mpr h0) (iblk m c 0 ⟨n + 1, hn⟩) (iblk m c 1 ⟨n + 1, hn⟩) (iblk m c 2 ⟨n + 1, hn⟩),
      out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) ((hcond0_0 ⟨n + 1, hn⟩).mpr h0) (iblk m c 0 ⟨n + 1, hn⟩) (iblk m c 1 ⟨n + 1, hn⟩) (iblk m c 2 ⟨n + 1, hn⟩),
      out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) ((hcond0_0 ⟨n + 1, hn⟩).mpr h0) (iblk m c 0 ⟨n + 1, hn⟩) (iblk m c 1 ⟨n + 1, hn⟩) (iblk m c 2 ⟨n + 1, hn⟩),
      out0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) ((hcond0_0 ⟨n + 1, hn⟩).mpr h0) (iblk m c 0 ⟨n + 1, hn⟩) (iblk m c 1 ⟨n + 1, hn⟩) (iblk m c 2 ⟨n + 1, hn⟩))
    else
      (out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (outsAt0 c n (Nat.lt_of_succ_lt hn)).1 (outsAt0 c n (Nat.lt_of_succ_lt hn)).2.1,
      out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (outsAt0 c n (Nat.lt_of_succ_lt hn)).1 (outsAt0 c n (Nat.lt_of_succ_lt hn)).2.1,
      (outsAt0 c n (Nat.lt_of_succ_lt hn)).2.2.1, (outsAt0 c n (Nat.lt_of_succ_lt hn)).2.2.2)

theorem outsAt0_A (c : Dev nD) (t : Fin cfg0.N) (h0 : t.val % 4 = 0) :
    outsAt0 m c t.val t.isLt = (out0_A_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (iblk m c 0 t) (iblk m c 1 t) (iblk m c 2 t),
      out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (iblk m c 0 t) (iblk m c 1 t) (iblk m c 2 t),
      out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (iblk m c 0 t) (iblk m c 1 t) (iblk m c 2 t),
      out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (iblk m c 0 t) (iblk m c 1 t) (iblk m c 2 t)) := by
  obtain ⟨n, hn⟩ := t
  cases n with
  | zero => exact rfl
  | succ n => exact (dif_pos h0).trans rfl

theorem outsAt0_B (c : Dev nD) (t : Fin cfg0.N) (h0 : ¬t.val % 4 = 0) :
    outsAt0 m c t.val t.isLt = (out0_B_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) (iblk m c 0 t) (iblk m c 1 t) (iblk m c 2 t) (outsAt0 m c (t.val - 1) (Nat.lt_of_le_of_lt (Nat.sub_le _ _) t.isLt)).1 (outsAt0 m c (t.val - 1) (Nat.lt_of_le_of_lt (Nat.sub_le _ _) t.isLt)).2.1,
      out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) (iblk m c 0 t) (iblk m c 1 t) (iblk m c 2 t) (outsAt0 m c (t.val - 1) (Nat.lt_of_le_of_lt (Nat.sub_le _ _) t.isLt)).1 (outsAt0 m c (t.val - 1) (Nat.lt_of_le_of_lt (Nat.sub_le _ _) t.isLt)).2.1,
      (outsAt0 m c (t.val - 1) (Nat.lt_of_le_of_lt (Nat.sub_le _ _) t.isLt)).2.2.1, (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans rfl

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt0 m c t.val t.isLt).1
    | ⟨4, _⟩ => (outsAt0 m c t.val t.isLt).2.1
    | ⟨5, _⟩ => (outsAt0 m c t.val t.isLt).2.2.1
    | ⟨6, _⟩ => (outsAt0 m c t.val t.isLt).2.2.2
  Φ _ := Pipeline.ΦA spec0 c
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (outsAt0 m c t.val t.isLt).1 := by dsimp only [dats]
theorem after0_4 (c : Dev nD) (t : Fin cfg0.N) : (dats m 0 c).after 4 t = (outsAt0 m c t.val t.isLt).2.1 := by dsimp only [dats]
theorem after0_5 (c : Dev nD) (t : Fin cfg0.N) : (dats m 0 c).after 5 t = (outsAt0 m c t.val t.isLt).2.2.1 := by dsimp only [dats]
theorem after0_6 (c : Dev nD) (t : Fin cfg0.N) : (dats m 0 c).after 6 t = (outsAt0 m c t.val t.isLt).2.2.2 := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- At a later step pooled output 3's buffer holds what the step before left: not written back in between. -/
theorem before0_3_B (c : Dev nD) (t : Fin cfg0.N) (h0 : ¬t.val % 4 = 0) (d) :
    (dats m 0 c).before 3 t d = (outsAt0 m c (t.val - 1) (Nat.lt_of_le_of_lt (Nat.sub_le _ _) t.isLt)).1 := by
  have hN : t.val < 64 := lt_of_lt_of_eq t.isLt (show cfg0.N = 64 from N_0)
  rw [Dat.before_out_kept _ 3 rfl t (by omega) (Bool.eq_false_iff.mpr fun h => by have := (flush0_3 _).mp h; dsimp only at this; omega)
    (fun _ => rfl) (fun _ _ => rfl)]
  dsimp only [dats]

/-- At a later step pooled output 4's buffer holds what the step before left: not written back in between. -/
theorem before0_4_B (c : Dev nD) (t : Fin cfg0.N) (h0 : ¬t.val % 4 = 0) (d) :
    (dats m 0 c).before 4 t d = (outsAt0 m c (t.val - 1) (Nat.lt_of_le_of_lt (Nat.sub_le _ _) t.isLt)).2.1 := by
  have hN : t.val < 64 := lt_of_lt_of_eq t.isLt (show cfg0.N = 64 from N_0)
  rw [Dat.before_out_kept _ 4 rfl t (by omega) (Bool.eq_false_iff.mpr fun h => by have := (flush0_4 _).mp h; dsimp only at this; omega)
    (fun _ => rfl) (fun _ _ => rfl)]
  dsimp only [dats]

/-- One step back for first-row output 5: at a later step its buffer holds what the point before left in it. -/
theorem before0_5_step (c : Dev nD) (t t' : Fin cfg0.N) (htt : t.val = t'.val + 1) (h0 : ¬t.val % 4 = 0) (d) :
    (dats m 0 c).before 5 t d = (dats m 0 c).left 5 t' d := by
  have e : (⟨t.val - 1, Nat.lt_of_le_of_lt (Nat.sub_le _ _) t.isLt⟩ : Fin cfg0.N) = t' := Fin.ext (by dsimp only; omega)
  rw [Dat.before_of_pos _ 5 t (by omega) ((cfg0.win 5).fetch_out rfl t), e,
    if_neg (fun h => by have := (flush0_5 t').mp h; omega)]

/-- What a first step leaves in first-row output 5 is what the next point finds. -/
theorem left0_5_A (c : Dev nD) (t' : Fin cfg0.N) (h0 : t'.val % 4 = 0) (d) :
    (dats m 0 c).left 5 t' d = (outsAt0 m c t'.val t'.isLt).2.2.1 := by
  unfold Dat.left
  rw [liveAt0_5_A t' ((hcond0_0 t').mpr h0)]
  dsimp only
  unfold Dat.kept
  rw [Pipeline.fill_of_clip_none 5 _ (fun _ => rfl) d ((dats m 0 c).after 5 t'), Pipeline.Window.fill_cut]
  dsimp only [dats]

/-- Through the idle steps first-row output 5's buffer keeps what the first step stored. -/
theorem before0_5_succ (c : Dev nD) : ∀ (k : ℕ) (hn : k + 1 < cfg0.N) (h0 : ¬(k + 1) % 4 = 0) (d),
    (dats m 0 c).before 5 ⟨k + 1, hn⟩ d = (outsAt0 m c k (Nat.lt_of_succ_lt hn)).2.2.1 := by
  intro k
  induction k with
  | zero =>
    intro hn h0 d
    rw [before0_5_step m c ⟨1, hn⟩ ⟨0, Nat.lt_of_succ_lt hn⟩ rfl h0 d, left0_5_A m c ⟨0, Nat.lt_of_succ_lt hn⟩ (Nat.zero_mod _) d]
  | succ k ih =>
    intro hn h0 d
    rw [before0_5_step m c ⟨k + 1 + 1, hn⟩ ⟨k + 1, Nat.lt_of_succ_lt hn⟩ rfl h0 d]
    by_cases hk : (k + 1) % 4 = 0
    · exact left0_5_A m c ⟨k + 1, Nat.lt_of_succ_lt hn⟩ hk d
    · unfold Dat.left
      rw [idleAt0_5_B ⟨k + 1, Nat.lt_of_succ_lt hn⟩ (fun h => hk ((hcond0_0 _).mp h))]
      dsimp only
      rw [ih (Nat.lt_of_succ_lt hn) hk d, outsAt0_B m c ⟨k + 1, Nat.lt_of_succ_lt hn⟩ hk]
      rfl

theorem before0_5_B (c : Dev nD) (t : Fin cfg0.N) (h0 : ¬t.val % 4 = 0) (d) :
    (dats m 0 c).before 5 t d = (outsAt0 m c (t.val - 1) (Nat.lt_of_le_of_lt (Nat.sub_le _ _) t.isLt)).2.2.1 := by
  obtain ⟨n, hn⟩ := t
  cases n with
  | zero => exact absurd (Nat.zero_mod _) h0
  | succ k => exact before0_5_succ m c k hn h0 d

/-- One step back for first-row output 6: at a later step its buffer holds what the point before left in it. -/
theorem before0_6_step (c : Dev nD) (t t' : Fin cfg0.N) (htt : t.val = t'.val + 1) (h0 : ¬t.val % 4 = 0) (d) :
    (dats m 0 c).before 6 t d = (dats m 0 c).left 6 t' d := by
  have e : (⟨t.val - 1, Nat.lt_of_le_of_lt (Nat.sub_le _ _) t.isLt⟩ : Fin cfg0.N) = t' := Fin.ext (by dsimp only; omega)
  rw [Dat.before_of_pos _ 6 t (by omega) ((cfg0.win 6).fetch_out rfl t), e,
    if_neg (fun h => by have := (flush0_6 t').mp h; omega)]

/-- What a first step leaves in first-row output 6 is what the next point finds. -/
theorem left0_6_A (c : Dev nD) (t' : Fin cfg0.N) (h0 : t'.val % 4 = 0) (d) :
    (dats m 0 c).left 6 t' d = (outsAt0 m c t'.val t'.isLt).2.2.2 := by
  unfold Dat.left
  rw [liveAt0_6_A t' ((hcond0_0 t').mpr h0)]
  dsimp only
  unfold Dat.kept
  rw [Pipeline.fill_of_clip_none 6 _ (fun _ => rfl) d ((dats m 0 c).after 6 t'), Pipeline.Window.fill_cut]
  dsimp only [dats]

/-- Through the idle steps first-row output 6's buffer keeps what the first step stored. -/
theorem before0_6_succ (c : Dev nD) : ∀ (k : ℕ) (hn : k + 1 < cfg0.N) (h0 : ¬(k + 1) % 4 = 0) (d),
    (dats m 0 c).before 6 ⟨k + 1, hn⟩ d = (outsAt0 m c k (Nat.lt_of_succ_lt hn)).2.2.2 := by
  intro k
  induction k with
  | zero =>
    intro hn h0 d
    rw [before0_6_step m c ⟨1, hn⟩ ⟨0, Nat.lt_of_succ_lt hn⟩ rfl h0 d, left0_6_A m c ⟨0, Nat.lt_of_succ_lt hn⟩ (Nat.zero_mod _) d]
  | succ k ih =>
    intro hn h0 d
    rw [before0_6_step m c ⟨k + 1 + 1, hn⟩ ⟨k + 1, Nat.lt_of_succ_lt hn⟩ rfl h0 d]
    by_cases hk : (k + 1) % 4 = 0
    · exact left0_6_A m c ⟨k + 1, Nat.lt_of_succ_lt hn⟩ hk d
    · unfold Dat.left
      rw [idleAt0_6_B ⟨k + 1, Nat.lt_of_succ_lt hn⟩ (fun h => hk ((hcond0_0 _).mp h))]
      dsimp only
      rw [ih (Nat.lt_of_succ_lt hn) hk d, outsAt0_B m c ⟨k + 1, Nat.lt_of_succ_lt hn⟩ hk]
      rfl

theorem before0_6_B (c : Dev nD) (t : Fin cfg0.N) (h0 : ¬t.val % 4 = 0) (d) :
    (dats m 0 c).before 6 t d = (outsAt0 m c (t.val - 1) (Nat.lt_of_le_of_lt (Nat.sub_le _ _) t.isLt)).2.2.2 := by
  obtain ⟨n, hn⟩ := t
  cases n with
  | zero => exact absurd (Nat.zero_mod _) h0
  | succ k => exact before0_6_succ m c k hn h0 d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ (dats m 0 c).leavesExact 5 t
    ∗ (dats m 0 c).leavesExact 6 t)

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3, after0_4]
  have hN : t.val < 64 := lt_of_lt_of_eq t.isLt (show cfg0.N = 64 from N_0)
  by_cases h0 : t.val % 4 = 0
  · rw [show (dats m 0 c).leavesExact 5 t = owns (c : Thread nD τ) (ms0_5 t) fullShare ((dats m 0 c).after 5 t) from by
        unfold Dat.leavesExact; rw [liveAt0_5_A t ((hcond0_0 t).mpr h0)],
      show (dats m 0 c).leavesExact 6 t = owns (c : Thread nD τ) (ms0_6 t) fullShare ((dats m 0 c).after 6 t) from by
        unfold Dat.leavesExact; rw [liveAt0_6_A t ((hcond0_0 t).mpr h0)],
      after0_5, after0_6, outsAt0_A m c t h0]
    dsimp only
    unfold out0_A_3 out0_A_4 out0_A_5 out0_A_6
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((kernelRun0_A c (grid0.coords t) _ _ _ _ _ _ _ _ _ _ _ _ _ _ ((hcond0_0 t).mpr h0) (iblk m c 0 t) (iblk m c 1 t) (iblk m c 2 t)).2.2.2.2 Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    isplitl [H6]; · iexists _; iexact H6
    iintro ⟨H0, H1, H2, ⟨%e3, H3⟩, ⟨%e4, H4⟩, ⟨%e5, H5⟩, ⟨%e6, H6⟩⟩
    isplitl [HΦ]; · iexact HΦ
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover0_A_3 c _ _ _ _ _ _ _ _ _ _ _ _ _ _ _ _ _ _ _)
    isplitl [H4]
    · unfold owns; iexists _; isplitr
      swap; · iexact H4
      ipureintro; exact View.read_writes_of_cover _ _ _ _ _ (cover0_A_4 c _ _ _ _ _ _ _ _ _ _ _ _ _ _ _ _ _ _ _)
    isplitl [H5]
    · unfold owns; iexists _; isplitr
      swap; · iexact H5
      ipureintro; exact View.read_writes_of_cover _ _ _ _ _ (cover0_A_5 c _ _ _ _ _ _ _ _ _ _ _ _ _ _ _ _ _ _ _)
    unfold owns; iexists _; isplitr
    swap; · iexact H6
    ipureintro; exact View.read_writes_of_cover _ _ _ _ _ (cover0_A_6 c _ _ _ _ _ _ _ _ _ _ _ _ _ _ _ _ _ _ _)
  · have hnc : ¬cond0_0 (grid0.coords t) := fun h => h0 ((hcond0_0 t).mp h)
    simp only [before0_3_B m c t h0, before0_4_B m c t h0]
    rw [outsAt0_B m c t h0]
    dsimp only
    unfold out0_B_3 out0_B_4
    by_cases h3 : t.val % 4 = 3
    · rw [show (dats m 0 c).leavesExact 5 t = owns (c : Thread nD τ) (ms0_5 t) fullShare ((dats m 0 c).after 5 t) from by
          unfold Dat.leavesExact; rw [idleAt0_5_B t hnc, (flush0_5 t).mpr h3],
        show (dats m 0 c).leavesExact 6 t = owns (c : Thread nD τ) (ms0_6 t) fullShare ((dats m 0 c).after 6 t) from by
          unfold Dat.leavesExact; rw [idleAt0_6_B t hnc, (flush0_6 t).mpr h3],
        after0_5, after0_6, outsAt0_B m c t h0]
      dsimp only
      simp only [before0_5_B m c t h0, before0_6_B m c t h0]
      iintro ⟨HΦ, Ho, ⟨%d0, H0⟩, ⟨%d1, H1⟩, ⟨%d2, H2⟩, ⟨%d3, H3⟩, ⟨%d4, H4⟩, ⟨%d5, H5⟩, ⟨%d6, H6⟩⟩
      iapply ((kernelRun0_B c (grid0.coords t) _ _ _ _ _ _ _ _ _ _ (ms0_5 t) (hs0_5 t) (ms0_6 t) (hs0_6 t) hnc (iblk m c 0 t) (iblk m c 1 t) (iblk m c 2 t) _ _).2.2 Set.univ _)
      isplitl [H0]; · iexact H0
      isplitl [H1]; · iexact H1
      isplitl [H2]; · iexact H2
      isplitl [H3]; · iexact H3
      isplitl [H4]; · iexact H4
      iintro ⟨H0, H1, H2, ⟨%e3, H3⟩, ⟨%e4, H4⟩⟩
      isplitl [HΦ]; · iexact HΦ
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cover0_B_3 c _ _ _ _ _ _ _ _ _ _ _ _ _ _ _ _ _ _ _ _ _)
      isplitl [H4]
      · unfold owns; iexists _; isplitr
        swap; · iexact H4
        ipureintro; exact View.read_writes_of_cover _ _ _ _ _ (cover0_B_4 c _ _ _ _ _ _ _ _ _ _ _ _ _ _ _ _ _ _ _ _ _)
      isplitl [H5]; · iexact H5
      iexact H6
    · have hf5 : (cfg0.win 5).flush t = false := Bool.eq_false_iff.mpr fun h => h3 ((flush0_5 t).mp h)
      have hf6 : (cfg0.win 6).flush t = false := Bool.eq_false_iff.mpr fun h => h3 ((flush0_6 t).mp h)
      rw [Dat.leavesExact_idle (dats m 0 c) 5 t (idleAt0_5_B t hnc) hf5, Dat.leavesExact_idle (dats m 0 c) 6 t (idleAt0_6_B t hnc) hf6]
      iintro ⟨HΦ, Ho, ⟨%d0, H0⟩, ⟨%d1, H1⟩, ⟨%d2, H2⟩, ⟨%d3, H3⟩, ⟨%d4, H4⟩, ⟨%d5, H5⟩, ⟨%d6, H6⟩⟩
      iapply ((kernelRun0_B c (grid0.coords t) _ _ _ _ _ _ _ _ _ _ (ms0_5 t) (hs0_5 t) (ms0_6 t) (hs0_6 t) hnc (iblk m c 0 t) (iblk m c 1 t) (iblk m c 2 t) _ _).2.2 Set.univ _)
      isplitl [H0]; · iexact H0
      isplitl [H1]; · iexact H1
      isplitl [H2]; · iexact H2
      isplitl [H3]; · iexact H3
      isplitl [H4]; · iexact H4
      iintro ⟨H0, H1, H2, ⟨%e3, H3⟩, ⟨%e4, H4⟩⟩
      isplitl [HΦ]; · iexact HΦ
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cover0_B_3 c _ _ _ _ _ _ _ _ _ _ _ _ _ _ _ _ _ _ _ _ _)
      isplitl [H4]
      · unfold owns; iexists _; isplitr
        swap; · iexact H4
        ipureintro; exact View.read_writes_of_cover _ _ _ _ _ (cover0_B_4 c _ _ _ _ _ _ _ _ _ _ _ _ _ _ _ _ _ _ _ _ _)
      isplitl [H5]; · iexists _; iexact H5
      iexists _; iexact H6

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
set_option maxHeartbeats 8000000 in
/-- Every weakly fair execution of @main terminates, faulting nowhere, with every staged array at what the write-backs
    made of it and every other unscoped buffer as the host operations after the call leave it. -/
theorem run_main : θ_run defs (onTc (τ := τ) (main (F := F))) (s₀ m ρ)
    (Pipeline.FramePost cfgs (dats m) 0 (Pipeline.afterTail₀ cfgs (dats m) 0 (V0 m) [hostOps1, hostOps1_1, hostOps1_2])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1, hostOps1_1, hostOps1_2]) (hsub := sfx_sub) (hfresh := sfx_fresh) (hkeep := sfx_keeps)
    (hmain := hmain m Variants.none) (hA := A_eq m) (hΦ := fun _ _ => rfl)

/-- The arguments end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ (dats m) (A_eq m) (run_main m ρ)

end Cert.KernelIdeal.Frame

end
-- ==== Proof.KBlocks.lean ====
/-
  The geometry of the call's seven windows over its 16 × 4 grid, for any float model.

  Grid point t = 4·i + j has batch tile i = t/4 and step j = t%4 along the middle axis.  A block's coordinate on an axis is
  always (block index) × (block size) + (coordinate inside the block); the block indices are the printed index maps at the
  point's coordinates, and they are decided once over the 64 points:
    * window 0, the weight rows [256,512] in blocks [16,128]:            index (t/4, t%4);
    * windows 1, 2, the activations [256,512,768] in blocks [16,128,768]:  index (t/4, t%4, 0);
    * windows 3 … 6, the outputs [256,768] in blocks [16,768]:           index (t/4, 0).
  So an input block's element (r, s'[, h]) is the array's element (16·(t/4) + r, 128·(t%4) + s'[, h]), an output block's
  element (r, h) is the array's element (16·(t/4) + r, h), and since an output is written back exactly at the points with
  t%4 = 3, every index (b, h) of an output array is in the written-back block of the point 4·(b/16) + 3.
-/
import proofs.«413436_j65730179498319_1_alg».proof.Proof.KernelIdealKit
import Idealize.ShloMosaic.Lib.Pipeline.Value
import Idealize.ShloMosaic.Lib.ValueIdx

set_option maxRecDepth 16384

noncomputable section

namespace Cert.KernelIdeal.Frame

open Cert.KernelIdeal Cert.KernelIdeal.Gen
open Idealize.ShloMosaic Idealize.ShloMosaic.TcCoe Idealize.ShloMosaic.ValueIdx
open Idealize.SL.Sem

variable {F : FTy → Type} [FloatOps F]
variable (m : (ℓ : Loc nD τ sig) → Buf (Elt F) ℓ)

/-- The grid has 64 points. -/
theorem t_lt (t : Fin cfg0.N) : t.val < 64 := by
  have h : cfg0.N = 64 := N_0
  have := t.isLt
  omega

/-! ## The input windows -/

/-- Window 0's block index, decided over the 64 points. -/
theorem idx0 : ∀ t : Fin cfg0.N, win0_0.index t (0 : Fin 2) = t.val / 4 ∧ win0_0.index t (1 : Fin 2) = t.val % 4 :=
  (by decide +kernel : ∀ t : Fin grid0.N, _)

/-- Window 1's block index, decided over the 64 points. -/
theorem idx1 : ∀ t : Fin cfg0.N, win0_1.index t (0 : Fin 3) = t.val / 4 ∧ win0_1.index t (1 : Fin 3) = t.val % 4 ∧ win0_1.index t (2 : Fin 3) = 0 :=
  (by decide +kernel : ∀ t : Fin grid0.N, _)

/-- Window 2's block index, decided over the 64 points. -/
theorem idx2 : ∀ t : Fin cfg0.N, win0_2.index t (0 : Fin 3) = t.val / 4 ∧ win0_2.index t (1 : Fin 3) = t.val % 4 ∧ win0_2.index t (2 : Fin 3) = 0 :=
  (by decide +kernel : ∀ t : Fin grid0.N, _)

/-- Window 0 (the weight rows, blocks [16,128] at block index (t/4, t%4)): element (r, s') of the block at point t is the
    array's element (16·(t/4) + r, 128·(t%4) + s'). -/
theorem iblk0_apply (c : Dev nD) (t : Fin cfg0.N) (r : Fin 16) (s' : Fin 128) :
    iblk m c 0 t (ix2 r s') = V m c main_v27 (ix2 ⟨16 * (t.val / 4) + r.val, by have := t_lt t; have := r.isLt; omega⟩ ⟨128 * (t.val % 4) + s'.val, by have := s'.isLt; omega⟩) := by
  show V m c main_v27 (((cfg0.win 0).blk t).view.emb (ix2 r s')) = V m c main_v27 _
  congr 1
  funext a
  apply Fin.ext
  obtain ⟨e0, e1⟩ := idx0 t
  match a with
  | ⟨0, _⟩ => show win0_0.index t (0 : Fin 2) * 16 + 1 * r.val = 16 * (t.val / 4) + r.val; omega
  | ⟨1, _⟩ => show win0_0.index t (1 : Fin 2) * 128 + 1 * s'.val = 128 * (t.val % 4) + s'.val; omega

/-- Window 1 (the first activation, blocks [16,128,768] at block index (t/4, t%4, 0)): element (r, s', h) of the block at
    point t is the array's element (16·(t/4) + r, 128·(t%4) + s', h). -/
theorem iblk1_apply (c : Dev nD) (t : Fin cfg0.N) (r : Fin 16) (s' : Fin 128) (h : Fin 768) :
    iblk m c 1 t (ix3 r s' h) = V m c main_arg0 (ix3 ⟨16 * (t.val / 4) + r.val, by have := t_lt t; have := r.isLt; omega⟩ ⟨128 * (t.val % 4) + s'.val, by have := s'.isLt; omega⟩ h) := by
  show V m c main_arg0 (((cfg0.win 1).blk t).view.emb (ix3 r s' h)) = V m c main_arg0 _
  congr 1
  funext a
  apply Fin.ext
  obtain ⟨e0, e1, e2⟩ := idx1 t
  match a with
  | ⟨0, _⟩ => show win0_1.index t (0 : Fin 3) * 16 + 1 * r.val = 16 * (t.val / 4) + r.val; omega
  | ⟨1, _⟩ => show win0_1.index t (1 : Fin 3) * 128 + 1 * s'.val = 128 * (t.val % 4) + s'.val; omega
  | ⟨2, _⟩ => show win0_1.index t (2 : Fin 3) * 768 + 1 * h.val = h.val; omega

/-- Window 2 (the second activation, blocks [16,128,768] at block index (t/4, t%4, 0)): element (r, s', h) of the block at
    point t is the array's element (16·(t/4) + r, 128·(t%4) + s', h). -/
theorem iblk2_apply (c : Dev nD) (t : Fin cfg0.N) (r : Fin 16) (s' : Fin 128) (h : Fin 768) :
    iblk m c 2 t (ix3 r s' h) = V m c main_arg1 (ix3 ⟨16 * (t.val / 4) + r.val, by have := t_lt t; have := r.isLt; omega⟩ ⟨128 * (t.val % 4) + s'.val, by have := s'.isLt; omega⟩ h) := by
  show V m c main_arg1 (((cfg0.win 2).blk t).view.emb (ix3 r s' h)) = V m c main_arg1 _
  congr 1
  funext a
  apply Fin.ext
  obtain ⟨e0, e1, e2⟩ := idx2 t
  match a with
  | ⟨0, _⟩ => show win0_2.index t (0 : Fin 3) * 16 + 1 * r.val = 16 * (t.val / 4) + r.val; omega
  | ⟨1, _⟩ => show win0_2.index t (1 : Fin 3) * 128 + 1 * s'.val = 128 * (t.val % 4) + s'.val; omega
  | ⟨2, _⟩ => show win0_2.index t (2 : Fin 3) * 768 + 1 * h.val = h.val; omega

/-! ## Output window 3 -/

/-- Its block index, decided over the 64 points: (t/4, 0), the batch tile alone. -/
theorem idx3 : ∀ t : Fin cfg0.N, win0_3.index t (0 : Fin 2) = t.val / 4 ∧ win0_3.index t (1 : Fin 2) = 0 :=
  (by decide +kernel : ∀ t : Fin grid0.N, _)

/-- Element (r, h) of the block at point t, read off any contents G of the array, is G at (16·(t/4) + r, h). -/
theorem oblk3_read (c : Dev nD) (t : Fin cfg0.N) (G : Buf (Elt F) ((c : Thread nD τ).loc main_v28_0)) (r : Fin 16) (h : Fin 768) :
    ((cfg0.win 3).blk t).view.read (Elt F) G (ix2 r h) = G (ix2 ⟨16 * (t.val / 4) + r.val, by have := t_lt t; have := r.isLt; omega⟩ h) := by
  show G (((cfg0.win 3).blk t).view.emb (ix2 r h)) = G _
  congr 1
  funext a
  apply Fin.ext
  obtain ⟨e0, e1⟩ := idx3 t
  match a with
  | ⟨0, _⟩ => show win0_3.index t (0 : Fin 2) * 16 + 1 * r.val = 16 * (t.val / 4) + r.val; omega
  | ⟨1, _⟩ => show win0_3.index t (1 : Fin 2) * 768 + 1 * h.val = h.val; omega

/-- An index of the array lies in point t's block iff each coordinate lies in the block's range on its axis. -/
theorem mem_blk3 (t : Fin cfg0.N) (i : S256x768.Idx) :
    i ∈ ((cfg0.win 3).blk t).view.set ↔ ∀ a : Fin 2, win0_3.index t a * S16x768.size a ≤ (i a).val ∧ (i a).val < win0_3.index t a * S16x768.size a + S16x768.size a := by
  show i ∈ ((View.whole main_v28_0).slice (win0_3.rect t)).set ↔ _
  rw [View.set_slice_whole, Rect.mem_set_unit]
  exact Iff.rfl

/-- Every index (b, h) of the array lies in a block that is written back: that of the point 4·(b/16) + 3, the last step
    along the middle axis of batch tile b/16, whose block is rows 16·(b/16) … 16·(b/16) + 15 and all 768 columns. -/
theorem ocover3 : ∀ i : S256x768.Idx, ∃ t : Fin cfg0.N, (cfg0.win 3).flush t = true ∧ i ∈ ((cfg0.win 3).blk t).view.set := by
  intro i
  have hi0 : (i 0).val < 256 := (i 0).isLt
  have hi1 : (i 1).val < 768 := (i 1).isLt
  obtain ⟨t, ht⟩ : ∃ t : Fin cfg0.N, t.val = 4 * ((i 0).val / 16) + 3 :=
    ⟨⟨4 * ((i 0).val / 16) + 3, by have h : cfg0.N = 64 := N_0; omega⟩, rfl⟩
  obtain ⟨e0, e1⟩ := idx3 t
  refine ⟨t, (flush0_3 t).2 (by omega), ?_⟩
  rw [mem_blk3]
  intro a
  match a with
  | ⟨0, _⟩ => show win0_3.index t (0 : Fin 2) * 16 ≤ (i 0).val ∧ (i 0).val < win0_3.index t (0 : Fin 2) * 16 + 16; omega
  | ⟨1, _⟩ => show win0_3.index t (1 : Fin 2) * 768 ≤ (i 1).val ∧ (i 1).val < win0_3.index t (1 : Fin 2) * 768 + 768; omega

/-! ## Output window 4 -/

/-- Its block index, decided over the 64 points: (t/4, 0), the batch tile alone. -/
theorem idx4 : ∀ t : Fin cfg0.N, win0_4.index t (0 : Fin 2) = t.val / 4 ∧ win0_4.index t (1 : Fin 2) = 0 :=
  (by decide +kernel : ∀ t : Fin grid0.N, _)

/-- Element (r, h) of the block at point t, read off any contents G of the array, is G at (16·(t/4) + r, h). -/
theorem oblk4_read (c : Dev nD) (t : Fin cfg0.N) (G : Buf (Elt F) ((c : Thread nD τ).loc main_v28_1)) (r : Fin 16) (h : Fin 768) :
    ((cfg0.win 4).blk t).view.read (Elt F) G (ix2 r h) = G (ix2 ⟨16 * (t.val / 4) + r.val, by have := t_lt t; have := r.isLt; omega⟩ h) := by
  show G (((cfg0.win 4).blk t).view.emb (ix2 r h)) = G _
  congr 1
  funext a
  apply Fin.ext
  obtain ⟨e0, e1⟩ := idx4 t
  match a with
  | ⟨0, _⟩ => show win0_4.index t (0 : Fin 2) * 16 + 1 * r.val = 16 * (t.val / 4) + r.val; omega
  | ⟨1, _⟩ => show win0_4.index t (1 : Fin 2) * 768 + 1 * h.val = h.val; omega

/-- An index of the array lies in point t's block iff each coordinate lies in the block's range on its axis. -/
theorem mem_blk4 (t : Fin cfg0.N) (i : S256x768.Idx) :
    i ∈ ((cfg0.win 4).blk t).view.set ↔ ∀ a : Fin 2, win0_4.index t a * S16x768.size a ≤ (i a).val ∧ (i a).val < win0_4.index t a * S16x768.size a + S16x768.size a := by
  show i ∈ ((View.whole main_v28_1).slice (win0_4.rect t)).set ↔ _
  rw [View.set_slice_whole, Rect.mem_set_unit]
  exact Iff.rfl

/-- Every index (b, h) of the array lies in a block that is written back: that of the point 4·(b/16) + 3, the last step
    along the middle axis of batch tile b/16, whose block is rows 16·(b/16) … 16·(b/16) + 15 and all 768 columns. -/
theorem ocover4 : ∀ i : S256x768.Idx, ∃ t : Fin cfg0.N, (cfg0.win 4).flush t = true ∧ i ∈ ((cfg0.win 4).blk t).view.set := by
  intro i
  have hi0 : (i 0).val < 256 := (i 0).isLt
  have hi1 : (i 1).val < 768 := (i 1).isLt
  obtain ⟨t, ht⟩ : ∃ t : Fin cfg0.N, t.val = 4 * ((i 0).val / 16) + 3 :=
    ⟨⟨4 * ((i 0).val / 16) + 3, by have h : cfg0.N = 64 := N_0; omega⟩, rfl⟩
  obtain ⟨e0, e1⟩ := idx4 t
  refine ⟨t, (flush0_4 t).2 (by omega), ?_⟩
  rw [mem_blk4]
  intro a
  match a with
  | ⟨0, _⟩ => show win0_4.index t (0 : Fin 2) * 16 ≤ (i 0).val ∧ (i 0).val < win0_4.index t (0 : Fin 2) * 16 + 16; omega
  | ⟨1, _⟩ => show win0_4.index t (1 : Fin 2) * 768 ≤ (i 1).val ∧ (i 1).val < win0_4.index t (1 : Fin 2) * 768 + 768; omega

/-! ## Output window 5 -/

/-- Its block index, decided over the 64 points: (t/4, 0), the batch tile alone. -/
theorem idx5 : ∀ t : Fin cfg0.N, win0_5.index t (0 : Fin 2) = t.val / 4 ∧ win0_5.index t (1 : Fin 2) = 0 :=
  (by decide +kernel : ∀ t : Fin grid0.N, _)

/-- Element (r, h) of the block at point t, read off any contents G of the array, is G at (16·(t/4) + r, h). -/
theorem oblk5_read (c : Dev nD) (t : Fin cfg0.N) (G : Buf (Elt F) ((c : Thread nD τ).loc main_v28_2)) (r : Fin 16) (h : Fin 768) :
    ((cfg0.win 5).blk t).view.read (Elt F) G (ix2 r h) = G (ix2 ⟨16 * (t.val / 4) + r.val, by have := t_lt t; have := r.isLt; omega⟩ h) := by
  show G (((cfg0.win 5).blk t).view.emb (ix2 r h)) = G _
  congr 1
  funext a
  apply Fin.ext
  obtain ⟨e0, e1⟩ := idx5 t
  match a with
  | ⟨0, _⟩ => show win0_5.index t (0 : Fin 2) * 16 + 1 * r.val = 16 * (t.val / 4) + r.val; omega
  | ⟨1, _⟩ => show win0_5.index t (1 : Fin 2) * 768 + 1 * h.val = h.val; omega

/-- An index of the array lies in point t's block iff each coordinate lies in the block's range on its axis. -/
theorem mem_blk5 (t : Fin cfg0.N) (i : S256x768.Idx) :
    i ∈ ((cfg0.win 5).blk t).view.set ↔ ∀ a : Fin 2, win0_5.index t a * S16x768.size a ≤ (i a).val ∧ (i a).val < win0_5.index t a * S16x768.size a + S16x768.size a := by
  show i ∈ ((View.whole main_v28_2).slice (win0_5.rect t)).set ↔ _
  rw [View.set_slice_whole, Rect.mem_set_unit]
  exact Iff.rfl

/-- Every index (b, h) of the array lies in a block that is written back: that of the point 4·(b/16) + 3, the last step
    along the middle axis of batch tile b/16, whose block is rows 16·(b/16) … 16·(b/16) + 15 and all 768 columns. -/
theorem ocover5 : ∀ i : S256x768.Idx, ∃ t : Fin cfg0.N, (cfg0.win 5).flush t = true ∧ i ∈ ((cfg0.win 5).blk t).view.set := by
  intro i
  have hi0 : (i 0).val < 256 := (i 0).isLt
  have hi1 : (i 1).val < 768 := (i 1).isLt
  obtain ⟨t, ht⟩ : ∃ t : Fin cfg0.N, t.val = 4 * ((i 0).val / 16) + 3 :=
    ⟨⟨4 * ((i 0).val / 16) + 3, by have h : cfg0.N = 64 := N_0; omega⟩, rfl⟩
  obtain ⟨e0, e1⟩ := idx5 t
  refine ⟨t, (flush0_5 t).2 (by omega), ?_⟩
  rw [mem_blk5]
  intro a
  match a with
  | ⟨0, _⟩ => show win0_5.index t (0 : Fin 2) * 16 ≤ (i 0).val ∧ (i 0).val < win0_5.index t (0 : Fin 2) * 16 + 16; omega
  | ⟨1, _⟩ => show win0_5.index t (1 : Fin 2) * 768 ≤ (i 1).val ∧ (i 1).val < win0_5.index t (1 : Fin 2) * 768 + 768; omega

/-! ## Output window 6 -/

/-- Its block index, decided over the 64 points: (t/4, 0), the batch tile alone. -/
theorem idx6 : ∀ t : Fin cfg0.N, win0_6.index t (0 : Fin 2) = t.val / 4 ∧ win0_6.index t (1 : Fin 2) = 0 :=
  (by decide +kernel : ∀ t : Fin grid0.N, _)

/-- Element (r, h) of the block at point t, read off any contents G of the array, is G at (16·(t/4) + r, h). -/
theorem oblk6_read (c : Dev nD) (t : Fin cfg0.N) (G : Buf (Elt F) ((c : Thread nD τ).loc main_v28_3)) (r : Fin 16) (h : Fin 768) :
    ((cfg0.win 6).blk t).view.read (Elt F) G (ix2 r h) = G (ix2 ⟨16 * (t.val / 4) + r.val, by have := t_lt t; have := r.isLt; omega⟩ h) := by
  show G (((cfg0.win 6).blk t).view.emb (ix2 r h)) = G _
  congr 1
  funext a
  apply Fin.ext
  obtain ⟨e0, e1⟩ := idx6 t
  match a with
  | ⟨0, _⟩ => show win0_6.index t (0 : Fin 2) * 16 + 1 * r.val = 16 * (t.val / 4) + r.val; omega
  | ⟨1, _⟩ => show win0_6.index t (1 : Fin 2) * 768 + 1 * h.val = h.val; omega

/-- An index of the array lies in point t's block iff each coordinate lies in the block's range on its axis. -/
theorem mem_blk6 (t : Fin cfg0.N) (i : S256x768.Idx) :
    i ∈ ((cfg0.win 6).blk t).view.set ↔ ∀ a : Fin 2, win0_6.index t a * S16x768.size a ≤ (i a).val ∧ (i a).val < win0_6.index t a * S16x768.size a + S16x768.size a := by
  show i ∈ ((View.whole main_v28_3).slice (win0_6.rect t)).set ↔ _
  rw [View.set_slice_whole, Rect.mem_set_unit]
  exact Iff.rfl

/-- Every index (b, h) of the array lies in a block that is written back: that of the point 4·(b/16) + 3, the last step
    along the middle axis of batch tile b/16, whose block is rows 16·(b/16) … 16·(b/16) + 15 and all 768 columns. -/
theorem ocover6 : ∀ i : S256x768.Idx, ∃ t : Fin cfg0.N, (cfg0.win 6).flush t = true ∧ i ∈ ((cfg0.win 6).blk t).view.set := by
  intro i
  have hi0 : (i 0).val < 256 := (i 0).isLt
  have hi1 : (i 1).val < 768 := (i 1).isLt
  obtain ⟨t, ht⟩ : ∃ t : Fin cfg0.N, t.val = 4 * ((i 0).val / 16) + 3 :=
    ⟨⟨4 * ((i 0).val / 16) + 3, by have h : cfg0.N = 64 := N_0; omega⟩, rfl⟩
  obtain ⟨e0, e1⟩ := idx6 t
  refine ⟨t, (flush0_6 t).2 (by omega), ?_⟩
  rw [mem_blk6]
  intro a
  match a with
  | ⟨0, _⟩ => show win0_6.index t (0 : Fin 2) * 16 ≤ (i 0).val ∧ (i 0).val < win0_6.index t (0 : Fin 2) * 16 + 16; omega
  | ⟨1, _⟩ => show win0_6.index t (1 : Fin 2) * 768 ≤ (i 1).val ∧ (i 1).val < win0_6.index t (1 : Fin 2) * 768 + 768; omega

end Cert.KernelIdeal.Frame

end
-- ==== Proof.Payloads.lean ====
/-
  The kernel body's pure values, each read at an index over the extended reals.

  The body keeps two accumulators of shape [16, 768].  At the first tile of the slot axis it stores the zero block in
  both and copies row 0 of each activation block ([16, 1, 768] viewed as [16, 768]).  At every tile it adds to each
  accumulator the weighted sum of the activation block over the 128 slots of the tile:

      new[r, h] = old[r, h] + Σ_{s < 128} w[r, s] · x[r, s, h].

  The weight block [16, 128] reaches the product through a view [16, 128, 1] broadcast along the last axis, and the
  sum is a one-axis reduction; each layout step reads ONE index of its operand, named below coordinate by coordinate.
-/
import proofs.«413436_j65730179498319_1_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Pay

open Idealize.ShloMosaic Idealize.ShloMosaic.ValueIdx Cert.KernelIdeal Cert.KernelIdeal.Gen

/-! ## Three layout steps read at an index -/

section Layout
variable {α : Type}

/-- An `[a, 1, b]` array viewed as `[a, b]` reads, at `(i, j)`, the operand at `(i, 0, j)`: both indices sit at the
    row-major position `i · b + j`. -/
theorem shapeCast_a1b_ab_apply {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ix2 i j) = x (ix3 i (0 : Fin 1) j) :=
  shapeCast_apply x h _ _ (by
    rw [Shape.rowMajor_val_three, Shape.rowMajor_val_two]
    show (i.val * 1 + 0) * b + j.val = i.val * b + j.val
    rw [Nat.mul_one, Nat.add_zero])

/-- An `[a, b]` array viewed as `[a, b, 1]` (a trailing unit axis kept) reads, at `(i, j, u)`, the operand at
    `(i, j)`, whatever the unit coordinate `u`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- The `[16, 128, 1]` view broadcast along its unit axis to `[16, 128, 768]` reads, at `(r, s, h)`, the operand at
    `(r, s, 0)`. -/
theorem broadcast_lane_apply (x : S16x128x1.Idx → α) (hb : S16x128x1.Broadcasts S16x128x768)
    (r : Fin 16) (s : Fin 128) (h : Fin 768) :
    broadcastTo S16x128x768 x hb (ix3 r s h) = x (ix3 r s (0 : Fin 1)) :=
  broadcastTo_apply x hb (ix3 r s h) (ix3 r s (0 : Fin 1)) fun ax =>
    match ax with
    | ⟨0, _⟩ => rfl
    | ⟨1, _⟩ => rfl
    | ⟨2, _⟩ => rfl

end Layout

/-! ## The stored blocks of the first tile -/

/-- The zero block stored in the first accumulator. -/
theorem pay1_apply (j : S16x768.Idx) : k0_pay1 (F := Ideal) j = 0 := Ideal.ofBits_zero_f32

/-- The zero block stored in the second accumulator. -/
theorem pay2_apply (j : S16x768.Idx) : k0_pay2 (F := Ideal) j = 0 := Ideal.ofBits_zero_f32

/-- Row 0 of the first activation block: the `[16, 1, 768]` slab viewed as `[16, 768]`. -/
theorem pay3_apply (v26 : Vec Ideal S16x1x768 .f32) (r : Fin 16) (h : Fin 768) :
    k0_pay3 (F := Ideal) v26 (ix2 r h) = v26 (ix3 r 0 h) :=
  shapeCast_a1b_ab_apply v26 _ r h

/-- Row 0 of the second activation block. -/
theorem pay4_apply (v29 : Vec Ideal S16x1x768 .f32) (r : Fin 16) (h : Fin 768) :
    k0_pay4 (F := Ideal) v29 (ix2 r h) = v29 (ix3 r 0 h) :=
  shapeCast_a1b_ab_apply v29 _ r h

/-! ## The accumulation step -/

/-- The weight block as the `[16, 128, 1]` view the product reads: at `(r, s, u)` the weight `w[r, s]`. -/
theorem pay5_apply (v3 : Vec Ideal S16x128 .f32) (r : Fin 16) (s : Fin 128) (u : Fin 1) :
    k0_pay5 (F := Ideal) v3 (ix3 r s u) = v3 (ix2 r s) :=
  (shapeCast_ab_ab1_apply (shapeCast S16x128 v3 shapeCasts_S16x128_S16x128) shapeCasts_S16x128_S16x128x1 r s u).trans
    (congrFun (shapeCast_self v3 shapeCasts_S16x128_S16x128) (ix2 r s))

/-- The reduced index `(r, h)` with the slot coordinate `s` put back on axis 1 is `(r, s, h)`. -/
theorem lift_ix2 (hr : S16x128x768.Reduces [1] S16x768) (r : Fin 16) (h : Fin 768) (s : Fin 128) :
    hr.lift (ix2 r h) s = ix3 r s h := by
  funext ax
  match ax with
  | ⟨0, _⟩ => rfl
  | ⟨1, _⟩ => rfl
  | ⟨2, _⟩ => rfl

/-- The weighted sum over one tile's slots: the one-axis reduction of the product of the broadcast weights with the
    activation block, at `(r, h)`, is `Σ_s w[r, s] · x[r, s, h]`. -/
theorem tile_sum_apply (v3 : Vec Ideal S16x128 .f32) (x : Vec Ideal S16x128x768 .f32) (r : Fin 16) (h : Fin 768) :
    multiReduction .add [1] S16x768
        (mulf (broadcastTo S16x128x768 (k0_pay5 (F := Ideal) v3) broadcasts_S16x128x1_S16x128x768) x)
        0x00000000#32 reduces_S16x128x768_S16x768 (.inl rfl) rfl (ix2 r h)
      = ∑ s : Fin 128, v3 (ix2 r s) * x (ix3 r s h) := by
  refine (Ideal.multiReduction_add_single _ _ reduces_S16x128x768_S16x768 (.inl rfl) rfl (ix2 r h)).trans ?_
  show ∑ s : Fin 128, _ = _
  refine Finset.sum_congr rfl fun s _ => ?_
  rw [lift_ix2, mulf_apply, broadcast_lane_apply, pay5_apply]

/-- The first accumulator's new block: the old block plus the tile's weighted sum of the first activation. -/
theorem pay6_apply (v3 : Vec Ideal S16x128 .f32) (v6 : Vec Ideal S16x768 .f32) (v8 : Vec Ideal S16x128x768 .f32)
    (r : Fin 16) (h : Fin 768) :
    k0_pay6 (F := Ideal) v3 v6 v8 (ix2 r h) = v6 (ix2 r h) + ∑ s : Fin 128, v3 (ix2 r s) * v8 (ix3 r s h) := by
  unfold k0_pay6
  dsimp only
  rw [addf_apply, shapeCast_self, tile_sum_apply]

/-- The second accumulator's new block: the old block plus the tile's weighted sum of the second activation. -/
theorem pay7_apply (v3 : Vec Ideal S16x128 .f32) (v14 : Vec Ideal S16x768 .f32) (v16 : Vec Ideal S16x128x768 .f32)
    (r : Fin 16) (h : Fin 768) :
    k0_pay7 (F := Ideal) v3 v14 v16 (ix2 r h) = v14 (ix2 r h) + ∑ s : Fin 128, v3 (ix2 r s) * v16 (ix3 r s h) := by
  unfold k0_pay7
  dsimp only
  rw [addf_apply, shapeCast_self, tile_sum_apply]

end Cert.KernelIdeal.Pay

end
-- ==== Proof.TileSum.lean ====
/-
  A running sum over an axis of extent 512 taken four tiles of 128 slots at a time.

  The partial sum after j tiles is the sum of f over the slots below 128 · j.  It starts at 0, each tile adds its own
  128 slots, and after four tiles it is the sum over the whole axis.  Addition on the extended reals is commutative
  and associative, so the sums split and reindex as in any commutative monoid.
-/
import Mathlib.Data.EReal.Basic
import Mathlib.Algebra.BigOperators.Group.Finset.Basic
import Mathlib.Data.Fintype.Basic

noncomputable section

namespace Cert.Spec.Tile

/-- The sum of `f` over the slots of the first `j` tiles. -/
def partialSum (f : Fin 512 → EReal) (j : ℕ) : EReal :=
  ∑ s ∈ Finset.univ.filter (fun s : Fin 512 => s.val < 128 * j), f s

/-- Before any tile the running sum is 0: no slot lies below 0. -/
theorem partialSum_zero (f : Fin 512 → EReal) : partialSum f 0 = 0 := by
  unfold partialSum
  rw [Finset.filter_false_of_mem (fun s _ => by omega), Finset.sum_empty]

/-- Tile `j` adds its 128 slots: the slots below 128 · (j + 1) are those below 128 · j together with the band
    128 · j ≤ s < 128 · (j + 1), and the band is the image of `Fin 128` under s' ↦ 128 · j + s'. -/
theorem partialSum_succ (f : Fin 512 → EReal) (j : ℕ) (hj : j < 4) :
    partialSum f (j + 1)
      = partialSum f j + ∑ s' : Fin 128, f ⟨128 * j + s'.val, by have := s'.isLt; omega⟩ := by
  unfold partialSum
  have hsplit : Finset.univ.filter (fun s : Fin 512 => s.val < 128 * (j + 1))
      = Finset.univ.filter (fun s : Fin 512 => s.val < 128 * j)
        ∪ Finset.univ.filter (fun s : Fin 512 => 128 * j ≤ s.val ∧ s.val < 128 * (j + 1)) := by
    ext s
    simp only [Finset.mem_filter, Finset.mem_univ, true_and, Finset.mem_union]
    omega
  have hdisj : Disjoint (Finset.univ.filter (fun s : Fin 512 => s.val < 128 * j))
      (Finset.univ.filter (fun s : Fin 512 => 128 * j ≤ s.val ∧ s.val < 128 * (j + 1))) := by
    rw [Finset.disjoint_left]
    intro s h1 h2
    simp only [Finset.mem_filter, Finset.mem_univ, true_and] at h1 h2
    omega
  rw [hsplit, Finset.sum_union hdisj]
  congr 1
  symm
  refine Finset.sum_bij (fun s' _ => (⟨128 * j + s'.val, by have := s'.isLt; omega⟩ : Fin 512)) ?_ ?_ ?_ ?_
  · intro s' _
    have := s'.isLt
    simp only [Finset.mem_filter, Finset.mem_univ, true_and]
    omega
  · intro a _ b _ hab
    have := congrArg Fin.val hab
    simp only at this
    exact Fin.ext (by omega)
  · intro s hs
    simp only [Finset.mem_filter, Finset.mem_univ, true_and] at hs
    exact ⟨⟨s.val - 128 * j, by omega⟩, Finset.mem_univ _, Fin.ext (by simp only; omega)⟩
  · intro s' _
    rfl

/-- After four tiles every slot has been added. -/
theorem partialSum_four (f : Fin 512 → EReal) : partialSum f 4 = ∑ s : Fin 512, f s := by
  unfold partialSum
  rw [Finset.filter_true_of_mem (fun s _ => by have := s.isLt; omega)]

end Cert.Spec.Tile

end
-- ==== Proof.KAccum.lean ====
/-
  What the kernel's outputs hold, in closed form.

  A first step stores zero plus the weighted sum of the block's 128 slots into each pooled output and row 0 of the block
  into each first-row output; a later step adds its block's weighted sum to what the step before left.  So after step j
  of batch tile i the pooled buffer holds, at row r and column h, the sum over the first 128·(j+1) slots s of
  w[16i+r, s] · x[16i+r, s, h], and the first-row buffer holds x[16i+r, 0, h].
-/
import proofs.«413436_j65730179498319_1_alg».proof.Proof.KernelIdealFrame
import proofs.«413436_j65730179498319_1_alg».proof.Proof.KBlocks
import proofs.«413436_j65730179498319_1_alg».proof.Proof.Payloads
import proofs.«413436_j65730179498319_1_alg».proof.Proof.TileSum

set_option maxRecDepth 16384

noncomputable section

namespace Cert.KernelIdeal.Frame

open Cert.KernelIdeal Cert.KernelIdeal.Gen
open Idealize.ShloMosaic Idealize.ShloMosaic.TcCoe Idealize.ShloMosaic.ValueIdx
open Idealize.SL.Sem

/-! ## The pieces each case wrote are the body's payloads (any float family) -/

section Pieces
variable {F : FTy → Type} [FloatOps F]

/-- Rows [:, 0:1, :] of an activation block: what the body loads for the first-row outputs. -/
def row0 (x : Vec F S16x128x768 .f32) : Vec F S16x1x768 .f32 := fun y => x (ix3 (y 0) 0 (y 2))

/-- The zero offsets of a rank-2 access, as the constant function. -/
theorem hz2 : (![0, 0] : Fin 2 → Nat) = fun _ => 0 := funext fun a => by fin_cases a <;> rfl
/-- The zero offsets of a rank-3 access, as the constant function. -/
theorem hz3 : (![0, 0, 0] : Fin 3 → Nat) = fun _ => 0 := funext fun a => by fin_cases a <;> rfl

/-- A load of the slab [:, 0:1, :] at zero offsets reads, at (r, u, h), the block at (r, 0, h). -/
theorem ld_row0 (x : Vec F S16x128x768 .f32)
    (inb : ∀ a, (![0, 0, 0] : Fin 3 → Nat) a + S16x1x768.size a ≤ S16x128x768.size a) :
    View.ld x (Rect.unit (s := S16x128x768) ![0, 0, 0] S16x1x768.size inb) = row0 x := by
  funext y
  show x ((Rect.unit (s := S16x128x768) ![0, 0, 0] S16x1x768.size inb).idx y) = x (ix3 (y 0) 0 (y 2))
  congr 1
  funext a
  apply Fin.ext
  have h1 : (y 1).val < 1 := (y 1).isLt
  match a with
  | ⟨0, _⟩ => show 0 + 1 * (y 0).val = (y 0).val; omega
  | ⟨1, _⟩ => show 0 + 1 * (y 1).val = 0; omega
  | ⟨2, _⟩ => show 0 + 1 * (y 2).val = (y 2).val; omega

theorem out0_A_3_eq (c : Dev nD) (i : grid0.Coords) (arg2 : Memref sig .tc .vmem S16x128 .f32) (harg2 : arg2.IsWhole) (arg3 : Memref sig .tc .vmem S16x128x768 .f32) (harg3 : arg3.IsWhole) (arg4 : Memref sig .tc .vmem S16x128x768 .f32) (harg4 : arg4.IsWhole) (arg5 : Memref sig .tc .vmem S16x768 .f32) (harg5 : arg5.IsWhole) (arg6 : Memref sig .tc .vmem S16x768 .f32) (harg6 : arg6.IsWhole) (arg7 : Memref sig .tc .vmem S16x768 .f32) (harg7 : arg7.IsWhole) (arg8 : Memref sig .tc .vmem S16x768 .f32) (harg8 : arg8.IsWhole) (hc0 : cond0_0 i) (x0 : Vec F S16x128 .f32) (x1 : Vec F S16x128x768 .f32) (x2 : Vec F S16x128x768 .f32) :
    out0_A_3 c i arg2 harg2 arg3 harg3 arg4 harg4 arg5 harg5 arg6 harg6 arg7 harg7 arg8 harg8 hc0 x0 x1 x2 = k0_pay6 x0 (k0_pay1 (F := F)) x1 := by
  unfold out0_A_3
  rw [View.read_writes_eq_canon _ _ _ (cover0_A_3 c i arg2 harg2 arg3 harg3 arg4 harg4 arg5 harg5 arg6 harg6 arg7 harg7 arg8 harg8 hc0 x0 x1 x2)]
  unfold kernelRun0_A
  dsimp only
  sl_unfold_words
  rw [View.canon_cons_unit_zero (S := S16x768) hz2, View.readCov_unit_zero (S := S16x768) _ hz2]
  simp only [View.readAt_eq_ld, harg2.read_unread, harg3.read_unread, View.ld_unit_zero (S := S16x128) hz2, View.ld_unit_zero (S := S16x128x768) hz3]
theorem out0_A_4_eq (c : Dev nD) (i : grid0.Coords) (arg2 : Memref sig .tc .vmem S16x128 .f32) (harg2 : arg2.IsWhole) (arg3 : Memref sig .tc .vmem S16x128x768 .f32) (harg3 : arg3.IsWhole) (arg4 : Memref sig .tc .vmem S16x128x768 .f32) (harg4 : arg4.IsWhole) (arg5 : Memref sig .tc .vmem S16x768 .f32) (harg5 : arg5.IsWhole) (arg6 : Memref sig .tc .vmem S16x768 .f32) (harg6 : arg6.IsWhole) (arg7 : Memref sig .tc .vmem S16x768 .f32) (harg7 : arg7.IsWhole) (arg8 : Memref sig .tc .vmem S16x768 .f32) (harg8 : arg8.IsWhole) (hc0 : cond0_0 i) (x0 : Vec F S16x128 .f32) (x1 : Vec F S16x128x768 .f32) (x2 : Vec F S16x128x768 .f32) :
    out0_A_4 c i arg2 harg2 arg3 harg3 arg4 harg4 arg5 harg5 arg6 harg6 arg7 harg7 arg8 harg8 hc0 x0 x1 x2 = k0_pay7 x0 (k0_pay2 (F := F)) x2 := by
  unfold out0_A_4
  rw [View.read_writes_eq_canon _ _ _ (cover0_A_4 c i arg2 harg2 arg3 harg3 arg4 harg4 arg5 harg5 arg6 harg6 arg7 harg7 arg8 harg8 hc0 x0 x1 x2)]
  unfold kernelRun0_A
  dsimp only
  sl_unfold_words
  rw [View.canon_cons_unit_zero (S := S16x768) hz2, View.readCov_unit_zero (S := S16x768) _ hz2]
  simp only [View.readAt_eq_ld, harg2.read_unread, harg4.read_unread, View.ld_unit_zero (S := S16x128) hz2, View.ld_unit_zero (S := S16x128x768) hz3]
theorem out0_A_5_eq (c : Dev nD) (i : grid0.Coords) (arg2 : Memref sig .tc .vmem S16x128 .f32) (harg2 : arg2.IsWhole) (arg3 : Memref sig .tc .vmem S16x128x768 .f32) (harg3 : arg3.IsWhole) (arg4 : Memref sig .tc .vmem S16x128x768 .f32) (harg4 : arg4.IsWhole) (arg5 : Memref sig .tc .vmem S16x768 .f32) (harg5 : arg5.IsWhole) (arg6 : Memref sig .tc .vmem S16x768 .f32) (harg6 : arg6.IsWhole) (arg7 : Memref sig .tc .vmem S16x768 .f32) (harg7 : arg7.IsWhole) (arg8 : Memref sig .tc .vmem S16x768 .f32) (harg8 : arg8.IsWhole) (hc0 : cond0_0 i) (x0 : Vec F S16x128 .f32) (x1 : Vec F S16x128x768 .f32) (x2 : Vec F S16x128x768 .f32) :
    out0_A_5 c i arg2 harg2 arg3 harg3 arg4 harg4 arg5 harg5 arg6 harg6 arg7 harg7 arg8 harg8 hc0 x0 x1 x2 = k0_pay3 (row0 x1) := by
  unfold out0_A_5
  rw [View.read_writes_eq_canon _ _ _ (cover0_A_5 c i arg2 harg2 arg3 harg3 arg4 harg4 arg5 harg5 arg6 harg6 arg7 harg7 arg8 harg8 hc0 x0 x1 x2)]
  unfold kernelRun0_A
  dsimp only
  sl_unfold_words
  rw [View.canon_unit_zero (S := S16x768) hz2]
  simp only [View.readAt_eq_ld, harg3.read_unread]
  exact congrArg k0_pay3 (ld_row0 x1 _)
theorem out0_A_6_eq (c : Dev nD) (i : grid0.Coords) (arg2 : Memref sig .tc .vmem S16x128 .f32) (harg2 : arg2.IsWhole) (arg3 : Memref sig .tc .vmem S16x128x768 .f32) (harg3 : arg3.IsWhole) (arg4 : Memref sig .tc .vmem S16x128x768 .f32) (harg4 : arg4.IsWhole) (arg5 : Memref sig .tc .vmem S16x768 .f32) (harg5 : arg5.IsWhole) (arg6 : Memref sig .tc .vmem S16x768 .f32) (harg6 : arg6.IsWhole) (arg7 : Memref sig .tc .vmem S16x768 .f32) (harg7 : arg7.IsWhole) (arg8 : Memref sig .tc .vmem S16x768 .f32) (harg8 : arg8.IsWhole) (hc0 : cond0_0 i) (x0 : Vec F S16x128 .f32) (x1 : Vec F S16x128x768 .f32) (x2 : Vec F S16x128x768 .f32) :
    out0_A_6 c i arg2 harg2 arg3 harg3 arg4 harg4 arg5 harg5 arg6 harg6 arg7 harg7 arg8 harg8 hc0 x0 x1 x2 = k0_pay4 (row0 x2) := by
  unfold out0_A_6
  rw [View.read_writes_eq_canon _ _ _ (cover0_A_6 c i arg2 harg2 arg3 harg3 arg4 harg4 arg5 harg5 arg6 harg6 arg7 harg7 arg8 harg8 hc0 x0 x1 x2)]
  unfold kernelRun0_A
  dsimp only
  sl_unfold_words
  rw [View.canon_unit_zero (S := S16x768) hz2]
  simp only [View.readAt_eq_ld, harg4.read_unread]
  exact congrArg k0_pay4 (ld_row0 x2 _)
theorem out0_B_3_eq (c : Dev nD) (i : grid0.Coords) (arg2 : Memref sig .tc .vmem S16x128 .f32) (harg2 : arg2.IsWhole) (arg3 : Memref sig .tc .vmem S16x128x768 .f32) (harg3 : arg3.IsWhole) (arg4 : Memref sig .tc .vmem S16x128x768 .f32) (harg4 : arg4.IsWhole) (arg5 : Memref sig .tc .vmem S16x768 .f32) (harg5 : arg5.IsWhole) (arg6 : Memref sig .tc .vmem S16x768 .f32) (harg6 : arg6.IsWhole) (arg7 : Memref sig .tc .vmem S16x768 .f32) (harg7 : arg7.IsWhole) (arg8 : Memref sig .tc .vmem S16x768 .f32) (harg8 : arg8.IsWhole) (hc0 : ¬cond0_0 i) (x0 : Vec F S16x128 .f32) (x1 : Vec F S16x128x768 .f32) (x2 : Vec F S16x128x768 .f32) (xo3 : Vec F S16x768 .f32) (xo4 : Vec F S16x768 .f32) :
    out0_B_3 c i arg2 harg2 arg3 harg3 arg4 harg4 arg5 harg5 arg6 harg6 arg7 harg7 arg8 harg8 hc0 x0 x1 x2 xo3 xo4 = k0_pay6 x0 xo3 x1 := by
  unfold out0_B_3
  rw [View.read_writes_eq_canon _ _ _ (cover0_B_3 c i arg2 harg2 arg3 harg3 arg4 harg4 arg5 harg5 arg6 harg6 arg7 harg7 arg8 harg8 hc0 x0 x1 x2 xo3 xo4)]
  unfold kernelRun0_B
  dsimp only
  sl_unfold_words
  rw [View.canon_unit_zero (S := S16x768) hz2]
  simp only [View.readAt_eq_ld, harg2.read_unread, harg3.read_unread, harg5.read_unread, View.ld_unit_zero (S := S16x128) hz2, View.ld_unit_zero (S := S16x768) hz2, View.ld_unit_zero (S := S16x128x768) hz3]
theorem out0_B_4_eq (c : Dev nD) (i : grid0.Coords) (arg2 : Memref sig .tc .vmem S16x128 .f32) (harg2 : arg2.IsWhole) (arg3 : Memref sig .tc .vmem S16x128x768 .f32) (harg3 : arg3.IsWhole) (arg4 : Memref sig .tc .vmem S16x128x768 .f32) (harg4 : arg4.IsWhole) (arg5 : Memref sig .tc .vmem S16x768 .f32) (harg5 : arg5.IsWhole) (arg6 : Memref sig .tc .vmem S16x768 .f32) (harg6 : arg6.IsWhole) (arg7 : Memref sig .tc .vmem S16x768 .f32) (harg7 : arg7.IsWhole) (arg8 : Memref sig .tc .vmem S16x768 .f32) (harg8 : arg8.IsWhole) (hc0 : ¬cond0_0 i) (x0 : Vec F S16x128 .f32) (x1 : Vec F S16x128x768 .f32) (x2 : Vec F S16x128x768 .f32) (xo3 : Vec F S16x768 .f32) (xo4 : Vec F S16x768 .f32) :
    out0_B_4 c i arg2 harg2 arg3 harg3 arg4 harg4 arg5 harg5 arg6 harg6 arg7 harg7 arg8 harg8 hc0 x0 x1 x2 xo3 xo4 = k0_pay7 x0 xo4 x2 := by
  unfold out0_B_4
  rw [View.read_writes_eq_canon _ _ _ (cover0_B_4 c i arg2 harg2 arg3 harg3 arg4 harg4 arg5 harg5 arg6 harg6 arg7 harg7 arg8 harg8 hc0 x0 x1 x2 xo3 xo4)]
  unfold kernelRun0_B
  dsimp only
  sl_unfold_words
  rw [View.canon_unit_zero (S := S16x768) hz2]
  simp only [View.readAt_eq_ld, harg2.read_unread, harg4.read_unread, harg6.read_unread, View.ld_unit_zero (S := S16x128) hz2, View.ld_unit_zero (S := S16x768) hz2, View.ld_unit_zero (S := S16x128x768) hz3]

end Pieces

/-! ## Point by point, at the extended reals -/

variable (m : (ℓ : Loc nD τ sig) → Buf (Elt Ideal) ℓ)

/-- Row 16·(t/4) + r of the batch axis. -/
def rowOf (t : Fin cfg0.N) (r : Fin 16) : Fin 256 := ⟨16 * (t.val / 4) + r.val, by have := t_lt t; have := r.isLt; omega⟩

/-- The weight array, the two activations, as the call finds them, at their literal types. -/
abbrev wgtArr (c : Dev nD) : S256x512.Idx → EReal := V m c main_v27
abbrev xArr (c : Dev nD) : S256x512x768.Idx → EReal := V m c main_arg0
abbrev yArr (c : Dev nD) : S256x512x768.Idx → EReal := V m c main_arg1

/-- The products the kernel sums for row b and column h of the first activation, slot by slot. -/
def term1 (c : Dev nD) (b : Fin 256) (h : Fin 768) : Fin 512 → EReal :=
  fun s => wgtArr m c (ix2 b s) * xArr m c (ix3 b s h)
/-- The same for the second activation. -/
def term2 (c : Dev nD) (b : Fin 256) (h : Fin 768) : Fin 512 → EReal :=
  fun s => wgtArr m c (ix2 b s) * yArr m c (ix3 b s h)

/-- The three input blocks of point t, at their literal types. -/
abbrev wBlk (c : Dev nD) (t : Fin cfg0.N) : S16x128.Idx → EReal := iblk m c 0 t
abbrev xBlk (c : Dev nD) (t : Fin cfg0.N) : S16x128x768.Idx → EReal := iblk m c 1 t
abbrev yBlk (c : Dev nD) (t : Fin cfg0.N) : S16x128x768.Idx → EReal := iblk m c 2 t

/-- One tile's weighted sum of the first activation, from block coordinates to the arrays': slot s' of step
    t%4 is slot 128·(t%4) + s' of the axis, and row r of batch tile t/4 is row 16·(t/4) + r. -/
theorem tile1_eq (c : Dev nD) (t : Fin cfg0.N) (r : Fin 16) (h : Fin 768) :
    ∑ s' : Fin 128, wBlk m c t (ix2 r s') * xBlk m c t (ix3 r s' h)
      = ∑ s' : Fin 128, term1 m c (rowOf t r) h ⟨128 * (t.val % 4) + s'.val, by have := s'.isLt; omega⟩ := by
  refine Finset.sum_congr rfl fun s' _ => ?_
  dsimp only [wBlk, xBlk]
  rw [iblk0_apply m c t r s', iblk1_apply m c t r s' h]
  rfl

/-- A first step leaves zero plus its tile's sum: the partial sum after one tile. -/
theorem pool1_A (c : Dev nD) (t : Fin cfg0.N) (h0 : t.val % 4 = 0) (r : Fin 16) (h : Fin 768) :
    (outsAt0 m c t.val t.isLt).1 (ix2 r h) = Cert.Spec.Tile.partialSum (term1 m c (rowOf t r) h) (t.val % 4 + 1) := by
  rw [outsAt0_A m c t h0]
  dsimp only
  refine (congrFun (out0_A_3_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (iblk m c 0 t) (iblk m c 1 t) (iblk m c 2 t)) (ix2 r h)).trans ?_
  refine (Pay.pay6_apply (wBlk m c t) (k0_pay1 (F := Ideal)) (xBlk m c t) r h).trans ?_
  rw [Pay.pay1_apply, tile1_eq m c t r h,
    Cert.Spec.Tile.partialSum_succ _ _ (Nat.mod_lt _ (by decide))]
  congr 1
  rw [h0]
  exact (Cert.Spec.Tile.partialSum_zero _).symm

/-- A later step adds its tile's sum to what the step before left. -/
theorem pool1_B (c : Dev nD) (t : Fin cfg0.N) (h0 : ¬t.val % 4 = 0) (r : Fin 16) (h : Fin 768) :
    (outsAt0 m c t.val t.isLt).1 (ix2 r h)
      = (outsAt0 m c (t.val - 1) (Nat.lt_of_le_of_lt (Nat.sub_le _ _) t.isLt)).1 (ix2 r h)
        + ∑ s' : Fin 128, term1 m c (rowOf t r) h ⟨128 * (t.val % 4) + s'.val, by have := s'.isLt; omega⟩ := by
  rw [outsAt0_B m c t h0]
  dsimp only
  refine (congrFun (out0_B_3_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun hh => h0 ((hcond0_0 t).mp hh)) (iblk m c 0 t) (iblk m c 1 t) (iblk m c 2 t) (outsAt0 m c (t.val - 1) (Nat.lt_of_le_of_lt (Nat.sub_le _ _) t.isLt)).1 (outsAt0 m c (t.val - 1) (Nat.lt_of_le_of_lt (Nat.sub_le _ _) t.isLt)).2.1) (ix2 r h)).trans ?_
  refine (Pay.pay6_apply (wBlk m c t) (outsAt0 m c (t.val - 1) (Nat.lt_of_le_of_lt (Nat.sub_le _ _) t.isLt)).1 (xBlk m c t) r h).trans ?_
  rw [tile1_eq m c t r h]

/-- After step t%4 of batch tile t/4 the pooled buffer holds the partial sum over the first t%4 + 1 tiles. -/
theorem pool1_all (c : Dev nD) (r : Fin 16) (h : Fin 768) : ∀ (n : ℕ) (hn : n < cfg0.N),
    (outsAt0 m c n hn).1 (ix2 r h) = Cert.Spec.Tile.partialSum (term1 m c (rowOf ⟨n, hn⟩ r) h) (n % 4 + 1) := by
  intro n
  induction n with
  | zero => intro hn; exact pool1_A m c ⟨0, hn⟩ rfl r h
  | succ n ih =>
    intro hn
    by_cases h0 : (n + 1) % 4 = 0
    · exact pool1_A m c ⟨n + 1, hn⟩ h0 r h
    · have hrow : rowOf ⟨n, Nat.lt_of_succ_lt hn⟩ r = rowOf ⟨n + 1, hn⟩ r :=
        Fin.ext (by show 16 * (n / 4) + r.val = 16 * ((n + 1) / 4) + r.val; omega)
      have hj : n % 4 + 1 = (n + 1) % 4 := by omega
      refine (pool1_B m c ⟨n + 1, hn⟩ h0 r h).trans ?_
      rw [Cert.Spec.Tile.partialSum_succ _ _ (Nat.mod_lt _ (by decide))]
      congr 1
      rw [← hrow, ← hj]
      exact ih (Nat.lt_of_succ_lt hn)

/-- One tile's weighted sum of the second activation, from block coordinates to the arrays': slot s' of step
    t%4 is slot 128·(t%4) + s' of the axis, and row r of batch tile t/4 is row 16·(t/4) + r. -/
theorem tile2_eq (c : Dev nD) (t : Fin cfg0.N) (r : Fin 16) (h : Fin 768) :
    ∑ s' : Fin 128, wBlk m c t (ix2 r s') * yBlk m c t (ix3 r s' h)
      = ∑ s' : Fin 128, term2 m c (rowOf t r) h ⟨128 * (t.val % 4) + s'.val, by have := s'.isLt; omega⟩ := by
  refine Finset.sum_congr rfl fun s' _ => ?_
  dsimp only [wBlk, yBlk]
  rw [iblk0_apply m c t r s', iblk2_apply m c t r s' h]
  rfl

/-- A first step leaves zero plus its tile's sum: the partial sum after one tile. -/
theorem pool2_A (c : Dev nD) (t : Fin cfg0.N) (h0 : t.val % 4 = 0) (r : Fin 16) (h : Fin 768) :
    (outsAt0 m c t.val t.isLt).2.1 (ix2 r h) = Cert.Spec.Tile.partialSum (term2 m c (rowOf t r) h) (t.val % 4 + 1) := by
  rw [outsAt0_A m c t h0]
  dsimp only
  refine (congrFun (out0_A_4_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (iblk m c 0 t) (iblk m c 1 t) (iblk m c 2 t)) (ix2 r h)).trans ?_
  refine (Pay.pay7_apply (wBlk m c t) (k0_pay2 (F := Ideal)) (yBlk m c t) r h).trans ?_
  rw [Pay.pay2_apply, tile2_eq m c t r h,
    Cert.Spec.Tile.partialSum_succ _ _ (Nat.mod_lt _ (by decide))]
  congr 1
  rw [h0]
  exact (Cert.Spec.Tile.partialSum_zero _).symm

/-- A later step adds its tile's sum to what the step before left. -/
theorem pool2_B (c : Dev nD) (t : Fin cfg0.N) (h0 : ¬t.val % 4 = 0) (r : Fin 16) (h : Fin 768) :
    (outsAt0 m c t.val t.isLt).2.1 (ix2 r h)
      = (outsAt0 m c (t.val - 1) (Nat.lt_of_le_of_lt (Nat.sub_le _ _) t.isLt)).2.1 (ix2 r h)
        + ∑ s' : Fin 128, term2 m c (rowOf t r) h ⟨128 * (t.val % 4) + s'.val, by have := s'.isLt; omega⟩ := by
  rw [outsAt0_B m c t h0]
  dsimp only
  refine (congrFun (out0_B_4_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun hh => h0 ((hcond0_0 t).mp hh)) (iblk m c 0 t) (iblk m c 1 t) (iblk m c 2 t) (outsAt0 m c (t.val - 1) (Nat.lt_of_le_of_lt (Nat.sub_le _ _) t.isLt)).1 (outsAt0 m c (t.val - 1) (Nat.lt_of_le_of_lt (Nat.sub_le _ _) t.isLt)).2.1) (ix2 r h)).trans ?_
  refine (Pay.pay7_apply (wBlk m c t) (outsAt0 m c (t.val - 1) (Nat.lt_of_le_of_lt (Nat.sub_le _ _) t.isLt)).2.1 (yBlk m c t) r h).trans ?_
  rw [tile2_eq m c t r h]

/-- After step t%4 of batch tile t/4 the pooled buffer holds the partial sum over the first t%4 + 1 tiles. -/
theorem pool2_all (c : Dev nD) (r : Fin 16) (h : Fin 768) : ∀ (n : ℕ) (hn : n < cfg0.N),
    (outsAt0 m c n hn).2.1 (ix2 r h) = Cert.Spec.Tile.partialSum (term2 m c (rowOf ⟨n, hn⟩ r) h) (n % 4 + 1) := by
  intro n
  induction n with
  | zero => intro hn; exact pool2_A m c ⟨0, hn⟩ rfl r h
  | succ n ih =>
    intro hn
    by_cases h0 : (n + 1) % 4 = 0
    · exact pool2_A m c ⟨n + 1, hn⟩ h0 r h
    · have hrow : rowOf ⟨n, Nat.lt_of_succ_lt hn⟩ r = rowOf ⟨n + 1, hn⟩ r :=
        Fin.ext (by show 16 * (n / 4) + r.val = 16 * ((n + 1) / 4) + r.val; omega)
      have hj : n % 4 + 1 = (n + 1) % 4 := by omega
      refine (pool2_B m c ⟨n + 1, hn⟩ h0 r h).trans ?_
      rw [Cert.Spec.Tile.partialSum_succ _ _ (Nat.mod_lt _ (by decide))]
      congr 1
      rw [← hrow, ← hj]
      exact ih (Nat.lt_of_succ_lt hn)

/-- A first step stores row 0 of its block: slot 0 of step 0 is slot 0 of the axis. -/
theorem cls1_A (c : Dev nD) (t : Fin cfg0.N) (h0 : t.val % 4 = 0) (r : Fin 16) (h : Fin 768) :
    (outsAt0 m c t.val t.isLt).2.2.1 (ix2 r h) = xArr m c (ix3 (rowOf t r) 0 h) := by
  rw [outsAt0_A m c t h0]
  dsimp only
  refine (congrFun (out0_A_5_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (iblk m c 0 t) (iblk m c 1 t) (iblk m c 2 t)) (ix2 r h)).trans ?_
  refine (Pay.pay3_apply (row0 (xBlk m c t)) r h).trans ?_
  show iblk m c 1 t (ix3 r 0 h) = _
  rw [iblk1_apply m c t r 0 h]
  show V m c main_arg0 _ = V m c main_arg0 _
  congr 1
  funext a
  apply Fin.ext
  match a with
  | ⟨0, _⟩ => rfl
  | ⟨1, _⟩ => show 128 * (t.val % 4) + 0 = 0; omega
  | ⟨2, _⟩ => rfl

/-- A later step leaves the first-row buffer as the step before left it. -/
theorem cls1_B (c : Dev nD) (t : Fin cfg0.N) (h0 : ¬t.val % 4 = 0) (r : Fin 16) (h : Fin 768) :
    (outsAt0 m c t.val t.isLt).2.2.1 (ix2 r h) = (outsAt0 m c (t.val - 1) (Nat.lt_of_le_of_lt (Nat.sub_le _ _) t.isLt)).2.2.1 (ix2 r h) := by
  rw [outsAt0_B m c t h0]

/-- At every step of batch tile t/4 the first-row buffer holds row 0 of the tile's rows. -/
theorem cls1_all (c : Dev nD) (r : Fin 16) (h : Fin 768) : ∀ (n : ℕ) (hn : n < cfg0.N),
    (outsAt0 m c n hn).2.2.1 (ix2 r h) = xArr m c (ix3 (rowOf ⟨n, hn⟩ r) 0 h) := by
  intro n
  induction n with
  | zero => intro hn; exact cls1_A m c ⟨0, hn⟩ rfl r h
  | succ n ih =>
    intro hn
    by_cases h0 : (n + 1) % 4 = 0
    · exact cls1_A m c ⟨n + 1, hn⟩ h0 r h
    · have hrow : rowOf ⟨n, Nat.lt_of_succ_lt hn⟩ r = rowOf ⟨n + 1, hn⟩ r :=
        Fin.ext (by show 16 * (n / 4) + r.val = 16 * ((n + 1) / 4) + r.val; omega)
      refine (cls1_B m c ⟨n + 1, hn⟩ h0 r h).trans ?_
      rw [← hrow]
      exact ih (Nat.lt_of_succ_lt hn)

/-- A first step stores row 0 of its block: slot 0 of step 0 is slot 0 of the axis. -/
theorem cls2_A (c : Dev nD) (t : Fin cfg0.N) (h0 : t.val % 4 = 0) (r : Fin 16) (h : Fin 768) :
    (outsAt0 m c t.val t.isLt).2.2.2 (ix2 r h) = yArr m c (ix3 (rowOf t r) 0 h) := by
  rw [outsAt0_A m c t h0]
  dsimp only
  refine (congrFun (out0_A_6_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (iblk m c 0 t) (iblk m c 1 t) (iblk m c 2 t)) (ix2 r h)).trans ?_
  refine (Pay.pay4_apply (row0 (yBlk m c t)) r h).trans ?_
  show iblk m c 2 t (ix3 r 0 h) = _
  rw [iblk2_apply m c t r 0 h]
  show V m c main_arg1 _ = V m c main_arg1 _
  congr 1
  funext a
  apply Fin.ext
  match a with
  | ⟨0, _⟩ => rfl
  | ⟨1, _⟩ => show 128 * (t.val % 4) + 0 = 0; omega
  | ⟨2, _⟩ => rfl

/-- A later step leaves the first-row buffer as the step before left it. -/
theorem cls2_B (c : Dev nD) (t : Fin cfg0.N) (h0 : ¬t.val % 4 = 0) (r : Fin 16) (h : Fin 768) :
    (outsAt0 m c t.val t.isLt).2.2.2 (ix2 r h) = (outsAt0 m c (t.val - 1) (Nat.lt_of_le_of_lt (Nat.sub_le _ _) t.isLt)).2.2.2 (ix2 r h) := by
  rw [outsAt0_B m c t h0]

/-- At every step of batch tile t/4 the first-row buffer holds row 0 of the tile's rows. -/
theorem cls2_all (c : Dev nD) (r : Fin 16) (h : Fin 768) : ∀ (n : ℕ) (hn : n < cfg0.N),
    (outsAt0 m c n hn).2.2.2 (ix2 r h) = yArr m c (ix3 (rowOf ⟨n, hn⟩ r) 0 h) := by
  intro n
  induction n with
  | zero => intro hn; exact cls2_A m c ⟨0, hn⟩ rfl r h
  | succ n ih =>
    intro hn
    by_cases h0 : (n + 1) % 4 = 0
    · exact cls2_A m c ⟨n + 1, hn⟩ h0 r h
    · have hrow : rowOf ⟨n, Nat.lt_of_succ_lt hn⟩ r = rowOf ⟨n + 1, hn⟩ r :=
        Fin.ext (by show 16 * (n / 4) + r.val = 16 * ((n + 1) / 4) + r.val; omega)
      refine (cls2_B m c ⟨n + 1, hn⟩ h0 r h).trans ?_
      rw [← hrow]
      exact ih (Nat.lt_of_succ_lt hn)

theorem outs_pool1 (c : Dev nD) (t : Fin cfg0.N) (r : Fin 16) (h : Fin 768) :
    (outsAt0 m c t.val t.isLt).1 (ix2 r h) = Cert.Spec.Tile.partialSum (term1 m c (rowOf t r) h) (t.val % 4 + 1) :=
  pool1_all m c r h t.val t.isLt
theorem outs_pool2 (c : Dev nD) (t : Fin cfg0.N) (r : Fin 16) (h : Fin 768) :
    (outsAt0 m c t.val t.isLt).2.1 (ix2 r h) = Cert.Spec.Tile.partialSum (term2 m c (rowOf t r) h) (t.val % 4 + 1) :=
  pool2_all m c r h t.val t.isLt
theorem outs_cls1 (c : Dev nD) (t : Fin cfg0.N) (r : Fin 16) (h : Fin 768) :
    (outsAt0 m c t.val t.isLt).2.2.1 (ix2 r h) = xArr m c (ix3 (rowOf t r) 0 h) :=
  cls1_all m c r h t.val t.isLt
theorem outs_cls2 (c : Dev nD) (t : Fin cfg0.N) (r : Fin 16) (h : Fin 768) :
    (outsAt0 m c t.val t.isLt).2.2.2 (ix2 r h) = yArr m c (ix3 (rowOf t r) 0 h) :=
  cls2_all m c r h t.val t.isLt

end Cert.KernelIdeal.Frame

end
-- ==== Proof.KTail.lean ====
/-
  The network head that follows the pooling, as ONE function of the four [256, 768] arrays it joins and of the
  layer weights: join to [256, 3072]; divide each row by max(its Euclidean norm, 1e-12); the first linear layer and its
  bias; batch normalisation over the 256 rows (mean, biased variance, 1e-5 under the square root, scale and shift);
  the rectifier; the second linear layer and its bias.  The pooled arrays enter only through this function, so two
  programs that feed it equal arrays end with equal results.
-/
import proofs.«413436_j65730179498319_1_alg».proof.KernelIdeal

noncomputable section

namespace Cert.KTail

open Cert.KernelIdeal Cert.KernelIdeal.Facts₀ Idealize.ShloMosaic

variable {F : FTy → Type} [FloatOps F] [Cert.KernelIdeal.Facts₀]

/-- The head applied to the two pooled arrays and the two first-row arrays (joined in the order
    pooled-1, row-1, pooled-2, row-2), with the layer weights: each line is one array operation. -/
def tailK (pp cp pm cm : (⟨S256x768, .f32⟩ : BufTy).Contents (Elt F)) (a3 : (⟨S768x3072, .f32⟩ : BufTy).Contents (Elt F)) (a4 : (⟨S768, .f32⟩ : BufTy).Contents (Elt F))
    (a5 : (⟨S1x768, .f32⟩ : BufTy).Contents (Elt F)) (a6 : (⟨S1, .f32⟩ : BufTy).Contents (Elt F)) (a7 a8 : (⟨S768, .f32⟩ : BufTy).Contents (Elt F)) : (⟨S256x1, .f32⟩ : BufTy).Contents (Elt F) :=
  let v29 : (⟨S256x3072, .f32⟩ : BufTy).Contents (Elt F) := concatenate S256x3072 1 [⟨S256x768, pp⟩, ⟨S256x768, cp⟩, ⟨S256x768, pm⟩, ⟨S256x768, cm⟩] concatenates_S256x768_S256x768_S256x768_S256x768_S256x3072_d1
  let v30 := (mulf : (⟨S256x3072, .f32⟩ : BufTy).Contents (Elt F) → (⟨S256x3072, .f32⟩ : BufTy).Contents (Elt F) → (⟨S256x3072, .f32⟩ : BufTy).Contents (Elt F)) v29 v29
  let cst_7 : (⟨S_, .f32⟩ : BufTy).Contents (Elt F) := constant S_ .f32 0x00000000#32
  let v31 := ((fun x v => Host.reduceAdd x v reducesTo_S256x3072_S256_d1 h_S_) : (⟨S256x3072, .f32⟩ : BufTy).Contents (Elt F) → (⟨S_, .f32⟩ : BufTy).Contents (Elt F) → (⟨S256, .f32⟩ : BufTy).Contents (Elt F)) v30 cst_7
  let v32 := (broadcastInDim S256x1 ![0] bcast_S256_S256x1_0 : (⟨S256, .f32⟩ : BufTy).Contents (Elt F) → (⟨S256x1, .f32⟩ : BufTy).Contents (Elt F)) v31
  let v33 := (Host.sqrt : (⟨S256x1, .f32⟩ : BufTy).Contents (Elt F) → (⟨S256x1, .f32⟩ : BufTy).Contents (Elt F)) v32
  let cst_8 : (⟨S_, .f32⟩ : BufTy).Contents (Elt F) := constant S_ .f32 0x2B8CBCCC#32
  let v34 := (broadcastInDim S256x1 ![] bcast_S_S256x1 : (⟨S_, .f32⟩ : BufTy).Contents (Elt F) → (⟨S256x1, .f32⟩ : BufTy).Contents (Elt F)) cst_8
  let v35 := (maximumf : (⟨S256x1, .f32⟩ : BufTy).Contents (Elt F) → (⟨S256x1, .f32⟩ : BufTy).Contents (Elt F) → (⟨S256x1, .f32⟩ : BufTy).Contents (Elt F)) v33 v34
  let v36 := (broadcastInDim S256x3072 ![0, 1] bcast_S256x1_S256x3072_0_1 : (⟨S256x1, .f32⟩ : BufTy).Contents (Elt F) → (⟨S256x3072, .f32⟩ : BufTy).Contents (Elt F)) v35
  let v37 := (Host.divf : (⟨S256x3072, .f32⟩ : BufTy).Contents (Elt F) → (⟨S256x3072, .f32⟩ : BufTy).Contents (Elt F) → (⟨S256x3072, .f32⟩ : BufTy).Contents (Elt F)) v29 v36
  let v38 := ((transpose S3072x768 [1, 0] · transposes_S768x3072_S3072x768_1_0) : (⟨S768x3072, .f32⟩ : BufTy).Contents (Elt F) → (⟨S3072x768, .f32⟩ : BufTy).Contents (Elt F)) a3
  let v39 := ((fun l r => Host.dotGeneral dot_S256x3072_S3072x768_S256x768_1_0_0_1_n_n none l r) : (⟨S256x3072, .f32⟩ : BufTy).Contents (Elt F) → (⟨S3072x768, .f32⟩ : BufTy).Contents (Elt F) → (⟨S256x768, .f32⟩ : BufTy).Contents (Elt F)) v37 v38
  let v40 := (broadcastInDim S1x768 ![1] bcast_S768_S1x768_1 : (⟨S768, .f32⟩ : BufTy).Contents (Elt F) → (⟨S1x768, .f32⟩ : BufTy).Contents (Elt F)) a4
  let v41 := (broadcastInDim S256x768 ![0, 1] bcast_S1x768_S256x768_0_1 : (⟨S1x768, .f32⟩ : BufTy).Contents (Elt F) → (⟨S256x768, .f32⟩ : BufTy).Contents (Elt F)) v40
  let v42 := (addf : (⟨S256x768, .f32⟩ : BufTy).Contents (Elt F) → (⟨S256x768, .f32⟩ : BufTy).Contents (Elt F) → (⟨S256x768, .f32⟩ : BufTy).Contents (Elt F)) v39 v41
  let cst_9 : (⟨S_, .f32⟩ : BufTy).Contents (Elt F) := constant S_ .f32 0x00000000#32
  let v43 := ((fun x v => Host.reduceAdd x v reducesTo_S256x768_S768_d0 h_S_) : (⟨S256x768, .f32⟩ : BufTy).Contents (Elt F) → (⟨S_, .f32⟩ : BufTy).Contents (Elt F) → (⟨S768, .f32⟩ : BufTy).Contents (Elt F)) v42 cst_9
  let cst_10 : (⟨S_, .f32⟩ : BufTy).Contents (Elt F) := constant S_ .f32 0x43800000#32
  let v44 := (broadcastInDim S768 ![] bcast_S_S768 : (⟨S_, .f32⟩ : BufTy).Contents (Elt F) → (⟨S768, .f32⟩ : BufTy).Contents (Elt F)) cst_10
  let v45 := (Host.divf : (⟨S768, .f32⟩ : BufTy).Contents (Elt F) → (⟨S768, .f32⟩ : BufTy).Contents (Elt F) → (⟨S768, .f32⟩ : BufTy).Contents (Elt F)) v43 v44
  let v46 := (broadcastInDim S1x768 ![1] bcast_S768_S1x768_1 : (⟨S768, .f32⟩ : BufTy).Contents (Elt F) → (⟨S1x768, .f32⟩ : BufTy).Contents (Elt F)) v45
  let v47 := (broadcastInDim S256x768 ![0, 1] bcast_S1x768_S256x768_0_1 : (⟨S1x768, .f32⟩ : BufTy).Contents (Elt F) → (⟨S256x768, .f32⟩ : BufTy).Contents (Elt F)) v46
  let v48 := (subf : (⟨S256x768, .f32⟩ : BufTy).Contents (Elt F) → (⟨S256x768, .f32⟩ : BufTy).Contents (Elt F) → (⟨S256x768, .f32⟩ : BufTy).Contents (Elt F)) v42 v47
  let v49 := (mulf : (⟨S256x768, .f32⟩ : BufTy).Contents (Elt F) → (⟨S256x768, .f32⟩ : BufTy).Contents (Elt F) → (⟨S256x768, .f32⟩ : BufTy).Contents (Elt F)) v48 v48
  let cst_11 : (⟨S_, .f32⟩ : BufTy).Contents (Elt F) := constant S_ .f32 0x00000000#32
  let v50 := ((fun x v => Host.reduceAdd x v reducesTo_S256x768_S768_d0 h_S_) : (⟨S256x768, .f32⟩ : BufTy).Contents (Elt F) → (⟨S_, .f32⟩ : BufTy).Contents (Elt F) → (⟨S768, .f32⟩ : BufTy).Contents (Elt F)) v49 cst_11
  let cst_12 : (⟨S_, .f32⟩ : BufTy).Contents (Elt F) := constant S_ .f32 0x43800000#32
  let v51 := (broadcastInDim S768 ![] bcast_S_S768 : (⟨S_, .f32⟩ : BufTy).Contents (Elt F) → (⟨S768, .f32⟩ : BufTy).Contents (Elt F)) cst_12
  let v52 := (Host.divf : (⟨S768, .f32⟩ : BufTy).Contents (Elt F) → (⟨S768, .f32⟩ : BufTy).Contents (Elt F) → (⟨S768, .f32⟩ : BufTy).Contents (Elt F)) v50 v51
  let v53 := (broadcastInDim S1x768 ![1] bcast_S768_S1x768_1 : (⟨S768, .f32⟩ : BufTy).Contents (Elt F) → (⟨S1x768, .f32⟩ : BufTy).Contents (Elt F)) v45
  let v54 := (broadcastInDim S256x768 ![0, 1] bcast_S1x768_S256x768_0_1 : (⟨S1x768, .f32⟩ : BufTy).Contents (Elt F) → (⟨S256x768, .f32⟩ : BufTy).Contents (Elt F)) v53
  let v55 := (subf : (⟨S256x768, .f32⟩ : BufTy).Contents (Elt F) → (⟨S256x768, .f32⟩ : BufTy).Contents (Elt F) → (⟨S256x768, .f32⟩ : BufTy).Contents (Elt F)) v42 v54
  let cst_13 : (⟨S_, .f32⟩ : BufTy).Contents (Elt F) := constant S_ .f32 0x3727C5AC#32
  let v56 := (broadcastInDim S768 ![] bcast_S_S768 : (⟨S_, .f32⟩ : BufTy).Contents (Elt F) → (⟨S768, .f32⟩ : BufTy).Contents (Elt F)) cst_13
  let v57 := (addf : (⟨S768, .f32⟩ : BufTy).Contents (Elt F) → (⟨S768, .f32⟩ : BufTy).Contents (Elt F) → (⟨S768, .f32⟩ : BufTy).Contents (Elt F)) v52 v56
  let v58 := (Host.sqrt : (⟨S768, .f32⟩ : BufTy).Contents (Elt F) → (⟨S768, .f32⟩ : BufTy).Contents (Elt F)) v57
  let v59 := (broadcastInDim S1x768 ![1] bcast_S768_S1x768_1 : (⟨S768, .f32⟩ : BufTy).Contents (Elt F) → (⟨S1x768, .f32⟩ : BufTy).Contents (Elt F)) v58
  let v60 := (broadcastInDim S256x768 ![0, 1] bcast_S1x768_S256x768_0_1 : (⟨S1x768, .f32⟩ : BufTy).Contents (Elt F) → (⟨S256x768, .f32⟩ : BufTy).Contents (Elt F)) v59
  let v61 := (Host.divf : (⟨S256x768, .f32⟩ : BufTy).Contents (Elt F) → (⟨S256x768, .f32⟩ : BufTy).Contents (Elt F) → (⟨S256x768, .f32⟩ : BufTy).Contents (Elt F)) v55 v60
  let v62 := (broadcastInDim S1x768 ![1] bcast_S768_S1x768_1 : (⟨S768, .f32⟩ : BufTy).Contents (Elt F) → (⟨S1x768, .f32⟩ : BufTy).Contents (Elt F)) a7
  let v63 := (broadcastInDim S256x768 ![0, 1] bcast_S1x768_S256x768_0_1 : (⟨S1x768, .f32⟩ : BufTy).Contents (Elt F) → (⟨S256x768, .f32⟩ : BufTy).Contents (Elt F)) v62
  let v64 := (mulf : (⟨S256x768, .f32⟩ : BufTy).Contents (Elt F) → (⟨S256x768, .f32⟩ : BufTy).Contents (Elt F) → (⟨S256x768, .f32⟩ : BufTy).Contents (Elt F)) v61 v63
  let v65 := (broadcastInDim S1x768 ![1] bcast_S768_S1x768_1 : (⟨S768, .f32⟩ : BufTy).Contents (Elt F) → (⟨S1x768, .f32⟩ : BufTy).Contents (Elt F)) a8
  let v66 := (broadcastInDim S256x768 ![0, 1] bcast_S1x768_S256x768_0_1 : (⟨S1x768, .f32⟩ : BufTy).Contents (Elt F) → (⟨S256x768, .f32⟩ : BufTy).Contents (Elt F)) v65
  let v67 := (addf : (⟨S256x768, .f32⟩ : BufTy).Contents (Elt F) → (⟨S256x768, .f32⟩ : BufTy).Contents (Elt F) → (⟨S256x768, .f32⟩ : BufTy).Contents (Elt F)) v64 v66
  let relu_c : (⟨S_, .f32⟩ : BufTy).Contents (Elt F) := constant S_ .f32 0x00000000#32
  let relu_z : (⟨S256x768, .f32⟩ : BufTy).Contents (Elt F) := broadcastInDim S256x768 ![] bcast_S_S256x768 relu_c
  let v68 : (⟨S256x768, .f32⟩ : BufTy).Contents (Elt F) := maximumf v67 relu_z
  let v69 := ((transpose S768x1 [1, 0] · transposes_S1x768_S768x1_1_0) : (⟨S1x768, .f32⟩ : BufTy).Contents (Elt F) → (⟨S768x1, .f32⟩ : BufTy).Contents (Elt F)) a5
  let v70 := ((fun l r => Host.dotGeneral dot_S256x768_S768x1_S256x1_1_0_0_1_n_n none l r) : (⟨S256x768, .f32⟩ : BufTy).Contents (Elt F) → (⟨S768x1, .f32⟩ : BufTy).Contents (Elt F) → (⟨S256x1, .f32⟩ : BufTy).Contents (Elt F)) v68 v69
  let v71 := (broadcastInDim S1x1 ![1] bcast_S1_S1x1_1 : (⟨S1, .f32⟩ : BufTy).Contents (Elt F) → (⟨S1x1, .f32⟩ : BufTy).Contents (Elt F)) a6
  let v72 := (broadcastInDim S256x1 ![0, 1] bcast_S1x1_S256x1_0_1 : (⟨S1x1, .f32⟩ : BufTy).Contents (Elt F) → (⟨S256x1, .f32⟩ : BufTy).Contents (Elt F)) v71
  let v73 := (addf : (⟨S256x1, .f32⟩ : BufTy).Contents (Elt F) → (⟨S256x1, .f32⟩ : BufTy).Contents (Elt F) → (⟨S256x1, .f32⟩ : BufTy).Contents (Elt F)) v70 v72
  v73

end Cert.KTail

end
-- ==== Proof.TailRead.lean ====
/-
  What the kernel program's closing stretch of array operations computes.

  After the pooling call the program runs 54 array operations in a straight line: the join of the four
  [256, 768] arrays, the row normalisation, the first linear layer, batch normalisation, the rectifier (a callee of
  three operations) and the second linear layer.  Folding the line over any contents of the buffers, the last
  buffer written holds the network head `tailK` applied to the contents of the four pooled buffers and of the six
  weight buffers; and no operation of the line writes an argument buffer.
-/
import proofs.«413436_j65730179498319_1_alg».proof.Proof.KTail
import proofs.«413436_j65730179498319_1_alg».proof.Proof.Gen.KernelIdeal.Launch
import Idealize.ShloMosaic.Lib.StableHlo.Run

noncomputable section

namespace Cert.KTail

open Cert.KernelIdeal Idealize.ShloMosaic Idealize.ShloMosaic.StableHlo

variable {F : FTy → Type} [FloatOps F] [Cert.KernelIdeal.Facts]

/-- The last buffer of the line holds the network head of the four pooled buffers and the weights: each
    operation's result buffer is read off as its function applied to its operands' contents, every other buffer
    as what was there before, and the composed term is the head's chain of bindings, binding by binding (the
    rectifier's three operations act on buffers whose types are the values' own, so their transports are the
    identity). -/
theorem tail_read (Wv : Valuation τ sig (Elt F)) :
    StableHlo.after (List.flatten [Gen.hostOps1 (F := F), Gen.hostOps1_1, Gen.hostOps1_2]) Wv (Proc.devRef .tc main_v73)
      = tailK (Wv (Proc.devRef .tc main_v28_0)) (Wv (Proc.devRef .tc main_v28_2)) (Wv (Proc.devRef .tc main_v28_1))
          (Wv (Proc.devRef .tc main_v28_3))
          (Wv (Proc.devRef .tc main_arg3)) (Wv (Proc.devRef .tc main_arg4)) (Wv (Proc.devRef .tc main_arg5))
          (Wv (Proc.devRef .tc main_arg6)) (Wv (Proc.devRef .tc main_arg7)) (Wv (Proc.devRef .tc main_arg8)) := by
  simp only [Gen.hostOps1, Gen.hostOps1_1, Gen.hostOps1_2, List.flatten_cons, List.flatten_nil, List.append_nil,
    List.cons_append, List.nil_append]
  after_results_simp
  unfold tailK
  rfl

/-! The line writes only the intermediate values' buffers: each argument buffer keeps its contents. -/

/-- No operation of the line writes argument buffer 0. -/
theorem tail_keeps_arg0 (Wv : Valuation τ sig (Elt F)) :
    StableHlo.after (List.flatten [Gen.hostOps1 (F := F), Gen.hostOps1_1, Gen.hostOps1_2]) Wv (Proc.devRef .tc main_arg0)
      = Wv (Proc.devRef .tc main_arg0) := by
  simp only [Gen.hostOps1, Gen.hostOps1_1, Gen.hostOps1_2, List.flatten_cons, List.flatten_nil, List.append_nil,
    List.cons_append, List.nil_append]
  after_results_simp

/-- No operation of the line writes argument buffer 1. -/
theorem tail_keeps_arg1 (Wv : Valuation τ sig (Elt F)) :
    StableHlo.after (List.flatten [Gen.hostOps1 (F := F), Gen.hostOps1_1, Gen.hostOps1_2]) Wv (Proc.devRef .tc main_arg1)
      = Wv (Proc.devRef .tc main_arg1) := by
  simp only [Gen.hostOps1, Gen.hostOps1_1, Gen.hostOps1_2, List.flatten_cons, List.flatten_nil, List.append_nil,
    List.cons_append, List.nil_append]
  after_results_simp

/-- No operation of the line writes argument buffer 2. -/
theorem tail_keeps_arg2 (Wv : Valuation τ sig (Elt F)) :
    StableHlo.after (List.flatten [Gen.hostOps1 (F := F), Gen.hostOps1_1, Gen.hostOps1_2]) Wv (Proc.devRef .tc main_arg2)
      = Wv (Proc.devRef .tc main_arg2) := by
  simp only [Gen.hostOps1, Gen.hostOps1_1, Gen.hostOps1_2, List.flatten_cons, List.flatten_nil, List.append_nil,
    List.cons_append, List.nil_append]
  after_results_simp

/-- No operation of the line writes argument buffer 3. -/
theorem tail_keeps_arg3 (Wv : Valuation τ sig (Elt F)) :
    StableHlo.after (List.flatten [Gen.hostOps1 (F := F), Gen.hostOps1_1, Gen.hostOps1_2]) Wv (Proc.devRef .tc main_arg3)
      = Wv (Proc.devRef .tc main_arg3) := by
  simp only [Gen.hostOps1, Gen.hostOps1_1, Gen.hostOps1_2, List.flatten_cons, List.flatten_nil, List.append_nil,
    List.cons_append, List.nil_append]
  after_results_simp

/-- No operation of the line writes argument buffer 4. -/
theorem tail_keeps_arg4 (Wv : Valuation τ sig (Elt F)) :
    StableHlo.after (List.flatten [Gen.hostOps1 (F := F), Gen.hostOps1_1, Gen.hostOps1_2]) Wv (Proc.devRef .tc main_arg4)
      = Wv (Proc.devRef .tc main_arg4) := by
  simp only [Gen.hostOps1, Gen.hostOps1_1, Gen.hostOps1_2, List.flatten_cons, List.flatten_nil, List.append_nil,
    List.cons_append, List.nil_append]
  after_results_simp

/-- No operation of the line writes argument buffer 5. -/
theorem tail_keeps_arg5 (Wv : Valuation τ sig (Elt F)) :
    StableHlo.after (List.flatten [Gen.hostOps1 (F := F), Gen.hostOps1_1, Gen.hostOps1_2]) Wv (Proc.devRef .tc main_arg5)
      = Wv (Proc.devRef .tc main_arg5) := by
  simp only [Gen.hostOps1, Gen.hostOps1_1, Gen.hostOps1_2, List.flatten_cons, List.flatten_nil, List.append_nil,
    List.cons_append, List.nil_append]
  after_results_simp

/-- No operation of the line writes argument buffer 6. -/
theorem tail_keeps_arg6 (Wv : Valuation τ sig (Elt F)) :
    StableHlo.after (List.flatten [Gen.hostOps1 (F := F), Gen.hostOps1_1, Gen.hostOps1_2]) Wv (Proc.devRef .tc main_arg6)
      = Wv (Proc.devRef .tc main_arg6) := by
  simp only [Gen.hostOps1, Gen.hostOps1_1, Gen.hostOps1_2, List.flatten_cons, List.flatten_nil, List.append_nil,
    List.cons_append, List.nil_append]
  after_results_simp

/-- No operation of the line writes argument buffer 7. -/
theorem tail_keeps_arg7 (Wv : Valuation τ sig (Elt F)) :
    StableHlo.after (List.flatten [Gen.hostOps1 (F := F), Gen.hostOps1_1, Gen.hostOps1_2]) Wv (Proc.devRef .tc main_arg7)
      = Wv (Proc.devRef .tc main_arg7) := by
  simp only [Gen.hostOps1, Gen.hostOps1_1, Gen.hostOps1_2, List.flatten_cons, List.flatten_nil, List.append_nil,
    List.cons_append, List.nil_append]
  after_results_simp

/-- No operation of the line writes argument buffer 8. -/
theorem tail_keeps_arg8 (Wv : Valuation τ sig (Elt F)) :
    StableHlo.after (List.flatten [Gen.hostOps1 (F := F), Gen.hostOps1_1, Gen.hostOps1_2]) Wv (Proc.devRef .tc main_arg8)
      = Wv (Proc.devRef .tc main_arg8) := by
  simp only [Gen.hostOps1, Gen.hostOps1_1, Gen.hostOps1_2, List.flatten_cons, List.flatten_nil, List.append_nil,
    List.cons_append, List.nil_append]
  after_results_simp

end Cert.KTail

end
-- ==== Proof.Spec.lean ====
/-
  The mathematics both programs are compared through, stated with no program imported.

  Inputs: two activations x, y : [256, 512, 768], a table pos : [256, 32] of positions (an entry -1 is padding).
  An entry p is used when p ≠ -1; its slot on the axis of extent 512 is p itself, or p + 512 when p is negative
  (the host's index wrap).  Per batch row b the count is max(#used entries, 1).

  The reference pools by gathering:   poolR x pos b h = (Σ_p x[b, slot(b,p), h] · used(b,p)) / count(b).
  The kernel pools by a weight row:   w[b,s] = (Σ_{p : slot(b,p) = s} used(b,p)) / count(b),
                                      poolK x pos b h = Σ_s w[b,s] · x[b,s,h].
  Row 0 of the middle axis is read off directly: clsOf x b h = x[b,0,h].
-/
import Idealize.ShloMosaic.PureOps.Ideal
import Idealize.ShloMosaic.Lib.ValueIdx

noncomputable section

namespace Cert.Spec

open Idealize.ShloMosaic Idealize.ShloMosaic.ValueIdx

abbrev SBSH : Shape := ⟨3, ![256, 512, 768]⟩
abbrev SBP : Shape := ⟨2, ![256, 32]⟩
abbrev SBS : Shape := ⟨2, ![256, 512]⟩
abbrev SBH : Shape := ⟨2, ![256, 768]⟩

/-- The padding word, -1. -/
abbrev padW : BitVec 32 := 4294967295#32

/-- The position actually indexed: the entry, or 0 for padding. -/
def safeW (p : BitVec 32) : BitVec 32 := if p = padW then 0#32 else p

/-- The host's wrap of a negative index on an axis of extent 512. -/
def slotW (p : BitVec 32) : BitVec 32 := if (safeW p).toInt < 0 then safeW p + 512#32 else safeW p

/-- The slot as a number (meaningful when the entry is in [-512, 512)). -/
def slotN (p : BitVec 32) : ℕ := (slotW p).toInt.toNat

/-- The slot as an index of the axis of extent 512 (total: reduced mod 512). -/
def slotF (p : BitVec 32) : Fin 512 := ⟨slotN p % 512, Nat.mod_lt _ (by decide)⟩

/-- 1 for a used entry, 0 for padding. -/
def usedE (p : BitVec 32) : EReal := if p = padW then 0 else 1

/-- The range every entry is assumed in: after the wrap of negatives it indexes the axis of extent 512. -/
def InRange (pos : SBP.Idx → BitVec 32) : Prop := ∀ j, -512 ≤ (pos j).toInt ∧ (pos j).toInt < 512

/-- Every element is a real number. -/
def Finite {s : Shape} (x : s.Idx → EReal) : Prop := ∀ i, x i ≠ ⊤ ∧ x i ≠ ⊥

/-- count(b) = max(#used entries of row b, 1). -/
def cnt (pos : SBP.Idx → BitVec 32) (b : Fin 256) : EReal :=
  max (∑ p : Fin 32, usedE (pos (ix2 b p))) 1

/-- The entries of row b whose slot is s. -/
def hits (pos : SBP.Idx → BitVec 32) (b : Fin 256) (s : Fin 512) : Finset (Fin 32) :=
  Finset.univ.filter fun p => slotF (pos (ix2 b p)) = s

/-- The kernel's weight row. -/
def weight (pos : SBP.Idx → BitVec 32) (b : Fin 256) (s : Fin 512) : EReal :=
  Ideal.div (∑ p ∈ hits pos b s, usedE (pos (ix2 b p))) (cnt pos b)

/-- The kernel's pooled value. -/
def poolK (x : SBSH.Idx → EReal) (pos : SBP.Idx → BitVec 32) : SBH.Idx → EReal :=
  fun j => ∑ s : Fin 512, weight pos (j 0) s * x (ix3 (j 0) s (j 1))

/-- The reference's pooled value. -/
def poolR (x : SBSH.Idx → EReal) (pos : SBP.Idx → BitVec 32) : SBH.Idx → EReal :=
  fun j => Ideal.div (∑ p : Fin 32, x (ix3 (j 0) (slotF (pos (ix2 (j 0) p))) (j 1)) * usedE (pos (ix2 (j 0) p))) (cnt pos (j 0))

/-- Row 0 of the middle axis. -/
def clsOf (x : SBSH.Idx → EReal) : SBH.Idx → EReal := fun j => x (ix3 (j 0) 0 (j 1))

end Cert.Spec

end
-- ==== Proof.WeightRead.lean ====
/-
  The weight array the kernel's host prefix computes, read at an index.

  From the position table pos : [256, 32] (an entry -1 is padding) the host operations before the kernel's launch build
    mask = (pos ≠ -1),  safe = mask ? pos : 0,  maskf = mask as a float,
    count[b] = max(Σ_p maskf[b, p], 1),
    the index pairs (row number wrapped on 256, safe position wrapped on 512) : [256, 32, 2],
    scattered = zeros[256, 512] with maskf added at the index pairs,   weight = scattered / count.
  This module names that composition as one pure function of pos, shows that the prefix leaves exactly it in the weight
  buffer and leaves every argument buffer as it was, and reads it at (b, s): under the range assumption on the entries,
    weight[b, s] = (Σ_{p : slot(b, p) = s} used(b, p)) / count(b),
  the specification's weight row.

  The parts: an accumulating scatter of a matrix of scalars by index pairs, read at an index (general in the extents);
  the 32-bit words (mask bit, padded position, the wrap of a signed index); broadcasts, the pair concatenation and the
  host's row sum read at an index; then the composition.
-/
import proofs.«413436_j65730179498319_1_alg».proof.Proof.Gen.KernelIdeal.Launch
import proofs.«413436_j65730179498319_1_alg».proof.Proof.Spec
import Idealize.ShloMosaic.Lib.StableHlo.Run
import Idealize.ShloMosaic.Lib.ValueIdx
import Idealize.ShloMosaic.Lib.IdealHost
import Idealize.ShloMosaic.Lib.Pipeline.Value
import Idealize.ShloMosaic.PureOps.Ideal.Laws
import Idealize.ShloMosaic.PureOps.Contract

noncomputable section

namespace Cert.KernelIdeal.Weight

open Idealize.ShloMosaic Idealize.ShloMosaic.ValueIdx Cert.KernelIdeal

/-! ## An accumulating scatter of a matrix of scalars into a matrix, read at an index

The operand is `[A, B]`, the updates `[R, C]`, the scatter indices `[R, C, 2]`: update `(r, c)` carries the pair
`(idx[r, c, 0], idx[r, c, 1])`, read signed, and lands on that operand element when the pair is inside the operand;
otherwise it is dropped. There is no update window: both operand axes are inserted. -/

section PairScatter

/-- Those dimension numbers. -/
abbrev pairScatterDims (A B R C : Nat)
    (wf : ScatterDims.WF ⟨2, ![A, B]⟩ ⟨3, ![R, C, 2]⟩ ⟨2, ![R, C]⟩ [] [0, 1] [0, 1] 2) :
    ScatterDims ⟨2, ![A, B]⟩ ⟨3, ![R, C, 2]⟩ ⟨2, ![R, C]⟩ where
  updateWindowDims := []
  insertedWindowDims := [0, 1]
  scatterDimsToOperandDims := [0, 1]
  indexVectorDim := 2
  wf := wf

variable {A B R C : Nat} (wf : ScatterDims.WF ⟨2, ![A, B]⟩ ⟨3, ![R, C, 2]⟩ ⟨2, ![R, C]⟩ [] [0, 1] [0, 1] 2)

/-- Both operand axes are inserted: none is left for an update window. -/
theorem ps_not_mem_sKept (a : Fin 2) : a ∉ (pairScatterDims A B R C wf).sKept := by
  show a ∉ (List.finRange 2).filter (fun a => a ∉ [(0 : Fin 2), 1])
  revert a; decide

/-- The window coordinate is `0` on both axes: an update is one scalar. -/
theorem ps_window (r : Fin R) (c : Fin C) (a : Fin 2) : (pairScatterDims A B R C wf).window (ix2 r c) a = 0 := by
  unfold ScatterDims.window
  rw [dif_neg (ps_not_mem_sKept wf a)]

/-- Both operand axes are named by the pair. -/
theorem ps_mem (a : Fin 2) : a ∈ (pairScatterDims A B R C wf).scatterDimsToOperandDims := by
  show a ∈ ([0, 1] : List (Fin 2))
  revert a; decide

/-- On operand axis 0 the start is the first entry of update `(r, c)`'s pair, read signed. -/
theorem ps_start0 {w : Nat} (idx : IVec ⟨3, ![R, C, 2]⟩ w) (r : Fin R) (c : Fin C) :
    (pairScatterDims A B R C wf).start (ix2 r c) idx 0 = (idx (ix3 r c (0 : Fin 2))).toInt := by
  unfold ScatterDims.start
  rw [dif_pos (ps_mem wf 0)]
  have hsi : (pairScatterDims A B R C wf).siIdx (ix2 r c)
      ⟨List.idxOf (0 : Fin 2) (pairScatterDims A B R C wf).scatterDimsToOperandDims,
        List.idxOf_lt_length_iff.2 (ps_mem wf 0)⟩ = ix3 r c (0 : Fin 2) := by
    funext b; refine Fin.ext ?_
    match b with
    | ⟨0, _⟩ => rfl
    | ⟨1, _⟩ => rfl
    | ⟨2, _⟩ => rfl
  rw [hsi]

/-- On operand axis 1 the start is the second entry of the pair, read signed. -/
theorem ps_start1 {w : Nat} (idx : IVec ⟨3, ![R, C, 2]⟩ w) (r : Fin R) (c : Fin C) :
    (pairScatterDims A B R C wf).start (ix2 r c) idx 1 = (idx (ix3 r c (1 : Fin 2))).toInt := by
  unfold ScatterDims.start
  rw [dif_pos (ps_mem wf 1)]
  have hsi : (pairScatterDims A B R C wf).siIdx (ix2 r c)
      ⟨List.idxOf (1 : Fin 2) (pairScatterDims A B R C wf).scatterDimsToOperandDims,
        List.idxOf_lt_length_iff.2 (ps_mem wf 1)⟩ = ix3 r c (1 : Fin 2) := by
    funext b; refine Fin.ext ?_
    match b with
    | ⟨0, _⟩ => rfl
    | ⟨1, _⟩ => rfl
    | ⟨2, _⟩ => rfl
  rw [hsi]

/-- Update `(r, c)` lands on operand element `(a, b)` iff its pair, read signed, is `(a, b)`. -/
theorem pairScatter_resultIdx_iff {w : Nat} (idx : IVec ⟨3, ![R, C, 2]⟩ w) (r : Fin R) (c : Fin C) (a : Fin A) (b : Fin B) :
    (pairScatterDims A B R C wf).resultIdx? (ix2 r c) idx = some (ix2 a b)
      ↔ (idx (ix3 r c (0 : Fin 2))).toInt = (a.val : Int) ∧ (idx (ix3 r c (1 : Fin 2))).toInt = (b.val : Int) := by
  unfold ScatterDims.resultIdx?
  have hA : (![A, B] 0 : Nat) = A := rfl
  have hB : (![A, B] 1 : Nat) = B := rfl
  have ha := a.isLt
  have hb := b.isLt
  simp only [Fin.forall_fin_two, ps_start0, ps_start1, ps_window]
  split
  · rw [Option.some.injEq]
    constructor
    · intro he
      have e0 : ((pairScatterDims A B R C wf).start (ix2 r c) idx 0
          + ((pairScatterDims A B R C wf).window (ix2 r c) 0 : Nat)).toNat = a.val :=
        congrArg (fun f => (f 0).val) he
      have e1 : ((pairScatterDims A B R C wf).start (ix2 r c) idx 1
          + ((pairScatterDims A B R C wf).window (ix2 r c) 1 : Nat)).toNat = b.val :=
        congrArg (fun f => (f 1).val) he
      rw [ps_start0, ps_window] at e0
      rw [ps_start1, ps_window] at e1
      omega
    · intro e
      funext ax
      refine Fin.ext ?_
      match ax with
      | ⟨0, _⟩ =>
        show ((pairScatterDims A B R C wf).start (ix2 r c) idx 0
          + ((pairScatterDims A B R C wf).window (ix2 r c) 0 : Nat)).toNat = a.val
        rw [ps_start0, ps_window]; omega
      | ⟨1, _⟩ =>
        show ((pairScatterDims A B R C wf).start (ix2 r c) idx 1
          + ((pairScatterDims A B R C wf).window (ix2 r c) 1 : Nat)).toNat = b.val
        rw [ps_start1, ps_window]; omega
  · rename_i h
    constructor
    · intro he; cases he
    · intro e
      exact absurd ⟨⟨by omega, by omega⟩, ⟨by omega, by omega⟩⟩ h

/-- The scatter-add read at `(a, b)` on the extended reals: the operand's element plus the sum of the updates whose pair
    is `(a, b)`. -/
theorem pairScatterAdd_apply {w : Nat} (x : (⟨2, ![A, B]⟩ : Shape).Idx → EReal) (idx : IVec ⟨3, ![R, C, 2]⟩ w)
    (upd : (⟨2, ![R, C]⟩ : Shape).Idx → EReal) (a : Fin A) (b : Fin B) :
    Ideal.hostScatterAdd (pairScatterDims A B R C wf) x idx upd (ix2 a b)
      = x (ix2 a b) + ∑ r : Fin R, ∑ c : Fin C,
          if (idx (ix3 r c (0 : Fin 2))).toInt = (a.val : Int) ∧ (idx (ix3 r c (1 : Fin 2))).toInt = (b.val : Int)
          then upd (ix2 r c) else 0 := by
  show x (ix2 a b) + ∑ j ∈ Finset.univ.filter
      (fun j => (pairScatterDims A B R C wf).resultIdx? j idx = some (ix2 a b)), upd j = _
  congr 1
  rw [Finset.sum_filter, sum_idx2]
  refine Finset.sum_congr rfl (fun r _ => Finset.sum_congr rfl (fun c _ => ?_))
  simp only [pairScatter_resultIdx_iff]

end PairScatter

/-! ## The words: the mask bit, the padded position, the wrapped indices -/

section Words

open Cert.Spec

/-- The mask bit of an entry: clear exactly at the padding word. -/
theorem mask_bit (p : BitVec 32) : IntOp.cmpi .ne p 4294967295#32 = if p = padW then 0#1 else 1#1 := by
  unfold IntOp.cmpi
  by_cases h : p = padW
  · subst h; rfl
  · rw [if_neg h]
    have : (p != 4294967295#32) = true := by simpa [bne_iff_ne] using h
    show BitVec.ofBool (p != 4294967295#32) = 1#1
    rw [this]; rfl

/-- The position actually indexed: the entry where the mask bit is set, else 0. -/
theorem safe_word (p : BitVec 32) : Scalar.select (IntOp.cmpi .ne p 4294967295#32) p 0#32 = safeW p := by
  rw [mask_bit]; unfold Scalar.select safeW
  by_cases h : p = padW
  · rw [if_pos h, if_pos h, if_neg (by decide)]
  · rw [if_neg h, if_neg h, if_pos (by decide)]

/-- The mask bit as a float: 1 for a used entry, 0 for padding. -/
theorem used_float (p : BitVec 32) :
    FloatOps.uitofp (F := Ideal) .f32 (IntOp.cmpi .ne p 4294967295#32) = usedE p := by
  rw [mask_bit]; unfold usedE
  show (((if p = padW then 0#1 else 1#1 : BitVec 1).toNat : ℝ) : EReal) = _
  by_cases h : p = padW
  · rw [if_pos h, if_pos h]; simp
  · rw [if_neg h, if_neg h]; simp

/-- The host's wrap of a signed word on an axis of extent `n`: the word, plus `n` when it is negative. -/
theorem wrap_word (q n : BitVec 32) :
    Scalar.select (IntOp.cmpi .slt q 0#32) (IntOp.addi q n) q = if q.toInt < 0 then q + n else q := by
  unfold Scalar.select IntOp.cmpi IntOp.addi
  show (if BitVec.ofBool (q.slt 0#32) = 1 then q + n else q) = _
  by_cases h : q.toInt < 0
  · have : q.slt 0#32 = true := by rw [BitVec.slt_iff_toInt_lt]; simpa using h
    rw [this, if_pos h, if_pos (by decide)]
  · have : q.slt 0#32 = false := by
      rw [Bool.eq_false_iff]; intro hc; rw [BitVec.slt_iff_toInt_lt] at hc; exact h (by simpa using hc)
    rw [this, if_neg h, if_neg (by decide)]

/-- The wrapped column index is the specification's slot word. -/
theorem slot_word (p : BitVec 32) :
    Scalar.select (IntOp.cmpi .slt (Scalar.select (IntOp.cmpi .ne p 4294967295#32) p 0#32) 0#32)
      (IntOp.addi (Scalar.select (IntOp.cmpi .ne p 4294967295#32) p 0#32) 512#32)
      (Scalar.select (IntOp.cmpi .ne p 4294967295#32) p 0#32) = slotW p := by
  rw [safe_word, wrap_word]; rfl

/-- A row number below 256 as a word, wrapped on the axis of extent 256, read signed, is the row number. -/
theorem row_word_toInt (b : Fin 256) :
    (Scalar.select (IntOp.cmpi .slt (BitVec.ofNat 32 b.val) 0#32) (IntOp.addi (BitVec.ofNat 32 b.val) 256#32)
      (BitVec.ofNat 32 b.val)).toInt = (b.val : Int) := by
  have hb := b.isLt
  have hnat : (BitVec.ofNat 32 b.val).toNat = b.val := by
    rw [BitVec.toNat_ofNat]; exact Nat.mod_eq_of_lt (by omega)
  have hint : (BitVec.ofNat 32 b.val).toInt = (b.val : Int) := by
    rw [BitVec.toInt_eq_toNat_cond, hnat]; split <;> omega
  rw [wrap_word, if_neg (by rw [hint]; omega), hint]

/-- In range, the slot word read signed is a number below 512, the value of the slot index. -/
theorem slot_toInt (p : BitVec 32) (h : -512 ≤ p.toInt ∧ p.toInt < 512) :
    (slotW p).toInt = ((slotF p).val : Int) := by
  have hs : -512 ≤ (safeW p).toInt ∧ (safeW p).toInt < 512 := by
    unfold safeW; split
    · exact ⟨by decide, by decide⟩
    · exact h
  have key : 0 ≤ (slotW p).toInt ∧ (slotW p).toInt < 512 := by
    unfold slotW
    split
    · rename_i hneg
      have e : (safeW p + 512#32).toInt = (safeW p).toInt + 512 := by
        have h1 := BitVec.toInt_eq_toNat_cond (safeW p)
        have h2 := BitVec.toInt_eq_toNat_cond (safeW p + 512#32)
        have h3 : (safeW p + 512#32).toNat = ((safeW p).toNat + 512) % 2 ^ 32 := by
          rw [BitVec.toNat_add]; rfl
        have h4 := (safeW p).isLt
        rw [h3] at h2
        split at h1 <;> split at h2 <;> omega
      rw [e]; omega
    · omega
  show (slotW p).toInt = (((slotW p).toInt.toNat % 512 : Nat) : Int)
  omega

end Words

/-! ## Broadcasts read at an index -/

section Reads

variable {α : Type}

/-- A vector `[a]` placed on axis 0 of the column `[a, 1]` reads, at `(r, u)`, the vector at `r`. -/
theorem bcast_vec_col {a : ℕ} (x : (⟨1, ![a]⟩ : Shape).Idx → α)
    (h : (⟨1, ![a]⟩ : Shape).BroadcastsInDim ⟨2, ![a, 1]⟩ (![0] : Fin 1 → Fin (⟨2, ![a, 1]⟩ : Shape).rank))
    (r : Fin a) (u : Fin 1) : broadcastInDim ⟨2, ![a, 1]⟩ ![0] h x (ix2 r u) = x (ix1 r) := by
  refine broadcastInDim_apply _ h x (ix2 r u) (ix1 r) fun ax => ?_
  match ax with
  | ⟨0, _⟩ =>
    show r.val = if a = 1 then 0 else r.val
    split
    · have := r.isLt; omega
    · rfl

/-- A column `[a, 1]` broadcast across `[a, b]` reads, at `(r, j)`, the column's entry of row `r`. -/
theorem bcast_col_mat {a b : ℕ} (x : (⟨2, ![a, 1]⟩ : Shape).Idx → α)
    (h : (⟨2, ![a, 1]⟩ : Shape).BroadcastsInDim ⟨2, ![a, b]⟩ (![0, 1] : Fin 2 → Fin (⟨2, ![a, b]⟩ : Shape).rank))
    (r : Fin a) (j : Fin b) : broadcastInDim ⟨2, ![a, b]⟩ ![0, 1] h x (ix2 r j) = x (ix2 r (0 : Fin 1)) := by
  refine broadcastInDim_apply _ h x (ix2 r j) (ix2 r (0 : Fin 1)) fun ax => ?_
  match ax with
  | ⟨0, _⟩ =>
    show r.val = if a = 1 then 0 else r.val
    split
    · have := r.isLt; omega
    · rfl
  | ⟨1, _⟩ => rfl

/-- A matrix `[a, b]` given a trailing unit axis reads, at `(r, j, u)`, the matrix at `(r, j)`. -/
theorem bcast_mat_unit {a b : ℕ} (x : (⟨2, ![a, b]⟩ : Shape).Idx → α)
    (h : (⟨2, ![a, b]⟩ : Shape).BroadcastsInDim ⟨3, ![a, b, 1]⟩ (![0, 1] : Fin 2 → Fin (⟨3, ![a, b, 1]⟩ : Shape).rank))
    (r : Fin a) (j : Fin b) (u : Fin 1) : broadcastInDim ⟨3, ![a, b, 1]⟩ ![0, 1] h x (ix3 r j u) = x (ix2 r j) := by
  refine broadcastInDim_apply _ h x (ix3 r j u) (ix2 r j) fun ax => ?_
  match ax with
  | ⟨0, _⟩ =>
    show r.val = if a = 1 then 0 else r.val
    split
    · have := r.isLt; omega
    · rfl
  | ⟨1, _⟩ =>
    show j.val = if b = 1 then 0 else j.val
    split
    · have := j.isLt; omega
    · rfl

/-- Two `[a, b, 1]` arrays joined along the last axis read, at `(r, j, 0)`, the first. -/
theorem concat_pair_0 {a b : ℕ} (x₁ x₂ : (⟨3, ![a, b, 1]⟩ : Shape).Idx → α)
    (h : Shape.Concatenates [(⟨3, ![a, b, 1]⟩ : Shape), ⟨3, ![a, b, 1]⟩] ⟨3, ![a, b, 2]⟩ 2) (r : Fin a) (j : Fin b) :
    concatenate ⟨3, ![a, b, 2]⟩ 2 [⟨⟨3, ![a, b, 1]⟩, x₁⟩, ⟨⟨3, ![a, b, 1]⟩, x₂⟩] h (ix3 r j (0 : Fin 2))
      = x₁ (ix3 r j (0 : Fin 1)) :=
  concatenate_pair_apply_left 2 x₁ x₂ h (ix3 r j (0 : Fin 2)) rfl (ix3 r j (0 : Fin 1)) fun ax => by
    match ax with
    | ⟨0, _⟩ => rfl
    | ⟨1, _⟩ => rfl
    | ⟨2, _⟩ => rfl

/-- … and, at `(r, j, 1)`, the second. -/
theorem concat_pair_1 {a b : ℕ} (x₁ x₂ : (⟨3, ![a, b, 1]⟩ : Shape).Idx → α)
    (h : Shape.Concatenates [(⟨3, ![a, b, 1]⟩ : Shape), ⟨3, ![a, b, 1]⟩] ⟨3, ![a, b, 2]⟩ 2) (r : Fin a) (j : Fin b) :
    concatenate ⟨3, ![a, b, 2]⟩ 2 [⟨⟨3, ![a, b, 1]⟩, x₁⟩, ⟨⟨3, ![a, b, 1]⟩, x₂⟩] h (ix3 r j (1 : Fin 2))
      = x₂ (ix3 r j (0 : Fin 1)) :=
  concatenate_pair_apply_right 2 x₁ x₂ h (ix3 r j (1 : Fin 2)) rfl rfl (ix3 r j (0 : Fin 1))
    (fun ax hax => by
      match ax with
      | ⟨0, _⟩ => rfl
      | ⟨1, _⟩ => rfl
      | ⟨2, _⟩ => exact absurd rfl hax)
    rfl

/-- The host's float sum of an `[a, b]` array along its second axis, read at row `r` on the extended reals: the initial
    scalar plus the sum of the row's entries. -/
theorem host_row_sum {a b : ℕ} (X : FVec Ideal ⟨2, ![a, b]⟩ .f32) (init : (⟨0, ![]⟩ : Shape).Idx → Ideal .f32)
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel) (r : Fin a) :
    Host.reduceAdd X init h' hu (ix1 r) = init ix0 + ∑ k : Fin b, X (ix2 r k) := by
  rw [hostReduceAdd_apply, Ideal.hostReduceAdd_single h' h]
  refine congrArg₂ (· + ·) (congrArg init (funext fun ax => ax.elim0)) (Finset.sum_congr rfl fun k _ => ?_)
  exact congrArg X (funext fun ax => Fin.ext (by
    match ax with
    | ⟨0, _⟩ => rfl
    | ⟨1, _⟩ => rfl))

end Reads

/-! ## The composition, named -/

section Term

/-- The mask: set where the entry is not the padding word. -/
def maskT (pos : IVec S256x32 32) : IVec S256x32 1 :=
  cmpi .ne pos (broadcastInDim S256x32 ![] Gen.bcast_S_S256x32 (constantI S_ 32 4294967295#32))

/-- The position actually indexed: the entry where the mask is set, else 0. -/
def safeT (pos : IVec S256x32 32) : IVec S256x32 32 :=
  select (maskT pos) pos (broadcastInDim S256x32 ![] Gen.bcast_S_S256x32 (constantI S_ 32 0#32))

/-- The mask as floats. -/
def maskfT (pos : IVec S256x32 32) : FVec Ideal S256x32 .f32 := uitofp .f32 (maskT pos)

/-- The count column: the row sums of the float mask, at least 1. -/
def countT (pos : IVec S256x32 32) : FVec Ideal S256x1 .f32 :=
  maximumf
    (broadcastInDim S256x1 ![0] Gen.bcast_S256_S256x1_0
      (Host.reduceAdd (maskfT pos) (constant S_ .f32 0x00000000#32) Gen.reducesTo_S256x32_S256_d1 Gen.h_S_))
    (broadcastInDim S256x1 ![] Gen.bcast_S_S256x1 (constant S_ .f32 0x3F800000#32))

/-- The row numbers, one per entry. -/
def iotaT : IVec S256x32 32 :=
  broadcastInDim S256x32 ![0, 1] Gen.bcast_S256x1_S256x32_0_1
    (broadcastInDim S256x1 ![0] Gen.bcast_S256_S256x1_0 (iotaInDim S256 32 0))

/-- The row index of each entry's pair: the row number, wrapped on the axis of extent 256. -/
def rowT : IVec S256x32 32 :=
  select (cmpi .slt iotaT (broadcastInDim S256x32 ![] Gen.bcast_S_S256x32 (constantI S_ 32 0#32)))
    (addi iotaT (broadcastInDim S256x32 ![] Gen.bcast_S_S256x32 (constantI S_ 32 256#32))) iotaT

/-- The column index of each entry's pair: the indexed position, wrapped on the axis of extent 512. -/
def colT (pos : IVec S256x32 32) : IVec S256x32 32 :=
  select (cmpi .slt (safeT pos) (broadcastInDim S256x32 ![] Gen.bcast_S_S256x32 (constantI S_ 32 0#32)))
    (addi (safeT pos) (broadcastInDim S256x32 ![] Gen.bcast_S_S256x32 (constantI S_ 32 512#32))) (safeT pos)

/-- The index pairs. -/
def idxT (pos : IVec S256x32 32) : IVec S256x32x2 32 :=
  concatenate S256x32x2 2
    [⟨S256x32x1, broadcastInDim S256x32x1 ![0, 1] Gen.bcast_S256x32_S256x32x1_0_1 rowT⟩,
     ⟨S256x32x1, broadcastInDim S256x32x1 ![0, 1] Gen.bcast_S256x32_S256x32x1_0_1 (colT pos)⟩]
    Gen.concatenates_S256x32x1_S256x32x1_S256x32x2_d2

/-- The weight array as a function of the position table. -/
def weightTerm (pos : IVec S256x32 32) : FVec Ideal S256x512 .f32 :=
  Host.divf
    (Host.scatterAdd scatter_S256x512_S256x32x2_S256x32_n_01_01_2
      (broadcastInDim S256x512 ![] Gen.bcast_S_S256x512 (constant S_ .f32 0x00000000#32)) (idxT pos) (maskfT pos))
    (broadcastInDim S256x512 ![0, 1] Gen.bcast_S256x1_S256x512_0_1 (countT pos))

end Term

/-! ## What the prefix leaves in the buffers -/

section Run

set_option maxHeartbeats 4000000 in
/-- The prefix leaves the composition in the weight buffer. -/
theorem weight_term (Wv : Valuation τ sig (Elt Ideal)) :
    StableHlo.after (List.flatten [Gen.hostOps0 (F := Ideal), Gen.hostOps0_1, Gen.hostOps0_2]) Wv (Proc.devRef .tc main_v27)
      = weightTerm (Wv (Proc.devRef .tc main_arg2)) := by
  simp only [List.flatten_cons, List.flatten_nil, List.append_nil, List.cons_append, List.nil_append]
  open StableHlo in after_results
  rfl

end Run

/-! ## The composition read at an index -/

section Read

open Cert.Spec

variable (pos : IVec S256x32 32)

theorem maskT_apply (b : Fin 256) (p : Fin 32) :
    maskT pos (ix2 b p) = IntOp.cmpi .ne (pos (ix2 b p)) 4294967295#32 := by
  show IntOp.cmpi .ne (pos (ix2 b p))
    (broadcastInDim S256x32 ![] Gen.bcast_S_S256x32 (constantI S_ 32 4294967295#32) (ix2 b p)) = _
  rw [broadcastInDim_scalar_apply]; rfl

theorem safeT_apply (b : Fin 256) (p : Fin 32) : safeT pos (ix2 b p) = safeW (pos (ix2 b p)) := by
  show Scalar.select (maskT pos (ix2 b p)) (pos (ix2 b p))
    (broadcastInDim S256x32 ![] Gen.bcast_S_S256x32 (constantI S_ 32 0#32) (ix2 b p)) = _
  rw [maskT_apply, broadcastInDim_scalar_apply]; exact safe_word _

theorem maskfT_apply (b : Fin 256) (p : Fin 32) : maskfT pos (ix2 b p) = usedE (pos (ix2 b p)) := by
  show FloatOps.uitofp (F := Ideal) .f32 (maskT pos (ix2 b p)) = _
  rw [maskT_apply]; exact used_float _

/-- The column index of an entry's pair is the specification's slot word. -/
theorem colT_apply (b : Fin 256) (p : Fin 32) : colT pos (ix2 b p) = slotW (pos (ix2 b p)) := by
  show Scalar.select
    (IntOp.cmpi .slt (safeT pos (ix2 b p)) (broadcastInDim S256x32 ![] Gen.bcast_S_S256x32 (constantI S_ 32 0#32) (ix2 b p)))
    (IntOp.addi (safeT pos (ix2 b p)) (broadcastInDim S256x32 ![] Gen.bcast_S_S256x32 (constantI S_ 32 512#32) (ix2 b p)))
    (safeT pos (ix2 b p)) = _
  rw [safeT_apply]; simp only [broadcastInDim_scalar_apply]
  exact wrap_word _ _

theorem iotaT_apply (b : Fin 256) (p : Fin 32) : iotaT (ix2 b p) = BitVec.ofNat 32 b.val := by
  show broadcastInDim S256x32 ![0, 1] Gen.bcast_S256x1_S256x32_0_1
    (broadcastInDim S256x1 ![0] Gen.bcast_S256_S256x1_0 (iotaInDim S256 32 0)) (ix2 b p) = _
  rw [bcast_col_mat, bcast_vec_col]; rfl

/-- The row index of an entry's pair, read signed, is the entry's row. -/
theorem rowT_toInt (b : Fin 256) (p : Fin 32) : (rowT (ix2 b p)).toInt = (b.val : Int) := by
  show (Scalar.select
    (IntOp.cmpi .slt (iotaT (ix2 b p)) (broadcastInDim S256x32 ![] Gen.bcast_S_S256x32 (constantI S_ 32 0#32) (ix2 b p)))
    (IntOp.addi (iotaT (ix2 b p)) (broadcastInDim S256x32 ![] Gen.bcast_S_S256x32 (constantI S_ 32 256#32) (ix2 b p)))
    (iotaT (ix2 b p))).toInt = _
  rw [iotaT_apply]; simp only [broadcastInDim_scalar_apply]
  exact row_word_toInt b

/-- The count column at row `b` is the specification's count. -/
theorem countT_apply (b : Fin 256) (u : Fin 1) : countT pos (ix2 b u) = cnt pos b := by
  have hR : (⟨2, ![256, 32]⟩ : Shape).Reduces [1] ⟨1, ![256]⟩ := by decide
  show max
    (broadcastInDim S256x1 ![0] Gen.bcast_S256_S256x1_0
      (Host.reduceAdd (maskfT pos) (constant S_ .f32 0x00000000#32) Gen.reducesTo_S256x32_S256_d1 Gen.h_S_) (ix2 b u))
    (broadcastInDim S256x1 ![] Gen.bcast_S_S256x1 (constant S_ .f32 0x3F800000#32) (ix2 b u)) = _
  rw [bcast_vec_col, broadcastInDim_scalar_apply, host_row_sum _ _ _ hR]
  show max (Ideal.ofBits .f32 0x00000000#32 + ∑ k : Fin 32, maskfT pos (ix2 b k)) (Ideal.ofBits .f32 0x3F800000#32) = _
  rw [Ideal.ofBits_zero_f32, Ideal.ofBits_one_f32, zero_add]
  simp only [maskfT_apply]; rfl

theorem idxT_row (r : Fin 256) (c : Fin 32) : idxT pos (ix3 r c (0 : Fin 2)) = rowT (ix2 r c) := by
  show concatenate S256x32x2 2
    [⟨S256x32x1, broadcastInDim S256x32x1 ![0, 1] Gen.bcast_S256x32_S256x32x1_0_1 rowT⟩,
     ⟨S256x32x1, broadcastInDim S256x32x1 ![0, 1] Gen.bcast_S256x32_S256x32x1_0_1 (colT pos)⟩]
    Gen.concatenates_S256x32x1_S256x32x1_S256x32x2_d2 (ix3 r c (0 : Fin 2)) = _
  rw [concat_pair_0, bcast_mat_unit]

theorem idxT_col (r : Fin 256) (c : Fin 32) : idxT pos (ix3 r c (1 : Fin 2)) = slotW (pos (ix2 r c)) := by
  show concatenate S256x32x2 2
    [⟨S256x32x1, broadcastInDim S256x32x1 ![0, 1] Gen.bcast_S256x32_S256x32x1_0_1 rowT⟩,
     ⟨S256x32x1, broadcastInDim S256x32x1 ![0, 1] Gen.bcast_S256x32_S256x32x1_0_1 (colT pos)⟩]
    Gen.concatenates_S256x32x1_S256x32x1_S256x32x2_d2 (ix3 r c (1 : Fin 2)) = _
  rw [concat_pair_1, bcast_mat_unit, colT_apply]

/-- THE WEIGHT AT `(b, s)`: with every entry in range, the used entries of row `b` whose slot is `s`, over the count. -/
theorem weightTerm_apply (hpos : InRange pos) (b : Fin 256) (s : Fin 512) :
    weightTerm pos (ix2 b s) = weight pos b s := by
  have hd : scatter_S256x512_S256x32x2_S256x32_n_01_01_2
      = pairScatterDims 256 512 256 32 Gen.scatter_S256x512_S256x32x2_S256x32_n_01_01_2_wf := rfl
  unfold weightTerm
  rw [hostDivf_apply, bcast_col_mat, countT_apply]
  unfold Host.scatterAdd
  rw [Ideal.hostScatterAdd_def, hd, pairScatterAdd_apply, broadcastInDim_scalar_apply, constant_apply,
    Ideal.ofBits_zero_f32, zero_add]
  unfold weight
  congr 1
  simp only [idxT_row, idxT_col, rowT_toInt, maskfT_apply]
  rw [Finset.sum_eq_single b]
  · unfold hits
    rw [Finset.sum_filter]
    refine Finset.sum_congr rfl fun c _ => ?_
    rw [slot_toInt _ (hpos (ix2 b c))]
    by_cases hs : slotF (pos (ix2 b c)) = s
    · have hc : (b.val : Int) = (b.val : Int) ∧ ((slotF (pos (ix2 b c))).val : Int) = (s.val : Int) := ⟨rfl, by rw [hs]⟩
      rw [if_pos hs, if_pos hc]
    · have hc : ¬((b.val : Int) = (b.val : Int) ∧ ((slotF (pos (ix2 b c))).val : Int) = (s.val : Int)) :=
        fun h => hs (Fin.ext (by have := h.2; omega))
      rw [if_neg hs, if_neg hc]
  · intro r _ hr
    exact Finset.sum_eq_zero fun c _ => if_neg (fun h => hr (Fin.ext (by have := h.1; omega)))
  · intro h; exact absurd (Finset.mem_univ b) h

end Read

/-! ## The prefix and the argument buffers -/

section Keeps

variable {F : FTy → Type} [FloatOps F]

/-- The references the prefix's operations write: every one a value of the program, none an argument. -/
abbrev prefixW : List (Ref sig .tc) :=
  [main_c, main_v0, main_v1, main_c_0, main_call0_v0, main_call0_v1, main_v2,
   main_v3, main_cst, main_v4, main_v5, main_cst_1, main_v6, main_v7, main_v8, main_v9, main_v10, main_cst_2, main_v11,
   main_c_3, main_v12, main_v13, main_c_4, main_v14, main_v15, main_v16, main_c_5, main_v17, main_v18, main_c_6, main_v19,
   main_v20, main_v21, main_v22, main_v23, main_v24, main_v25, main_v26, main_v27]

set_option maxHeartbeats 4000000 in
theorem prefix_writes :
    (List.flatten [Gen.hostOps0 (F := F), Gen.hostOps0_1, Gen.hostOps0_2]).Forall
      fun op => op.writes ⊆ (prefixW.map (Proc.devRef (τ := τ) .tc)).toFinset := by
  simp only [List.flatten_cons, List.flatten_nil, List.append_nil, List.cons_append, List.nil_append, List.Forall,
    StableHlo.nullary_writes, StableHlo.unary_writes, StableHlo.binary_writes, StableHlo.ternary_writes,
    Finset.singleton_subset_iff, List.mem_toFinset]
  repeat' apply And.intro
  all_goals exact List.mem_map_of_mem (by decide)

/-- A reference the prefix does not write keeps its contents. -/
theorem prefix_keeps (Wv : Valuation τ sig (Elt F)) (r : Ref sig .tc) (h : r ∉ prefixW) :
    StableHlo.after (List.flatten [Gen.hostOps0 (F := F), Gen.hostOps0_1, Gen.hostOps0_2]) Wv (Proc.devRef .tc r)
      = Wv (Proc.devRef .tc r) :=
  StableHlo.after_of_writes_sub _ Wv prefix_writes h

variable (Wv : Valuation τ sig (Elt F))

theorem prefix_keeps_arg0 :
    StableHlo.after (List.flatten [Gen.hostOps0 (F := F), Gen.hostOps0_1, Gen.hostOps0_2]) Wv (Proc.devRef .tc main_arg0)
      = Wv (Proc.devRef .tc main_arg0) := prefix_keeps Wv main_arg0 (by decide)
theorem prefix_keeps_arg1 :
    StableHlo.after (List.flatten [Gen.hostOps0 (F := F), Gen.hostOps0_1, Gen.hostOps0_2]) Wv (Proc.devRef .tc main_arg1)
      = Wv (Proc.devRef .tc main_arg1) := prefix_keeps Wv main_arg1 (by decide)
theorem prefix_keeps_arg2 :
    StableHlo.after (List.flatten [Gen.hostOps0 (F := F), Gen.hostOps0_1, Gen.hostOps0_2]) Wv (Proc.devRef .tc main_arg2)
      = Wv (Proc.devRef .tc main_arg2) := prefix_keeps Wv main_arg2 (by decide)
theorem prefix_keeps_arg3 :
    StableHlo.after (List.flatten [Gen.hostOps0 (F := F), Gen.hostOps0_1, Gen.hostOps0_2]) Wv (Proc.devRef .tc main_arg3)
      = Wv (Proc.devRef .tc main_arg3) := prefix_keeps Wv main_arg3 (by decide)
theorem prefix_keeps_arg4 :
    StableHlo.after (List.flatten [Gen.hostOps0 (F := F), Gen.hostOps0_1, Gen.hostOps0_2]) Wv (Proc.devRef .tc main_arg4)
      = Wv (Proc.devRef .tc main_arg4) := prefix_keeps Wv main_arg4 (by decide)
theorem prefix_keeps_arg5 :
    StableHlo.after (List.flatten [Gen.hostOps0 (F := F), Gen.hostOps0_1, Gen.hostOps0_2]) Wv (Proc.devRef .tc main_arg5)
      = Wv (Proc.devRef .tc main_arg5) := prefix_keeps Wv main_arg5 (by decide)
theorem prefix_keeps_arg6 :
    StableHlo.after (List.flatten [Gen.hostOps0 (F := F), Gen.hostOps0_1, Gen.hostOps0_2]) Wv (Proc.devRef .tc main_arg6)
      = Wv (Proc.devRef .tc main_arg6) := prefix_keeps Wv main_arg6 (by decide)
theorem prefix_keeps_arg7 :
    StableHlo.after (List.flatten [Gen.hostOps0 (F := F), Gen.hostOps0_1, Gen.hostOps0_2]) Wv (Proc.devRef .tc main_arg7)
      = Wv (Proc.devRef .tc main_arg7) := prefix_keeps Wv main_arg7 (by decide)
theorem prefix_keeps_arg8 :
    StableHlo.after (List.flatten [Gen.hostOps0 (F := F), Gen.hostOps0_1, Gen.hostOps0_2]) Wv (Proc.devRef .tc main_arg8)
      = Wv (Proc.devRef .tc main_arg8) := prefix_keeps Wv main_arg8 (by decide)

end Keeps

/-! ## The weight buffer after the prefix -/

section Final

/-- After the host prefix the weight buffer holds the specification's weight rows of the position table, whenever every
    entry of the table is in range. -/
theorem weight_read [Cert.KernelIdeal.Facts] (Wv : Valuation τ sig (Elt Ideal))
    (hpos : Cert.Spec.InRange (Wv (Proc.devRef .tc main_arg2))) :
    StableHlo.after (List.flatten [Gen.hostOps0 (F := Ideal), Gen.hostOps0_1, Gen.hostOps0_2]) Wv (Proc.devRef .tc main_v27)
      = fun j => Cert.Spec.weight (Wv (Proc.devRef .tc main_arg2)) (j 0) (j 1) := by
  rw [weight_term]
  funext j
  obtain ⟨b, s, rfl⟩ : ∃ (b : Fin 256) (s : Fin 512), j = ix2 b s := ⟨j 0, j 1, eq_ix2 j⟩
  exact weightTerm_apply _ hpos b s

end Final

end Cert.KernelIdeal.Weight

end
-- ==== Proof.KFinal.lean ====
/-
  The kernel program's result, in closed form.

  The pooling call runs 64 steps: 16 batch tiles of 16 rows, four steps of 128 slots each.  A pooled output's buffer is
  written back at the last step of its batch tile, when its running sum has taken in all four tiles of slots, so the
  block written is the whole-axis sum  Σ_s w[b,s] · x[b,s,h];  a first-row output's buffer holds x[b,0,h] from the
  tile's first step on.  The written-back blocks tile each [256, 768] output, so the four arrays end holding these
  closed forms.  The weight array the call reads is the shared weight row of the position table, and the activations
  are the launch contents, so the closed forms are the shared pooled and first-row formulas.  The closing operations
  read exactly these four arrays and the six weight buffers as launched; hence the result buffer holds the network head
  applied to the shared formulas, and every argument ends as launched.
-/
import proofs.«413436_j65730179498319_1_alg».proof.Proof.KAccum
import proofs.«413436_j65730179498319_1_alg».proof.Proof.KBlocks
import proofs.«413436_j65730179498319_1_alg».proof.Proof.KernelIdealFrame
import proofs.«413436_j65730179498319_1_alg».proof.Proof.TailRead
import proofs.«413436_j65730179498319_1_alg».proof.Proof.WeightRead
import proofs.«413436_j65730179498319_1_alg».proof.Proof.Spec
import Idealize.ShloMosaic.Lib.Pipeline.Value

set_option maxRecDepth 16384

noncomputable section

namespace Cert.KernelIdeal.Frame

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (m : (ℓ : Loc nD τ sig) → Buf (Elt Ideal) ℓ) (ρ : Dev nD → PrngReg)

/-! ## The four arrays the pooling call leaves -/

/-- The first pooled array: at (b, h) the sum over all 512 slots of weight times first activation. -/
def G3 (c : Dev nD) : S256x768.Idx → EReal := fun j => ∑ s : Fin 512, term1 m c (j 0) (j 1) s
/-- The second pooled array: the same with the second activation. -/
def G4 (c : Dev nD) : S256x768.Idx → EReal := fun j => ∑ s : Fin 512, term2 m c (j 0) (j 1) s
/-- Row 0 of the first activation. -/
def G5 (c : Dev nD) : S256x768.Idx → EReal := fun j => xArr m c (ix3 (j 0) 0 (j 1))
/-- Row 0 of the second activation. -/
def G6 (c : Dev nD) : S256x768.Idx → EReal := fun j => yArr m c (ix3 (j 0) 0 (j 1))

/-- A write-back of the first pooled output happens at the last of the four steps of a batch tile, when the running
    sum has taken in all four tiles of 128 slots: what is written is the block of the whole-axis sums. -/
theorem flushed3_eq (c : Dev nD) (t : Fin cfg0.N) (hf : (cfg0.win 3).flush t = true) :
    (dats m 0 c).flushed 3 t = ((cfg0.win 3).blk t).view.read (Elt Ideal) (G3 m c) := by
  have h3 : t.val % 4 = 3 := (flush0_3 t).mp hf
  show (cfg0.win 3).cut (grid0.coords t) ((dats m 0 c).after 3 t) = _
  rw [after0_3]
  funext y
  obtain ⟨r, h, rfl⟩ : ∃ (r : Fin 16) (h : Fin 768), y = ix2 r h := ⟨y 0, y 1, eq_ix2 y⟩
  rw [oblk3_read c]
  show (outsAt0 m c t.val t.isLt).1 (ix2 r h) = ∑ s : Fin 512, term1 m c (rowOf t r) h s
  rw [outs_pool1, h3]
  exact Cert.Spec.Tile.partialSum_four _

theorem flushed4_eq (c : Dev nD) (t : Fin cfg0.N) (hf : (cfg0.win 4).flush t = true) :
    (dats m 0 c).flushed 4 t = ((cfg0.win 4).blk t).view.read (Elt Ideal) (G4 m c) := by
  have h3 : t.val % 4 = 3 := (flush0_4 t).mp hf
  show (cfg0.win 4).cut (grid0.coords t) ((dats m 0 c).after 4 t) = _
  rw [after0_4]
  funext y
  obtain ⟨r, h, rfl⟩ : ∃ (r : Fin 16) (h : Fin 768), y = ix2 r h := ⟨y 0, y 1, eq_ix2 y⟩
  rw [oblk4_read c]
  show (outsAt0 m c t.val t.isLt).2.1 (ix2 r h) = ∑ s : Fin 512, term2 m c (rowOf t r) h s
  rw [outs_pool2, h3]
  exact Cert.Spec.Tile.partialSum_four _

/-- The first-row outputs hold row 0 of their batch tile from the first step on; the write-back writes that block. -/
theorem flushed5_eq (c : Dev nD) (t : Fin cfg0.N) (hf : (cfg0.win 5).flush t = true) :
    (dats m 0 c).flushed 5 t = ((cfg0.win 5).blk t).view.read (Elt Ideal) (G5 m c) := by
  show (cfg0.win 5).cut (grid0.coords t) ((dats m 0 c).after 5 t) = _
  rw [after0_5]
  funext y
  obtain ⟨r, h, rfl⟩ : ∃ (r : Fin 16) (h : Fin 768), y = ix2 r h := ⟨y 0, y 1, eq_ix2 y⟩
  rw [oblk5_read c]
  show (outsAt0 m c t.val t.isLt).2.2.1 (ix2 r h) = xArr m c (ix3 (rowOf t r) 0 h)
  exact outs_cls1 m c t r h

theorem flushed6_eq (c : Dev nD) (t : Fin cfg0.N) (hf : (cfg0.win 6).flush t = true) :
    (dats m 0 c).flushed 6 t = ((cfg0.win 6).blk t).view.read (Elt Ideal) (G6 m c) := by
  show (cfg0.win 6).cut (grid0.coords t) ((dats m 0 c).after 6 t) = _
  rw [after0_6]
  funext y
  obtain ⟨r, h, rfl⟩ : ∃ (r : Fin 16) (h : Fin 768), y = ix2 r h := ⟨y 0, y 1, eq_ix2 y⟩
  rw [oblk6_read c]
  show (outsAt0 m c t.val t.isLt).2.2.2 (ix2 r h) = yArr m c (ix3 (rowOf t r) 0 h)
  exact outs_cls2 m c t r h

/-- The written-back blocks tile each output array, so each ends holding its closed form. -/
theorem final3 (c : Dev nD) : (dats m 0 c).arrAt 3 cfg0.N = G3 m c :=
  (dats m 0 c).arrAt_eq_of_cover 3 (G3 m c) (fun t hf => flushed3_eq m c t hf) ocover3
theorem final4 (c : Dev nD) : (dats m 0 c).arrAt 4 cfg0.N = G4 m c :=
  (dats m 0 c).arrAt_eq_of_cover 4 (G4 m c) (fun t hf => flushed4_eq m c t hf) ocover4
theorem final5 (c : Dev nD) : (dats m 0 c).arrAt 5 cfg0.N = G5 m c :=
  (dats m 0 c).arrAt_eq_of_cover 5 (G5 m c) (fun t hf => flushed5_eq m c t hf) ocover5
theorem final6 (c : Dev nD) : (dats m 0 c).arrAt 6 cfg0.N = G6 m c :=
  (dats m 0 c).arrAt_eq_of_cover 6 (G6 m c) (fun t hf => flushed6_eq m c t hf) ocover6

/-! ## The closed forms are the shared formulas -/

/-- The weight array the call finds is the shared weight row of the position table as launched: the operations before
    the call compute it from the launch memory itself. -/
theorem wgt_eq (c : Dev nD) (hpos : Cert.Spec.InRange (m ((c.tc : Thread nD τ).loc main_arg2))) :
    wgtArr m c = fun j => Cert.Spec.weight (m ((c.tc : Thread nD τ).loc main_arg2)) (j 0) (j 1) :=
  Cert.KernelIdeal.Weight.weight_read (fun b => m (c, b)) hpos

theorem G3_eq (c : Dev nD) (hpos : Cert.Spec.InRange (m ((c.tc : Thread nD τ).loc main_arg2))) :
    G3 m c = Cert.Spec.poolK (m ((c.tc : Thread nD τ).loc main_arg0)) (m ((c.tc : Thread nD τ).loc main_arg2)) := by
  have hw := wgt_eq m c hpos
  have hx : xArr m c = m ((c.tc : Thread nD τ).loc main_arg0) := V_main_arg0 m c
  funext j
  show ∑ s : Fin 512, wgtArr m c (ix2 (j 0) s) * xArr m c (ix3 (j 0) s (j 1)) = _
  rw [hw, hx]
  rfl

theorem G4_eq (c : Dev nD) (hpos : Cert.Spec.InRange (m ((c.tc : Thread nD τ).loc main_arg2))) :
    G4 m c = Cert.Spec.poolK (m ((c.tc : Thread nD τ).loc main_arg1)) (m ((c.tc : Thread nD τ).loc main_arg2)) := by
  have hw := wgt_eq m c hpos
  have hy : yArr m c = m ((c.tc : Thread nD τ).loc main_arg1) := V_main_arg1 m c
  funext j
  show ∑ s : Fin 512, wgtArr m c (ix2 (j 0) s) * yArr m c (ix3 (j 0) s (j 1)) = _
  rw [hw, hy]
  rfl

theorem G5_eq (c : Dev nD) : G5 m c = Cert.Spec.clsOf (m ((c.tc : Thread nD τ).loc main_arg0)) := by
  have hx : xArr m c = m ((c.tc : Thread nD τ).loc main_arg0) := V_main_arg0 m c
  funext j
  show xArr m c (ix3 (j 0) 0 (j 1)) = _
  rw [hx]
  rfl

theorem G6_eq (c : Dev nD) : G6 m c = Cert.Spec.clsOf (m ((c.tc : Thread nD τ).loc main_arg1)) := by
  have hy : yArr m c = m ((c.tc : Thread nD τ).loc main_arg1) := V_main_arg1 m c
  funext j
  show yArr m c (ix3 (j 0) 0 (j 1)) = _
  rw [hy]
  rfl

/-! ## The result -/

/-- The closing operations read the four output arrays as the write-backs left them and the weights as launched (no
    window stages a weight, and no operation before the call writes one), so the result buffer holds the network head
    of the shared pooled and first-row formulas. -/
theorem kernel_result (c : Dev nD) (hpos : Cert.Spec.InRange (m ((c.tc : Thread nD τ).loc main_arg2))) :
    Pipeline.afterTail₀ cfgs (dats m) 0 (V0 m) [hostOps1, hostOps1_1, hostOps1_2] c main_v73
      = Cert.KTail.tailK (F := Ideal)
          (Cert.Spec.poolK (m ((c.tc : Thread nD τ).loc main_arg0)) (m ((c.tc : Thread nD τ).loc main_arg2)))
          (Cert.Spec.clsOf (m ((c.tc : Thread nD τ).loc main_arg0)))
          (Cert.Spec.poolK (m ((c.tc : Thread nD τ).loc main_arg1)) (m ((c.tc : Thread nD τ).loc main_arg2)))
          (Cert.Spec.clsOf (m ((c.tc : Thread nD τ).loc main_arg1)))
          (m ((c.tc : Thread nD τ).loc main_arg3)) (m ((c.tc : Thread nD τ).loc main_arg4))
          (m ((c.tc : Thread nD τ).loc main_arg5)) (m ((c.tc : Thread nD τ).loc main_arg6))
          (m ((c.tc : Thread nD τ).loc main_arg7)) (m ((c.tc : Thread nD τ).loc main_arg8)) := by
  unfold Pipeline.afterTail₀
  rw [Cert.KTail.tail_read]
  have e3 : Pipeline.withArrays (cfgs 0).spec c (V0 m c) (fun w => (dats m 0 c).arrAt w (cfgs 0).N) (Proc.devRef .tc main_v28_0)
      = G3 m c := (Pipeline.withArrays_arr spec0 launch0.win.arr_inj c _ _ 3).trans (final3 m c)
  have e4 : Pipeline.withArrays (cfgs 0).spec c (V0 m c) (fun w => (dats m 0 c).arrAt w (cfgs 0).N) (Proc.devRef .tc main_v28_1)
      = G4 m c := (Pipeline.withArrays_arr spec0 launch0.win.arr_inj c _ _ 4).trans (final4 m c)
  have e5 : Pipeline.withArrays (cfgs 0).spec c (V0 m c) (fun w => (dats m 0 c).arrAt w (cfgs 0).N) (Proc.devRef .tc main_v28_2)
      = G5 m c := (Pipeline.withArrays_arr spec0 launch0.win.arr_inj c _ _ 5).trans (final5 m c)
  have e6 : Pipeline.withArrays (cfgs 0).spec c (V0 m c) (fun w => (dats m 0 c).arrAt w (cfgs 0).N) (Proc.devRef .tc main_v28_3)
      = G6 m c := (Pipeline.withArrays_arr spec0 launch0.win.arr_inj c _ _ 6).trans (final6 m c)
  have a3 : Pipeline.withArrays (cfgs 0).spec c (V0 m c) (fun w => (dats m 0 c).arrAt w (cfgs 0).N) (Proc.devRef .tc main_arg3)
      = m ((c.tc : Thread nD τ).loc main_arg3) :=
    (Pipeline.withArrays_of_ne _ c (V0 m c) _ main_arg3 (by exact (by decide : ∀ w, Pipeline.arrRef spec0 w ≠ main_arg3))).trans (V_main_arg3 m c)
  have a4 : Pipeline.withArrays (cfgs 0).spec c (V0 m c) (fun w => (dats m 0 c).arrAt w (cfgs 0).N) (Proc.devRef .tc main_arg4)
      = m ((c.tc : Thread nD τ).loc main_arg4) :=
    (Pipeline.withArrays_of_ne _ c (V0 m c) _ main_arg4 (by exact (by decide : ∀ w, Pipeline.arrRef spec0 w ≠ main_arg4))).trans (V_main_arg4 m c)
  have a5 : Pipeline.withArrays (cfgs 0).spec c (V0 m c) (fun w => (dats m 0 c).arrAt w (cfgs 0).N) (Proc.devRef .tc main_arg5)
      = m ((c.tc : Thread nD τ).loc main_arg5) :=
    (Pipeline.withArrays_of_ne _ c (V0 m c) _ main_arg5 (by exact (by decide : ∀ w, Pipeline.arrRef spec0 w ≠ main_arg5))).trans (V_main_arg5 m c)
  have a6 : Pipeline.withArrays (cfgs 0).spec c (V0 m c) (fun w => (dats m 0 c).arrAt w (cfgs 0).N) (Proc.devRef .tc main_arg6)
      = m ((c.tc : Thread nD τ).loc main_arg6) :=
    (Pipeline.withArrays_of_ne _ c (V0 m c) _ main_arg6 (by exact (by decide : ∀ w, Pipeline.arrRef spec0 w ≠ main_arg6))).trans (V_main_arg6 m c)
  have a7 : Pipeline.withArrays (cfgs 0).spec c (V0 m c) (fun w => (dats m 0 c).arrAt w (cfgs 0).N) (Proc.devRef .tc main_arg7)
      = m ((c.tc : Thread nD τ).loc main_arg7) :=
    (Pipeline.withArrays_of_ne _ c (V0 m c) _ main_arg7 (by exact (by decide : ∀ w, Pipeline.arrRef spec0 w ≠ main_arg7))).trans (V_main_arg7 m c)
  have a8 : Pipeline.withArrays (cfgs 0).spec c (V0 m c) (fun w => (dats m 0 c).arrAt w (cfgs 0).N) (Proc.devRef .tc main_arg8)
      = m ((c.tc : Thread nD τ).loc main_arg8) :=
    (Pipeline.withArrays_of_ne _ c (V0 m c) _ main_arg8 (by exact (by decide : ∀ w, Pipeline.arrRef spec0 w ≠ main_arg8))).trans (V_main_arg8 m c)
  rw [e3, e4, e5, e6, a3, a4, a5, a6, a7, a8, G3_eq m c hpos, G4_eq m c hpos, G5_eq m c, G6_eq m c]

/-- Every weakly fair execution of the kernel program terminates, faulting nowhere, with the result buffer at the network
    head of the shared formulas of the launch contents and with every argument as launched. -/
theorem kernel_run (hpos : ∀ c : Dev nD, Cert.Spec.InRange (m ((c.tc : Thread nD τ).loc main_arg2))) :
    θ_run defs (onTc (τ := τ) (main (F := Ideal))) ⟨m, fun _ => 0, ρ⟩ (fun r => ∀ c : Dev nD,
      r.2.mem ((c.tc : Thread nD τ).loc main_v73)
        = Cert.KTail.tailK (F := Ideal)
            (Cert.Spec.poolK (m ((c.tc : Thread nD τ).loc main_arg0)) (m ((c.tc : Thread nD τ).loc main_arg2)))
            (Cert.Spec.clsOf (m ((c.tc : Thread nD τ).loc main_arg0)))
            (Cert.Spec.poolK (m ((c.tc : Thread nD τ).loc main_arg1)) (m ((c.tc : Thread nD τ).loc main_arg2)))
            (Cert.Spec.clsOf (m ((c.tc : Thread nD τ).loc main_arg1)))
            (m ((c.tc : Thread nD τ).loc main_arg3)) (m ((c.tc : Thread nD τ).loc main_arg4))
            (m ((c.tc : Thread nD τ).loc main_arg5)) (m ((c.tc : Thread nD τ).loc main_arg6))
            (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c =>
    ⟨((h c).2 main_v73 (Pipeline.mem_restRefs_of main_v73 (by decide) (by decide))).trans (kernel_result m c (hpos c)),
    ((h c).1 1).trans ((((dats m) 0 c).arrAt_in 1 rfl _).trans ((A_eq m c 1).trans (V_main_arg0 m c))),
    ((h c).1 2).trans ((((dats m) 0 c).arrAt_in 2 rfl _).trans ((A_eq m c 2).trans (V_main_arg1 m c))),
    ((h c).2 main_arg2 (Pipeline.mem_restRefs_of main_arg2 (by decide) (by decide))).trans (W_main_arg2 m (dats m) c),
    ((h c).2 main_arg3 (Pipeline.mem_restRefs_of main_arg3 (by decide) (by decide))).trans (W_main_arg3 m (dats m) c),
    ((h c).2 main_arg4 (Pipeline.mem_restRefs_of main_arg4 (by decide) (by decide))).trans (W_main_arg4 m (dats m) c),
    ((h c).2 main_arg5 (Pipeline.mem_restRefs_of main_arg5 (by decide) (by decide))).trans (W_main_arg5 m (dats m) c),
    ((h c).2 main_arg6 (Pipeline.mem_restRefs_of main_arg6 (by decide) (by decide))).trans (W_main_arg6 m (dats m) c),
    ((h c).2 main_arg7 (Pipeline.mem_restRefs_of main_arg7 (by decide) (by decide))).trans (W_main_arg7 m (dats m) c),
    ((h c).2 main_arg8 (Pipeline.mem_restRefs_of main_arg8 (by decide) (by decide))).trans (W_main_arg8 m (dats m) c)⟩)
    (run_main m ρ)

end Cert.KernelIdeal.Frame

end
-- ==== Proof.RefOps.lean ====
/-
  The reference program's @main as two lists of host operations: the operations that compute the four [256, 768] arrays
  (the pooled and the first-row array of each activation), and the join of the four with the network head after it.
-/
import proofs.«413436_j65730179498319_1_alg».proof.Proof.Gen.ReferenceIdeal
import Idealize.ShloMosaic.Lib.StableHlo.Run

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

/-- The operations up to the four arrays the head joins. -/
abbrev opsA : List (HloOp τ sig (Elt F)) :=
  [ unary main_arg0 main_v0 ((extractStridedSlice S256x1x768 ![0, 0, 0] · slices_S256x512x768_S256x1x768_0_0_0) : (⟨S256x512x768, .f32⟩ : BufTy).Contents (Elt F) → (⟨S256x1x768, .f32⟩ : BufTy).Contents (Elt F)),
    reshape main_v0 main_v1 rfl shapeCasts_S256x1x768_S256x768,
    unary main_arg1 main_v2 ((extractStridedSlice S256x1x768 ![0, 0, 0] · slices_S256x512x768_S256x1x768_0_0_0) : (⟨S256x512x768, .f32⟩ : BufTy).Contents (Elt F) → (⟨S256x1x768, .f32⟩ : BufTy).Contents (Elt F)),
    reshape main_v2 main_v3 rfl shapeCasts_S256x1x768_S256x768,
    nullary main_c (constantI S_ 32 4294967295#32),
    unary main_c main_v4 (broadcastInDim S256x32 ![] bcast_S_S256x32 : (⟨S_, .i32⟩ : BufTy).Contents (Elt F) → (⟨S256x32, .i32⟩ : BufTy).Contents (Elt F)),
    binary main_arg2 main_v4 main_v5 (cmpi .ne : (⟨S256x32, .i32⟩ : BufTy).Contents (Elt F) → (⟨S256x32, .i32⟩ : BufTy).Contents (Elt F) → (⟨S256x32, .i1⟩ : BufTy).Contents (Elt F)),
    nullary main_c_0 (constantI S_ 32 0#32),
    TRef.unary (TRef.of (T := ⟨S_, .i32⟩) main_c_0) (TRef.of (T := ⟨S_, .i32⟩) main_call0_v0) id,
    TRef.unary (TRef.of (T := ⟨S_, .i32⟩) main_call0_v0) (TRef.of (T := ⟨S256x32, .i32⟩) main_call0_v1) (broadcastInDim S256x32 ![] bcast_S_S256x32),
    TRef.ternary (TRef.of (T := ⟨S256x32, .i1⟩) main_v5) (TRef.of (T := ⟨S256x32, .i32⟩) main_arg2) (TRef.of (T := ⟨S256x32, .i32⟩) main_call0_v1) (TRef.of (T := ⟨S256x32, .i32⟩) main_v6) select,
    unary main_v6 main_v7 (broadcastInDim S256x32x1 ![0, 1] bcast_S256x32_S256x32x1_0_1 : (⟨S256x32, .i32⟩ : BufTy).Contents (Elt F) → (⟨S256x32x1, .i32⟩ : BufTy).Contents (Elt F)),
    TRef.nullary (TRef.of (T := ⟨S_, .i32⟩) main_call1_c) (constantI S_ 32 0#32),
    TRef.unary (TRef.of (T := ⟨S_, .i32⟩) main_call1_c) (TRef.of (T := ⟨S256x32x1, .i32⟩) main_call1_v0) (broadcastInDim S256x32x1 ![] bcast_S_S256x32x1),
    TRef.binary (TRef.of (T := ⟨S256x32x1, .i32⟩) main_v7) (TRef.of (T := ⟨S256x32x1, .i32⟩) main_call1_v0) (TRef.of (T := ⟨S256x32x1, .i1⟩) main_call1_v1) (cmpi .slt),
    TRef.nullary (TRef.of (T := ⟨S_, .i32⟩) main_call1_c_0) (constantI S_ 32 512#32),
    TRef.unary (TRef.of (T := ⟨S_, .i32⟩) main_call1_c_0) (TRef.of (T := ⟨S256x32x1, .i32⟩) main_call1_v2) (broadcastInDim S256x32x1 ![] bcast_S_S256x32x1),
    TRef.binary (TRef.of (T := ⟨S256x32x1, .i32⟩) main_v7) (TRef.of (T := ⟨S256x32x1, .i32⟩) main_call1_v2) (TRef.of (T := ⟨S256x32x1, .i32⟩) main_call1_v3) addi,
    TRef.ternary (TRef.of (T := ⟨S256x32x1, .i1⟩) main_call1_v1) (TRef.of (T := ⟨S256x32x1, .i32⟩) main_call1_v3) (TRef.of (T := ⟨S256x32x1, .i32⟩) main_v7) (TRef.of (T := ⟨S256x32x1, .i32⟩) main_call1_v4) select,
    TRef.nullary (TRef.of (T := ⟨S1, .i32⟩) main_call1_c_1) (constantI S1 32 511#32),
    TRef.nullary (TRef.of (T := ⟨S_, .i32⟩) main_call1_c_2) (constantI S_ 32 0#32),
    TRef.unary (TRef.of (T := ⟨S_, .i32⟩) main_call1_c_2) (TRef.of (T := ⟨S256x32x1, .i32⟩) main_call1_v5) (broadcastInDim S256x32x1 ![] bcast_S_S256x32x1),
    TRef.binary (TRef.of (T := ⟨S256x32x1, .i32⟩) main_call1_v4) (TRef.of (T := ⟨S256x32x1, .i32⟩) main_call1_v5) (TRef.of (T := ⟨S256x32x1, .i1⟩) main_call1_v6) (cmpi .sge),
    TRef.unary (TRef.of (T := ⟨S1, .i32⟩) main_call1_c_1) (TRef.of (T := ⟨S1x1x1, .i32⟩) main_call1_v7) (broadcastInDim S1x1x1 ![2] bcast_S1_S1x1x1_2),
    TRef.unary (TRef.of (T := ⟨S1x1x1, .i32⟩) main_call1_v7) (TRef.of (T := ⟨S256x32x1, .i32⟩) main_call1_v8) (broadcastInDim S256x32x1 ![0, 1, 2] bcast_S1x1x1_S256x32x1_0_1_2),
    TRef.binary (TRef.of (T := ⟨S256x32x1, .i32⟩) main_call1_v4) (TRef.of (T := ⟨S256x32x1, .i32⟩) main_call1_v8) (TRef.of (T := ⟨S256x32x1, .i1⟩) main_call1_v9) (cmpi .sle),
    TRef.binary (TRef.of (T := ⟨S256x32x1, .i1⟩) main_call1_v6) (TRef.of (T := ⟨S256x32x1, .i1⟩) main_call1_v9) (TRef.of (T := ⟨S256x32x1, .i1⟩) main_call1_v10) andi,
    TRef.nullary (TRef.of (T := ⟨S_, .i1⟩) main_call1_c_3) (constantI S_ 1 1#1),
    TRef.binary (TRef.of (T := ⟨S256x32x1, .i1⟩) main_call1_v10) (TRef.of (T := ⟨S_, .i1⟩) main_call1_c_3) (TRef.of (T := ⟨S256x32, .i1⟩) main_call1_v11) (fun x v => Host.reduce IntOp.andi x v reducesTo_S256x32x1_S256x32_d2 h_S_),
    TRef.binary (TRef.of (T := ⟨S256x512x768, .f32⟩) main_arg0) (TRef.of (T := ⟨S256x32x1, .i32⟩) main_call1_v4) (TRef.of (T := ⟨S256x32x768, .f32⟩) main_call1_v12) (fun x i => Host.gather gather_S256x512x768_S256x32x1_S256x32x768_2_1_0_0_1_2_11768 x i),
    TRef.unary (TRef.of (T := ⟨S256x32, .i1⟩) main_call1_v11) (TRef.of (T := ⟨S256x32x768, .i1⟩) main_call1_v13) (broadcastInDim S256x32x768 ![0, 1] bcast_S256x32_S256x32x768_0_1),
    TRef.nullary (TRef.of (T := ⟨S_, .f32⟩) main_call1_cst) (constant S_ .f32 0x7FC00000#32),
    TRef.unary (TRef.of (T := ⟨S_, .f32⟩) main_call1_cst) (TRef.of (T := ⟨S256x32x768, .f32⟩) main_call1_v14) (broadcastInDim S256x32x768 ![] bcast_S_S256x32x768),
    TRef.ternary (TRef.of (T := ⟨S256x32x768, .i1⟩) main_call1_v13) (TRef.of (T := ⟨S256x32x768, .f32⟩) main_call1_v12) (TRef.of (T := ⟨S256x32x768, .f32⟩) main_call1_v14) (TRef.of (T := ⟨S256x32x768, .f32⟩) main_v8) select,
    unary main_v5 main_v9 (uitofp .f32 : (⟨S256x32, .i1⟩ : BufTy).Contents (Elt F) → (⟨S256x32, .f32⟩ : BufTy).Contents (Elt F)),
    unary main_v9 main_v10 (broadcastInDim S256x32x1 ![0, 1] bcast_S256x32_S256x32x1_0_1 : (⟨S256x32, .f32⟩ : BufTy).Contents (Elt F) → (⟨S256x32x1, .f32⟩ : BufTy).Contents (Elt F)),
    unary main_v10 main_v11 (broadcastInDim S256x32x768 ![0, 1, 2] bcast_S256x32x1_S256x32x768_0_1_2 : (⟨S256x32x1, .f32⟩ : BufTy).Contents (Elt F) → (⟨S256x32x768, .f32⟩ : BufTy).Contents (Elt F)),
    binary main_v8 main_v11 main_v12 (mulf : (⟨S256x32x768, .f32⟩ : BufTy).Contents (Elt F) → (⟨S256x32x768, .f32⟩ : BufTy).Contents (Elt F) → (⟨S256x32x768, .f32⟩ : BufTy).Contents (Elt F)),
    nullary main_cst (constant S_ .f32 0x00000000#32),
    binary main_v12 main_cst main_v13 ((fun x v => Host.reduceAdd x v reducesTo_S256x32x768_S256x768_d1 h_S_) : (⟨S256x32x768, .f32⟩ : BufTy).Contents (Elt F) → (⟨S_, .f32⟩ : BufTy).Contents (Elt F) → (⟨S256x768, .f32⟩ : BufTy).Contents (Elt F)),
    nullary main_cst_1 (constant S_ .f32 0x00000000#32),
    binary main_v10 main_cst_1 main_v14 ((fun x v => Host.reduceAdd x v reducesTo_S256x32x1_S256x1_d1 h_S_) : (⟨S256x32x1, .f32⟩ : BufTy).Contents (Elt F) → (⟨S_, .f32⟩ : BufTy).Contents (Elt F) → (⟨S256x1, .f32⟩ : BufTy).Contents (Elt F)),
    nullary main_cst_2 (constant S_ .f32 0x3F800000#32),
    unary main_cst_2 main_v15 (broadcastInDim S256x1 ![] bcast_S_S256x1 : (⟨S_, .f32⟩ : BufTy).Contents (Elt F) → (⟨S256x1, .f32⟩ : BufTy).Contents (Elt F)),
    binary main_v14 main_v15 main_v16 (maximumf : (⟨S256x1, .f32⟩ : BufTy).Contents (Elt F) → (⟨S256x1, .f32⟩ : BufTy).Contents (Elt F) → (⟨S256x1, .f32⟩ : BufTy).Contents (Elt F)),
    unary main_v16 main_v17 (broadcastInDim S256x768 ![0, 1] bcast_S256x1_S256x768_0_1 : (⟨S256x1, .f32⟩ : BufTy).Contents (Elt F) → (⟨S256x768, .f32⟩ : BufTy).Contents (Elt F)),
    binary main_v13 main_v17 main_v18 (Host.divf : (⟨S256x768, .f32⟩ : BufTy).Contents (Elt F) → (⟨S256x768, .f32⟩ : BufTy).Contents (Elt F) → (⟨S256x768, .f32⟩ : BufTy).Contents (Elt F)),
    nullary main_c_3 (constantI S_ 32 4294967295#32),
    unary main_c_3 main_v19 (broadcastInDim S256x32 ![] bcast_S_S256x32 : (⟨S_, .i32⟩ : BufTy).Contents (Elt F) → (⟨S256x32, .i32⟩ : BufTy).Contents (Elt F)),
    binary main_arg2 main_v19 main_v20 (cmpi .ne : (⟨S256x32, .i32⟩ : BufTy).Contents (Elt F) → (⟨S256x32, .i32⟩ : BufTy).Contents (Elt F) → (⟨S256x32, .i1⟩ : BufTy).Contents (Elt F)),
    nullary main_c_4 (constantI S_ 32 0#32),
    TRef.unary (TRef.of (T := ⟨S_, .i32⟩) main_c_4) (TRef.of (T := ⟨S_, .i32⟩) main_call2_v0) id,
    TRef.unary (TRef.of (T := ⟨S_, .i32⟩) main_call2_v0) (TRef.of (T := ⟨S256x32, .i32⟩) main_call2_v1) (broadcastInDim S256x32 ![] bcast_S_S256x32),
    TRef.ternary (TRef.of (T := ⟨S256x32, .i1⟩) main_v20) (TRef.of (T := ⟨S256x32, .i32⟩) main_arg2) (TRef.of (T := ⟨S256x32, .i32⟩) main_call2_v1) (TRef.of (T := ⟨S256x32, .i32⟩) main_v21) select,
    unary main_v21 main_v22 (broadcastInDim S256x32x1 ![0, 1] bcast_S256x32_S256x32x1_0_1 : (⟨S256x32, .i32⟩ : BufTy).Contents (Elt F) → (⟨S256x32x1, .i32⟩ : BufTy).Contents (Elt F)),
    TRef.nullary (TRef.of (T := ⟨S_, .i32⟩) main_call3_c) (constantI S_ 32 0#32),
    TRef.unary (TRef.of (T := ⟨S_, .i32⟩) main_call3_c) (TRef.of (T := ⟨S256x32x1, .i32⟩) main_call3_v0) (broadcastInDim S256x32x1 ![] bcast_S_S256x32x1),
    TRef.binary (TRef.of (T := ⟨S256x32x1, .i32⟩) main_v22) (TRef.of (T := ⟨S256x32x1, .i32⟩) main_call3_v0) (TRef.of (T := ⟨S256x32x1, .i1⟩) main_call3_v1) (cmpi .slt),
    TRef.nullary (TRef.of (T := ⟨S_, .i32⟩) main_call3_c_0) (constantI S_ 32 512#32),
    TRef.unary (TRef.of (T := ⟨S_, .i32⟩) main_call3_c_0) (TRef.of (T := ⟨S256x32x1, .i32⟩) main_call3_v2) (broadcastInDim S256x32x1 ![] bcast_S_S256x32x1),
    TRef.binary (TRef.of (T := ⟨S256x32x1, .i32⟩) main_v22) (TRef.of (T := ⟨S256x32x1, .i32⟩) main_call3_v2) (TRef.of (T := ⟨S256x32x1, .i32⟩) main_call3_v3) addi,
    TRef.ternary (TRef.of (T := ⟨S256x32x1, .i1⟩) main_call3_v1) (TRef.of (T := ⟨S256x32x1, .i32⟩) main_call3_v3) (TRef.of (T := ⟨S256x32x1, .i32⟩) main_v22) (TRef.of (T := ⟨S256x32x1, .i32⟩) main_call3_v4) select,
    TRef.nullary (TRef.of (T := ⟨S1, .i32⟩) main_call3_c_1) (constantI S1 32 511#32),
    TRef.nullary (TRef.of (T := ⟨S_, .i32⟩) main_call3_c_2) (constantI S_ 32 0#32),
    TRef.unary (TRef.of (T := ⟨S_, .i32⟩) main_call3_c_2) (TRef.of (T := ⟨S256x32x1, .i32⟩) main_call3_v5) (broadcastInDim S256x32x1 ![] bcast_S_S256x32x1),
    TRef.binary (TRef.of (T := ⟨S256x32x1, .i32⟩) main_call3_v4) (TRef.of (T := ⟨S256x32x1, .i32⟩) main_call3_v5) (TRef.of (T := ⟨S256x32x1, .i1⟩) main_call3_v6) (cmpi .sge),
    TRef.unary (TRef.of (T := ⟨S1, .i32⟩) main_call3_c_1) (TRef.of (T := ⟨S1x1x1, .i32⟩) main_call3_v7) (broadcastInDim S1x1x1 ![2] bcast_S1_S1x1x1_2),
    TRef.unary (TRef.of (T := ⟨S1x1x1, .i32⟩) main_call3_v7) (TRef.of (T := ⟨S256x32x1, .i32⟩) main_call3_v8) (broadcastInDim S256x32x1 ![0, 1, 2] bcast_S1x1x1_S256x32x1_0_1_2),
    TRef.binary (TRef.of (T := ⟨S256x32x1, .i32⟩) main_call3_v4) (TRef.of (T := ⟨S256x32x1, .i32⟩) main_call3_v8) (TRef.of (T := ⟨S256x32x1, .i1⟩) main_call3_v9) (cmpi .sle),
    TRef.binary (TRef.of (T := ⟨S256x32x1, .i1⟩) main_call3_v6) (TRef.of (T := ⟨S256x32x1, .i1⟩) main_call3_v9) (TRef.of (T := ⟨S256x32x1, .i1⟩) main_call3_v10) andi,
    TRef.nullary (TRef.of (T := ⟨S_, .i1⟩) main_call3_c_3) (constantI S_ 1 1#1),
    TRef.binary (TRef.of (T := ⟨S256x32x1, .i1⟩) main_call3_v10) (TRef.of (T := ⟨S_, .i1⟩) main_call3_c_3) (TRef.of (T := ⟨S256x32, .i1⟩) main_call3_v11) (fun x v => Host.reduce IntOp.andi x v reducesTo_S256x32x1_S256x32_d2 h_S_),
    TRef.binary (TRef.of (T := ⟨S256x512x768, .f32⟩) main_arg1) (TRef.of (T := ⟨S256x32x1, .i32⟩) main_call3_v4) (TRef.of (T := ⟨S256x32x768, .f32⟩) main_call3_v12) (fun x i => Host.gather gather_S256x512x768_S256x32x1_S256x32x768_2_1_0_0_1_2_11768 x i),
    TRef.unary (TRef.of (T := ⟨S256x32, .i1⟩) main_call3_v11) (TRef.of (T := ⟨S256x32x768, .i1⟩) main_call3_v13) (broadcastInDim S256x32x768 ![0, 1] bcast_S256x32_S256x32x768_0_1),
    TRef.nullary (TRef.of (T := ⟨S_, .f32⟩) main_call3_cst) (constant S_ .f32 0x7FC00000#32),
    TRef.unary (TRef.of (T := ⟨S_, .f32⟩) main_call3_cst) (TRef.of (T := ⟨S256x32x768, .f32⟩) main_call3_v14) (broadcastInDim S256x32x768 ![] bcast_S_S256x32x768),
    TRef.ternary (TRef.of (T := ⟨S256x32x768, .i1⟩) main_call3_v13) (TRef.of (T := ⟨S256x32x768, .f32⟩) main_call3_v12) (TRef.of (T := ⟨S256x32x768, .f32⟩) main_call3_v14) (TRef.of (T := ⟨S256x32x768, .f32⟩) main_v23) select,
    unary main_v20 main_v24 (uitofp .f32 : (⟨S256x32, .i1⟩ : BufTy).Contents (Elt F) → (⟨S256x32, .f32⟩ : BufTy).Contents (Elt F)),
    unary main_v24 main_v25 (broadcastInDim S256x32x1 ![0, 1] bcast_S256x32_S256x32x1_0_1 : (⟨S256x32, .f32⟩ : BufTy).Contents (Elt F) → (⟨S256x32x1, .f32⟩ : BufTy).Contents (Elt F)),
    unary main_v25 main_v26 (broadcastInDim S256x32x768 ![0, 1, 2] bcast_S256x32x1_S256x32x768_0_1_2 : (⟨S256x32x1, .f32⟩ : BufTy).Contents (Elt F) → (⟨S256x32x768, .f32⟩ : BufTy).Contents (Elt F)),
    binary main_v23 main_v26 main_v27 (mulf : (⟨S256x32x768, .f32⟩ : BufTy).Contents (Elt F) → (⟨S256x32x768, .f32⟩ : BufTy).Contents (Elt F) → (⟨S256x32x768, .f32⟩ : BufTy).Contents (Elt F)),
    nullary main_cst_5 (constant S_ .f32 0x00000000#32),
    binary main_v27 main_cst_5 main_v28 ((fun x v => Host.reduceAdd x v reducesTo_S256x32x768_S256x768_d1 h_S_) : (⟨S256x32x768, .f32⟩ : BufTy).Contents (Elt F) → (⟨S_, .f32⟩ : BufTy).Contents (Elt F) → (⟨S256x768, .f32⟩ : BufTy).Contents (Elt F)),
    nullary main_cst_6 (constant S_ .f32 0x00000000#32),
    binary main_v25 main_cst_6 main_v29 ((fun x v => Host.reduceAdd x v reducesTo_S256x32x1_S256x1_d1 h_S_) : (⟨S256x32x1, .f32⟩ : BufTy).Contents (Elt F) → (⟨S_, .f32⟩ : BufTy).Contents (Elt F) → (⟨S256x1, .f32⟩ : BufTy).Contents (Elt F)),
    nullary main_cst_7 (constant S_ .f32 0x3F800000#32),
    unary main_cst_7 main_v30 (broadcastInDim S256x1 ![] bcast_S_S256x1 : (⟨S_, .f32⟩ : BufTy).Contents (Elt F) → (⟨S256x1, .f32⟩ : BufTy).Contents (Elt F)),
    binary main_v29 main_v30 main_v31 (maximumf : (⟨S256x1, .f32⟩ : BufTy).Contents (Elt F) → (⟨S256x1, .f32⟩ : BufTy).Contents (Elt F) → (⟨S256x1, .f32⟩ : BufTy).Contents (Elt F)),
    unary main_v31 main_v32 (broadcastInDim S256x768 ![0, 1] bcast_S256x1_S256x768_0_1 : (⟨S256x1, .f32⟩ : BufTy).Contents (Elt F) → (⟨S256x768, .f32⟩ : BufTy).Contents (Elt F)),
    binary main_v28 main_v32 main_v33 (Host.divf : (⟨S256x768, .f32⟩ : BufTy).Contents (Elt F) → (⟨S256x768, .f32⟩ : BufTy).Contents (Elt F) → (⟨S256x768, .f32⟩ : BufTy).Contents (Elt F)) ]

/-- The join and the network head. -/
abbrev opsB : List (HloOp τ sig (Elt F)) :=
  [ nary ![main_v18, main_v1, main_v33, main_v3] main_v34 (fun u => concatenate S256x3072 1 [⟨S256x768, u 0⟩, ⟨S256x768, u 1⟩, ⟨S256x768, u 2⟩, ⟨S256x768, u 3⟩] concatenates_S256x768_S256x768_S256x768_S256x768_S256x3072_d1),
    binary main_v34 main_v34 main_v35 (mulf : (⟨S256x3072, .f32⟩ : BufTy).Contents (Elt F) → (⟨S256x3072, .f32⟩ : BufTy).Contents (Elt F) → (⟨S256x3072, .f32⟩ : BufTy).Contents (Elt F)),
    nullary main_cst_8 (constant S_ .f32 0x00000000#32),
    binary main_v35 main_cst_8 main_v36 ((fun x v => Host.reduceAdd x v reducesTo_S256x3072_S256_d1 h_S_) : (⟨S256x3072, .f32⟩ : BufTy).Contents (Elt F) → (⟨S_, .f32⟩ : BufTy).Contents (Elt F) → (⟨S256, .f32⟩ : BufTy).Contents (Elt F)),
    unary main_v36 main_v37 (broadcastInDim S256x1 ![0] bcast_S256_S256x1_0 : (⟨S256, .f32⟩ : BufTy).Contents (Elt F) → (⟨S256x1, .f32⟩ : BufTy).Contents (Elt F)),
    unary main_v37 main_v38 (Host.sqrt : (⟨S256x1, .f32⟩ : BufTy).Contents (Elt F) → (⟨S256x1, .f32⟩ : BufTy).Contents (Elt F)),
    nullary main_cst_9 (constant S_ .f32 0x2B8CBCCC#32),
    unary main_cst_9 main_v39 (broadcastInDim S256x1 ![] bcast_S_S256x1 : (⟨S_, .f32⟩ : BufTy).Contents (Elt F) → (⟨S256x1, .f32⟩ : BufTy).Contents (Elt F)),
    binary main_v38 main_v39 main_v40 (maximumf : (⟨S256x1, .f32⟩ : BufTy).Contents (Elt F) → (⟨S256x1, .f32⟩ : BufTy).Contents (Elt F) → (⟨S256x1, .f32⟩ : BufTy).Contents (Elt F)),
    unary main_v40 main_v41 (broadcastInDim S256x3072 ![0, 1] bcast_S256x1_S256x3072_0_1 : (⟨S256x1, .f32⟩ : BufTy).Contents (Elt F) → (⟨S256x3072, .f32⟩ : BufTy).Contents (Elt F)),
    binary main_v34 main_v41 main_v42 (Host.divf : (⟨S256x3072, .f32⟩ : BufTy).Contents (Elt F) → (⟨S256x3072, .f32⟩ : BufTy).Contents (Elt F) → (⟨S256x3072, .f32⟩ : BufTy).Contents (Elt F)),
    unary main_arg3 main_v43 ((transpose S3072x768 [1, 0] · transposes_S768x3072_S3072x768_1_0) : (⟨S768x3072, .f32⟩ : BufTy).Contents (Elt F) → (⟨S3072x768, .f32⟩ : BufTy).Contents (Elt F)),
    binary main_v42 main_v43 main_v44 ((fun l r => Host.dotGeneral dot_S256x3072_S3072x768_S256x768_1_0_0_1_n_n none l r) : (⟨S256x3072, .f32⟩ : BufTy).Contents (Elt F) → (⟨S3072x768, .f32⟩ : BufTy).Contents (Elt F) → (⟨S256x768, .f32⟩ : BufTy).Contents (Elt F)),
    unary main_arg4 main_v45 (broadcastInDim S1x768 ![1] bcast_S768_S1x768_1 : (⟨S768, .f32⟩ : BufTy).Contents (Elt F) → (⟨S1x768, .f32⟩ : BufTy).Contents (Elt F)),
    unary main_v45 main_v46 (broadcastInDim S256x768 ![0, 1] bcast_S1x768_S256x768_0_1 : (⟨S1x768, .f32⟩ : BufTy).Contents (Elt F) → (⟨S256x768, .f32⟩ : BufTy).Contents (Elt F)),
    binary main_v44 main_v46 main_v47 (addf : (⟨S256x768, .f32⟩ : BufTy).Contents (Elt F) → (⟨S256x768, .f32⟩ : BufTy).Contents (Elt F) → (⟨S256x768, .f32⟩ : BufTy).Contents (Elt F)),
    nullary main_cst_10 (constant S_ .f32 0x00000000#32),
    binary main_v47 main_cst_10 main_v48 ((fun x v => Host.reduceAdd x v reducesTo_S256x768_S768_d0 h_S_) : (⟨S256x768, .f32⟩ : BufTy).Contents (Elt F) → (⟨S_, .f32⟩ : BufTy).Contents (Elt F) → (⟨S768, .f32⟩ : BufTy).Contents (Elt F)),
    nullary main_cst_11 (constant S_ .f32 0x43800000#32),
    unary main_cst_11 main_v49 (broadcastInDim S768 ![] bcast_S_S768 : (⟨S_, .f32⟩ : BufTy).Contents (Elt F) → (⟨S768, .f32⟩ : BufTy).Contents (Elt F)),
    binary main_v48 main_v49 main_v50 (Host.divf : (⟨S768, .f32⟩ : BufTy).Contents (Elt F) → (⟨S768, .f32⟩ : BufTy).Contents (Elt F) → (⟨S768, .f32⟩ : BufTy).Contents (Elt F)),
    unary main_v50 main_v51 (broadcastInDim S1x768 ![1] bcast_S768_S1x768_1 : (⟨S768, .f32⟩ : BufTy).Contents (Elt F) → (⟨S1x768, .f32⟩ : BufTy).Contents (Elt F)),
    unary main_v51 main_v52 (broadcastInDim S256x768 ![0, 1] bcast_S1x768_S256x768_0_1 : (⟨S1x768, .f32⟩ : BufTy).Contents (Elt F) → (⟨S256x768, .f32⟩ : BufTy).Contents (Elt F)),
    binary main_v47 main_v52 main_v53 (subf : (⟨S256x768, .f32⟩ : BufTy).Contents (Elt F) → (⟨S256x768, .f32⟩ : BufTy).Contents (Elt F) → (⟨S256x768, .f32⟩ : BufTy).Contents (Elt F)),
    binary main_v53 main_v53 main_v54 (mulf : (⟨S256x768, .f32⟩ : BufTy).Contents (Elt F) → (⟨S256x768, .f32⟩ : BufTy).Contents (Elt F) → (⟨S256x768, .f32⟩ : BufTy).Contents (Elt F)),
    nullary main_cst_12 (constant S_ .f32 0x00000000#32),
    binary main_v54 main_cst_12 main_v55 ((fun x v => Host.reduceAdd x v reducesTo_S256x768_S768_d0 h_S_) : (⟨S256x768, .f32⟩ : BufTy).Contents (Elt F) → (⟨S_, .f32⟩ : BufTy).Contents (Elt F) → (⟨S768, .f32⟩ : BufTy).Contents (Elt F)),
    nullary main_cst_13 (constant S_ .f32 0x43800000#32),
    unary main_cst_13 main_v56 (broadcastInDim S768 ![] bcast_S_S768 : (⟨S_, .f32⟩ : BufTy).Contents (Elt F) → (⟨S768, .f32⟩ : BufTy).Contents (Elt F)),
    binary main_v55 main_v56 main_v57 (Host.divf : (⟨S768, .f32⟩ : BufTy).Contents (Elt F) → (⟨S768, .f32⟩ : BufTy).Contents (Elt F) → (⟨S768, .f32⟩ : BufTy).Contents (Elt F)),
    unary main_v50 main_v58 (broadcastInDim S1x768 ![1] bcast_S768_S1x768_1 : (⟨S768, .f32⟩ : BufTy).Contents (Elt F) → (⟨S1x768, .f32⟩ : BufTy).Contents (Elt F)),
    unary main_v58 main_v59 (broadcastInDim S256x768 ![0, 1] bcast_S1x768_S256x768_0_1 : (⟨S1x768, .f32⟩ : BufTy).Contents (Elt F) → (⟨S256x768, .f32⟩ : BufTy).Contents (Elt F)),
    binary main_v47 main_v59 main_v60 (subf : (⟨S256x768, .f32⟩ : BufTy).Contents (Elt F) → (⟨S256x768, .f32⟩ : BufTy).Contents (Elt F) → (⟨S256x768, .f32⟩ : BufTy).Contents (Elt F)),
    nullary main_cst_14 (constant S_ .f32 0x3727C5AC#32),
    unary main_cst_14 main_v61 (broadcastInDim S768 ![] bcast_S_S768 : (⟨S_, .f32⟩ : BufTy).Contents (Elt F) → (⟨S768, .f32⟩ : BufTy).Contents (Elt F)),
    binary main_v57 main_v61 main_v62 (addf : (⟨S768, .f32⟩ : BufTy).Contents (Elt F) → (⟨S768, .f32⟩ : BufTy).Contents (Elt F) → (⟨S768, .f32⟩ : BufTy).Contents (Elt F)),
    unary main_v62 main_v63 (Host.sqrt : (⟨S768, .f32⟩ : BufTy).Contents (Elt F) → (⟨S768, .f32⟩ : BufTy).Contents (Elt F)),
    unary main_v63 main_v64 (broadcastInDim S1x768 ![1] bcast_S768_S1x768_1 : (⟨S768, .f32⟩ : BufTy).Contents (Elt F) → (⟨S1x768, .f32⟩ : BufTy).Contents (Elt F)),
    unary main_v64 main_v65 (broadcastInDim S256x768 ![0, 1] bcast_S1x768_S256x768_0_1 : (⟨S1x768, .f32⟩ : BufTy).Contents (Elt F) → (⟨S256x768, .f32⟩ : BufTy).Contents (Elt F)),
    binary main_v60 main_v65 main_v66 (Host.divf : (⟨S256x768, .f32⟩ : BufTy).Contents (Elt F) → (⟨S256x768, .f32⟩ : BufTy).Contents (Elt F) → (⟨S256x768, .f32⟩ : BufTy).Contents (Elt F)),
    unary main_arg7 main_v67 (broadcastInDim S1x768 ![1] bcast_S768_S1x768_1 : (⟨S768, .f32⟩ : BufTy).Contents (Elt F) → (⟨S1x768, .f32⟩ : BufTy).Contents (Elt F)),
    unary main_v67 main_v68 (broadcastInDim S256x768 ![0, 1] bcast_S1x768_S256x768_0_1 : (⟨S1x768, .f32⟩ : BufTy).Contents (Elt F) → (⟨S256x768, .f32⟩ : BufTy).Contents (Elt F)),
    binary main_v66 main_v68 main_v69 (mulf : (⟨S256x768, .f32⟩ : BufTy).Contents (Elt F) → (⟨S256x768, .f32⟩ : BufTy).Contents (Elt F) → (⟨S256x768, .f32⟩ : BufTy).Contents (Elt F)),
    unary main_arg8 main_v70 (broadcastInDim S1x768 ![1] bcast_S768_S1x768_1 : (⟨S768, .f32⟩ : BufTy).Contents (Elt F) → (⟨S1x768, .f32⟩ : BufTy).Contents (Elt F)),
    unary main_v70 main_v71 (broadcastInDim S256x768 ![0, 1] bcast_S1x768_S256x768_0_1 : (⟨S1x768, .f32⟩ : BufTy).Contents (Elt F) → (⟨S256x768, .f32⟩ : BufTy).Contents (Elt F)),
    binary main_v69 main_v71 main_v72 (addf : (⟨S256x768, .f32⟩ : BufTy).Contents (Elt F) → (⟨S256x768, .f32⟩ : BufTy).Contents (Elt F) → (⟨S256x768, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S256x768, .f32⟩) main_call4_v0) (broadcastInDim S256x768 ![] bcast_S_S256x768),
    TRef.binary (TRef.of (T := ⟨S256x768, .f32⟩) main_v72) (TRef.of (T := ⟨S256x768, .f32⟩) main_call4_v0) (TRef.of (T := ⟨S256x768, .f32⟩) main_v73) maximumf,
    unary main_arg5 main_v74 ((transpose S768x1 [1, 0] · transposes_S1x768_S768x1_1_0) : (⟨S1x768, .f32⟩ : BufTy).Contents (Elt F) → (⟨S768x1, .f32⟩ : BufTy).Contents (Elt F)),
    binary main_v73 main_v74 main_v75 ((fun l r => Host.dotGeneral dot_S256x768_S768x1_S256x1_1_0_0_1_n_n none l r) : (⟨S256x768, .f32⟩ : BufTy).Contents (Elt F) → (⟨S768x1, .f32⟩ : BufTy).Contents (Elt F) → (⟨S256x1, .f32⟩ : BufTy).Contents (Elt F)),
    unary main_arg6 main_v76 (broadcastInDim S1x1 ![1] bcast_S1_S1x1_1 : (⟨S1, .f32⟩ : BufTy).Contents (Elt F) → (⟨S1x1, .f32⟩ : BufTy).Contents (Elt F)),
    unary main_v76 main_v77 (broadcastInDim S256x1 ![0, 1] bcast_S1x1_S256x1_0_1 : (⟨S1x1, .f32⟩ : BufTy).Contents (Elt F) → (⟨S256x1, .f32⟩ : BufTy).Contents (Elt F)),
    binary main_v75 main_v77 main_v78 (addf : (⟨S256x1, .f32⟩ : BufTy).Contents (Elt F) → (⟨S256x1, .f32⟩ : BufTy).Contents (Elt F) → (⟨S256x1, .f32⟩ : BufTy).Contents (Elt F)) ]

set_option maxRecDepth 8192 in
set_option maxHeartbeats 4000000 in
theorem main_eq (c : Dev nD) : main (F := F) c = seq (opsA ++ opsB) := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem opsA_sub : (opsA : List (HloOp τ sig (Elt F))).Forall fun op => op.bufs ⊆ tcRefs τ sig :=
  ⟨unary_bufs_sub .., reshape_bufs_sub .., unary_bufs_sub .., reshape_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., nullary_bufs_sub .., unary_bufs_sub .., binary_bufs_sub .., ternary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., unary_bufs_sub .., unary_bufs_sub .., unary_bufs_sub .., binary_bufs_sub .., nullary_bufs_sub .., binary_bufs_sub .., nullary_bufs_sub .., binary_bufs_sub .., nullary_bufs_sub .., unary_bufs_sub .., binary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., nullary_bufs_sub .., unary_bufs_sub .., binary_bufs_sub .., ternary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., unary_bufs_sub .., unary_bufs_sub .., unary_bufs_sub .., binary_bufs_sub .., nullary_bufs_sub .., binary_bufs_sub .., nullary_bufs_sub .., binary_bufs_sub .., nullary_bufs_sub .., unary_bufs_sub .., binary_bufs_sub .., unary_bufs_sub .., binary_bufs_sub ..⟩
set_option maxRecDepth 8192 in
theorem opsB_sub : (opsB : List (HloOp τ sig (Elt F))).Forall fun op => op.bufs ⊆ tcRefs τ sig :=
  ⟨nary_bufs_sub .., binary_bufs_sub .., nullary_bufs_sub .., binary_bufs_sub .., unary_bufs_sub .., unary_bufs_sub .., nullary_bufs_sub .., unary_bufs_sub .., binary_bufs_sub .., unary_bufs_sub .., binary_bufs_sub .., unary_bufs_sub .., binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., binary_bufs_sub .., nullary_bufs_sub .., binary_bufs_sub .., nullary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., binary_bufs_sub .., unary_bufs_sub .., unary_bufs_sub .., binary_bufs_sub ..⟩

end Cert.ReferenceIdeal.RunH

end
-- ==== Proof.RTail.lean ====
/-
  The network head that follows the pooling, as ONE function of the four [256, 768] arrays it joins and of the
  layer weights: join to [256, 3072]; divide each row by max(its Euclidean norm, 1e-12); the first linear layer and its
  bias; batch normalisation over the 256 rows (mean, biased variance, 1e-5 under the square root, scale and shift);
  the rectifier; the second linear layer and its bias.  The pooled arrays enter only through this function, so two
  programs that feed it equal arrays end with equal results.
-/
import proofs.«413436_j65730179498319_1_alg».proof.ReferenceIdeal

noncomputable section

namespace Cert.RTail

open Cert.ReferenceIdeal Cert.ReferenceIdeal.Facts₀ Idealize.ShloMosaic

variable {F : FTy → Type} [FloatOps F] [Cert.ReferenceIdeal.Facts₀]

/-- The head applied to the two pooled arrays and the two first-row arrays (joined in the order
    pooled-1, row-1, pooled-2, row-2), with the layer weights: each line is one array operation. -/
def tailR (pp cp pm cm : (⟨S256x768, .f32⟩ : BufTy).Contents (Elt F)) (a3 : (⟨S768x3072, .f32⟩ : BufTy).Contents (Elt F)) (a4 : (⟨S768, .f32⟩ : BufTy).Contents (Elt F))
    (a5 : (⟨S1x768, .f32⟩ : BufTy).Contents (Elt F)) (a6 : (⟨S1, .f32⟩ : BufTy).Contents (Elt F)) (a7 a8 : (⟨S768, .f32⟩ : BufTy).Contents (Elt F)) : (⟨S256x1, .f32⟩ : BufTy).Contents (Elt F) :=
  let v34 : (⟨S256x3072, .f32⟩ : BufTy).Contents (Elt F) := concatenate S256x3072 1 [⟨S256x768, pp⟩, ⟨S256x768, cp⟩, ⟨S256x768, pm⟩, ⟨S256x768, cm⟩] concatenates_S256x768_S256x768_S256x768_S256x768_S256x3072_d1
  let v35 := (mulf : (⟨S256x3072, .f32⟩ : BufTy).Contents (Elt F) → (⟨S256x3072, .f32⟩ : BufTy).Contents (Elt F) → (⟨S256x3072, .f32⟩ : BufTy).Contents (Elt F)) v34 v34
  let cst_8 : (⟨S_, .f32⟩ : BufTy).Contents (Elt F) := constant S_ .f32 0x00000000#32
  let v36 := ((fun x v => Host.reduceAdd x v reducesTo_S256x3072_S256_d1 h_S_) : (⟨S256x3072, .f32⟩ : BufTy).Contents (Elt F) → (⟨S_, .f32⟩ : BufTy).Contents (Elt F) → (⟨S256, .f32⟩ : BufTy).Contents (Elt F)) v35 cst_8
  let v37 := (broadcastInDim S256x1 ![0] bcast_S256_S256x1_0 : (⟨S256, .f32⟩ : BufTy).Contents (Elt F) → (⟨S256x1, .f32⟩ : BufTy).Contents (Elt F)) v36
  let v38 := (Host.sqrt : (⟨S256x1, .f32⟩ : BufTy).Contents (Elt F) → (⟨S256x1, .f32⟩ : BufTy).Contents (Elt F)) v37
  let cst_9 : (⟨S_, .f32⟩ : BufTy).Contents (Elt F) := constant S_ .f32 0x2B8CBCCC#32
  let v39 := (broadcastInDim S256x1 ![] bcast_S_S256x1 : (⟨S_, .f32⟩ : BufTy).Contents (Elt F) → (⟨S256x1, .f32⟩ : BufTy).Contents (Elt F)) cst_9
  let v40 := (maximumf : (⟨S256x1, .f32⟩ : BufTy).Contents (Elt F) → (⟨S256x1, .f32⟩ : BufTy).Contents (Elt F) → (⟨S256x1, .f32⟩ : BufTy).Contents (Elt F)) v38 v39
  let v41 := (broadcastInDim S256x3072 ![0, 1] bcast_S256x1_S256x3072_0_1 : (⟨S256x1, .f32⟩ : BufTy).Contents (Elt F) → (⟨S256x3072, .f32⟩ : BufTy).Contents (Elt F)) v40
  let v42 := (Host.divf : (⟨S256x3072, .f32⟩ : BufTy).Contents (Elt F) → (⟨S256x3072, .f32⟩ : BufTy).Contents (Elt F) → (⟨S256x3072, .f32⟩ : BufTy).Contents (Elt F)) v34 v41
  let v43 := ((transpose S3072x768 [1, 0] · transposes_S768x3072_S3072x768_1_0) : (⟨S768x3072, .f32⟩ : BufTy).Contents (Elt F) → (⟨S3072x768, .f32⟩ : BufTy).Contents (Elt F)) a3
  let v44 := ((fun l r => Host.dotGeneral dot_S256x3072_S3072x768_S256x768_1_0_0_1_n_n none l r) : (⟨S256x3072, .f32⟩ : BufTy).Contents (Elt F) → (⟨S3072x768, .f32⟩ : BufTy).Contents (Elt F) → (⟨S256x768, .f32⟩ : BufTy).Contents (Elt F)) v42 v43
  let v45 := (broadcastInDim S1x768 ![1] bcast_S768_S1x768_1 : (⟨S768, .f32⟩ : BufTy).Contents (Elt F) → (⟨S1x768, .f32⟩ : BufTy).Contents (Elt F)) a4
  let v46 := (broadcastInDim S256x768 ![0, 1] bcast_S1x768_S256x768_0_1 : (⟨S1x768, .f32⟩ : BufTy).Contents (Elt F) → (⟨S256x768, .f32⟩ : BufTy).Contents (Elt F)) v45
  let v47 := (addf : (⟨S256x768, .f32⟩ : BufTy).Contents (Elt F) → (⟨S256x768, .f32⟩ : BufTy).Contents (Elt F) → (⟨S256x768, .f32⟩ : BufTy).Contents (Elt F)) v44 v46
  let cst_10 : (⟨S_, .f32⟩ : BufTy).Contents (Elt F) := constant S_ .f32 0x00000000#32
  let v48 := ((fun x v => Host.reduceAdd x v reducesTo_S256x768_S768_d0 h_S_) : (⟨S256x768, .f32⟩ : BufTy).Contents (Elt F) → (⟨S_, .f32⟩ : BufTy).Contents (Elt F) → (⟨S768, .f32⟩ : BufTy).Contents (Elt F)) v47 cst_10
  let cst_11 : (⟨S_, .f32⟩ : BufTy).Contents (Elt F) := constant S_ .f32 0x43800000#32
  let v49 := (broadcastInDim S768 ![] bcast_S_S768 : (⟨S_, .f32⟩ : BufTy).Contents (Elt F) → (⟨S768, .f32⟩ : BufTy).Contents (Elt F)) cst_11
  let v50 := (Host.divf : (⟨S768, .f32⟩ : BufTy).Contents (Elt F) → (⟨S768, .f32⟩ : BufTy).Contents (Elt F) → (⟨S768, .f32⟩ : BufTy).Contents (Elt F)) v48 v49
  let v51 := (broadcastInDim S1x768 ![1] bcast_S768_S1x768_1 : (⟨S768, .f32⟩ : BufTy).Contents (Elt F) → (⟨S1x768, .f32⟩ : BufTy).Contents (Elt F)) v50
  let v52 := (broadcastInDim S256x768 ![0, 1] bcast_S1x768_S256x768_0_1 : (⟨S1x768, .f32⟩ : BufTy).Contents (Elt F) → (⟨S256x768, .f32⟩ : BufTy).Contents (Elt F)) v51
  let v53 := (subf : (⟨S256x768, .f32⟩ : BufTy).Contents (Elt F) → (⟨S256x768, .f32⟩ : BufTy).Contents (Elt F) → (⟨S256x768, .f32⟩ : BufTy).Contents (Elt F)) v47 v52
  let v54 := (mulf : (⟨S256x768, .f32⟩ : BufTy).Contents (Elt F) → (⟨S256x768, .f32⟩ : BufTy).Contents (Elt F) → (⟨S256x768, .f32⟩ : BufTy).Contents (Elt F)) v53 v53
  let cst_12 : (⟨S_, .f32⟩ : BufTy).Contents (Elt F) := constant S_ .f32 0x00000000#32
  let v55 := ((fun x v => Host.reduceAdd x v reducesTo_S256x768_S768_d0 h_S_) : (⟨S256x768, .f32⟩ : BufTy).Contents (Elt F) → (⟨S_, .f32⟩ : BufTy).Contents (Elt F) → (⟨S768, .f32⟩ : BufTy).Contents (Elt F)) v54 cst_12
  let cst_13 : (⟨S_, .f32⟩ : BufTy).Contents (Elt F) := constant S_ .f32 0x43800000#32
  let v56 := (broadcastInDim S768 ![] bcast_S_S768 : (⟨S_, .f32⟩ : BufTy).Contents (Elt F) → (⟨S768, .f32⟩ : BufTy).Contents (Elt F)) cst_13
  let v57 := (Host.divf : (⟨S768, .f32⟩ : BufTy).Contents (Elt F) → (⟨S768, .f32⟩ : BufTy).Contents (Elt F) → (⟨S768, .f32⟩ : BufTy).Contents (Elt F)) v55 v56
  let v58 := (broadcastInDim S1x768 ![1] bcast_S768_S1x768_1 : (⟨S768, .f32⟩ : BufTy).Contents (Elt F) → (⟨S1x768, .f32⟩ : BufTy).Contents (Elt F)) v50
  let v59 := (broadcastInDim S256x768 ![0, 1] bcast_S1x768_S256x768_0_1 : (⟨S1x768, .f32⟩ : BufTy).Contents (Elt F) → (⟨S256x768, .f32⟩ : BufTy).Contents (Elt F)) v58
  let v60 := (subf : (⟨S256x768, .f32⟩ : BufTy).Contents (Elt F) → (⟨S256x768, .f32⟩ : BufTy).Contents (Elt F) → (⟨S256x768, .f32⟩ : BufTy).Contents (Elt F)) v47 v59
  let cst_14 : (⟨S_, .f32⟩ : BufTy).Contents (Elt F) := constant S_ .f32 0x3727C5AC#32
  let v61 := (broadcastInDim S768 ![] bcast_S_S768 : (⟨S_, .f32⟩ : BufTy).Contents (Elt F) → (⟨S768, .f32⟩ : BufTy).Contents (Elt F)) cst_14
  let v62 := (addf : (⟨S768, .f32⟩ : BufTy).Contents (Elt F) → (⟨S768, .f32⟩ : BufTy).Contents (Elt F) → (⟨S768, .f32⟩ : BufTy).Contents (Elt F)) v57 v61
  let v63 := (Host.sqrt : (⟨S768, .f32⟩ : BufTy).Contents (Elt F) → (⟨S768, .f32⟩ : BufTy).Contents (Elt F)) v62
  let v64 := (broadcastInDim S1x768 ![1] bcast_S768_S1x768_1 : (⟨S768, .f32⟩ : BufTy).Contents (Elt F) → (⟨S1x768, .f32⟩ : BufTy).Contents (Elt F)) v63
  let v65 := (broadcastInDim S256x768 ![0, 1] bcast_S1x768_S256x768_0_1 : (⟨S1x768, .f32⟩ : BufTy).Contents (Elt F) → (⟨S256x768, .f32⟩ : BufTy).Contents (Elt F)) v64
  let v66 := (Host.divf : (⟨S256x768, .f32⟩ : BufTy).Contents (Elt F) → (⟨S256x768, .f32⟩ : BufTy).Contents (Elt F) → (⟨S256x768, .f32⟩ : BufTy).Contents (Elt F)) v60 v65
  let v67 := (broadcastInDim S1x768 ![1] bcast_S768_S1x768_1 : (⟨S768, .f32⟩ : BufTy).Contents (Elt F) → (⟨S1x768, .f32⟩ : BufTy).Contents (Elt F)) a7
  let v68 := (broadcastInDim S256x768 ![0, 1] bcast_S1x768_S256x768_0_1 : (⟨S1x768, .f32⟩ : BufTy).Contents (Elt F) → (⟨S256x768, .f32⟩ : BufTy).Contents (Elt F)) v67
  let v69 := (mulf : (⟨S256x768, .f32⟩ : BufTy).Contents (Elt F) → (⟨S256x768, .f32⟩ : BufTy).Contents (Elt F) → (⟨S256x768, .f32⟩ : BufTy).Contents (Elt F)) v66 v68
  let v70 := (broadcastInDim S1x768 ![1] bcast_S768_S1x768_1 : (⟨S768, .f32⟩ : BufTy).Contents (Elt F) → (⟨S1x768, .f32⟩ : BufTy).Contents (Elt F)) a8
  let v71 := (broadcastInDim S256x768 ![0, 1] bcast_S1x768_S256x768_0_1 : (⟨S1x768, .f32⟩ : BufTy).Contents (Elt F) → (⟨S256x768, .f32⟩ : BufTy).Contents (Elt F)) v70
  let v72 := (addf : (⟨S256x768, .f32⟩ : BufTy).Contents (Elt F) → (⟨S256x768, .f32⟩ : BufTy).Contents (Elt F) → (⟨S256x768, .f32⟩ : BufTy).Contents (Elt F)) v69 v71
  let relu_c : (⟨S_, .f32⟩ : BufTy).Contents (Elt F) := constant S_ .f32 0x00000000#32
  let relu_z : (⟨S256x768, .f32⟩ : BufTy).Contents (Elt F) := broadcastInDim S256x768 ![] bcast_S_S256x768 relu_c
  let v73 : (⟨S256x768, .f32⟩ : BufTy).Contents (Elt F) := maximumf v72 relu_z
  let v74 := ((transpose S768x1 [1, 0] · transposes_S1x768_S768x1_1_0) : (⟨S1x768, .f32⟩ : BufTy).Contents (Elt F) → (⟨S768x1, .f32⟩ : BufTy).Contents (Elt F)) a5
  let v75 := ((fun l r => Host.dotGeneral dot_S256x768_S768x1_S256x1_1_0_0_1_n_n none l r) : (⟨S256x768, .f32⟩ : BufTy).Contents (Elt F) → (⟨S768x1, .f32⟩ : BufTy).Contents (Elt F) → (⟨S256x1, .f32⟩ : BufTy).Contents (Elt F)) v73 v74
  let v76 := (broadcastInDim S1x1 ![1] bcast_S1_S1x1_1 : (⟨S1, .f32⟩ : BufTy).Contents (Elt F) → (⟨S1x1, .f32⟩ : BufTy).Contents (Elt F)) a6
  let v77 := (broadcastInDim S256x1 ![0, 1] bcast_S1x1_S256x1_0_1 : (⟨S1x1, .f32⟩ : BufTy).Contents (Elt F) → (⟨S256x1, .f32⟩ : BufTy).Contents (Elt F)) v76
  let v78 := (addf : (⟨S256x1, .f32⟩ : BufTy).Contents (Elt F) → (⟨S256x1, .f32⟩ : BufTy).Contents (Elt F) → (⟨S256x1, .f32⟩ : BufTy).Contents (Elt F)) v75 v77
  v78

end Cert.RTail

end
-- ==== Proof.RefPool.lean ====
/-
  The reference's pooled array and first-row array as functions of one activation and the position table: the
  operations of the reference program from the position mask to the quotient by the count (the index wrap of negatives,
  the range test, the gather of whole rows, the out-of-range fill, the mask, the sum over the 32 entries, the count and
  the division), and the slice of row 0 reshaped to [256, 768] — written as the program composes them.
-/
import proofs.«413436_j65730179498319_1_alg».proof.Proof.Gen.ReferenceIdeal
import Idealize.ShloMosaic.PureOps.Ideal

set_option maxRecDepth 8192

noncomputable section

namespace Cert.RefPool

open Cert.ReferenceIdeal Cert.ReferenceIdeal.Gen Idealize.ShloMosaic

/-- The reference's pooled array of activation `x` under the positions `pos`. -/
def refPool (x : FVec Ideal S256x512x768 .f32) (pos : IVec S256x32 32) : FVec Ideal S256x768 .f32 :=
  (Host.divf (Host.reduceAdd (mulf (select (broadcastInDim S256x32x768 ![0, 1] bcast_S256x32_S256x32x768_0_1 (Host.reduce IntOp.andi (andi (cmpi .sge (select (cmpi .slt (broadcastInDim S256x32x1 ![0, 1] bcast_S256x32_S256x32x1_0_1 (select (cmpi .ne pos (broadcastInDim S256x32 ![] bcast_S_S256x32 (constantI S_ 32 4294967295#32))) pos (broadcastInDim S256x32 ![] bcast_S_S256x32 (id (constantI S_ 32 0#32))))) (broadcastInDim S256x32x1 ![] bcast_S_S256x32x1 (constantI S_ 32 0#32))) (addi (broadcastInDim S256x32x1 ![0, 1] bcast_S256x32_S256x32x1_0_1 (select (cmpi .ne pos (broadcastInDim S256x32 ![] bcast_S_S256x32 (constantI S_ 32 4294967295#32))) pos (broadcastInDim S256x32 ![] bcast_S_S256x32 (id (constantI S_ 32 0#32))))) (broadcastInDim S256x32x1 ![] bcast_S_S256x32x1 (constantI S_ 32 512#32))) (broadcastInDim S256x32x1 ![0, 1] bcast_S256x32_S256x32x1_0_1 (select (cmpi .ne pos (broadcastInDim S256x32 ![] bcast_S_S256x32 (constantI S_ 32 4294967295#32))) pos (broadcastInDim S256x32 ![] bcast_S_S256x32 (id (constantI S_ 32 0#32)))))) (broadcastInDim S256x32x1 ![] bcast_S_S256x32x1 (constantI S_ 32 0#32))) (cmpi .sle (select (cmpi .slt (broadcastInDim S256x32x1 ![0, 1] bcast_S256x32_S256x32x1_0_1 (select (cmpi .ne pos (broadcastInDim S256x32 ![] bcast_S_S256x32 (constantI S_ 32 4294967295#32))) pos (broadcastInDim S256x32 ![] bcast_S_S256x32 (id (constantI S_ 32 0#32))))) (broadcastInDim S256x32x1 ![] bcast_S_S256x32x1 (constantI S_ 32 0#32))) (addi (broadcastInDim S256x32x1 ![0, 1] bcast_S256x32_S256x32x1_0_1 (select (cmpi .ne pos (broadcastInDim S256x32 ![] bcast_S_S256x32 (constantI S_ 32 4294967295#32))) pos (broadcastInDim S256x32 ![] bcast_S_S256x32 (id (constantI S_ 32 0#32))))) (broadcastInDim S256x32x1 ![] bcast_S_S256x32x1 (constantI S_ 32 512#32))) (broadcastInDim S256x32x1 ![0, 1] bcast_S256x32_S256x32x1_0_1 (select (cmpi .ne pos (broadcastInDim S256x32 ![] bcast_S_S256x32 (constantI S_ 32 4294967295#32))) pos (broadcastInDim S256x32 ![] bcast_S_S256x32 (id (constantI S_ 32 0#32)))))) (broadcastInDim S256x32x1 ![0, 1, 2] bcast_S1x1x1_S256x32x1_0_1_2 (broadcastInDim S1x1x1 ![2] bcast_S1_S1x1x1_2 (constantI S1 32 511#32))))) (constantI S_ 1 1#1) reducesTo_S256x32x1_S256x32_d2 h_S_)) (Host.gather gather_S256x512x768_S256x32x1_S256x32x768_2_1_0_0_1_2_11768 x (select (cmpi .slt (broadcastInDim S256x32x1 ![0, 1] bcast_S256x32_S256x32x1_0_1 (select (cmpi .ne pos (broadcastInDim S256x32 ![] bcast_S_S256x32 (constantI S_ 32 4294967295#32))) pos (broadcastInDim S256x32 ![] bcast_S_S256x32 (id (constantI S_ 32 0#32))))) (broadcastInDim S256x32x1 ![] bcast_S_S256x32x1 (constantI S_ 32 0#32))) (addi (broadcastInDim S256x32x1 ![0, 1] bcast_S256x32_S256x32x1_0_1 (select (cmpi .ne pos (broadcastInDim S256x32 ![] bcast_S_S256x32 (constantI S_ 32 4294967295#32))) pos (broadcastInDim S256x32 ![] bcast_S_S256x32 (id (constantI S_ 32 0#32))))) (broadcastInDim S256x32x1 ![] bcast_S_S256x32x1 (constantI S_ 32 512#32))) (broadcastInDim S256x32x1 ![0, 1] bcast_S256x32_S256x32x1_0_1 (select (cmpi .ne pos (broadcastInDim S256x32 ![] bcast_S_S256x32 (constantI S_ 32 4294967295#32))) pos (broadcastInDim S256x32 ![] bcast_S_S256x32 (id (constantI S_ 32 0#32))))))) (broadcastInDim S256x32x768 ![] bcast_S_S256x32x768 (constant S_ .f32 0x7FC00000#32))) (broadcastInDim S256x32x768 ![0, 1, 2] bcast_S256x32x1_S256x32x768_0_1_2 (broadcastInDim S256x32x1 ![0, 1] bcast_S256x32_S256x32x1_0_1 (uitofp .f32 (cmpi .ne pos (broadcastInDim S256x32 ![] bcast_S_S256x32 (constantI S_ 32 4294967295#32))))))) (constant S_ .f32 0x00000000#32) reducesTo_S256x32x768_S256x768_d1 h_S_) (broadcastInDim S256x768 ![0, 1] bcast_S256x1_S256x768_0_1 (maximumf (Host.reduceAdd (broadcastInDim S256x32x1 ![0, 1] bcast_S256x32_S256x32x1_0_1 (uitofp .f32 (cmpi .ne pos (broadcastInDim S256x32 ![] bcast_S_S256x32 (constantI S_ 32 4294967295#32))))) (constant S_ .f32 0x00000000#32) reducesTo_S256x32x1_S256x1_d1 h_S_) (broadcastInDim S256x1 ![] bcast_S_S256x1 (constant S_ .f32 0x3F800000#32)))))

/-- Row 0 of the middle axis of activation `x`, as the reference slices and reshapes it. -/
def refCls (x : FVec Ideal S256x512x768 .f32) : FVec Ideal S256x768 .f32 :=
  (shapeCast _ (extractStridedSlice S256x1x768 ![0, 0, 0] x slices_S256x512x768_S256x1x768_0_0_0) shapeCasts_S256x1x768_S256x768)

end Cert.RefPool

end
-- ==== Proof.RefRunH.lean ====
/-
  The reference program's run, read back in two stretches.

  The first 90 operations compute, from the launch contents of the two activations and the position table, the four
  [256, 768] arrays: each activation's pooled array and its first row.  The last 54 join them and apply the network
  head.  Folding the second stretch over any buffer contents leaves the result buffer at the head of the four arrays'
  buffers and the weights; folding the first leaves those four buffers at the pooled and first-row terms of the
  arguments, and no operation writes an argument.  So every weakly fair execution ends with the result at the head of
  the pooled and first-row terms of the arguments, the arguments unchanged.
-/
import proofs.«413436_j65730179498319_1_alg».proof.Proof.RefOps
import proofs.«413436_j65730179498319_1_alg».proof.Proof.RTail
import proofs.«413436_j65730179498319_1_alg».proof.Proof.RefPool
import Idealize.ShloMosaic.Lib.Pipeline.Frame

noncomputable section

namespace Cert.ReferenceIdeal.RunH

open Cert.ReferenceIdeal Cert.ReferenceIdeal.Gen Idealize.ShloMosaic Idealize.ShloMosaic.TcCoe Idealize.SL.Sem Idealize.ShloMosaic.StableHlo

section AnyFamily
variable {F : FTy → Type} [FloatOps F]

set_option maxRecDepth 8192 in
/-- The join and the head, folded over any contents: the result buffer holds the head of the four arrays' buffers. -/
theorem tailB (W : Valuation τ sig (Elt F)) :
    StableHlo.after (opsB (F := F)) W (Proc.devRef .tc main_v78)
      = Cert.RTail.tailR (W (Proc.devRef .tc main_v18)) (W (Proc.devRef .tc main_v1)) (W (Proc.devRef .tc main_v33)) (W (Proc.devRef .tc main_v3))
          (W (Proc.devRef .tc main_arg3)) (W (Proc.devRef .tc main_arg4)) (W (Proc.devRef .tc main_arg5)) (W (Proc.devRef .tc main_arg6)) (W (Proc.devRef .tc main_arg7)) (W (Proc.devRef .tc main_arg8)) := by
  after_results_simp
  unfold Cert.RTail.tailR
  rfl

set_option maxRecDepth 8192 in
theorem keepsB_arg0 (W : Valuation τ sig (Elt F)) : StableHlo.after (opsB (F := F)) W (Proc.devRef .tc main_arg0) = W (Proc.devRef .tc main_arg0) := by
  after_results_simp
set_option maxRecDepth 8192 in
theorem keepsA_arg0 (W : Valuation τ sig (Elt F)) : StableHlo.after (opsA (F := F)) W (Proc.devRef .tc main_arg0) = W (Proc.devRef .tc main_arg0) := by
  after_results_simp

set_option maxRecDepth 8192 in
theorem keepsB_arg1 (W : Valuation τ sig (Elt F)) : StableHlo.after (opsB (F := F)) W (Proc.devRef .tc main_arg1) = W (Proc.devRef .tc main_arg1) := by
  after_results_simp
set_option maxRecDepth 8192 in
theorem keepsA_arg1 (W : Valuation τ sig (Elt F)) : StableHlo.after (opsA (F := F)) W (Proc.devRef .tc main_arg1) = W (Proc.devRef .tc main_arg1) := by
  after_results_simp

set_option maxRecDepth 8192 in
theorem keepsB_arg2 (W : Valuation τ sig (Elt F)) : StableHlo.after (opsB (F := F)) W (Proc.devRef .tc main_arg2) = W (Proc.devRef .tc main_arg2) := by
  after_results_simp
set_option maxRecDepth 8192 in
theorem keepsA_arg2 (W : Valuation τ sig (Elt F)) : StableHlo.after (opsA (F := F)) W (Proc.devRef .tc main_arg2) = W (Proc.devRef .tc main_arg2) := by
  after_results_simp

set_option maxRecDepth 8192 in
theorem keepsB_arg3 (W : Valuation τ sig (Elt F)) : StableHlo.after (opsB (F := F)) W (Proc.devRef .tc main_arg3) = W (Proc.devRef .tc main_arg3) := by
  after_results_simp
set_option maxRecDepth 8192 in
theorem keepsA_arg3 (W : Valuation τ sig (Elt F)) : StableHlo.after (opsA (F := F)) W (Proc.devRef .tc main_arg3) = W (Proc.devRef .tc main_arg3) := by
  after_results_simp

set_option maxRecDepth 8192 in
theorem keepsB_arg4 (W : Valuation τ sig (Elt F)) : StableHlo.after (opsB (F := F)) W (Proc.devRef .tc main_arg4) = W (Proc.devRef .tc main_arg4) := by
  after_results_simp
set_option maxRecDepth 8192 in
theorem keepsA_arg4 (W : Valuation τ sig (Elt F)) : StableHlo.after (opsA (F := F)) W (Proc.devRef .tc main_arg4) = W (Proc.devRef .tc main_arg4) := by
  after_results_simp

set_option maxRecDepth 8192 in
theorem keepsB_arg5 (W : Valuation τ sig (Elt F)) : StableHlo.after (opsB (F := F)) W (Proc.devRef .tc main_arg5) = W (Proc.devRef .tc main_arg5) := by
  after_results_simp
set_option maxRecDepth 8192 in
theorem keepsA_arg5 (W : Valuation τ sig (Elt F)) : StableHlo.after (opsA (F := F)) W (Proc.devRef .tc main_arg5) = W (Proc.devRef .tc main_arg5) := by
  after_results_simp

set_option maxRecDepth 8192 in
theorem keepsB_arg6 (W : Valuation τ sig (Elt F)) : StableHlo.after (opsB (F := F)) W (Proc.devRef .tc main_arg6) = W (Proc.devRef .tc main_arg6) := by
  after_results_simp
set_option maxRecDepth 8192 in
theorem keepsA_arg6 (W : Valuation τ sig (Elt F)) : StableHlo.after (opsA (F := F)) W (Proc.devRef .tc main_arg6) = W (Proc.devRef .tc main_arg6) := by
  after_results_simp

set_option maxRecDepth 8192 in
theorem keepsB_arg7 (W : Valuation τ sig (Elt F)) : StableHlo.after (opsB (F := F)) W (Proc.devRef .tc main_arg7) = W (Proc.devRef .tc main_arg7) := by
  after_results_simp
set_option maxRecDepth 8192 in
theorem keepsA_arg7 (W : Valuation τ sig (Elt F)) : StableHlo.after (opsA (F := F)) W (Proc.devRef .tc main_arg7) = W (Proc.devRef .tc main_arg7) := by
  after_results_simp

set_option maxRecDepth 8192 in
theorem keepsB_arg8 (W : Valuation τ sig (Elt F)) : StableHlo.after (opsB (F := F)) W (Proc.devRef .tc main_arg8) = W (Proc.devRef .tc main_arg8) := by
  after_results_simp
set_option maxRecDepth 8192 in
theorem keepsA_arg8 (W : Valuation τ sig (Elt F)) : StableHlo.after (opsA (F := F)) W (Proc.devRef .tc main_arg8) = W (Proc.devRef .tc main_arg8) := by
  after_results_simp

end AnyFamily

/-! ## The first stretch, at the extended reals -/

set_option maxRecDepth 65536 in
theorem headA_pool1 (V : Valuation τ sig (Elt Ideal)) :
    StableHlo.after (opsA (F := Ideal)) V (Proc.devRef .tc main_v18) = Cert.RefPool.refPool (V (Proc.devRef .tc main_arg0)) (V (Proc.devRef .tc main_arg2)) := by
  after_results_simp
  simp only [TRef.ofBuf, TRef.toBuf, cast_eq]
  unfold Cert.RefPool.refPool
  rfl
set_option maxRecDepth 65536 in
theorem headA_pool2 (V : Valuation τ sig (Elt Ideal)) :
    StableHlo.after (opsA (F := Ideal)) V (Proc.devRef .tc main_v33) = Cert.RefPool.refPool (V (Proc.devRef .tc main_arg1)) (V (Proc.devRef .tc main_arg2)) := by
  after_results_simp
  simp only [TRef.ofBuf, TRef.toBuf, cast_eq]
  unfold Cert.RefPool.refPool
  rfl
set_option maxRecDepth 8192 in
theorem headA_cls1 (V : Valuation τ sig (Elt Ideal)) :
    StableHlo.after (opsA (F := Ideal)) V (Proc.devRef .tc main_v1) = Cert.RefPool.refCls (V (Proc.devRef .tc main_arg0)) := by
  after_results_simp
  unfold Cert.RefPool.refCls
  rfl
set_option maxRecDepth 8192 in
theorem headA_cls2 (V : Valuation τ sig (Elt Ideal)) :
    StableHlo.after (opsA (F := Ideal)) V (Proc.devRef .tc main_v3) = Cert.RefPool.refCls (V (Proc.devRef .tc main_arg1)) := by
  after_results_simp
  unfold Cert.RefPool.refCls
  rfl

/-- The whole list folded over the launch contents: the result buffer. -/
theorem result_eq (V : Valuation τ sig (Elt Ideal)) :
    StableHlo.after (opsA (F := Ideal) ++ opsB) V (Proc.devRef .tc main_v78)
      = Cert.RTail.tailR (F := Ideal) (Cert.RefPool.refPool (V (Proc.devRef .tc main_arg0)) (V (Proc.devRef .tc main_arg2))) (Cert.RefPool.refCls (V (Proc.devRef .tc main_arg0)))
          (Cert.RefPool.refPool (V (Proc.devRef .tc main_arg1)) (V (Proc.devRef .tc main_arg2))) (Cert.RefPool.refCls (V (Proc.devRef .tc main_arg1)))
          (V (Proc.devRef .tc main_arg3)) (V (Proc.devRef .tc main_arg4)) (V (Proc.devRef .tc main_arg5)) (V (Proc.devRef .tc main_arg6)) (V (Proc.devRef .tc main_arg7)) (V (Proc.devRef .tc main_arg8)) := by
  rw [StableHlo.after_append, tailB, headA_pool1, headA_pool2, headA_cls1, headA_cls2,
    keepsA_arg3, keepsA_arg4, keepsA_arg5, keepsA_arg6, keepsA_arg7, keepsA_arg8]
theorem keeps_arg0 {F : FTy → Type} [FloatOps F] (V : Valuation τ sig (Elt F)) : StableHlo.after (opsA (F := F) ++ opsB) V (Proc.devRef .tc main_arg0) = V (Proc.devRef .tc main_arg0) := by
  rw [StableHlo.after_append, keepsB_arg0, keepsA_arg0]
theorem keeps_arg1 {F : FTy → Type} [FloatOps F] (V : Valuation τ sig (Elt F)) : StableHlo.after (opsA (F := F) ++ opsB) V (Proc.devRef .tc main_arg1) = V (Proc.devRef .tc main_arg1) := by
  rw [StableHlo.after_append, keepsB_arg1, keepsA_arg1]
theorem keeps_arg2 {F : FTy → Type} [FloatOps F] (V : Valuation τ sig (Elt F)) : StableHlo.after (opsA (F := F) ++ opsB) V (Proc.devRef .tc main_arg2) = V (Proc.devRef .tc main_arg2) := by
  rw [StableHlo.after_append, keepsB_arg2, keepsA_arg2]
theorem keeps_arg3 {F : FTy → Type} [FloatOps F] (V : Valuation τ sig (Elt F)) : StableHlo.after (opsA (F := F) ++ opsB) V (Proc.devRef .tc main_arg3) = V (Proc.devRef .tc main_arg3) := by
  rw [StableHlo.after_append, keepsB_arg3, keepsA_arg3]
theorem keeps_arg4 {F : FTy → Type} [FloatOps F] (V : Valuation τ sig (Elt F)) : StableHlo.after (opsA (F := F) ++ opsB) V (Proc.devRef .tc main_arg4) = V (Proc.devRef .tc main_arg4) := by
  rw [StableHlo.after_append, keepsB_arg4, keepsA_arg4]
theorem keeps_arg5 {F : FTy → Type} [FloatOps F] (V : Valuation τ sig (Elt F)) : StableHlo.after (opsA (F := F) ++ opsB) V (Proc.devRef .tc main_arg5) = V (Proc.devRef .tc main_arg5) := by
  rw [StableHlo.after_append, keepsB_arg5, keepsA_arg5]
theorem keeps_arg6 {F : FTy → Type} [FloatOps F] (V : Valuation τ sig (Elt F)) : StableHlo.after (opsA (F := F) ++ opsB) V (Proc.devRef .tc main_arg6) = V (Proc.devRef .tc main_arg6) := by
  rw [StableHlo.after_append, keepsB_arg6, keepsA_arg6]
theorem keeps_arg7 {F : FTy → Type} [FloatOps F] (V : Valuation τ sig (Elt F)) : StableHlo.after (opsA (F := F) ++ opsB) V (Proc.devRef .tc main_arg7) = V (Proc.devRef .tc main_arg7) := by
  rw [StableHlo.after_append, keepsB_arg7, keepsA_arg7]
theorem keeps_arg8 {F : FTy → Type} [FloatOps F] (V : Valuation τ sig (Elt F)) : StableHlo.after (opsA (F := F) ++ opsB) V (Proc.devRef .tc main_arg8) = V (Proc.devRef .tc main_arg8) := by
  rw [StableHlo.after_append, keepsB_arg8, keepsA_arg8]

/-- Every weakly fair execution of @main terminates with the result at the head of the pooled and first-row terms of
    the arguments, the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v78)
        = Cert.RTail.tailR (F := Ideal) (Cert.RefPool.refPool (m ((c.tc : Thread nD τ).loc main_arg0)) (m ((c.tc : Thread nD τ).loc main_arg2))) (Cert.RefPool.refCls (m ((c.tc : Thread nD τ).loc main_arg0)))
            (Cert.RefPool.refPool (m ((c.tc : Thread nD τ).loc main_arg1)) (m ((c.tc : Thread nD τ).loc main_arg2))) (Cert.RefPool.refCls (m ((c.tc : Thread nD τ).loc main_arg1)))
            (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨(h c main_v78).trans (result_eq _),
      (h c main_arg0).trans (keeps_arg0 _),
      (h c main_arg1).trans (keeps_arg1 _),
      (h c main_arg2).trans (keeps_arg2 _),
      (h c main_arg3).trans (keeps_arg3 _),
      (h c main_arg4).trans (keeps_arg4 _),
      (h c main_arg5).trans (keeps_arg5 _),
      (h c main_arg6).trans (keeps_arg6 _),
      (h c main_arg7).trans (keeps_arg7 _),
      (h c main_arg8).trans (keeps_arg8 _)⟩)
    (run_seq scopedRefs_eq scopedSems_eq defs main (fun _ => opsA ++ opsB) main_eq (fun _ => List.forall_iff_forall_mem.mpr fun op h => (List.mem_append.mp h).elim (List.forall_iff_forall_mem.mp opsA_sub op) (List.forall_iff_forall_mem.mp opsB_sub op)) m ρ)

end Cert.ReferenceIdeal.RunH

end
-- ==== Proof.LibBatchRowGather.lean ====
/-
  A batched gather of whole rows, read at a result index.

  Taking `x[b, idx[b, n], :]` from an array `x : [B, S, H]` at positions `idx : [B, N]` prints as a gather over the
  positions as `[B, N, 1]`: the operand's axis 1 collapsed and start-indexed, its axis 0 a batching axis paired with the
  start indices' axis 0, the offset axis 2 carrying the whole last axis (slice sizes `[1, 1, H]`), the index vector on
  axis 2. Result element `(b, n, h)` is the operand at `(b, r, h)`, where `r` is the start `idx[b, n, 0]` read signed
  and clamped into `[0, S − 1]`: the batching axis takes its coordinate from the result's batch coordinate `b`, the
  offset axis from the result's last coordinate `h`, and only the middle axis from the start index.
-/
import Idealize.ShloMosaic.Lib.ValueIdx

noncomputable section

namespace Idealize.ShloMosaic.LibBatchRowGather

open Idealize.ShloMosaic Idealize.ShloMosaic.ValueIdx

/-- THE READ: element `(b, n, h)` of the gather is the operand at `(b, r, h)`, `r` the start `idx[b, n, 0]` read signed
    and clamped into `[0, S − 1]`. -/
theorem batchRowGather_apply {α : Type} {B S H N w : Nat}
    (d : GatherDims ⟨3, ![B, S, H]⟩ ⟨3, ![B, N, 1]⟩ ⟨3, ![B, N, H]⟩)
    (hoff : d.offsetDims = [2]) (hcoll : d.collapsedSliceDims = [1]) (hob : d.operandBatchingDims = [0])
    (hsb : d.startIndicesBatchingDims = [0]) (hsim : d.startIndexMap = [1]) (hivd : d.indexVectorDim = 2)
    (x : (⟨3, ![B, S, H]⟩ : Shape).Idx → α) (idx : IVec ⟨3, ![B, N, 1]⟩ w) (b : Fin B) (n : Fin N) (h : Fin H)
    (hS : 0 < S) :
    Host.gather d x idx (ix3 b n h)
      = x (ix3 b (⟨min (idx (ix3 b n (0 : Fin 1))).toInt.toNat (S - 1), by omega⟩ : Fin S) h) := by
  -- with the six lists known, the dimension numbers are a literal record but for the slice sizes
  obtain ⟨od, cd, ob, sb, sm, iv, ss, wf⟩ := d
  dsimp only at hoff hcoll hob hsb hsim hivd
  subst hoff hcoll hob hsb hsim hivd
  unfold Host.gather
  congr 1
  funext a
  refine Fin.ext ?_
  simp only [GatherDims.operandIdx]
  match a with
  | ⟨0, _⟩ =>
    -- the batching axis: no start, no offset; the coordinate is the result's on the paired batch axis, `b`
    rw [GatherDims.start_batching _ _ _ _ List.mem_cons_self,
      GatherDims.offCoord_eq_zero _ _ _ (fun hm => ((GatherDims.mem_sKept _ _).mp hm).2 List.mem_cons_self),
      Nat.zero_add, Nat.add_zero]
    rfl
  | ⟨1, _⟩ =>
    -- the collapsed axis: the start is the entry `(b, n, 0)`, read signed, clamped to `S − 1` (the slice is one wide)
    have hsl : ss 1 = 1 :=
      GatherDims.slice_collapsed ⟨[2], [1], [0], [0], [1], 2, ss, wf⟩ 1 List.mem_cons_self
    have hnb : (1 : Fin 3) ∉ ([0] : List (Fin 3)) := by decide
    rw [GatherDims.batchCoord_eq_zero _ _ _ hnb,
      GatherDims.offCoord_eq_zero _ _ _ (fun hm => ((GatherDims.mem_sKept _ _).mp hm).1 List.mem_cons_self)]
    simp only [Nat.add_zero]
    unfold GatherDims.start
    rw [dif_pos (by exact List.mem_cons_self)]
    show min (idx _).toInt.toNat (S - ss 1) = min (idx (ix3 b n (0 : Fin 1))).toInt.toNat (S - 1)
    rw [hsl]
    congr 3
    congr 1
    funext c
    refine Fin.ext ?_
    match c with
    | ⟨0, _⟩ => rfl
    | ⟨1, _⟩ => rfl
    | ⟨2, _⟩ => rfl
  | ⟨2, _⟩ =>
    -- the offset axis: not start-indexed, not batching; the coordinate is the result's on the offset axis, `h`
    have hns : (2 : Fin 3) ∉ ([1] : List (Fin 3)) := by decide
    have hnb : (2 : Fin 3) ∉ ([0] : List (Fin 3)) := by decide
    rw [GatherDims.batchCoord_eq_zero _ _ _ hnb]
    unfold GatherDims.start
    rw [dif_neg (by exact hns)]
    simp only [Nat.add_zero, Nat.zero_add]
    unfold GatherDims.offCoord
    split
    · rfl
    · rename_i hno
      exact absurd ((GatherDims.mem_sKept _ _).mpr ⟨hns, hnb⟩) hno

/-- THE READ IN RANGE: when the start `idx[b, n, 0]`, read signed, is a row `k` of the operand, the clamp is the
    identity and element `(b, n, h)` of the gather is the operand at `(b, k, h)`. -/
theorem batchRowGather_apply_of_lt {α : Type} {B S H N w : Nat}
    (d : GatherDims ⟨3, ![B, S, H]⟩ ⟨3, ![B, N, 1]⟩ ⟨3, ![B, N, H]⟩)
    (hoff : d.offsetDims = [2]) (hcoll : d.collapsedSliceDims = [1]) (hob : d.operandBatchingDims = [0])
    (hsb : d.startIndicesBatchingDims = [0]) (hsim : d.startIndexMap = [1]) (hivd : d.indexVectorDim = 2)
    (x : (⟨3, ![B, S, H]⟩ : Shape).Idx → α) (idx : IVec ⟨3, ![B, N, 1]⟩ w) (b : Fin B) (n : Fin N) (h : Fin H)
    (k : Fin S) (hk : (idx (ix3 b n (0 : Fin 1))).toInt = (k.val : ℤ)) :
    Host.gather d x idx (ix3 b n h) = x (ix3 b k h) := by
  have hS : 0 < S := Nat.lt_of_le_of_lt (Nat.zero_le _) k.isLt
  rw [batchRowGather_apply d hoff hcoll hob hsb hsim hivd x idx b n h hS]
  have e : (⟨min (idx (ix3 b n (0 : Fin 1))).toInt.toNat (S - 1), by omega⟩ : Fin S) = k := by
    apply Fin.ext
    show min (idx (ix3 b n (0 : Fin 1))).toInt.toNat (S - 1) = k.val
    rw [hk, Int.toNat_natCast]
    have := k.isLt
    omega
  rw [e]

end Idealize.ShloMosaic.LibBatchRowGather

end
-- ==== Proof.RefPoolMath.lean ====
/-
  The reference's pooled array and first-row array, read at an index.

  At a row b and a column h the reference's pooled array is

      (Σ_q x[b, slot(b,q), h] · used(b,q)) / max(Σ_q used(b,q), 1),

  where slot is the entry with padding read as 0 and a negative entry wrapped by 512.  Operation by operation: the
  padding test and the wrap are the specification's word functions entrywise; under the range assumption the wrapped
  entry, read signed, lies in [0, 512), so the range test passes on every entry, the out-of-range fill is never taken,
  and the gather of whole rows reads x[b, slot, h]; the mask is 1 on a used entry and 0 on padding; the two sums run
  over the 32 entries from the initial value 0.  The first-row array is the slice at row 0 with its unit axis dropped.
-/
import proofs.«413436_j65730179498319_1_alg».proof.Proof.RefPool
import proofs.«413436_j65730179498319_1_alg».proof.Proof.Spec
import proofs.«413436_j65730179498319_1_alg».proof.Proof.LibBatchRowGather
import Idealize.ShloMosaic.Lib.ValueIdx
import Idealize.ShloMosaic.Lib.Pipeline.Value
import Idealize.ShloMosaic.Lib.ValueLayout
import Idealize.ShloMosaic.Lib.WordArith
import Idealize.ShloMosaic.PureOps.Ideal.Laws
import Idealize.ShloMosaic.PureOps.Reduce

set_option maxRecDepth 8192

noncomputable section

open scoped BigOperators

namespace Cert.RefPool

open Cert.ReferenceIdeal Cert.ReferenceIdeal.Gen Idealize.ShloMosaic Idealize.ShloMosaic.ValueIdx

namespace Math

/-! ## Words: the padding test, the wrap of a negative entry, the range test, the mask -/

/-- Choosing the entry where it differs from the padding word, 0 otherwise, is the specification's safe position. -/
theorem select_ne_pad (p : BitVec 32) :
    Scalar.select (IntOp.cmpi .ne p 4294967295#32) p 0#32 = Spec.safeW p := by
  unfold Spec.safeW
  by_cases h : p = Spec.padW
  · rw [if_pos h, h]; rfl
  · rw [if_neg h]
    have e : IntOp.cmpi .ne p 4294967295#32 = 1#1 := by
      simp only [IntOp.cmpi, WordArith.ofBool_eq_one_iff, bne_iff_ne, ne_eq]
      exact h
    rw [e, select_one]

/-- Adding 512 where the safe position reads negative is the specification's wrap. -/
theorem select_slt_zero (p : BitVec 32) :
    Scalar.select (IntOp.cmpi .slt (Spec.safeW p) 0#32) (IntOp.addi (Spec.safeW p) 512#32) (Spec.safeW p)
      = Spec.slotW p := by
  unfold Spec.slotW
  by_cases h : (Spec.safeW p).toInt < 0
  · rw [if_pos h]
    have e : IntOp.cmpi .slt (Spec.safeW p) 0#32 = 1#1 := by
      simp only [IntOp.cmpi, WordArith.ofBool_eq_one_iff, BitVec.slt_iff_toInt_lt]
      exact h
    rw [e, select_one]; rfl
  · rw [if_neg h]
    have e : IntOp.cmpi .slt (Spec.safeW p) 0#32 = 0#1 := by
      apply eq_zero_of_ne_one
      simp only [IntOp.cmpi, WordArith.ofBool_eq_one_iff, BitVec.slt_iff_toInt_lt]
      exact h
    rw [e, select_zero]

/-- An entry in [-512, 512) has its safe position there too (padding becomes 0). -/
theorem safeW_range (p : BitVec 32) (hp : -512 ≤ p.toInt ∧ p.toInt < 512) :
    -512 ≤ (Spec.safeW p).toInt ∧ (Spec.safeW p).toInt < 512 := by
  unfold Spec.safeW
  split
  · exact ⟨by decide, by decide⟩
  · exact hp

/-- After the wrap the position, read signed, lies in [0, 512). -/
theorem slotW_range (p : BitVec 32) (hp : -512 ≤ p.toInt ∧ p.toInt < 512) :
    0 ≤ (Spec.slotW p).toInt ∧ (Spec.slotW p).toInt < 512 := by
  have hs := safeW_range p hp
  have h512 : (512#32 : BitVec 32).toInt = 512 := by decide
  unfold Spec.slotW
  split
  · rename_i hneg
    rw [WordArith.toInt_add_of_bounds _ _ (by rw [h512]; omega) (by rw [h512]; omega), h512]
    omega
  · omega

/-- … and it is the specification's slot index. -/
theorem slotW_toInt (p : BitVec 32) (hp : -512 ≤ p.toInt ∧ p.toInt < 512) :
    (Spec.slotW p).toInt = ((Spec.slotF p).val : ℤ) := by
  have h := slotW_range p hp
  show (Spec.slotW p).toInt = (((Spec.slotW p).toInt.toNat % 512 : ℕ) : ℤ)
  omega

/-- A word that reads signed in [0, 512) passes the range test 0 ≤ w ≤ 511. -/
theorem range_test (w : BitVec 32) (hw : 0 ≤ w.toInt ∧ w.toInt < 512) :
    IntOp.andi (IntOp.cmpi .sge w 0#32) (IntOp.cmpi .sle w 511#32) = 1#1 := by
  have h0 : (0#32 : BitVec 32).toInt = 0 := by decide
  have h511 : (511#32 : BitVec 32).toInt = 511 := by decide
  simp only [IntOp.cmpi, WordArith.andi_ofBool, WordArith.ofBool_eq_one_iff, Bool.and_eq_true,
    BitVec.sle_iff_toInt_le, h0, h511]
  omega

/-- The mask bit widened to a float is the specification's use flag: 1 on a used entry, 0 on padding. -/
theorem uitofp_ne_pad (p : BitVec 32) :
    (FloatOps.uitofp .f32 (IntOp.cmpi .ne p 4294967295#32) : Ideal .f32) = Spec.usedE p := by
  unfold Spec.usedE
  by_cases h : p = Spec.padW
  · rw [if_pos h, h]
    show (((IntOp.cmpi .ne Spec.padW 4294967295#32).toNat : ℝ) : EReal) = 0
    have e : IntOp.cmpi .ne Spec.padW 4294967295#32 = 0#1 := by decide
    rw [e]; simp
  · rw [if_neg h]
    have e : IntOp.cmpi .ne p 4294967295#32 = 1#1 := by
      simp only [IntOp.cmpi, WordArith.ofBool_eq_one_iff, bne_iff_ne, ne_eq]
      exact h
    show (((IntOp.cmpi .ne p 4294967295#32).toNat : ℝ) : EReal) = 1
    rw [e]; simp

/-! ## Layout: the broadcasts, the two reductions and the quotient read at an index -/

section Reads
variable {α : Type}

/-- A scalar broadcast to any shape reads the scalar. -/
theorem bcast_scalar {T : Shape} (h : (⟨0, ![]⟩ : Shape).BroadcastsInDim T (![] : Fin 0 → Fin T.rank))
    (c : (⟨0, ![]⟩ : Shape).Idx → α) (j : T.Idx) : broadcastInDim T ![] h c j = c ix0 :=
  broadcastInDim_apply _ h c j ix0 (fun ax => ax.elim0)

/-- An `[a, b]` array placed on axes 0 and 1 of `[a, b, c]` reads, at `(r, q, k)`, the operand at `(r, q)`. -/
theorem bcast_ab_abc {a b c : ℕ} (x : (⟨2, ![a, b]⟩ : Shape).Idx → α)
    (h : (⟨2, ![a, b]⟩ : Shape).BroadcastsInDim ⟨3, ![a, b, c]⟩ (![0, 1] : Fin 2 → Fin (⟨3, ![a, b, c]⟩ : Shape).rank))
    (r : Fin a) (q : Fin b) (k : Fin c) :
    broadcastInDim ⟨3, ![a, b, c]⟩ ![0, 1] h x (ix3 r q k) = x (ix2 r q) := by
  refine broadcastInDim_apply _ h x (ix3 r q k) (ix2 r q) fun ax => ?_
  match ax with
  | ⟨0, _⟩ =>
    show r.val = if a = 1 then 0 else r.val
    split
    · have := r.isLt; omega
    · rfl
  | ⟨1, _⟩ =>
    show q.val = if b = 1 then 0 else q.val
    split
    · have := q.isLt; omega
    · rfl

/-- An `[a, b, 1]` array broadcast in place to `[a, b, c]` reads, at `(r, q, k)`, the operand at `(r, q, 0)`. -/
theorem bcast_ab1_abc {a b c : ℕ} (x : (⟨3, ![a, b, 1]⟩ : Shape).Idx → α)
    (h : (⟨3, ![a, b, 1]⟩ : Shape).BroadcastsInDim ⟨3, ![a, b, c]⟩
      (![0, 1, 2] : Fin 3 → Fin (⟨3, ![a, b, c]⟩ : Shape).rank))
    (r : Fin a) (q : Fin b) (k : Fin c) :
    broadcastInDim ⟨3, ![a, b, c]⟩ ![0, 1, 2] h x (ix3 r q k) = x (ix3 r q (0 : Fin 1)) := by
  refine broadcastInDim_apply _ h x (ix3 r q k) (ix3 r q (0 : Fin 1)) fun ax => ?_
  match ax with
  | ⟨0, _⟩ =>
    show r.val = if a = 1 then 0 else r.val
    split
    · have := r.isLt; omega
    · rfl
  | ⟨1, _⟩ =>
    show q.val = if b = 1 then 0 else q.val
    split
    · have := q.isLt; omega
    · rfl
  | ⟨2, _⟩ => rfl

/-- A column `[a, 1]` broadcast in place to `[a, c]` reads, at `(r, k)`, the column's entry of row `r`. -/
theorem bcast_a1_ac {a c : ℕ} (x : (⟨2, ![a, 1]⟩ : Shape).Idx → α)
    (h : (⟨2, ![a, 1]⟩ : Shape).BroadcastsInDim ⟨2, ![a, c]⟩ (![0, 1] : Fin 2 → Fin (⟨2, ![a, c]⟩ : Shape).rank))
    (r : Fin a) (k : Fin c) : broadcastInDim ⟨2, ![a, c]⟩ ![0, 1] h x (ix2 r k) = x (ix2 r (0 : Fin 1)) := by
  refine broadcastInDim_apply _ h x (ix2 r k) (ix2 r (0 : Fin 1)) fun ax => ?_
  match ax with
  | ⟨0, _⟩ =>
    show r.val = if a = 1 then 0 else r.val
    split
    · have := r.isLt; omega
    · rfl
  | ⟨1, _⟩ => rfl

end Reads

/-- The host's float sum of an `[a, b, c]` array along its middle axis, read at `(r, k)` on the extended reals: the
    initial scalar plus the sum over the middle coordinate. -/
theorem hostMidSum_apply {a b c : ℕ} (X : FVec Ideal ⟨3, ![a, b, c]⟩ .f32) (init : (⟨0, ![]⟩ : Shape).Idx → Ideal .f32)
    (h' : (⟨3, ![a, b, c]⟩ : Shape).ReducesTo [1] ⟨2, ![a, c]⟩) (h : (⟨3, ![a, b, c]⟩ : Shape).Reduces [1] ⟨2, ![a, c]⟩)
    (hu : 0 < (⟨0, ![]⟩ : Shape).numel) (r : Fin a) (k : Fin c) :
    Host.reduceAdd X init h' hu (ix2 r k) = init ix0 + ∑ q : Fin b, X (ix3 r q k) := by
  unfold Host.reduceAdd
  refine (Ideal.hostReduceAdd_single h' h X _ (ix2 r k)).trans ?_
  refine congrArg₂ (· + ·) (congrArg init (funext fun ax => ax.elim0)) (Finset.sum_congr rfl fun q _ => ?_)
  exact congrArg X (funext fun ax => Fin.ext (by
    match ax with
    | ⟨0, _⟩ => rfl
    | ⟨1, _⟩ => rfl
    | ⟨2, _⟩ => rfl))

/-- A fold of a commutative, associative operation over the one-element index set `Fin 1`. -/
theorem fold_fin_one {β : Type} (op : β → β → β) [Std.Commutative op] [Std.Associative op] (e : β) (f : Fin 1 → β) :
    (Finset.univ : Finset (Fin 1)).fold op e f = op (f 0) e := by
  rw [show (Finset.univ : Finset (Fin 1)) = {0} from rfl, Finset.fold_singleton]

/-- The host's reduction by `and` of an `[a, b, 1]` array of bits along its unit last axis, read at `(r, q)`: the one
    bit there, and-ed with the initial bit. -/
theorem hostAndUnit_apply {a b : ℕ} (X : IVec ⟨3, ![a, b, 1]⟩ 1) (init : (⟨0, ![]⟩ : Shape).Idx → BitVec 1)
    (h' : (⟨3, ![a, b, 1]⟩ : Shape).ReducesTo [2] ⟨2, ![a, b]⟩) (h : (⟨3, ![a, b, 1]⟩ : Shape).Reduces [2] ⟨2, ![a, b]⟩)
    (hu : 0 < (⟨0, ![]⟩ : Shape).numel) (r : Fin a) (q : Fin b) :
    Host.reduce IntOp.andi X init h' hu (ix2 r q) = IntOp.andi (X (ix3 r q (0 : Fin 1))) (init ix0) := by
  refine (Host.reduce_eq_fold_single IntOp.andi X init h' h hu (ix2 r q)).trans ?_
  refine (fold_fin_one IntOp.andi _ _).trans ?_
  refine congrArg₂ IntOp.andi (congrArg X (funext fun ax => Fin.ext ?_)) (congrArg init (funext fun ax => ax.elim0))
  match ax with
  | ⟨0, _⟩ => rfl
  | ⟨1, _⟩ => rfl
  | ⟨2, _⟩ => rfl

/-! ## The reference's pooled array in parts -/

/-- The bit "this entry is not padding". -/
def usedBit (pos : IVec S256x32 32) : IVec S256x32 1 :=
  cmpi .ne pos (broadcastInDim S256x32 ![] bcast_S_S256x32 (constantI S_ 32 4294967295#32))

/-- The entry, or 0 for padding. -/
def safeA (pos : IVec S256x32 32) : IVec S256x32 32 :=
  select (usedBit pos) pos (broadcastInDim S256x32 ![] bcast_S_S256x32 (id (constantI S_ 32 0#32)))

/-- The safe positions as a `[256, 32, 1]` array. -/
def safe3 (pos : IVec S256x32 32) : IVec S256x32x1 32 :=
  broadcastInDim S256x32x1 ![0, 1] bcast_S256x32_S256x32x1_0_1 (safeA pos)

/-- The start indices of the gather: the safe positions, a negative one wrapped by 512. -/
def idxA (pos : IVec S256x32 32) : IVec S256x32x1 32 :=
  select (cmpi .slt (safe3 pos) (broadcastInDim S256x32x1 ![] bcast_S_S256x32x1 (constantI S_ 32 0#32)))
    (addi (safe3 pos) (broadcastInDim S256x32x1 ![] bcast_S_S256x32x1 (constantI S_ 32 512#32))) (safe3 pos)

/-- The range test 0 ≤ index ≤ 511, and-ed over the unit index axis. -/
def inbA (pos : IVec S256x32 32) : IVec S256x32 1 :=
  Host.reduce IntOp.andi
    (andi (cmpi .sge (idxA pos) (broadcastInDim S256x32x1 ![] bcast_S_S256x32x1 (constantI S_ 32 0#32)))
      (cmpi .sle (idxA pos) (broadcastInDim S256x32x1 ![0, 1, 2] bcast_S1x1x1_S256x32x1_0_1_2
        (broadcastInDim S1x1x1 ![2] bcast_S1_S1x1x1_2 (constantI S1 32 511#32)))))
    (constantI S_ 1 1#1) reducesTo_S256x32x1_S256x32_d2 h_S_

/-- The gathered rows, with the fill word where the range test fails. -/
def selA (x : FVec Ideal S256x512x768 .f32) (pos : IVec S256x32 32) : FVec Ideal S256x32x768 .f32 :=
  select (broadcastInDim S256x32x768 ![0, 1] bcast_S256x32_S256x32x768_0_1 (inbA pos))
    (Host.gather gather_S256x512x768_S256x32x1_S256x32x768_2_1_0_0_1_2_11768 x (idxA pos))
    (broadcastInDim S256x32x768 ![] bcast_S_S256x32x768 (constant S_ .f32 0x7FC00000#32))

/-- The use flags as a `[256, 32, 1]` float array. -/
def mask1 (pos : IVec S256x32 32) : FVec Ideal S256x32x1 .f32 :=
  broadcastInDim S256x32x1 ![0, 1] bcast_S256x32_S256x32x1_0_1 (uitofp .f32 (usedBit pos))

/-- The count column: the larger of the sum of the use flags and 1. -/
def countA (pos : IVec S256x32 32) : FVec Ideal S256x1 .f32 :=
  maximumf (Host.reduceAdd (mask1 pos) (constant S_ .f32 0x00000000#32) reducesTo_S256x32x1_S256x1_d1 h_S_)
    (broadcastInDim S256x1 ![] bcast_S_S256x1 (constant S_ .f32 0x3F800000#32))

/-- The reference's pooled array is the quotient of the masked sum of the gathered rows by the count. -/
theorem refPool_parts (x : FVec Ideal S256x512x768 .f32) (pos : IVec S256x32 32) :
    refPool x pos =
      Host.divf
        (Host.reduceAdd
          (mulf (selA x pos) (broadcastInDim S256x32x768 ![0, 1, 2] bcast_S256x32x1_S256x32x768_0_1_2 (mask1 pos)))
          (constant S_ .f32 0x00000000#32) reducesTo_S256x32x768_S256x768_d1 h_S_)
        (broadcastInDim S256x768 ![0, 1] bcast_S256x1_S256x768_0_1 (countA pos)) := rfl

/-! ## Each part read at an index -/

/-- The f32 pattern `0x3F800000` is the extended real one. -/
theorem ofBits_one : Ideal.ofBits .f32 0x3F800000#32 = 1 := by
  rw [show (1 : EReal) = ((1 : ℝ) : EReal) by norm_cast]
  simp [Ideal.ofBits, Ideal.ieee, -EReal.coe_mul]; norm_num

theorem safeA_apply (pos : IVec S256x32 32) (b : Fin 256) (q : Fin 32) :
    safeA pos (ix2 b q) = Spec.safeW (pos (ix2 b q)) :=
  select_ne_pad (pos (ix2 b q))

theorem safe3_apply (pos : IVec S256x32 32) (b : Fin 256) (q : Fin 32) (u : Fin 1) :
    safe3 pos (ix3 b q u) = Spec.safeW (pos (ix2 b q)) :=
  (bcast_ab_abc (safeA pos) _ b q u).trans (safeA_apply pos b q)

theorem idxA_apply (pos : IVec S256x32 32) (b : Fin 256) (q : Fin 32) (u : Fin 1) :
    idxA pos (ix3 b q u) = Spec.slotW (pos (ix2 b q)) := by
  show Scalar.select (IntOp.cmpi .slt (safe3 pos (ix3 b q u)) 0#32) (IntOp.addi (safe3 pos (ix3 b q u)) 512#32)
    (safe3 pos (ix3 b q u)) = _
  rw [safe3_apply]
  exact select_slt_zero _

/-- Under the range assumption the range test passes on every entry. -/
theorem inbA_apply (pos : IVec S256x32 32) (hpos : Spec.InRange pos) (b : Fin 256) (q : Fin 32) :
    inbA pos (ix2 b q) = 1#1 := by
  unfold inbA
  rw [hostAndUnit_apply _ _ _ (by decide) _ b q]
  show IntOp.andi (IntOp.andi (IntOp.cmpi .sge (idxA pos (ix3 b q 0)) 0#32)
    (IntOp.cmpi .sle (idxA pos (ix3 b q 0)) 511#32)) 1#1 = 1#1
  rw [idxA_apply, range_test _ (slotW_range _ (hpos (ix2 b q)))]
  rfl

/-- Under the range assumption the selected array is the gathered row: x at (b, slot, h). -/
theorem selA_apply (x : FVec Ideal S256x512x768 .f32) (pos : IVec S256x32 32) (hpos : Spec.InRange pos)
    (b : Fin 256) (q : Fin 32) (h : Fin 768) :
    selA x pos (ix3 b q h) = x (ix3 b (Spec.slotF (pos (ix2 b q))) h) := by
  unfold selA
  rw [select_apply, bcast_ab_abc, inbA_apply pos hpos, select_one]
  exact LibBatchRowGather.batchRowGather_apply_of_lt _ rfl rfl rfl rfl rfl rfl x (idxA pos) b q h
    (Spec.slotF (pos (ix2 b q))) (by rw [idxA_apply]; exact slotW_toInt _ (hpos (ix2 b q)))

theorem mask1_apply (pos : IVec S256x32 32) (b : Fin 256) (q : Fin 32) (u : Fin 1) :
    mask1 pos (ix3 b q u) = Spec.usedE (pos (ix2 b q)) :=
  (bcast_ab_abc _ _ b q u).trans (uitofp_ne_pad _)

theorem countA_apply (pos : IVec S256x32 32) (b : Fin 256) :
    countA pos (ix2 b (0 : Fin 1)) = Spec.cnt pos b := by
  show max (Host.reduceAdd (mask1 pos) (constant S_ .f32 0x00000000#32) reducesTo_S256x32x1_S256x1_d1 h_S_
      (ix2 b (0 : Fin 1)))
    (broadcastInDim S256x1 ![] bcast_S_S256x1 (constant S_ .f32 0x3F800000#32) (ix2 b (0 : Fin 1))) = _
  rw [hostMidSum_apply _ _ _ (by decide) _ b (0 : Fin 1), bcast_scalar]
  show max (Ideal.ofBits .f32 0x00000000#32 + ∑ q : Fin 32, mask1 pos (ix3 b q (0 : Fin 1)))
    (Ideal.ofBits .f32 0x3F800000#32) = _
  rw [Ideal.ofBits_zero_f32, zero_add, ofBits_one]
  simp only [mask1_apply]
  rfl

end Math

open Math

/-- The reference's pooled array is the specification's gathering pooling, when every entry is in range. -/
theorem refPool_eq (x : FVec Ideal S256x512x768 .f32) (pos : IVec S256x32 32) (hpos : Cert.Spec.InRange pos) :
    refPool x pos = Cert.Spec.poolR x pos := by
  funext j
  obtain ⟨b, h, rfl⟩ : ∃ (b : Fin 256) (h : Fin 768), j = ix2 b h := ⟨j 0, j 1, eq_ix2 j⟩
  rw [refPool_parts]
  show Ideal.div
      (Host.reduceAdd (mulf (selA x pos)
          (broadcastInDim S256x32x768 ![0, 1, 2] bcast_S256x32x1_S256x32x768_0_1_2 (mask1 pos)))
        (constant S_ .f32 0x00000000#32) reducesTo_S256x32x768_S256x768_d1 h_S_ (ix2 b h))
      (broadcastInDim S256x768 ![0, 1] bcast_S256x1_S256x768_0_1 (countA pos) (ix2 b h))
    = Ideal.div (∑ p : Fin 32, x (ix3 b (Spec.slotF (pos (ix2 b p))) h) * Spec.usedE (pos (ix2 b p)))
        (Spec.cnt pos b)
  rw [bcast_a1_ac, countA_apply, hostMidSum_apply _ _ _ (by decide) _ b h]
  refine congrArg (fun t => Ideal.div t (Spec.cnt pos b)) ?_
  show Ideal.ofBits .f32 0x00000000#32 + ∑ q : Fin 32, selA x pos (ix3 b q h)
      * broadcastInDim S256x32x768 ![0, 1, 2] bcast_S256x32x1_S256x32x768_0_1_2 (mask1 pos) (ix3 b q h) = _
  rw [Ideal.ofBits_zero_f32, zero_add]
  refine Finset.sum_congr rfl fun q _ => ?_
  rw [selA_apply x pos hpos, bcast_ab1_abc, mask1_apply]

/-- The reference's first-row array is row 0 of the middle axis. -/
theorem refCls_eq (x : FVec Ideal S256x512x768 .f32) : refCls x = Cert.Spec.clsOf x := by
  funext j
  obtain ⟨b, h, rfl⟩ : ∃ (b : Fin 256) (h : Fin 768), j = ix2 b h := ⟨j 0, j 1, eq_ix2 j⟩
  unfold refCls
  refine (shapeCast_apply _ _ (ix2 b h) (ix3 b (0 : Fin 1) h) ?_).trans ?_
  · rw [Shape.rowMajor_val_three, Shape.rowMajor_val_two]
    show (b.val * 1 + 0) * 768 + h.val = b.val * 768 + h.val
    omega
  · refine extractStridedSlice_apply _ x _ (ix3 b (0 : Fin 1) h) (ix3 b (0 : Fin 512) h) fun a => ?_
    match a with
    | ⟨0, _⟩ => show b.val = 0 + b.val; omega
    | ⟨1, _⟩ => rfl
    | ⟨2, _⟩ => show h.val = 0 + h.val; omega

end Cert.RefPool

end
-- ==== Proof.PoolLaw.lean ====
/-
  The two poolings agree on real inputs.

  Fix a row b and a column h.  Each entry's use flag u_p is 0 or 1, so the count n = max(Σ_p u_p, 1) is a real
  number at least 1, and the ideal division by n is the product with the real 1/n.  Every entry of x is real.
  So both sides are real arithmetic:

      Σ_s ((Σ_{p : slot p = s} u_p) · (1/n)) · x_s  =  (Σ_p x_{slot p} · u_p) · (1/n),

  by regrouping the sum over the entries p along the fibres of p ↦ slot p.
-/
import proofs.«413436_j65730179498319_1_alg».proof.Proof.Spec
import Mathlib.Data.EReal.Basic
import Mathlib.Data.EReal.Operations
import Mathlib.Algebra.BigOperators.Group.Finset.Basic
import Mathlib.Algebra.BigOperators.Ring.Finset
import Mathlib.Tactic.Linarith

noncomputable section

open scoped BigOperators

namespace Cert.Spec

open Idealize.ShloMosaic Idealize.ShloMosaic.ValueIdx

namespace PoolLaw

/-- Regrouping in the reals: weighting each slot's value by the scaled sum of the flags that land on it, and
summing over the slots, is the scaled sum over the entries of value-at-the-entry's-slot times flag.  Inside the
fibre over s the value x_s is x_{slot p}; the fibres partition the entries. -/
theorem pool_regroup_real {P S : Type*} [Fintype P] [Fintype S] [DecidableEq S]
    (slot : P → S) (u : P → ℝ) (xs : S → ℝ) (c : ℝ) :
    ∑ s, ((∑ p ∈ Finset.univ.filter (fun p => slot p = s), u p) * c) * xs s
      = (∑ p, xs (slot p) * u p) * c := by
  have hfib : ∀ s, ((∑ p ∈ Finset.univ.filter (fun p => slot p = s), u p) * c) * xs s
      = ∑ p ∈ Finset.univ.filter (fun p => slot p = s), xs (slot p) * u p * c := by
    intro s
    rw [Finset.sum_mul, Finset.sum_mul]
    refine Finset.sum_congr rfl fun p hp => ?_
    rw [(Finset.mem_filter.mp hp).2]
    ring
  rw [Finset.sum_congr rfl fun s _ => hfib s,
    Finset.sum_fiberwise (Finset.univ) slot (fun p => xs (slot p) * u p * c), Finset.sum_mul]

/-- The coercion of a finite sum of reals is the sum of the coercions (induction on the index set). -/
theorem coe_finset_sum {α : Type*} (s : Finset α) (f : α → ℝ) :
    ((∑ a ∈ s, f a : ℝ) : EReal) = ∑ a ∈ s, (f a : EReal) := by
  classical
  induction s using Finset.induction_on with
  | empty => simp
  | insert a s ha ih => rw [Finset.sum_insert ha, Finset.sum_insert ha, EReal.coe_add, ih]

/-- The same regrouping among the real members of the extended reals. -/
theorem pool_regroup_coe {P S : Type*} [Fintype P] [Fintype S] [DecidableEq S]
    (slot : P → S) (u : P → ℝ) (xs : S → ℝ) (c : ℝ) :
    ∑ s, ((∑ p ∈ Finset.univ.filter (fun p => slot p = s), (u p : EReal)) * (c : EReal)) * (xs s : EReal)
      = (∑ p, (xs (slot p) : EReal) * (u p : EReal)) * (c : EReal) := by
  simp only [← coe_finset_sum, ← EReal.coe_mul]
  rw [pool_regroup_real]

/-- The use flag as a real number. -/
def usedR (p : BitVec 32) : ℝ := if p = padW then 0 else 1

theorem usedE_eq_coe (p : BitVec 32) : usedE p = ((usedR p : ℝ) : EReal) := by
  unfold usedE usedR
  split <;> simp

/-- The count is the real number max(Σ_p u_p, 1). -/
theorem cnt_eq_coe (pos : SBP.Idx → BitVec 32) (b : Fin 256) :
    cnt pos b = ((max (∑ p : Fin 32, usedR (pos (ix2 b p))) 1 : ℝ) : EReal) := by
  unfold cnt
  simp only [usedE_eq_coe, ← coe_finset_sum]
  exact (EReal.coe_strictMono.monotone.map_max).symm

end PoolLaw

open PoolLaw in
/-- On real inputs the weight-row pooling and the gathering pooling are the same function. -/
theorem poolK_eq_poolR (x : SBSH.Idx → EReal) (pos : SBP.Idx → BitVec 32) (hx : Finite x) :
    poolK x pos = poolR x pos := by
  funext j
  obtain ⟨b, h, rfl⟩ : ∃ (b : Fin 256) (h : Fin 768), j = ix2 b h := ⟨j 0, j 1, eq_ix2 j⟩
  have hxr : ∀ i, x i = (((x i).toReal : ℝ) : EReal) := fun i =>
    (EReal.coe_toReal (hx i).1 (hx i).2).symm
  have hn : max (∑ p : Fin 32, usedR (pos (ix2 b p))) 1 ≠ 0 := by
    have := le_max_right (∑ p : Fin 32, usedR (pos (ix2 b p))) 1
    linarith
  show ∑ s : Fin 512, weight pos b s * x (ix3 b s h)
      = Ideal.div (∑ p : Fin 32, x (ix3 b (slotF (pos (ix2 b p))) h) * usedE (pos (ix2 b p))) (cnt pos b)
  unfold weight hits
  rw [cnt_eq_coe]
  simp only [Ideal.div_coe hn, usedE_eq_coe]
  have key := pool_regroup_coe (fun p : Fin 32 => slotF (pos (ix2 b p))) (fun p => usedR (pos (ix2 b p)))
    (fun s => (x (ix3 b s h)).toReal) (1 / max (∑ p : Fin 32, usedR (pos (ix2 b p))) 1)
  simp only [← hxr] at key
  exact key

end Cert.Spec

end
-- ==== Proof.PreFacts.lean ====
/-
  The precondition read back.  The predicate is the conjunction of eight tests "every element of |t| is below +∞",
  one per floating-point input, and of one test "every entry p of the position table has -512 ≤ p and p < 512";
  each test is an and-reduction, over all axes, of an elementwise comparison, started from 1.  The whole being 1
  forces every conjunct to be 1, and an and-reduction over all axes that is 1 met a 1 at every index.  At one index:
    * max x (-x) < ⊤ in the extended reals excludes x = ⊤ (then the maximum is ⊤) and x = ⊥ (then -x = ⊤): x is real;
    * the two signed comparisons against the words 4294966784 (= -512 as a signed 32-bit word) and 512 are the two
      inequalities of the range on the entry's signed value.
  Only the facts on the two activations and the position table are kept.
-/
import proofs.«413436_j65730179498319_1_alg».proof.Pre_finite_inputs
import proofs.«413436_j65730179498319_1_alg».proof.Proof.Spec
import Idealize.ShloMosaic.Lib.ReduceAll
import Idealize.ShloMosaic.Lib.StableHlo.Predicate
import Idealize.ShloMosaic.PureOps.Ideal
import Idealize.ShloMosaic.PureOps.Ideal.Laws

noncomputable section

namespace Cert.PreFacts

open Idealize.ShloMosaic Cert.Pre_finite_inputs

/-- A shape of rank 0 has exactly one index. -/
instance : Subsingleton S_.Idx := ⟨fun a b => funext fun d => d.elim0⟩

/-- The word 0x7F800000 (sign 0, exponent all ones, fraction 0) denotes +∞. -/
theorem inf_word : Ideal.ofBits .f32 0x7F800000#32 = ⊤ := by simp [Ideal.ofBits, Ideal.ieee]

/-- |x| < +∞ says x is a real number: at x = ⊤ the maximum is ⊤, at x = ⊥ its negation is ⊤. -/
theorem real_of_abs_lt (x : EReal) (h : Ideal.cmp .olt (max x (-x)) (Ideal.ofBits .f32 0x7F800000#32) = 1#1) :
    x ≠ ⊤ ∧ x ≠ ⊥ := by
  rw [inf_word] at h
  simp only [Ideal.cmp, StableHlo.Predicate.ofBool_eq_one_iff, decide_eq_true_eq] at h
  constructor
  · rintro rfl; simp at h
  · rintro rfl; simp at h

/-- 4294966784 = 2³² - 512 is -512 as a signed 32-bit word. -/
theorem lo_word : (4294966784#32 : BitVec 32).toInt = -512 := by decide

theorem hi_word : (512#32 : BitVec 32).toInt = 512 := by decide

/-- The precondition being 1 gives: both activations are real everywhere, and every position entry lies in [-512, 512). -/
theorem of_pre [Facts] (a0 a1 : FVec Ideal S256x512x768 .f32) (a2 : IVec S256x32 32) (a3 : FVec Ideal S768x3072 .f32)
    (a4 : FVec Ideal S768 .f32) (a5 : FVec Ideal S1x768 .f32) (a6 : FVec Ideal S1 .f32) (a7 a8 : FVec Ideal S768 .f32)
    (h : fn (F := Ideal) a0 a1 a2 a3 a4 a5 a6 a7 a8 = fun _ => 1#1) :
    Cert.Spec.Finite a0 ∧ Cert.Spec.Finite a1 ∧ Cert.Spec.InRange a2 := by
  -- the predicate at its one index, its chain of operations in view, the conjunction split
  have e := congrFun h ValueIdx.ix0
  dsimp only [fn, fn_part1, fn_part2] at e
  simp only [andi, IntOp.andi_eq_one] at e
  obtain ⟨⟨⟨⟨⟨⟨⟨⟨e0, e1⟩, -⟩, -⟩, -⟩, -⟩, -⟩, -⟩, e2⟩ := e
  refine ⟨fun i => ?_, fun i => ?_, fun j => ?_⟩
  · -- the first activation: the comparison |a0 i| < +∞ is 1 at every i
    exact real_of_abs_lt (a0 i) (Host.reduce_andi_all _ _ _ _ _ e0 i)
  · -- the second activation, likewise
    exact real_of_abs_lt (a1 i) (Host.reduce_andi_all _ _ _ _ _ e1 i)
  · -- the position table: both signed comparisons are 1 at every entry
    have hj := Host.reduce_andi_all _ _ _ _ _ e2 j
    simp only [andi, cmpi, broadcastInDim, constantI, IntOp.andi_eq_one, IntOp.cmpi_sge, IntOp.cmpi_slt, lo_word, hi_word] at hj
    exact hj

end Cert.PreFacts

end
-- ==== Proof.TailEq.lean ====
/-
  The network head is the same function in both programs.

  Each program prints the head as the same chain of array operations (join, row normalisation, first linear
  layer, batch normalisation, rectifier, second linear layer); the two printings differ only in the names of
  the bound intermediate values and in each program carrying its own copies of the shape abbreviations, of the
  contraction records and of the shape side conditions.  The shapes are the same literals, the records have the
  same data, and the side conditions are propositions, so the two functions agree by unfolding alone.
-/
import proofs.«413436_j65730179498319_1_alg».proof.Proof.KTail
import proofs.«413436_j65730179498319_1_alg».proof.Proof.RTail

noncomputable section

namespace Cert

open Idealize.ShloMosaic

/-- The head of the kernel program and the head of the reference program are one function of the four
    [256, 768] arrays and the layer weights, at every float model. -/
theorem tail_eq {F : FTy → Type} [FloatOps F] [Cert.KernelIdeal.Facts₀] [Cert.ReferenceIdeal.Facts₀]
    (pp cp pm cm : (⟨Cert.KernelIdeal.S256x768, .f32⟩ : BufTy).Contents (Elt F))
    (a3 : (⟨Cert.KernelIdeal.S768x3072, .f32⟩ : BufTy).Contents (Elt F))
    (a4 : (⟨Cert.KernelIdeal.S768, .f32⟩ : BufTy).Contents (Elt F))
    (a5 : (⟨Cert.KernelIdeal.S1x768, .f32⟩ : BufTy).Contents (Elt F))
    (a6 : (⟨Cert.KernelIdeal.S1, .f32⟩ : BufTy).Contents (Elt F))
    (a7 a8 : (⟨Cert.KernelIdeal.S768, .f32⟩ : BufTy).Contents (Elt F)) :
    Cert.KTail.tailK (F := F) pp cp pm cm a3 a4 a5 a6 a7 a8
      = Cert.RTail.tailR (F := F) pp cp pm cm a3 a4 a5 a6 a7 a8 := by
  unfold Cert.KTail.tailK Cert.RTail.tailR
  rfl

end Cert

end
-- ==== Proof.lean ====
/-
  The kernel program against its reference, over the extended reals, for positions in range.

  Both programs end with one network head applied to four [256, 768] arrays: the pooled activations and the activations'
  first rows.  The first rows are the same reads.  The reference pools by gathering the rows its position table names,
  masking the padding entries, summing and dividing by the count; the kernel pools by a weight row that holds, for each
  slot, the number of used entries naming it divided by the count, multiplied against every row and summed in four tiles.
  For finite activations these are one number: Σ_s (c_s / n) · x_s = (Σ_p x_{slot p} · used_p) / n, regrouping the
  entries by their slot.  The precondition says the activations are finite and every position, after the wrap of
  negatives, indexes the axis of extent 512; outside that range the reference reads its out-of-range fill and the two
  programs differ.

  The three frames: each program runs to the end, faults nowhere and leaves its arguments unchanged.  The ideal pass
  rewrote nothing in the kernel, so the idealization claim is trivial.
-/
import proofs.«413436_j65730179498319_1_alg».proof.Defs
import proofs.«413436_j65730179498319_1_alg».proof.Proof.Gen.Kernel
import proofs.«413436_j65730179498319_1_alg».proof.Proof.Gen.KernelIdeal
import proofs.«413436_j65730179498319_1_alg».proof.Proof.Gen.ReferenceIdeal
import proofs.«413436_j65730179498319_1_alg».proof.Proof.Gen.Pre_finite_inputs
import proofs.«413436_j65730179498319_1_alg».proof.Proof.KernelFrame
import proofs.«413436_j65730179498319_1_alg».proof.Proof.KFinal
import proofs.«413436_j65730179498319_1_alg».proof.Proof.RefRunH
import proofs.«413436_j65730179498319_1_alg».proof.Proof.RefPoolMath
import proofs.«413436_j65730179498319_1_alg».proof.Proof.PoolLaw
import proofs.«413436_j65730179498319_1_alg».proof.Proof.PreFacts
import proofs.«413436_j65730179498319_1_alg».proof.Proof.TailEq
import Idealize.ShloMosaic.Adequacy
import Idealize.ShloMosaic.Init

noncomputable section

namespace Cert.Proof

open Idealize.ShloMosaic Idealize.SL.Sem

theorem frame_k : Cert.frame_Kernel := fun m ρ _ => Cert.Kernel.Frame.frame (F := Bits) m ρ
theorem frame_ki : Cert.frame_KernelIdeal := fun m ρ _ => Cert.KernelIdeal.Frame.frame (F := Ideal) m ρ
theorem frame_ri : Cert.frame_ReferenceIdeal := fun m ρ _ =>
  (θ_run Cert.ReferenceIdeal.defs _ _).mono (fun _ h c => (h c).2) (Cert.ReferenceIdeal.RunH.run m ρ)

/-- Both runs end at the head of the kernel's pooled arrays: the kernel's by its frame run read back, the reference's by
    its run, the agreement of the arguments, the reference's pooled term as a gather-and-mean, the pooling law and the
    two heads being one function. -/
theorem algebraic : Cert.algebraic_KernelIdeal_ReferenceIdeal := by
  intro m ρ m' ρ' hpre hagree
  have hf := fun c : Dev Cert.KernelIdeal.nD => Cert.PreFacts.of_pre _ _ _ _ _ _ _ _ _ (hpre c)
  refine ⟨_, Cert.KernelIdeal.Frame.kernel_run m ρ (fun c => (hf c).2.2), ?_⟩
  refine (θ_run Cert.ReferenceIdeal.defs _ _).mono (fun _ h c => ⟨(h c).1.trans ?_, (h c).2⟩)
    (Cert.ReferenceIdeal.RunH.run m' ρ')
  have ha := hagree c
  rw [ha.1, ha.2.1, ha.2.2.1, ha.2.2.2.1, ha.2.2.2.2.1, ha.2.2.2.2.2.1, ha.2.2.2.2.2.2.1, ha.2.2.2.2.2.2.2.1, ha.2.2.2.2.2.2.2.2,
    Cert.RefPool.refPool_eq _ _ (hf c).2.2, Cert.RefPool.refPool_eq _ _ (hf c).2.2, Cert.RefPool.refCls_eq, Cert.RefPool.refCls_eq,
    ← Cert.Spec.poolK_eq_poolR _ _ (hf c).1, ← Cert.Spec.poolK_eq_poolR _ _ (hf c).2.1]
  exact (Cert.tail_eq _ _ _ _ _ _ _ _ _ _).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
